-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x10475x3 : Shape := ⟨3, ![256, 10475, 3]⟩
abbrev S256x65536x3 : Shape := ⟨3, ![256, 65536, 3]⟩
abbrev S256x3x3 : Shape := ⟨3, ![256, 3, 3]⟩
abbrev S8x1024 : Shape := ⟨2, ![8, 1024]⟩
abbrev S8x2048 : Shape := ⟨2, ![8, 2048]⟩
abbrev S_ : Shape := ⟨0, ![]⟩

class Facts : Prop where
  bcast_S_S256x10475x3 : S_.BroadcastsInDim S256x10475x3 (![] : Fin 0 → Fin S256x10475x3.rank)
  reducesTo_S256x10475x3_S_d0_1_2 : S256x10475x3.ReducesTo [0, 1, 2] S_
  h_S_ : 0 < S_.numel
  bcast_S_S256x65536x3 : S_.BroadcastsInDim S256x65536x3 (![] : Fin 0 → Fin S256x65536x3.rank)
  reducesTo_S256x65536x3_S_d0_1_2 : S256x65536x3.ReducesTo [0, 1, 2] S_
  bcast_S_S256x3x3 : S_.BroadcastsInDim S256x3x3 (![] : Fin 0 → Fin S256x3x3.rank)
  reducesTo_S256x3x3_S_d0_1_2 : S256x3x3.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg3 : IVec S8x1024 32) (main_arg4 : IVec S8x2048 32) (main_v13 : IVec S_ 1) (main_v15 : IVec S8x1024 1) (main_c_5 : IVec S_ 32) : IVec S_ 1 :=
  let main_v16 : IVec S8x1024 32 := broadcastInDim S8x1024 ![] bcast_S_S8x1024 main_c_5
  let main_v17 : IVec S8x1024 1 := cmpi .slt main_arg3 main_v16
  let main_v18 : IVec S8x1024 1 := andi main_v15 main_v17
  let main_c_6 : IVec S_ 1 := constantI S_ 1 1#1
  let main_v19 : IVec S_ 1 := (fun x v => Host.reduce IntOp.andi x v reducesTo_S8x1024_S_d0_1 h_S_) main_v18 main_c_6
  let main_v20 : IVec S_ 1 := andi main_v13 main_v19
  let main_c_7 : IVec S_ 32 := constantI S_ 32 0#32
  let main_v21 : IVec S8x2048 32 := broadcastInDim S8x2048 ![] bcast_S_S8x2048 main_c_7
  let main_v22 : IVec S8x2048 1 := cmpi .sge main_arg4 main_v21
  let main_c_8 : IVec S_ 32 := constantI S_ 32 65536#32
  let main_v23 : IVec S8x2048 32 := broadcastInDim S8x2048 ![] bcast_S_S8x2048 main_c_8
  let main_v24 : IVec S8x2048 1 := cmpi .slt main_arg4 main_v23
  let main_v25 : IVec S8x2048 1 := andi main_v22 main_v24
  let main_c_9 : IVec S_ 1 := constantI S_ 1 1#1
  let main_v26 : IVec S_ 1 := (fun x v => Host.reduce IntOp.andi x v reducesTo_S8x2048_S_d0_1 h_S_) main_v25 main_c_9
  let main_v27 : IVec S_ 1 := andi main_v20 main_v26
  main_v27

def fn {F : FTy → Type} [FloatOps F] (main_arg0 : FVec F S256x10475x3 .f32) (main_arg1 : FVec F S256x65536x3 .f32) (main_arg2 : FVec F S256x3x3 .f32) (main_arg3 : IVec S8x1024 32) (main_arg4 : IVec S8x2048 32) : IVec S_ 1 :=
  let main_v0 : FVec F S256x10475x3 .f32 := Host.absf main_arg0
  let main_cst : FVec F S_ .f32 := constant S_ .f32 0x7F800000#32
  let main_v1 : FVec F S256x10475x3 .f32 := broadcastInDim S256x10475x3 ![] bcast_S_S256x10475x3 main_cst
  let main_v2 : IVec S256x10475x3 1 := cmpf .olt main_v0 main_v1
  let main_c : IVec S_ 1 := constantI S_ 1 1#1
  let main_v3 : IVec S_ 1 := (fun x v => Host.reduce IntOp.andi x v reducesTo_S256x10475x3_S_d0_1_2 h_S_) main_v2 main_c
  let main_v4 : FVec F S256x65536x3 .f32 := Host.absf main_arg1
  let main_cst_0 : FVec F S_ .f32 := constant S_ .f32 0x7F800000#32
  let main_v5 : FVec F S256x65536x3 .f32 := broadcastInDim S256x65536x3 ![] bcast_S_S256x65536x3 main_cst_0
  let main_v6 : IVec S256x65536x3 1 := cmpf .olt main_v4 main_v5
  let main_c_1 : IVec S_ 1 := constantI S_ 1 1#1
  let main_v7 : IVec S_ 1 := (fun x v => Host.reduce IntOp.andi x v reducesTo_S256x65536x3_S_d0_1_2 h_S_) main_v6 main_c_1
  let main_v8 : IVec S_ 1 := andi main_v3 main_v7
  let main_v9 : FVec F S256x3x3 .f32 := Host.absf main_arg2
  let main_cst_2 : FVec F S_ .f32 := constant S_ .f32 0x7F800000#32
  let main_v10 : FVec F S256x3x3 .f32 := broadcastInDim S256x3x3 ![] bcast_S_S256x3x3 main_cst_2
  let main_v11 : IVec S256x3x3 1 := cmpf .olt main_v9 main_v10
  let main_c_3 : IVec S_ 1 := constantI S_ 1 1#1
  let main_v12 : IVec S_ 1 := (fun x v => Host.reduce IntOp.andi x v reducesTo_S256x3x3_S_d0_1_2 h_S_) main_v11 main_c_3
  let main_v13 : IVec S_ 1 := andi main_v8 main_v12
  let main_c_4 : IVec S_ 32 := constantI S_ 32 0#32
  let main_v14 : IVec S8x1024 32 := broadcastInDim S8x1024 ![] bcast_S_S8x1024 main_c_4
  let main_v15 : IVec S8x1024 1 := cmpi .sge main_arg3 main_v14
  let main_c_5 : IVec S_ 32 := constantI S_ 32 10475#32
  fn_part1 (F := F) main_arg3 main_arg4 main_v13 main_v15 main_c_5
-- ==== Kernel.lean ====
abbrev S256x10475x3 : Shape := ⟨3, ![256, 10475, 3]⟩
abbrev S256x65536x3 : Shape := ⟨3, ![256, 65536, 3]⟩
abbrev S256x3x3 : Shape := ⟨3, ![256, 3, 3]⟩
abbrev S8x1024 : Shape := ⟨2, ![8, 1024]⟩
abbrev S8x2048 : Shape := ⟨2, ![8, 2048]⟩
abbrev S256x31425 : Shape := ⟨2, ![256, 31425]⟩
abbrev S_ : Shape := ⟨0, ![]⟩
abbrev S256x36864 : Shape := ⟨2, ![256, 36864]⟩
abbrev S256x96x384 : Shape := ⟨3, ![256, 96, 384]⟩
abbrev S256x384 : Shape := ⟨2, ![256, 384]⟩
abbrev S128x32x384 : Shape := ⟨3, ![128, 32, 384]⟩
abbrev S128x384 : Shape := ⟨2, ![128, 384]⟩
abbrev S256x128x3 : Shape := ⟨3, ![256, 128, 3]⟩
abbrev S256x3 : Shape := ⟨2, ![256, 3]⟩
abbrev S256x196608 : Shape := ⟨2, ![256, 196608]⟩
abbrev S256x512x384 : Shape := ⟨3, ![256, 512, 384]⟩
abbrev S8x1024x1 : Shape := ⟨3, ![8, 1024, 1]⟩
abbrev S1 : Shape := ⟨1, ![1]⟩
abbrev S1x1x1 : Shape := ⟨3, ![1, 1, 1]⟩
abbrev S256x8x1024x3 : Shape := ⟨4, ![256, 8, 1024, 3]⟩
abbrev S8x2048x1 : Shape := ⟨3, ![8, 2048, 1]⟩
abbrev S256x8x2048x3 : Shape := ⟨4, ![256, 8, 2048, 3]⟩
abbrev S256x8x3x1024 : Shape := ⟨4, ![256, 8, 3, 1024]⟩
abbrev S256x8x3x2048 : Shape := ⟨4, ![256, 8, 3, 2048]⟩
abbrev S2048x3x1024 : Shape := ⟨3, ![2048, 3, 1024]⟩
abbrev S2048x3x2048 : Shape := ⟨3, ![2048, 3, 2048]⟩
abbrev S256x1x3x3 : Shape := ⟨4, ![256, 1, 3, 3]⟩
abbrev S256x8x3x3 : Shape := ⟨4, ![256, 8, 3, 3]⟩
abbrev S2048x3x3 : Shape := ⟨3, ![2048, 3, 3]⟩
abbrev S2048x2 : Shape := ⟨2, ![2048, 2]⟩
abbrev S2048x1 : Shape := ⟨2, ![2048, 1]⟩
abbrev S2048x3 : Shape := ⟨2, ![2048, 3]⟩
abbrev S128x3x1024 : Shape := ⟨3, ![128, 3, 1024]⟩
abbrev S128x3x3 : Shape := ⟨3, ![128, 3, 3]⟩
abbrev S128x2 : Shape := ⟨2, ![128, 2]⟩
abbrev S128x1 : Shape := ⟨2, ![128, 1]⟩
abbrev S128x3 : Shape := ⟨2, ![128, 3]⟩
abbrev S128x1x1024 : Shape := ⟨3, ![128, 1, 1024]⟩
abbrev S128x1024 : Shape := ⟨2, ![128, 1024]⟩
abbrev S128x1x1 : Shape := ⟨3, ![128, 1, 1]⟩
abbrev S128 : Shape := ⟨1, ![128]⟩
abbrev S128x3x2048 : Shape := ⟨3, ![128, 3, 2048]⟩
abbrev S128x1x2048 : Shape := ⟨3, ![128, 1, 2048]⟩
abbrev S128x2048 : Shape := ⟨2, ![128, 2048]⟩
abbrev S256x8x2 : Shape := ⟨3, ![256, 8, 2]⟩
abbrev S256x8 : Shape := ⟨2, ![256, 8]⟩
abbrev S256x8x3 : Shape := ⟨3, ![256, 8, 3]⟩
abbrev S256x8x4 : Shape := ⟨3, ![256, 8, 4]⟩
abbrev S256x8x1 : Shape := ⟨3, ![256, 8, 1]⟩
abbrev S256x1x8 : Shape := ⟨3, ![256, 1, 8]⟩
abbrev S256x8x8 : Shape := ⟨3, ![256, 8, 8]⟩
abbrev S256x8x1x3 : Shape := ⟨4, ![256, 8, 1, 3]⟩
abbrev S256x1x8x3 : Shape := ⟨4, ![256, 1, 8, 3]⟩
abbrev S256x8x8x3 : Shape := ⟨4, ![256, 8, 8, 3]⟩
abbrev S2 : Shape := ⟨1, ![2]⟩

abbrev nBuf : Space → Nat
  | .hbm => 222
  | .vmem => 36
  | .smem => 0
  | _ => 0

abbrev hbmTy0_0 (i : Nat) : BufTy := match i % 128 with
  | 0 => ⟨S256x10475x3, .f32⟩
  | 1 => ⟨S256x65536x3, .f32⟩
  | 2 => ⟨S256x3x3, .f32⟩
  | 3 => ⟨S8x1024, .i32⟩
  | 4 => ⟨S8x2048, .i32⟩
  | 5 => ⟨S256x31425, .f32⟩
  | 6 => ⟨S_, .i32⟩
  | 7 => ⟨S_, .f32⟩
  | 8 => ⟨S256x36864, .f32⟩
  | 9 => ⟨S256x96x384, .f32⟩
  | 10 => ⟨S256x384, .f32⟩
  | 11 => ⟨S256x128x3, .f32⟩
  | 12 => ⟨S_, .f32⟩
  | 13 => ⟨S256x3, .f32⟩
  | 14 => ⟨S256x196608, .f32⟩
  | 15 => ⟨S256x512x384, .f32⟩
  | 16 => ⟨S256x384, .f32⟩
  | 17 => ⟨S256x128x3, .f32⟩
  | 18 => ⟨S_, .f32⟩
  | 19 => ⟨S256x3, .f32⟩
  | 20 => ⟨S_, .f32⟩
  | 21 => ⟨S256x3, .f32⟩
  | 22 => ⟨S256x3, .f32⟩
  | 23 => ⟨S_, .f32⟩
  | 24 => ⟨S256x3, .f32⟩
  | 25 => ⟨S256x3, .f32⟩
  | 26 => ⟨S256x3, .f32⟩
  | 27 => ⟨S256x3, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .i32⟩
  | 35 => ⟨S8x1024, .i32⟩
  | 36 => ⟨S8x1024, .i1⟩
  | 37 => ⟨S_, .i32⟩
  | 38 => ⟨S8x1024, .i32⟩
  | 39 => ⟨S8x1024, .i32⟩
  | 40 => ⟨S8x1024, .i32⟩
  | 41 => ⟨S8x1024x1, .i32⟩
  | 42 => ⟨S1, .i32⟩
  | 43 => ⟨S_, .i32⟩
  | 44 => ⟨S8x1024x1, .i32⟩
  | 45 => ⟨S8x1024x1, .i1⟩
  | 46 => ⟨S1x1x1, .i32⟩
  | 47 => ⟨S8x1024x1, .i32⟩
  | 48 => ⟨S8x1024x1, .i1⟩
  | 49 => ⟨S8x1024x1, .i1⟩
  | 50 => ⟨S_, .i1⟩
  | 51 => ⟨S8x1024, .i1⟩
  | 52 => ⟨S256x8x1024x3, .f32⟩
  | 53 => ⟨S256x8x1024x3, .i1⟩
  | 54 => ⟨S_, .f32⟩
  | 55 => ⟨S256x8x1024x3, .f32⟩
  | 56 => ⟨S256x8x1024x3, .f32⟩
  | 57 => ⟨S_, .i32⟩
  | 58 => ⟨S8x2048, .i32⟩
  | 59 => ⟨S8x2048, .i1⟩
  | 60 => ⟨S_, .i32⟩
  | 61 => ⟨S8x2048, .i32⟩
  | 62 => ⟨S8x2048, .i32⟩
  | 63 => ⟨S8x2048, .i32⟩
  | 64 => ⟨S8x2048x1, .i32⟩
  | 65 => ⟨S1, .i32⟩
  | 66 => ⟨S_, .i32⟩
  | 67 => ⟨S8x2048x1, .i32⟩
  | 68 => ⟨S8x2048x1, .i1⟩
  | 69 => ⟨S1x1x1, .i32⟩
  | 70 => ⟨S8x2048x1, .i32⟩
  | 71 => ⟨S8x2048x1, .i1⟩
  | 72 => ⟨S8x2048x1, .i1⟩
  | 73 => ⟨S_, .i1⟩
  | 74 => ⟨S8x2048, .i1⟩
  | 75 => ⟨S256x8x2048x3, .f32⟩
  | 76 => ⟨S256x8x2048x3, .i1⟩
  | 77 => ⟨S_, .f32⟩
  | 78 => ⟨S256x8x2048x3, .f32⟩
  | 79 => ⟨S256x8x2048x3, .f32⟩
  | 80 => ⟨S256x8x3x1024, .f32⟩
  | 81 => ⟨S256x8x3x2048, .f32⟩
  | 82 => ⟨S2048x3x1024, .f32⟩
  | 83 => ⟨S2048x3x2048, .f32⟩
  | 84 => ⟨S256x1x3x3, .f32⟩
  | 85 => ⟨S256x8x3x3, .f32⟩
  | 86 => ⟨S2048x3x3, .f32⟩
  | 87 => ⟨S2048x2, .f32⟩
  | 88 => ⟨S2048x2, .f32⟩
  | 89 => ⟨S2048x1, .f32⟩
  | 90 => ⟨S2048x1, .f32⟩
  | 91 => ⟨S2048x3, .f32⟩
  | 92 => ⟨S2048x2, .f32⟩
  | 93 => ⟨S2048x2, .f32⟩
  | 94 => ⟨S2048x1, .f32⟩
  | 95 => ⟨S2048x1, .f32⟩
  | 96 => ⟨S2048x3, .f32⟩
  | 97 => ⟨S256x8x2, .f32⟩
  | 98 => ⟨S256x8x2, .f32⟩
  | 99 => ⟨S256x8, .f32⟩
  | 100 => ⟨S256x8, .f32⟩
  | 101 => ⟨S_, .f32⟩
  | 102 => ⟨S2048x3, .f32⟩
  | 103 => ⟨S2048x3, .f32⟩
  | 104 => ⟨S256x8x3, .f32⟩
  | 105 => ⟨S256x8x2, .f32⟩
  | 106 => ⟨S256x8x2, .f32⟩
  | 107 => ⟨S256x8, .f32⟩
  | 108 => ⟨S256x8, .f32⟩
  | 109 => ⟨S_, .f32⟩
  | 110 => ⟨S2048x3, .f32⟩
  | 111 => ⟨S2048x3, .f32⟩
  | 112 => ⟨S256x8x3, .f32⟩
  | 113 => ⟨S256x8x2, .f32⟩
  | 114 => ⟨S_, .f32⟩
  | 115 => ⟨S256x8x2, .f32⟩
  | 116 => ⟨S256x8x2, .f32⟩
  | 117 => ⟨S256x8x2, .f32⟩
  | 118 => ⟨S_, .f32⟩
  | 119 => ⟨S256x8x2, .f32⟩
  | 120 => ⟨S256x8x2, .f32⟩
  | 121 => ⟨S_, .f32⟩
  | 122 => ⟨S256x8x2, .f32⟩
  | 123 => ⟨S256x8x2, .f32⟩
  | 124 => ⟨S256x8x2, .f32⟩
  | 125 => ⟨S256x8x2, .f32⟩
  | 126 => ⟨S256x8x4, .f32⟩
  | 127 => ⟨S256x8x2, .f32⟩
  | _ => ⟨S256x10475x3, .f32⟩

abbrev hbmTy0_1 (i : Nat) : BufTy := match i % 128 with
  | 0 => ⟨S_, .f32⟩
  | 1 => ⟨S256x8x2, .f32⟩
  | 2 => ⟨S256x8x2, .f32⟩
  | 3 => ⟨S256x8x2, .f32⟩
  | 4 => ⟨S_, .f32⟩
  | 5 => ⟨S256x8x2, .f32⟩
  | 6 => ⟨S256x8x2, .f32⟩
  | 7 => ⟨S_, .f32⟩
  | 8 => ⟨S256x8x2, .f32⟩
  | 9 => ⟨S256x8x2, .f32⟩
  | 10 => ⟨S256x8x2, .f32⟩
  | 11 => ⟨S256x8x2, .f32⟩
  | 12 => ⟨S256x8x4, .f32⟩
  | 13 => ⟨S256x8x1, .f32⟩
  | 14 => ⟨S256x8, .f32⟩
  | 15 => ⟨S256x8x1, .f32⟩
  | 16 => ⟨S256x8, .f32⟩
  | 17 => ⟨S256x8, .i1⟩
  | 18 => ⟨S256x8x1, .f32⟩
  | 19 => ⟨S256x8, .f32⟩
  | 20 => ⟨S256x8x1, .f32⟩
  | 21 => ⟨S256x8, .f32⟩
  | 22 => ⟨S256x8, .i1⟩
  | 23 => ⟨S256x8, .i1⟩
  | 24 => ⟨S256x8x1, .f32⟩
  | 25 => ⟨S256x8, .f32⟩
  | 26 => ⟨S256x8x1, .f32⟩
  | 27 => ⟨S256x8, .f32⟩
  | 28 => ⟨S256x8, .i1⟩
  | 29 => ⟨S256x8, .i1⟩
  | 30 => ⟨S256x8x1, .f32⟩
  | 31 => ⟨S256x8, .f32⟩
  | 32 => ⟨S256x8x1, .f32⟩
  | 33 => ⟨S256x8, .f32⟩
  | 34 => ⟨S256x8, .i1⟩
  | 35 => ⟨S256x8, .i1⟩
  | 36 => ⟨S256x8, .i1⟩
  | 37 => ⟨S256x8x1, .f32⟩
  | 38 => ⟨S256x8x1, .f32⟩
  | 39 => ⟨S256x1x8, .f32⟩
  | 40 => ⟨S256x1x8, .f32⟩
  | 41 => ⟨S256x8x8, .f32⟩
  | 42 => ⟨S256x8x8, .f32⟩
  | 43 => ⟨S256x8x8, .f32⟩
  | 44 => ⟨S256x8x8, .f32⟩
  | 45 => ⟨S256x8x8, .f32⟩
  | 46 => ⟨S256x8x8, .f32⟩
  | 47 => ⟨S256x8x8, .f32⟩
  | 48 => ⟨S256x8x8, .f32⟩
  | 49 => ⟨S256x8x8, .f32⟩
  | 50 => ⟨S256x8x8, .f32⟩
  | 51 => ⟨S256x8x8, .f32⟩
  | 52 => ⟨S256x8x8, .i1⟩
  | 53 => ⟨S256x8x8, .f32⟩
  | 54 => ⟨S256x8x8, .f32⟩
  | 55 => ⟨S256x8x8, .i1⟩
  | 56 => ⟨S256x8x8, .i1⟩
  | 57 => ⟨S_, .f32⟩
  | 58 => ⟨S_, .f32⟩
  | 59 => ⟨S256x8x8, .f32⟩
  | 60 => ⟨S256x8x8, .f32⟩
  | 61 => ⟨S256x1x8, .i1⟩
  | 62 => ⟨S_, .f32⟩
  | 63 => ⟨S256x8x8, .f32⟩
  | 64 => ⟨S256x8x8, .i1⟩
  | 65 => ⟨S256x8x8, .i1⟩
  | 66 => ⟨S256x8x8, .i1⟩
  | 67 => ⟨S256x8x1x3, .f32⟩
  | 68 => ⟨S256x1x8x3, .f32⟩
  | 69 => ⟨S256x8x8x3, .f32⟩
  | 70 => ⟨S256x8x8x3, .f32⟩
  | 71 => ⟨S256x8x8x3, .f32⟩
  | 72 => ⟨S256x8x8x3, .f32⟩
  | 73 => ⟨S_, .f32⟩
  | 74 => ⟨S256x8x8, .f32⟩
  | 75 => ⟨S_, .f32⟩
  | 76 => ⟨S256x8x8, .f32⟩
  | 77 => ⟨S256x8x8, .f32⟩
  | 78 => ⟨S256x8x8, .i32⟩
  | 79 => ⟨S_, .i32⟩
  | 80 => ⟨S_, .i32⟩
  | 81 => ⟨S_, .i32⟩
  | 82 => ⟨S_, .i1⟩
  | 83 => ⟨S256x8x8, .f32⟩
  | 84 => ⟨S256x8x8, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S1, .f32⟩
  | 92 => ⟨S1, .f32⟩
  | 93 => ⟨S2, .f32⟩
  | _ => ⟨S256x10475x3, .f32⟩

abbrev hbmTy (i : Nat) : BufTy := match i / 128 with
  | 0 => hbmTy0_0 i
  | 1 => hbmTy0_1 i
  | _ => ⟨S256x10475x3, .f32⟩

abbrev bufTy : (tb : Table) → Fin (tcTables nBuf tb) → BufTy
  | .hbm, ⟨i, _⟩ => hbmTy i
  | .local _ .vmem, ⟨0, _⟩ => ⟨S128x32x384, .f32⟩
  | .local _ .vmem, ⟨1, _⟩ => ⟨S128x32x384, .f32⟩
  | .local _ .vmem, ⟨2, _⟩ => ⟨S128x384, .f32⟩
  | .local _ .vmem, ⟨3, _⟩ => ⟨S128x384, .f32⟩
  | .local _ .vmem, ⟨4, _⟩ => ⟨S128x32x384, .f32⟩
  | .local _ .vmem, ⟨5, _⟩ => ⟨S128x32x384, .f32⟩
  | .local _ .vmem, ⟨6, _⟩ => ⟨S128x384, .f32⟩
  | .local _ .vmem, ⟨7, _⟩ => ⟨S128x384, .f32⟩
  | .local _ .vmem, ⟨8, _⟩ => ⟨S128x3x1024, .f32⟩
  | .local _ .vmem, ⟨9, _⟩ => ⟨S128x3x1024, .f32⟩
  | .local _ .vmem, ⟨10, _⟩ => ⟨S128x3x3, .f32⟩
  | .local _ .vmem, ⟨11, _⟩ => ⟨S128x3x3, .f32⟩
  | .local _ .vmem, ⟨12, _⟩ => ⟨S128x2, .f32⟩
  | .local _ .vmem, ⟨13, _⟩ => ⟨S128x2, .f32⟩
  | .local _ .vmem, ⟨14, _⟩ => ⟨S128x2, .f32⟩
  | .local _ .vmem, ⟨15, _⟩ => ⟨S128x2, .f32⟩
  | .local _ .vmem, ⟨16, _⟩ => ⟨S128x1, .f32⟩
  | .local _ .vmem, ⟨17, _⟩ => ⟨S128x1, .f32⟩
  | .local _ .vmem, ⟨18, _⟩ => ⟨S128x1, .f32⟩
  | .local _ .vmem, ⟨19, _⟩ => ⟨S128x1, .f32⟩
  | .local _ .vmem, ⟨20, _⟩ => ⟨S128x3, .f32⟩
  | .local _ .vmem, ⟨21, _⟩ => ⟨S128x3, .f32⟩
  | .local _ .vmem, ⟨22, _⟩ => ⟨S128x3x2048, .f32⟩
  | .local _ .vmem, ⟨23, _⟩ => ⟨S128x3x2048, .f32⟩
  | .local _ .vmem, ⟨24, _⟩ => ⟨S128x3x3, .f32⟩
  | .local _ .vmem, ⟨25, _⟩ => ⟨S128x3x3, .f32⟩
  | .local _ .vmem, ⟨26, _⟩ => ⟨S128x2, .f32⟩
  | .local _ .vmem, ⟨27, _⟩ => ⟨S128x2, .f32⟩
  | .local _ .vmem, ⟨28, _⟩ => ⟨S128x2, .f32⟩
  | .local _ .vmem, ⟨29, _⟩ => ⟨S128x2, .f32⟩
  | .local _ .vmem, ⟨30, _⟩ => ⟨S128x1, .f32⟩
  | .local _ .vmem, ⟨31, _⟩ => ⟨S128x1, .f32⟩
  | .local _ .vmem, ⟨32, _⟩ => ⟨S128x1, .f32⟩
  | .local _ .vmem, ⟨33, _⟩ => ⟨S128x1, .f32⟩
  | .local _ .vmem, ⟨34, _⟩ => ⟨S128x3, .f32⟩
  | .local _ .vmem, ⟨35, _⟩ => ⟨S128x3, .f32⟩
  | _, _ => ⟨S256x10475x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v20 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29_0 : Ref sig .tc := ⟨.hbm, 87, rfl⟩
abbrev main_v29_1 : Ref sig .tc := ⟨.hbm, 88, rfl⟩
abbrev main_v29_2 : Ref sig .tc := ⟨.hbm, 89, rfl⟩
abbrev main_v29_3 : Ref sig .tc := ⟨.hbm, 90, rfl⟩
abbrev main_v29_4 : Ref sig .tc := ⟨.hbm, 91, rfl⟩
abbrev main_v30_0 : Ref sig .tc := ⟨.hbm, 92, rfl⟩
abbrev main_v30_1 : Ref sig .tc := ⟨.hbm, 93, rfl⟩
abbrev main_v30_2 : Ref sig .tc := ⟨.hbm, 94, rfl⟩
abbrev main_v30_3 : Ref sig .tc := ⟨.hbm, 95, rfl⟩
abbrev main_v30_4 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_6 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_7 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_cst_8 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_cst_9 : Ref sig .tc := ⟨.hbm, 118, rfl⟩
abbrev main_v49 : Ref sig .tc := ⟨.hbm, 119, rfl⟩
abbrev main_v50 : Ref sig .tc := ⟨.hbm, 120, rfl⟩
abbrev main_cst_10 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_cst_11 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_cst_12 : Ref sig .tc := ⟨.hbm, 132, rfl⟩
abbrev main_v60 : Ref sig .tc := ⟨.hbm, 133, rfl⟩
abbrev main_v61 : Ref sig .tc := ⟨.hbm, 134, rfl⟩
abbrev main_cst_13 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_cst_14 : Ref sig .tc := ⟨.hbm, 185, rfl⟩
abbrev main_call3_v0 : Ref sig .tc := ⟨.hbm, 186, rfl⟩
abbrev main_call3_v1 : Ref sig .tc := ⟨.hbm, 187, rfl⟩
abbrev main_v111 : Ref sig .tc := ⟨.hbm, 188, rfl⟩
abbrev main_v112 : Ref sig .tc := ⟨.hbm, 189, rfl⟩
abbrev main_cst_15 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_cst_16 : Ref sig .tc := ⟨.hbm, 201, rfl⟩
abbrev main_v123 : Ref sig .tc := ⟨.hbm, 202, rfl⟩
abbrev main_cst_17 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_c_18 : Ref sig .tc := ⟨.hbm, 207, rfl⟩
abbrev main_v127 : Ref sig .tc := ⟨.hbm, 208, rfl⟩
abbrev main_c_19 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_cst_20 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_cst_21 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨2, ![2, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x32x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x3x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x3x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x3 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x3x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x3x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x3 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S256x10475x3_S256x31425 : S256x10475x3.ShapeCasts S256x31425
  pads_S256x31425_S256x36864_000_054390 : S256x31425.Pads (![0, 0] : Fin 2 → Nat) ![0, 5439] ![0, 0] S256x36864
  h_S_ : 0 < S_.numel
  shapeCasts_S256x36864_S256x96x384 : S256x36864.ShapeCasts S256x96x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128x32x384_S128x32x384_0_0_0 : ∀ a, (![0, 0, 0] : Fin 3 → Nat) a + S128x32x384.size a ≤ S128x32x384.size a
  h_S128x32x384 : 0 < S128x32x384.numel
  shapeCasts_S128x32x384_S128x32x384 : S128x32x384.ShapeCasts S128x32x384
  reduces_S128x32x384_S128x384 : S128x32x384.Reduces [1] S128x384
  shapeCasts_S256x384_S256x128x3 : S256x384.ShapeCasts S256x128x3
  reducesTo_S256x128x3_S256x3_d1 : S256x128x3.ReducesTo [1] S256x3
  shapeCasts_S256x65536x3_S256x196608 : S256x65536x3.ShapeCasts S256x196608
  shapeCasts_S256x196608_S256x512x384 : S256x196608.ShapeCasts S256x512x384
  bcast_S_S256x3 : S_.BroadcastsInDim S256x3 (![] : Fin 0 → Fin S256x3.rank)
  reducesTo_S256x3_S_d0_1 : S256x3.ReducesTo [0, 1] S_
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  reducesTo_S8x1024x1_S8x1024_d2 : S8x1024x1.ReducesTo [2] S8x1024
  bcast_S8x1024_S256x8x1024x3_1_2 : S8x1024.BroadcastsInDim S256x8x1024x3 (![1, 2] : Fin 2 → Fin S256x8x1024x3.rank)
  bcast_S_S256x8x1024x3 : S_.BroadcastsInDim S256x8x1024x3 (![] : Fin 0 → Fin S256x8x1024x3.rank)
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  bcast_S8x2048_S256x8x2048x3_1_2 : S8x2048.BroadcastsInDim S256x8x2048x3 (![1, 2] : Fin 2 → Fin S256x8x2048x3.rank)
  bcast_S_S256x8x2048x3 : S_.BroadcastsInDim S256x8x2048x3 (![] : Fin 0 → Fin S256x8x2048x3.rank)
  transposes_S256x8x1024x3_S256x8x3x1024_0_1_3_2 : S256x8x1024x3.Transposes [0, 1, 3, 2] S256x8x3x1024
  transposes_S256x8x2048x3_S256x8x3x2048_0_1_3_2 : S256x8x2048x3.Transposes [0, 1, 3, 2] S256x8x3x2048
  shapeCasts_S256x8x3x1024_S2048x3x1024 : S256x8x3x1024.ShapeCasts S2048x3x1024
  shapeCasts_S256x8x3x2048_S2048x3x2048 : S256x8x3x2048.ShapeCasts S2048x3x2048
  bcast_S256x3x3_S256x1x3x3_0_2_3 : S256x3x3.BroadcastsInDim S256x1x3x3 (![0, 2, 3] : Fin 3 → Fin S256x1x3x3.rank)
  bcast_S256x1x3x3_S256x8x3x3_0_1_2_3 : S256x1x3x3.BroadcastsInDim S256x8x3x3 (![0, 1, 2, 3] : Fin 4 → Fin S256x8x3x3.rank)
  shapeCasts_S256x8x3x3_S2048x3x3 : S256x8x3x3.ShapeCasts S2048x3x3
  inb_S128x3x1024_S128x3x1024_0_0_0 : ∀ a, (![0, 0, 0] : Fin 3 → Nat) a + S128x3x1024.size a ≤ S128x3x1024.size a
  h_S128x3x1024 : 0 < S128x3x1024.numel
  shapeCasts_S128x3x1024_S128x3x1024 : S128x3x1024.ShapeCasts S128x3x1024
  inb_S128x3x3_S128x3x3_0_0_0 : ∀ a, (![0, 0, 0] : Fin 3 → Nat) a + S128x3x3.size a ≤ S128x3x3.size a
  h_S128x3x3 : 0 < S128x3x3.numel
  shapeCasts_S128x3x3_S128x3x3 : S128x3x3.ShapeCasts S128x3x3
  slices_S128x3x1024_o0_0_0_S128x1x1024 : S128x3x1024.Slices ![0, 0, 0] S128x1x1024
  shapeCasts_S128x1x1024_S128x1024 : S128x1x1024.ShapeCasts S128x1024
  slices_S128x3x1024_o0_1_0_S128x1x1024 : S128x3x1024.Slices ![0, 1, 0] S128x1x1024
  slices_S128x3x1024_o0_2_0_S128x1x1024 : S128x3x1024.Slices ![0, 2, 0] S128x1x1024
  slices_S128x3x3_o0_0_0_S128x1x1 : S128x3x3.Slices ![0, 0, 0] S128x1x1
  shapeCasts_S128x1x1_S128 : S128x1x1.ShapeCasts S128
  shapeCasts_S128_S128x1 : S128.ShapeCasts S128x1
  slices_S128x3x3_o0_1_1_S128x1x1 : S128x3x3.Slices ![0, 1, 1] S128x1x1
  slices_S128x3x3_o0_0_2_S128x1x1 : S128x3x3.Slices ![0, 0, 2] S128x1x1
  slices_S128x3x3_o0_1_2_S128x1x1 : S128x3x3.Slices ![0, 1, 2] S128x1x1
  broadcasts_S128x1_S128x1024 : S128x1.Broadcasts S128x1024
  reduces_S128x1024_S128 : S128x1024.Reduces [1] S128
  concatenates_S128x1_S128x1_S128x2_d1 : Shape.Concatenates [S128x1, S128x1] S128x2 1
  inb_S128x2_S128x2_0_0 : ∀ a, (![0, 0] : Fin 2 → Nat) a + S128x2.size a ≤ S128x2.size a
  h_S128x2 : 0 < S128x2.numel
  inb_S128x1_S128x1_0_0 : ∀ a, (![0, 0] : Fin 2 → Nat) a + S128x1.size a ≤ S128x1.size a
  h_S128x1 : 0 < S128x1.numel
  concatenates_S128x1_S128x1_S128x1_S128x3_d1 : Shape.Concatenates [S128x1, S128x1, S128x1] S128x3 1
  inb_S128x3_S128x3_0_0 : ∀ a, (![0, 0] : Fin 2 → Nat) a + S128x3.size a ≤ S128x3.size a
  h_S128x3 : 0 < S128x3.numel
  inb_S128x3x2048_S128x3x2048_0_0_0 : ∀ a, (![0, 0, 0] : Fin 3 → Nat) a + S128x3x2048.size a ≤ S128x3x2048.size a
  h_S128x3x2048 : 0 < S128x3x2048.numel
  shapeCasts_S128x3x2048_S128x3x2048 : S128x3x2048.ShapeCasts S128x3x2048
  slices_S128x3x2048_o0_0_0_S128x1x2048 : S128x3x2048.Slices ![0, 0, 0] S128x1x2048
  shapeCasts_S128x1x2048_S128x2048 : S128x1x2048.ShapeCasts S128x2048
  slices_S128x3x2048_o0_1_0_S128x1x2048 : S128x3x2048.Slices ![0, 1, 0] S128x1x2048
  slices_S128x3x2048_o0_2_0_S128x1x2048 : S128x3x2048.Slices ![0, 2, 0] S128x1x2048
  broadcasts_S128x1_S128x2048 : S128x1.Broadcasts S128x2048
  reduces_S128x2048_S128 : S128x2048.Reduces [1] S128
  shapeCasts_S2048x2_S256x8x2 : S2048x2.ShapeCasts S256x8x2
  shapeCasts_S2048x1_S256x8 : S2048x1.ShapeCasts S256x8
  bcast_S_S2048x3 : S_.BroadcastsInDim S2048x3 (![] : Fin 0 → Fin S2048x3.rank)
  shapeCasts_S2048x3_S256x8x3 : S2048x3.ShapeCasts S256x8x3
  bcast_S_S256x8x2 : S_.BroadcastsInDim S256x8x2 (![] : Fin 0 → Fin S256x8x2.rank)
  concatenates_S256x8x2_S256x8x2_S256x8x4_d2 : Shape.Concatenates [S256x8x2, S256x8x2] S256x8x4 2
  slices_S256x8x4_S256x8x1_0_0_0 : S256x8x4.Slices ![0, 0, 0] S256x8x1
  shapeCasts_S256x8x1_S256x8 : S256x8x1.ShapeCasts S256x8
  slices_S256x8x4_S256x8x1_0_0_2 : S256x8x4.Slices ![0, 0, 2] S256x8x1
  slices_S256x8x4_S256x8x1_0_0_1 : S256x8x4.Slices ![0, 0, 1] S256x8x1
  slices_S256x8x4_S256x8x1_0_0_3 : S256x8x4.Slices ![0, 0, 3] S256x8x1
  bcast_S256x8_S256x8x1_0_1 : S256x8.BroadcastsInDim S256x8x1 (![0, 1] : Fin 2 → Fin S256x8x1.rank)
  bcast_S256x8_S256x1x8_0_2 : S256x8.BroadcastsInDim S256x1x8 (![0, 2] : Fin 2 → Fin S256x1x8.rank)
  bcast_S256x1x8_S256x8x8_0_1_2 : S256x1x8.BroadcastsInDim S256x8x8 (![0, 1, 2] : Fin 3 → Fin S256x8x8.rank)
  bcast_S256x8x1_S256x8x8_0_1_2 : S256x8x1.BroadcastsInDim S256x8x8 (![0, 1, 2] : Fin 3 → Fin S256x8x8.rank)
  bcast_S_S256x8x8 : S_.BroadcastsInDim S256x8x8 (![] : Fin 0 → Fin S256x8x8.rank)
  bcast_S256x8x3_S256x8x1x3_0_1_3 : S256x8x3.BroadcastsInDim S256x8x1x3 (![0, 1, 3] : Fin 3 → Fin S256x8x1x3.rank)
  bcast_S256x8x3_S256x1x8x3_0_2_3 : S256x8x3.BroadcastsInDim S256x1x8x3 (![0, 2, 3] : Fin 3 → Fin S256x1x8x3.rank)
  bcast_S256x8x1x3_S256x8x8x3_0_1_2_3 : S256x8x1x3.BroadcastsInDim S256x8x8x3 (![0, 1, 2, 3] : Fin 4 → Fin S256x8x8x3.rank)
  bcast_S256x1x8x3_S256x8x8x3_0_1_2_3 : S256x1x8x3.BroadcastsInDim S256x8x8x3 (![0, 1, 2, 3] : Fin 4 → Fin S256x8x8x3.rank)
  reducesTo_S256x8x8x3_S256x8x8_d3 : S256x8x8x3.ReducesTo [3] S256x8x8
  natLt_1_32 : 1 < 32
  reducesTo_S256x8x8_S_d0_1_2 : S256x8x8.ReducesTo [0, 1, 2] S_
  bcast_S_S1 : S_.BroadcastsInDim S1 (![] : Fin 0 → Fin S1.rank)
  concatenates_S1_S1_S2_d0 : Shape.Concatenates [S1, S1] S2 0
  gather_S256x10475x3_S8x1024x1_S256x8x1024x3_03_1_n_n_1_2_25613_wf : GatherDims.WF S256x10475x3 S8x1024x1 S256x8x1024x3 [0, 3] [1] [] [1] [] 2 ![256, 1, 3]
  gather_S256x65536x3_S8x2048x1_S256x8x2048x3_03_1_n_n_1_2_25613_wf : GatherDims.WF S256x65536x3 S8x2048x1 S256x8x2048x3 [0, 3] [1] [] [1] [] 2 ![256, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x384.size a ≤ S256x96x384.size a
  hwx0_0 : ∀ i : grid0.Coords, EltTy.bits .f32 = 32 ∨ (Rect.block (s := S256x96x384) S128x32x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S256x384.size a
  hwx0_1 : ∀ i : grid0.Coords, EltTy.bits .f32 = 32 ∨ (Rect.block (s := S256x384) S128x384.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x32x384.size a ≤ S256x512x384.size a
  hwx1_0 : ∀ i : grid1.Coords, EltTy.bits .f32 = 32 ∨ (Rect.block (s := S256x512x384) S128x32x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x384.size a ≤ S256x384.size a
  hwx1_1 : ∀ i : grid1.Coords, EltTy.bits .f32 = 32 ∨ (Rect.block (s := S256x384) S128x384.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x3x1024.size a ≤ S2048x3x1024.size a
  hwx2_0 : ∀ i : grid2.Coords, EltTy.bits .f32 = 32 ∨ (Rect.block (s := S2048x3x1024) S128x3x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x3x3.size a ≤ S2048x3x3.size a
  hwx2_1 : ∀ i : grid2.Coords, EltTy.bits .f32 = 32 ∨ (Rect.block (s := S2048x3x3) S128x3x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S2048x2.size a
  hwx2_2 : ∀ i : grid2.Coords, EltTy.bits .f32 = 32 ∨ (Rect.block (s := S2048x2) S128x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S2048x2.size a
  hwx2_3 : ∀ i : grid2.Coords, EltTy.bits .f32 = 32 ∨ (Rect.block (s := S2048x2) S128x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S2048x1.size a
  hwx2_4 : ∀ i : grid2.Coords, EltTy.bits .f32 = 32 ∨ (Rect.block (s := S2048x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S2048x1.size a
  hwx2_5 : ∀ i : grid2.Coords, EltTy.bits .f32 = 32 ∨ (Rect.block (s := S2048x1) S128x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S128x3.size a ≤ S2048x3.size a
  hwx2_6 : ∀ i : grid2.Coords, EltTy.bits .f32 = 32 ∨ (Rect.block (s := S2048x3) S128x3.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x3x2048.size a ≤ S2048x3x2048.size a
  hwx3_0 : ∀ i : grid3.Coords, EltTy.bits .f32 = 32 ∨ (Rect.block (s := S2048x3x2048) S128x3x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x3x3.size a ≤ S2048x3x3.size a
  hwx3_1 : ∀ i : grid3.Coords, EltTy.bits .f32 = 32 ∨ (Rect.block (s := S2048x3x3) S128x3x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x2.size a ≤ S2048x2.size a
  hwx3_2 : ∀ i : grid3.Coords, EltTy.bits .f32 = 32 ∨ (Rect.block (s := S2048x2) S128x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S2048x2.size a
  hwx3_3 : ∀ i : grid3.Coords, EltTy.bits .f32 = 32 ∨ (Rect.block (s := S2048x2) S128x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S128x1.size a ≤ S2048x1.size a
  hwx3_4 : ∀ i : grid3.Coords, EltTy.bits .f32 = 32 ∨ (Rect.block (s := S2048x1) S128x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S128x1.size a ≤ S2048x1.size a
  hwx3_5 : ∀ i : grid3.Coords, EltTy.bits .f32 = 32 ∨ (Rect.block (s := S2048x1) S128x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S128x3.size a ≤ S2048x3.size a
  hwx3_6 : ∀ i : grid3.Coords, EltTy.bits .f32 = 32 ∨ (Rect.block (s := S2048x3) S128x3.size (cc3_transform_6 i) (hinb3_6 i)).WholeWords (EltTy.packing .f32)

variable [Facts₀]

def gather_S256x10475x3_S8x1024x1_S256x8x1024x3_03_1_n_n_1_2_25613 : GatherDims S256x10475x3 S8x1024x1 S256x8x1024x3 where
  offsetDims := [0, 3]
  collapsedSliceDims := [1]
  operandBatchingDims := []
  startIndicesBatchingDims := []
  startIndexMap := [1]
  indexVectorDim := 2
  sliceSizes := ![256, 1, 3]
  wf := gather_S256x10475x3_S8x1024x1_S256x8x1024x3_03_1_n_n_1_2_25613_wf
def gather_S256x65536x3_S8x2048x1_S256x8x2048x3_03_1_n_n_1_2_25613 : GatherDims S256x65536x3 S8x2048x1 S256x8x2048x3 where
  offsetDims := [0, 3]
  collapsedSliceDims := [1]
  operandBatchingDims := []
  startIndicesBatchingDims := []
  startIndexMap := [1]
  indexVectorDim := 2
  sliceSizes := ![256, 1, 3]
  wf := gather_S256x65536x3_S8x2048x1_S256x8x2048x3_03_1_n_n_1_2_25613_wf

abbrev win0_0 : Pipeline.Window sig grid0 :=
  Pipeline.Window.ofSpec (Memref.whole main_v2) S128x32x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v7) S128x32x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S128x384.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v24) S128x3x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S128x3x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29_0) S128x2.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29_1) S128x2.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29_2) S128x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v29_3) S128x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v29_4) S128x3.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v25) S128x3x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S128x3x3.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30_0) S128x2.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v30_1) S128x2.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30_2) S128x1.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v30_3) S128x1.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v30_4) S128x3.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S256x10475x3 : Shape := ⟨3, ![256, 10475, 3]⟩
abbrev S256x65536x3 : Shape := ⟨3, ![256, 65536, 3]⟩
abbrev S256x3x3 : Shape := ⟨3, ![256, 3, 3]⟩
abbrev S8x1024 : Shape := ⟨2, ![8, 1024]⟩
abbrev S8x2048 : Shape := ⟨2, ![8, 2048]⟩
abbrev S3 : Shape := ⟨1, ![3]⟩
abbrev S_ : Shape := ⟨0, ![]⟩
abbrev S256x3 : Shape := ⟨2, ![256, 3]⟩
abbrev S1x1x3 : Shape := ⟨3, ![1, 1, 3]⟩
abbrev S256x10475x1 : Shape := ⟨3, ![256, 10475, 1]⟩
abbrev S256x10475 : Shape := ⟨2, ![256, 10475]⟩
abbrev S256x1x1 : Shape := ⟨3, ![256, 1, 1]⟩
abbrev S256 : Shape := ⟨1, ![256]⟩
abbrev S256x1 : Shape := ⟨2, ![256, 1]⟩
abbrev S256x10475x2 : Shape := ⟨3, ![256, 10475, 2]⟩
abbrev S256x65536x1 : Shape := ⟨3, ![256, 65536, 1]⟩
abbrev S256x65536 : Shape := ⟨2, ![256, 65536]⟩
abbrev S256x65536x2 : Shape := ⟨3, ![256, 65536, 2]⟩
abbrev S8x1024x1 : Shape := ⟨3, ![8, 1024, 1]⟩
abbrev S256x8x1024x2 : Shape := ⟨4, ![256, 8, 1024, 2]⟩
abbrev S256x8x2 : Shape := ⟨3, ![256, 8, 2]⟩
abbrev S256x8x4 : Shape := ⟨3, ![256, 8, 4]⟩
abbrev S8x2048x1 : Shape := ⟨3, ![8, 2048, 1]⟩
abbrev S256x8x2048x2 : Shape := ⟨4, ![256, 8, 2048, 2]⟩
abbrev S256x8x1 : Shape := ⟨3, ![256, 8, 1]⟩
abbrev S256x8 : Shape := ⟨2, ![256, 8]⟩
abbrev S8x1024x2 : Shape := ⟨3, ![8, 1024, 2]⟩
abbrev S256x8x1024 : Shape := ⟨3, ![256, 8, 1024]⟩
abbrev S8x2048x2 : Shape := ⟨3, ![8, 2048, 2]⟩
abbrev S256x8x2048 : Shape := ⟨3, ![256, 8, 2048]⟩
abbrev S256x1x8 : Shape := ⟨3, ![256, 1, 8]⟩
abbrev S256x8x8 : Shape := ⟨3, ![256, 8, 8]⟩
abbrev S256x8x1024x3 : Shape := ⟨4, ![256, 8, 1024, 3]⟩
abbrev S256x8x3 : Shape := ⟨3, ![256, 8, 3]⟩
abbrev S256x8x2048x3 : Shape := ⟨4, ![256, 8, 2048, 3]⟩
abbrev S256x8x1x3 : Shape := ⟨4, ![256, 8, 1, 3]⟩
abbrev S256x1x8x3 : Shape := ⟨4, ![256, 1, 8, 3]⟩
abbrev S256x8x8x3 : Shape := ⟨4, ![256, 8, 8, 3]⟩
abbrev S1 : Shape := ⟨1, ![1]⟩
abbrev S2 : Shape := ⟨1, ![2]⟩

abbrev nBuf : Space → Nat
  | .hbm => 334
  | .vmem => 0
  | .smem => 0
  | _ => 0

abbrev hbmTy0_0 (i : Nat) : BufTy := match i % 128 with
  | 0 => ⟨S256x10475x3, .f32⟩
  | 1 => ⟨S256x65536x3, .f32⟩
  | 2 => ⟨S256x3x3, .f32⟩
  | 3 => ⟨S8x1024, .i32⟩
  | 4 => ⟨S8x2048, .i32⟩
  | 5 => ⟨S3, .f32⟩
  | 6 => ⟨S3, .f32⟩
  | 7 => ⟨S_, .f32⟩
  | 8 => ⟨S256x3, .f32⟩
  | 9 => ⟨S_, .f32⟩
  | 10 => ⟨S256x3, .f32⟩
  | 11 => ⟨S256x3, .f32⟩
  | 12 => ⟨S_, .f32⟩
  | 13 => ⟨S256x3, .f32⟩
  | 14 => ⟨S_, .f32⟩
  | 15 => ⟨S256x3, .f32⟩
  | 16 => ⟨S256x3, .f32⟩
  | 17 => ⟨S256x3, .f32⟩
  | 18 => ⟨S256x3, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1x1x3, .f32⟩
  | 26 => ⟨S256x10475x3, .f32⟩
  | 27 => ⟨S256x10475x3, .f32⟩
  | 28 => ⟨S256x10475x1, .f32⟩
  | 29 => ⟨S256x10475, .f32⟩
  | 30 => ⟨S256x10475x1, .f32⟩
  | 31 => ⟨S256x10475, .f32⟩
  | 32 => ⟨S256x10475x1, .f32⟩
  | 33 => ⟨S256x10475, .f32⟩
  | 34 => ⟨S_, .f32⟩
  | 35 => ⟨S256x10475, .f32⟩
  | 36 => ⟨S256x10475, .f32⟩
  | 37 => ⟨S256x10475, .f32⟩
  | 38 => ⟨S_, .f32⟩
  | 39 => ⟨S256x10475, .f32⟩
  | 40 => ⟨S256x10475, .f32⟩
  | 41 => ⟨S256x10475, .f32⟩
  | 42 => ⟨S256x1x1, .f32⟩
  | 43 => ⟨S256, .f32⟩
  | 44 => ⟨S256x1, .f32⟩
  | 45 => ⟨S256x1x1, .f32⟩
  | 46 => ⟨S256, .f32⟩
  | 47 => ⟨S256x1, .f32⟩
  | 48 => ⟨S256x1x1, .f32⟩
  | 49 => ⟨S256, .f32⟩
  | 50 => ⟨S256x1, .f32⟩
  | 51 => ⟨S256x1x1, .f32⟩
  | 52 => ⟨S256, .f32⟩
  | 53 => ⟨S256x1, .f32⟩
  | 54 => ⟨S256x10475, .f32⟩
  | 55 => ⟨S256x10475, .f32⟩
  | 56 => ⟨S256x10475, .f32⟩
  | 57 => ⟨S256x10475, .f32⟩
  | 58 => ⟨S256x10475, .f32⟩
  | 59 => ⟨S256x10475, .f32⟩
  | 60 => ⟨S256x10475, .f32⟩
  | 61 => ⟨S256x10475, .f32⟩
  | 62 => ⟨S_, .f32⟩
  | 63 => ⟨S256x10475, .f32⟩
  | 64 => ⟨S256x10475, .f32⟩
  | 65 => ⟨S_, .f32⟩
  | 66 => ⟨S256x10475, .f32⟩
  | 67 => ⟨S256x10475, .f32⟩
  | 68 => ⟨S_, .f32⟩
  | 69 => ⟨S256x10475, .f32⟩
  | 70 => ⟨S256x10475, .f32⟩
  | 71 => ⟨S_, .f32⟩
  | 72 => ⟨S256x10475, .f32⟩
  | 73 => ⟨S256x10475, .f32⟩
  | 74 => ⟨S_, .f32⟩
  | 75 => ⟨S256x10475, .f32⟩
  | 76 => ⟨S256x10475, .f32⟩
  | 77 => ⟨S256x10475x1, .f32⟩
  | 78 => ⟨S256x10475x1, .f32⟩
  | 79 => ⟨S256x10475x2, .f32⟩
  | 80 => ⟨S1x1x3, .f32⟩
  | 81 => ⟨S256x65536x3, .f32⟩
  | 82 => ⟨S256x65536x3, .f32⟩
  | 83 => ⟨S256x65536x1, .f32⟩
  | 84 => ⟨S256x65536, .f32⟩
  | 85 => ⟨S256x65536x1, .f32⟩
  | 86 => ⟨S256x65536, .f32⟩
  | 87 => ⟨S256x65536x1, .f32⟩
  | 88 => ⟨S256x65536, .f32⟩
  | 89 => ⟨S_, .f32⟩
  | 90 => ⟨S256x65536, .f32⟩
  | 91 => ⟨S256x65536, .f32⟩
  | 92 => ⟨S256x65536, .f32⟩
  | 93 => ⟨S_, .f32⟩
  | 94 => ⟨S256x65536, .f32⟩
  | 95 => ⟨S256x65536, .f32⟩
  | 96 => ⟨S256x65536, .f32⟩
  | 97 => ⟨S256x1x1, .f32⟩
  | 98 => ⟨S256, .f32⟩
  | 99 => ⟨S256x1, .f32⟩
  | 100 => ⟨S256x1x1, .f32⟩
  | 101 => ⟨S256, .f32⟩
  | 102 => ⟨S256x1, .f32⟩
  | 103 => ⟨S256x1x1, .f32⟩
  | 104 => ⟨S256, .f32⟩
  | 105 => ⟨S256x1, .f32⟩
  | 106 => ⟨S256x1x1, .f32⟩
  | 107 => ⟨S256, .f32⟩
  | 108 => ⟨S256x1, .f32⟩
  | 109 => ⟨S256x65536, .f32⟩
  | 110 => ⟨S256x65536, .f32⟩
  | 111 => ⟨S256x65536, .f32⟩
  | 112 => ⟨S256x65536, .f32⟩
  | 113 => ⟨S256x65536, .f32⟩
  | 114 => ⟨S256x65536, .f32⟩
  | 115 => ⟨S256x65536, .f32⟩
  | 116 => ⟨S256x65536, .f32⟩
  | 117 => ⟨S_, .f32⟩
  | 118 => ⟨S256x65536, .f32⟩
  | 119 => ⟨S256x65536, .f32⟩
  | 120 => ⟨S_, .f32⟩
  | 121 => ⟨S256x65536, .f32⟩
  | 122 => ⟨S256x65536, .f32⟩
  | 123 => ⟨S_, .f32⟩
  | 124 => ⟨S256x65536, .f32⟩
  | 125 => ⟨S256x65536, .f32⟩
  | 126 => ⟨S_, .f32⟩
  | 127 => ⟨S256x65536, .f32⟩
  | _ => ⟨S256x10475x3, .f32⟩

abbrev hbmTy0_1 (i : Nat) : BufTy := match i % 128 with
  | 0 => ⟨S256x65536, .f32⟩
  | 1 => ⟨S_, .f32⟩
  | 2 => ⟨S256x65536, .f32⟩
  | 3 => ⟨S256x65536, .f32⟩
  | 4 => ⟨S256x65536x1, .f32⟩
  | 5 => ⟨S256x65536x1, .f32⟩
  | 6 => ⟨S256x65536x2, .f32⟩
  | 7 => ⟨S_, .i32⟩
  | 8 => ⟨S8x1024, .i32⟩
  | 9 => ⟨S8x1024, .i1⟩
  | 10 => ⟨S_, .i32⟩
  | 11 => ⟨S8x1024, .i32⟩
  | 12 => ⟨S8x1024, .i32⟩
  | 13 => ⟨S8x1024, .i32⟩
  | 14 => ⟨S8x1024x1, .i32⟩
  | 15 => ⟨S256x8x1024x2, .f32⟩
  | 16 => ⟨S_, .f32⟩
  | 17 => ⟨S256x8x2, .f32⟩
  | 18 => ⟨S_, .f32⟩
  | 19 => ⟨S256x8x2, .f32⟩
  | 20 => ⟨S256x8x2, .f32⟩
  | 21 => ⟨S_, .f32⟩
  | 22 => ⟨S256x8x2, .f32⟩
  | 23 => ⟨S256x8x2, .f32⟩
  | 24 => ⟨S256x8x2, .f32⟩
  | 25 => ⟨S_, .f32⟩
  | 26 => ⟨S256x8x2, .f32⟩
  | 27 => ⟨S256x8x2, .f32⟩
  | 28 => ⟨S_, .f32⟩
  | 29 => ⟨S256x8x2, .f32⟩
  | 30 => ⟨S256x8x2, .f32⟩
  | 31 => ⟨S256x8x2, .f32⟩
  | 32 => ⟨S256x8x2, .f32⟩
  | 33 => ⟨S256x8x4, .f32⟩
  | 34 => ⟨S_, .i32⟩
  | 35 => ⟨S8x2048, .i32⟩
  | 36 => ⟨S8x2048, .i1⟩
  | 37 => ⟨S_, .i32⟩
  | 38 => ⟨S8x2048, .i32⟩
  | 39 => ⟨S8x2048, .i32⟩
  | 40 => ⟨S8x2048, .i32⟩
  | 41 => ⟨S8x2048x1, .i32⟩
  | 42 => ⟨S256x8x2048x2, .f32⟩
  | 43 => ⟨S_, .f32⟩
  | 44 => ⟨S256x8x2, .f32⟩
  | 45 => ⟨S_, .f32⟩
  | 46 => ⟨S256x8x2, .f32⟩
  | 47 => ⟨S256x8x2, .f32⟩
  | 48 => ⟨S_, .f32⟩
  | 49 => ⟨S256x8x2, .f32⟩
  | 50 => ⟨S256x8x2, .f32⟩
  | 51 => ⟨S256x8x2, .f32⟩
  | 52 => ⟨S_, .f32⟩
  | 53 => ⟨S256x8x2, .f32⟩
  | 54 => ⟨S256x8x2, .f32⟩
  | 55 => ⟨S_, .f32⟩
  | 56 => ⟨S256x8x2, .f32⟩
  | 57 => ⟨S256x8x2, .f32⟩
  | 58 => ⟨S256x8x2, .f32⟩
  | 59 => ⟨S256x8x2, .f32⟩
  | 60 => ⟨S256x8x4, .f32⟩
  | 61 => ⟨S256x8x1, .f32⟩
  | 62 => ⟨S256x8, .f32⟩
  | 63 => ⟨S256x8x1, .f32⟩
  | 64 => ⟨S256x8, .f32⟩
  | 65 => ⟨S256x8, .i1⟩
  | 66 => ⟨S256x8x1, .f32⟩
  | 67 => ⟨S256x8, .f32⟩
  | 68 => ⟨S256x8x1, .f32⟩
  | 69 => ⟨S256x8, .f32⟩
  | 70 => ⟨S256x8, .i1⟩
  | 71 => ⟨S256x8, .i1⟩
  | 72 => ⟨S256x8x1, .f32⟩
  | 73 => ⟨S256x8, .f32⟩
  | 74 => ⟨S256x8x1, .f32⟩
  | 75 => ⟨S256x8, .f32⟩
  | 76 => ⟨S256x8, .i1⟩
  | 77 => ⟨S256x8, .i1⟩
  | 78 => ⟨S256x8x1, .f32⟩
  | 79 => ⟨S256x8, .f32⟩
  | 80 => ⟨S256x8x1, .f32⟩
  | 81 => ⟨S256x8, .f32⟩
  | 82 => ⟨S256x8, .i1⟩
  | 83 => ⟨S256x8, .i1⟩
  | 84 => ⟨S256x8, .i1⟩
  | 85 => ⟨S_, .i32⟩
  | 86 => ⟨S8x1024, .i32⟩
  | 87 => ⟨S8x1024, .i1⟩
  | 88 => ⟨S_, .i32⟩
  | 89 => ⟨S8x1024, .i32⟩
  | 90 => ⟨S8x1024, .i32⟩
  | 91 => ⟨S8x1024, .i32⟩
  | 92 => ⟨S_, .i32⟩
  | 93 => ⟨S8x1024, .i32⟩
  | 94 => ⟨S8x1024, .i32⟩
  | 95 => ⟨S8x1024x1, .i32⟩
  | 96 => ⟨S8x1024x1, .i32⟩
  | 97 => ⟨S8x1024x2, .i32⟩
  | 98 => ⟨S256x8x1024, .f32⟩
  | 99 => ⟨S_, .i32⟩
  | 100 => ⟨S8x2048, .i32⟩
  | 101 => ⟨S8x2048, .i1⟩
  | 102 => ⟨S_, .i32⟩
  | 103 => ⟨S8x2048, .i32⟩
  | 104 => ⟨S8x2048, .i32⟩
  | 105 => ⟨S8x2048, .i32⟩
  | 106 => ⟨S_, .i32⟩
  | 107 => ⟨S8x2048, .i32⟩
  | 108 => ⟨S8x2048, .i32⟩
  | 109 => ⟨S8x2048x1, .i32⟩
  | 110 => ⟨S8x2048x1, .i32⟩
  | 111 => ⟨S8x2048x2, .i32⟩
  | 112 => ⟨S256x8x2048, .f32⟩
  | 113 => ⟨S_, .f32⟩
  | 114 => ⟨S256x8, .f32⟩
  | 115 => ⟨S256x8x1, .f32⟩
  | 116 => ⟨S_, .f32⟩
  | 117 => ⟨S256x8, .f32⟩
  | 118 => ⟨S256x8x1, .f32⟩
  | 119 => ⟨S_, .f32⟩
  | 120 => ⟨S256x8, .f32⟩
  | 121 => ⟨S256x1x8, .f32⟩
  | 122 => ⟨S_, .f32⟩
  | 123 => ⟨S256x8, .f32⟩
  | 124 => ⟨S256x1x8, .f32⟩
  | 125 => ⟨S256x8x8, .f32⟩
  | 126 => ⟨S256x8x8, .f32⟩
  | 127 => ⟨S256x8x8, .f32⟩
  | _ => ⟨S256x10475x3, .f32⟩

abbrev hbmTy0_2 (i : Nat) : BufTy := match i % 128 with
  | 0 => ⟨S256x8x8, .f32⟩
  | 1 => ⟨S256x8x8, .f32⟩
  | 2 => ⟨S256x8x8, .f32⟩
  | 3 => ⟨S256x8x8, .f32⟩
  | 4 => ⟨S256x8x8, .f32⟩
  | 5 => ⟨S256x8x8, .f32⟩
  | 6 => ⟨S256x8x8, .f32⟩
  | 7 => ⟨S256x8x8, .f32⟩
  | 8 => ⟨S256x8x8, .i1⟩
  | 9 => ⟨S256x8x8, .f32⟩
  | 10 => ⟨S256x8x8, .f32⟩
  | 11 => ⟨S256x8x8, .i1⟩
  | 12 => ⟨S256x8x8, .i1⟩
  | 13 => ⟨S_, .f32⟩
  | 14 => ⟨S_, .f32⟩
  | 15 => ⟨S256x8x8, .f32⟩
  | 16 => ⟨S256x8x8, .f32⟩
  | 17 => ⟨S256x1x8, .i1⟩
  | 18 => ⟨S_, .f32⟩
  | 19 => ⟨S256x8x8, .f32⟩
  | 20 => ⟨S256x8x8, .i1⟩
  | 21 => ⟨S256x8x8, .i1⟩
  | 22 => ⟨S256x8x8, .i1⟩
  | 23 => ⟨S_, .i32⟩
  | 24 => ⟨S8x1024, .i32⟩
  | 25 => ⟨S8x1024, .i1⟩
  | 26 => ⟨S_, .i32⟩
  | 27 => ⟨S8x1024, .i32⟩
  | 28 => ⟨S8x1024, .i32⟩
  | 29 => ⟨S8x1024, .i32⟩
  | 30 => ⟨S8x1024x1, .i32⟩
  | 31 => ⟨S256x8x1024x3, .f32⟩
  | 32 => ⟨S_, .f32⟩
  | 33 => ⟨S256x8x3, .f32⟩
  | 34 => ⟨S_, .f32⟩
  | 35 => ⟨S256x8x3, .f32⟩
  | 36 => ⟨S256x8x3, .f32⟩
  | 37 => ⟨S_, .i32⟩
  | 38 => ⟨S8x2048, .i32⟩
  | 39 => ⟨S8x2048, .i1⟩
  | 40 => ⟨S_, .i32⟩
  | 41 => ⟨S8x2048, .i32⟩
  | 42 => ⟨S8x2048, .i32⟩
  | 43 => ⟨S8x2048, .i32⟩
  | 44 => ⟨S8x2048x1, .i32⟩
  | 45 => ⟨S256x8x2048x3, .f32⟩
  | 46 => ⟨S_, .f32⟩
  | 47 => ⟨S256x8x3, .f32⟩
  | 48 => ⟨S_, .f32⟩
  | 49 => ⟨S256x8x3, .f32⟩
  | 50 => ⟨S256x8x3, .f32⟩
  | 51 => ⟨S256x8x1x3, .f32⟩
  | 52 => ⟨S256x1x8x3, .f32⟩
  | 53 => ⟨S256x8x8x3, .f32⟩
  | 54 => ⟨S256x8x8x3, .f32⟩
  | 55 => ⟨S256x8x8x3, .f32⟩
  | 56 => ⟨S256x8x8x3, .f32⟩
  | 57 => ⟨S_, .f32⟩
  | 58 => ⟨S256x8x8, .f32⟩
  | 59 => ⟨S_, .f32⟩
  | 60 => ⟨S256x8x8, .f32⟩
  | 61 => ⟨S256x8x8, .f32⟩
  | 62 => ⟨S256x8x8, .i32⟩
  | 63 => ⟨S_, .i32⟩
  | 64 => ⟨S_, .i32⟩
  | 65 => ⟨S_, .i32⟩
  | 66 => ⟨S_, .i1⟩
  | 67 => ⟨S256x8x8, .f32⟩
  | 68 => ⟨S256x8x8, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S1, .f32⟩
  | 76 => ⟨S1, .f32⟩
  | 77 => ⟨S2, .f32⟩
  | _ => ⟨S256x10475x3, .f32⟩

abbrev hbmTy (i : Nat) : BufTy := match i / 128 with
  | 0 => hbmTy0_0 i
  | 1 => hbmTy0_1 i
  | 2 => hbmTy0_2 i
  | _ => ⟨S256x10475x3, .f32⟩

abbrev bufTy : (tb : Table) → Fin (tcTables nBuf tb) → BufTy
  | .hbm, ⟨i, _⟩ => hbmTy i
  | _, _ => ⟨S256x10475x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_v0 : Ref sig .tc := ⟨.hbm, 8, rfl⟩
abbrev main_cst_2 : Ref sig .tc := ⟨.hbm, 9, rfl⟩
abbrev main_v1 : Ref sig .tc := ⟨.hbm, 10, rfl⟩
abbrev main_v2 : Ref sig .tc := ⟨.hbm, 11, rfl⟩
abbrev main_cst_3 : Ref sig .tc := ⟨.hbm, 12, rfl⟩
abbrev main_v3 : Ref sig .tc := ⟨.hbm, 13, rfl⟩
abbrev main_cst_4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_5 : Ref sig .tc := ⟨.hbm, 19, rfl⟩
abbrev main_v8 : Ref sig .tc := ⟨.hbm, 20, rfl⟩
abbrev main_cst_6 : Ref sig .tc := ⟨.hbm, 21, rfl⟩
abbrev main_v9 : Ref sig .tc := ⟨.hbm, 22, rfl⟩
abbrev main_cst_7 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_17 : Ref sig .tc := ⟨.hbm, 117, rfl⟩
abbrev main_v94 : Ref sig .tc := ⟨.hbm, 118, rfl⟩
abbrev main_v95 : Ref sig .tc := ⟨.hbm, 119, rfl⟩
abbrev main_cst_18 : Ref sig .tc := ⟨.hbm, 120, rfl⟩
abbrev main_v96 : Ref sig .tc := ⟨.hbm, 121, rfl⟩
abbrev main_v97 : Ref sig .tc := ⟨.hbm, 122, rfl⟩
abbrev main_cst_19 : Ref sig .tc := ⟨.hbm, 123, rfl⟩
abbrev main_v98 : Ref sig .tc := ⟨.hbm, 124, rfl⟩
abbrev main_v99 : Ref sig .tc := ⟨.hbm, 125, rfl⟩
abbrev main_cst_20 : Ref sig .tc := ⟨.hbm, 126, rfl⟩
abbrev main_v100 : Ref sig .tc := ⟨.hbm, 127, rfl⟩
abbrev main_v101 : Ref sig .tc := ⟨.hbm, 128, rfl⟩
abbrev main_cst_21 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_c : Ref sig .tc := ⟨.hbm, 135, rfl⟩
abbrev main_v107 : Ref sig .tc := ⟨.hbm, 136, rfl⟩
abbrev main_v108 : Ref sig .tc := ⟨.hbm, 137, rfl⟩
abbrev main_c_22 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_23 : Ref sig .tc := ⟨.hbm, 144, rfl⟩
abbrev main_v114 : Ref sig .tc := ⟨.hbm, 145, rfl⟩
abbrev main_cst_24 : Ref sig .tc := ⟨.hbm, 146, rfl⟩
abbrev main_v115 : Ref sig .tc := ⟨.hbm, 147, rfl⟩
abbrev main_v116 : Ref sig .tc := ⟨.hbm, 148, rfl⟩
abbrev main_cst_25 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_26 : Ref sig .tc := ⟨.hbm, 153, rfl⟩
abbrev main_v120 : Ref sig .tc := ⟨.hbm, 154, rfl⟩
abbrev main_v121 : Ref sig .tc := ⟨.hbm, 155, rfl⟩
abbrev main_cst_27 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_c_28 : Ref sig .tc := ⟨.hbm, 162, rfl⟩
abbrev main_v127 : Ref sig .tc := ⟨.hbm, 163, rfl⟩
abbrev main_v128 : Ref sig .tc := ⟨.hbm, 164, rfl⟩
abbrev main_c_29 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_30 : Ref sig .tc := ⟨.hbm, 171, rfl⟩
abbrev main_v134 : Ref sig .tc := ⟨.hbm, 172, rfl⟩
abbrev main_cst_31 : Ref sig .tc := ⟨.hbm, 173, rfl⟩
abbrev main_v135 : Ref sig .tc := ⟨.hbm, 174, rfl⟩
abbrev main_v136 : Ref sig .tc := ⟨.hbm, 175, rfl⟩
abbrev main_cst_32 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_cst_33 : Ref sig .tc := ⟨.hbm, 180, rfl⟩
abbrev main_v140 : Ref sig .tc := ⟨.hbm, 181, rfl⟩
abbrev main_v141 : Ref sig .tc := ⟨.hbm, 182, rfl⟩
abbrev main_cst_34 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_c_35 : Ref sig .tc := ⟨.hbm, 213, rfl⟩
abbrev main_v171 : Ref sig .tc := ⟨.hbm, 214, rfl⟩
abbrev main_v172 : Ref sig .tc := ⟨.hbm, 215, rfl⟩
abbrev main_c_36 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_c_37 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_c_38 : Ref sig .tc := ⟨.hbm, 227, rfl⟩
abbrev main_v182 : Ref sig .tc := ⟨.hbm, 228, rfl⟩
abbrev main_v183 : Ref sig .tc := ⟨.hbm, 229, rfl⟩
abbrev main_c_39 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_c_40 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_cst_41 : Ref sig .tc := ⟨.hbm, 241, rfl⟩
abbrev main_v193 : Ref sig .tc := ⟨.hbm, 242, rfl⟩
abbrev main_v194 : Ref sig .tc := ⟨.hbm, 243, rfl⟩
abbrev main_cst_42 : Ref sig .tc := ⟨.hbm, 244, rfl⟩
abbrev main_v195 : Ref sig .tc := ⟨.hbm, 245, rfl⟩
abbrev main_v196 : Ref sig .tc := ⟨.hbm, 246, rfl⟩
abbrev main_cst_43 : Ref sig .tc := ⟨.hbm, 247, rfl⟩
abbrev main_v197 : Ref sig .tc := ⟨.hbm, 248, rfl⟩
abbrev main_v198 : Ref sig .tc := ⟨.hbm, 249, rfl⟩
abbrev main_cst_44 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_cst_45 : Ref sig .tc := ⟨.hbm, 269, rfl⟩
abbrev main_call0_v0 : Ref sig .tc := ⟨.hbm, 270, rfl⟩
abbrev main_call0_v1 : Ref sig .tc := ⟨.hbm, 271, rfl⟩
abbrev main_v217 : Ref sig .tc := ⟨.hbm, 272, rfl⟩
abbrev main_v218 : Ref sig .tc := ⟨.hbm, 273, rfl⟩
abbrev main_cst_46 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_c_47 : Ref sig .tc := ⟨.hbm, 279, rfl⟩
abbrev main_v223 : Ref sig .tc := ⟨.hbm, 280, rfl⟩
abbrev main_v224 : Ref sig .tc := ⟨.hbm, 281, rfl⟩
abbrev main_c_48 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_cst_49 : Ref sig .tc := ⟨.hbm, 288, rfl⟩
abbrev main_v230 : Ref sig .tc := ⟨.hbm, 289, rfl⟩
abbrev main_cst_50 : Ref sig .tc := ⟨.hbm, 290, rfl⟩
abbrev main_v231 : Ref sig .tc := ⟨.hbm, 291, rfl⟩
abbrev main_v232 : Ref sig .tc := ⟨.hbm, 292, rfl⟩
abbrev main_c_51 : Ref sig .tc := ⟨.hbm, 293, rfl⟩
abbrev main_v233 : Ref sig .tc := ⟨.hbm, 294, rfl⟩
abbrev main_v234 : Ref sig .tc := ⟨.hbm, 295, rfl⟩
abbrev main_c_52 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_cst_53 : Ref sig .tc := ⟨.hbm, 302, rfl⟩
abbrev main_v240 : Ref sig .tc := ⟨.hbm, 303, rfl⟩
abbrev main_cst_54 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_cst_55 : Ref sig .tc := ⟨.hbm, 313, rfl⟩
abbrev main_v249 : Ref sig .tc := ⟨.hbm, 314, rfl⟩
abbrev main_cst_56 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_c_57 : Ref sig .tc := ⟨.hbm, 319, rfl⟩
abbrev main_v253 : Ref sig .tc := ⟨.hbm, 320, rfl⟩
abbrev main_c_58 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_cst_59 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_cst_60 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩

abbrev nD : Nat := 1
abbrev τ : Topo := Topo.v7x

variable {F : FTy → Type} [FloatOps F]

class Facts₀ : Prop where
  reducesTo_S256x10475x3_S256x3_d1 : S256x10475x3.ReducesTo [1] S256x3
  h_S_ : 0 < S_.numel
  bcast_S_S256x3 : S_.BroadcastsInDim S256x3 (![] : Fin 0 → Fin S256x3.rank)
  reducesTo_S256x65536x3_S256x3_d1 : S256x65536x3.ReducesTo [1] S256x3
  reducesTo_S256x3_S_d0_1 : S256x3.ReducesTo [0, 1] S_
  bcast_S3_S1x1x3_2 : S3.BroadcastsInDim S1x1x3 (![2] : Fin 1 → Fin S1x1x3.rank)
  bcast_S1x1x3_S256x10475x3_0_1_2 : S1x1x3.BroadcastsInDim S256x10475x3 (![0, 1, 2] : Fin 3 → Fin S256x10475x3.rank)
  slices_S256x10475x3_S256x10475x1_0_0_0 : S256x10475x3.Slices ![0, 0, 0] S256x10475x1
  shapeCasts_S256x10475x1_S256x10475 : S256x10475x1.ShapeCasts S256x10475
  slices_S256x10475x3_S256x10475x1_0_0_1 : S256x10475x3.Slices ![0, 0, 1] S256x10475x1
  slices_S256x10475x3_S256x10475x1_0_0_2 : S256x10475x3.Slices ![0, 0, 2] S256x10475x1
  bcast_S_S256x10475 : S_.BroadcastsInDim S256x10475 (![] : Fin 0 → Fin S256x10475.rank)
  slices_S256x3x3_S256x1x1_0_0_0 : S256x3x3.Slices ![0, 0, 0] S256x1x1
  shapeCasts_S256x1x1_S256 : S256x1x1.ShapeCasts S256
  bcast_S256_S256x1_0 : S256.BroadcastsInDim S256x1 (![0] : Fin 1 → Fin S256x1.rank)
  slices_S256x3x3_S256x1x1_0_1_1 : S256x3x3.Slices ![0, 1, 1] S256x1x1
  slices_S256x3x3_S256x1x1_0_0_2 : S256x3x3.Slices ![0, 0, 2] S256x1x1
  slices_S256x3x3_S256x1x1_0_1_2 : S256x3x3.Slices ![0, 1, 2] S256x1x1
  bcast_S256x1_S256x10475_0_1 : S256x1.BroadcastsInDim S256x10475 (![0, 1] : Fin 2 → Fin S256x10475.rank)
  bcast_S256x10475_S256x10475x1_0_1 : S256x10475.BroadcastsInDim S256x10475x1 (![0, 1] : Fin 2 → Fin S256x10475x1.rank)
  concatenates_S256x10475x1_S256x10475x1_S256x10475x2_d2 : Shape.Concatenates [S256x10475x1, S256x10475x1] S256x10475x2 2
  bcast_S1x1x3_S256x65536x3_0_1_2 : S1x1x3.BroadcastsInDim S256x65536x3 (![0, 1, 2] : Fin 3 → Fin S256x65536x3.rank)
  slices_S256x65536x3_S256x65536x1_0_0_0 : S256x65536x3.Slices ![0, 0, 0] S256x65536x1
  shapeCasts_S256x65536x1_S256x65536 : S256x65536x1.ShapeCasts S256x65536
  slices_S256x65536x3_S256x65536x1_0_0_1 : S256x65536x3.Slices ![0, 0, 1] S256x65536x1
  slices_S256x65536x3_S256x65536x1_0_0_2 : S256x65536x3.Slices ![0, 0, 2] S256x65536x1
  bcast_S_S256x65536 : S_.BroadcastsInDim S256x65536 (![] : Fin 0 → Fin S256x65536.rank)
  bcast_S256x1_S256x65536_0_1 : S256x1.BroadcastsInDim S256x65536 (![0, 1] : Fin 2 → Fin S256x65536.rank)
  bcast_S256x65536_S256x65536x1_0_1 : S256x65536.BroadcastsInDim S256x65536x1 (![0, 1] : Fin 2 → Fin S256x65536x1.rank)
  concatenates_S256x65536x1_S256x65536x1_S256x65536x2_d2 : Shape.Concatenates [S256x65536x1, S256x65536x1] S256x65536x2 2
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  reducesTo_S256x8x1024x2_S256x8x2_d2 : S256x8x1024x2.ReducesTo [2] S256x8x2
  bcast_S_S256x8x2 : S_.BroadcastsInDim S256x8x2 (![] : Fin 0 → Fin S256x8x2.rank)
  concatenates_S256x8x2_S256x8x2_S256x8x4_d2 : Shape.Concatenates [S256x8x2, S256x8x2] S256x8x4 2
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  reducesTo_S256x8x2048x2_S256x8x2_d2 : S256x8x2048x2.ReducesTo [2] S256x8x2
  slices_S256x8x4_S256x8x1_0_0_0 : S256x8x4.Slices ![0, 0, 0] S256x8x1
  shapeCasts_S256x8x1_S256x8 : S256x8x1.ShapeCasts S256x8
  slices_S256x8x4_S256x8x1_0_0_2 : S256x8x4.Slices ![0, 0, 2] S256x8x1
  slices_S256x8x4_S256x8x1_0_0_1 : S256x8x4.Slices ![0, 0, 1] S256x8x1
  slices_S256x8x4_S256x8x1_0_0_3 : S256x8x4.Slices ![0, 0, 3] S256x8x1
  concatenates_S8x1024x1_S8x1024x1_S8x1024x2_d2 : Shape.Concatenates [S8x1024x1, S8x1024x1] S8x1024x2 2
  concatenates_S8x2048x1_S8x2048x1_S8x2048x2_d2 : Shape.Concatenates [S8x2048x1, S8x2048x1] S8x2048x2 2
  reducesTo_S256x8x1024_S256x8_d2 : S256x8x1024.ReducesTo [2] S256x8
  bcast_S256x8_S256x8x1_0_1 : S256x8.BroadcastsInDim S256x8x1 (![0, 1] : Fin 2 → Fin S256x8x1.rank)
  reducesTo_S256x8x2048_S256x8_d2 : S256x8x2048.ReducesTo [2] S256x8
  bcast_S256x8_S256x1x8_0_2 : S256x8.BroadcastsInDim S256x1x8 (![0, 2] : Fin 2 → Fin S256x1x8.rank)
  bcast_S256x1x8_S256x8x8_0_1_2 : S256x1x8.BroadcastsInDim S256x8x8 (![0, 1, 2] : Fin 3 → Fin S256x8x8.rank)
  bcast_S256x8x1_S256x8x8_0_1_2 : S256x8x1.BroadcastsInDim S256x8x8 (![0, 1, 2] : Fin 3 → Fin S256x8x8.rank)
  bcast_S_S256x8x8 : S_.BroadcastsInDim S256x8x8 (![] : Fin 0 → Fin S256x8x8.rank)
  reducesTo_S256x8x1024x3_S256x8x3_d2 : S256x8x1024x3.ReducesTo [2] S256x8x3
  bcast_S_S256x8x3 : S_.BroadcastsInDim S256x8x3 (![] : Fin 0 → Fin S256x8x3.rank)
  reducesTo_S256x8x2048x3_S256x8x3_d2 : S256x8x2048x3.ReducesTo [2] S256x8x3
  bcast_S256x8x3_S256x8x1x3_0_1_3 : S256x8x3.BroadcastsInDim S256x8x1x3 (![0, 1, 3] : Fin 3 → Fin S256x8x1x3.rank)
  bcast_S256x8x3_S256x1x8x3_0_2_3 : S256x8x3.BroadcastsInDim S256x1x8x3 (![0, 2, 3] : Fin 3 → Fin S256x1x8x3.rank)
  bcast_S256x8x1x3_S256x8x8x3_0_1_2_3 : S256x8x1x3.BroadcastsInDim S256x8x8x3 (![0, 1, 2, 3] : Fin 4 → Fin S256x8x8x3.rank)
  bcast_S256x1x8x3_S256x8x8x3_0_1_2_3 : S256x1x8x3.BroadcastsInDim S256x8x8x3 (![0, 1, 2, 3] : Fin 4 → Fin S256x8x8x3.rank)
  reducesTo_S256x8x8x3_S256x8x8_d3 : S256x8x8x3.ReducesTo [3] S256x8x8
  natLt_1_32 : 1 < 32
  reducesTo_S256x8x8_S_d0_1_2 : S256x8x8.ReducesTo [0, 1, 2] S_
  bcast_S_S1 : S_.BroadcastsInDim S1 (![] : Fin 0 → Fin S1.rank)
  concatenates_S1_S1_S2_d0 : Shape.Concatenates [S1, S1] S2 0
  gather_S256x10475x2_S8x1024x1_S256x8x1024x2_03_1_n_n_1_2_25612_wf : GatherDims.WF S256x10475x2 S8x1024x1 S256x8x1024x2 [0, 3] [1] [] [1] [] 2 ![256, 1, 2]
  gather_S256x65536x2_S8x2048x1_S256x8x2048x2_03_1_n_n_1_2_25612_wf : GatherDims.WF S256x65536x2 S8x2048x1 S256x8x2048x2 [0, 3] [1] [] [1] [] 2 ![256, 1, 2]
  gather_S256x10475x3_S8x1024x2_S256x8x1024_0_12_n_n_12_2_25611_wf : GatherDims.WF S256x10475x3 S8x1024x2 S256x8x1024 [0] [1, 2] [] [1, 2] [] 2 ![256, 1, 1]
  gather_S256x65536x3_S8x2048x2_S256x8x2048_0_12_n_n_12_2_25611_wf : GatherDims.WF S256x65536x3 S8x2048x2 S256x8x2048 [0] [1, 2] [] [1, 2] [] 2 ![256, 1, 1]
  gather_S256x10475x3_S8x1024x1_S256x8x1024x3_03_1_n_n_1_2_25613_wf : GatherDims.WF S256x10475x3 S8x1024x1 S256x8x1024x3 [0, 3] [1] [] [1] [] 2 ![256, 1, 3]
  gather_S256x65536x3_S8x2048x1_S256x8x2048x3_03_1_n_n_1_2_25613_wf : GatherDims.WF S256x65536x3 S8x2048x1 S256x8x2048x3 [0, 3] [1] [] [1] [] 2 ![256, 1, 3]

variable [Facts₀]

def gather_S256x10475x2_S8x1024x1_S256x8x1024x2_03_1_n_n_1_2_25612 : GatherDims S256x10475x2 S8x1024x1 S256x8x1024x2 where
  offsetDims := [0, 3]
  collapsedSliceDims := [1]
  operandBatchingDims := []
  startIndicesBatchingDims := []
  startIndexMap := [1]
  indexVectorDim := 2
  sliceSizes := ![256, 1, 2]
  wf := gather_S256x10475x2_S8x1024x1_S256x8x1024x2_03_1_n_n_1_2_25612_wf
def gather_S256x65536x2_S8x2048x1_S256x8x2048x2_03_1_n_n_1_2_25612 : GatherDims S256x65536x2 S8x2048x1 S256x8x2048x2 where
  offsetDims := [0, 3]
  collapsedSliceDims := [1]
  operandBatchingDims := []
  startIndicesBatchingDims := []
  startIndexMap := [1]
  indexVectorDim := 2
  sliceSizes := ![256, 1, 2]
  wf := gather_S256x65536x2_S8x2048x1_S256x8x2048x2_03_1_n_n_1_2_25612_wf
def gather_S256x10475x3_S8x1024x2_S256x8x1024_0_12_n_n_12_2_25611 : GatherDims S256x10475x3 S8x1024x2 S256x8x1024 where
  offsetDims := [0]
  collapsedSliceDims := [1, 2]
  operandBatchingDims := []
  startIndicesBatchingDims := []
  startIndexMap := [1, 2]
  indexVectorDim := 2
  sliceSizes := ![256, 1, 1]
  wf := gather_S256x10475x3_S8x1024x2_S256x8x1024_0_12_n_n_12_2_25611_wf
def gather_S256x65536x3_S8x2048x2_S256x8x2048_0_12_n_n_12_2_25611 : GatherDims S256x65536x3 S8x2048x2 S256x8x2048 where
  offsetDims := [0]
  collapsedSliceDims := [1, 2]
  operandBatchingDims := []
  startIndicesBatchingDims := []
  startIndexMap := [1, 2]
  indexVectorDim := 2
  sliceSizes := ![256, 1, 1]
  wf := gather_S256x65536x3_S8x2048x2_S256x8x2048_0_12_n_n_12_2_25611_wf
def gather_S256x10475x3_S8x1024x1_S256x8x1024x3_03_1_n_n_1_2_25613 : GatherDims S256x10475x3 S8x1024x1 S256x8x1024x3 where
  offsetDims := [0, 3]
  collapsedSliceDims := [1]
  operandBatchingDims := []
  startIndicesBatchingDims := []
  startIndexMap := [1]
  indexVectorDim := 2
  sliceSizes := ![256, 1, 3]
  wf := gather_S256x10475x3_S8x1024x1_S256x8x1024x3_03_1_n_n_1_2_25613_wf
def gather_S256x65536x3_S8x2048x1_S256x8x2048x3_03_1_n_n_1_2_25613 : GatherDims S256x65536x3 S8x2048x1 S256x8x2048x3 where
  offsetDims := [0, 3]
  collapsedSliceDims := [1]
  operandBatchingDims := []
  startIndicesBatchingDims := []
  startIndexMap := [1]
  indexVectorDim := 2
  sliceSizes := ![256, 1, 3]
  wf := gather_S256x65536x3_S8x2048x1_S256x8x2048x3_03_1_n_n_1_2_25613_wf

class Facts : Prop extends Facts₀ where

variable [Facts]
-- ==== Proof.Spec.lean ====
/-
  The mathematics both programs compute, index by index on the extended reals, stated over the five
  argument arrays only: the per-batch coordinate sums of a mesh (its centroid up to the vertex count),
  and, for each of the eight parts of a mesh, the bounding box of the projected part vertices, the
  range of their depths and the sum of their coordinates. A part's k-th vertex is the mesh vertex the
  index table names (read signed, clamped into the vertex axis, as a gather reads it).
-/
import Idealize.ShloMosaic.PureOps.Ideal
import Idealize.ShloMosaic.Lib.ValueIdx

noncomputable section

namespace Cert.Spec

open Idealize.ShloMosaic Idealize.ShloMosaic.ValueIdx

/-- The float words the projection uses, as the extended reals they denote. -/
abbrev cTwo : EReal := Ideal.ofBits .f32 0x40000000#32
abbrev cHalf : EReal := Ideal.ofBits .f32 0x3F000000#32
abbrev cOne : EReal := Ideal.ofBits .f32 0x3F800000#32
abbrev cEps : EReal := Ideal.ofBits .f32 0x3089705F#32
abbrev cZero : EReal := Ideal.ofBits .f32 0x00000000#32

/-- Horizontal screen coordinate of a vertex (x, ·, z) under focal length fx and centre cx:
    2 · (fx · x / (z + ε) + cx − 1/2). -/
def screenU (x z fx cx : EReal) : EReal :=
  cTwo * ((fx * Ideal.div x (z + cEps) + cx) - cHalf)

/-- Vertical screen coordinate of a vertex (·, y, z), the image's vertical axis pointing down:
    2 · (1 − (fy · (−y) / (z + ε) + cy) − 1/2), the negation spelt 0 − y. -/
def screenW (y z fy cy : EReal) : EReal :=
  cTwo * ((cOne - (fy * Ideal.div (cZero - y) (z + cEps) + cy)) - cHalf)

variable {N K : Nat}

/-- Per batch entry and coordinate, the sum of that coordinate over all N vertices of the mesh. -/
def coordSum (A : (⟨3, ![256, N, 3]⟩ : Shape).Idx → EReal) : (⟨2, ![256, 3]⟩ : Shape).Idx → EReal :=
  fun j => ∑ n : Fin N, A (ix3 (j 0) n (j 1))

/-- The mesh vertex that entry (p, k) of the part table names: the word read signed, clamped into
    [0, N − 1]. -/
def vertexOf (hN : 0 < N) (I : IVec (⟨2, ![8, K]⟩ : Shape) 32) (p : Fin 8) (k : Fin K) : Fin N :=
  ⟨min (I (ix2 p k)).toInt.toNat (N - 1), by omega⟩

/-- Coordinate c of the k-th vertex of part p in batch entry b. -/
def partVertex (hN : 0 < N) (A : (⟨3, ![256, N, 3]⟩ : Shape).Idx → EReal) (I : IVec (⟨2, ![8, K]⟩ : Shape) 32)
    (b : Fin 256) (p : Fin 8) (k : Fin K) (c : Fin 3) : EReal :=
  A (ix3 b (vertexOf hN I p k) c)

/-- Screen coordinate j (0 horizontal, 1 vertical) of the k-th vertex of part p in batch entry b, under
    that entry's camera matrix Cam. -/
def partScreen (hN : 0 < N) (A : (⟨3, ![256, N, 3]⟩ : Shape).Idx → EReal) (Cam : (⟨3, ![256, 3, 3]⟩ : Shape).Idx → EReal)
    (I : IVec (⟨2, ![8, K]⟩ : Shape) 32) (b : Fin 256) (p : Fin 8) (k : Fin K) (j : Fin 2) : EReal :=
  if j.val = 0 then
    screenU (partVertex hN A I b p k 0) (partVertex hN A I b p k 2) (Cam (ix3 b 0 0)) (Cam (ix3 b 0 2))
  else
    screenW (partVertex hN A I b p k 1) (partVertex hN A I b p k 2) (Cam (ix3 b 1 1)) (Cam (ix3 b 1 2))

/-- Lower corner of a part's screen bounding box: the least screen coordinate over the part's K vertices. -/
def boxLo (hN : 0 < N) (A : (⟨3, ![256, N, 3]⟩ : Shape).Idx → EReal) (Cam : (⟨3, ![256, 3, 3]⟩ : Shape).Idx → EReal)
    (I : IVec (⟨2, ![8, K]⟩ : Shape) 32) : (⟨3, ![256, 8, 2]⟩ : Shape).Idx → EReal :=
  fun j => (Finset.univ : Finset (Fin K)).fold min (⊤ : EReal) fun k => partScreen hN A Cam I (j 0) (j 1) k (j 2)

/-- Upper corner of a part's screen bounding box. -/
def boxHi (hN : 0 < N) (A : (⟨3, ![256, N, 3]⟩ : Shape).Idx → EReal) (Cam : (⟨3, ![256, 3, 3]⟩ : Shape).Idx → EReal)
    (I : IVec (⟨2, ![8, K]⟩ : Shape) 32) : (⟨3, ![256, 8, 2]⟩ : Shape).Idx → EReal :=
  fun j => (Finset.univ : Finset (Fin K)).fold max (⊥ : EReal) fun k => partScreen hN A Cam I (j 0) (j 1) k (j 2)

/-- Least depth over a part's vertices. -/
def depthMin (hN : 0 < N) (A : (⟨3, ![256, N, 3]⟩ : Shape).Idx → EReal) (I : IVec (⟨2, ![8, K]⟩ : Shape) 32) :
    (⟨2, ![256, 8]⟩ : Shape).Idx → EReal :=
  fun j => (Finset.univ : Finset (Fin K)).fold min (⊤ : EReal) fun k => partVertex hN A I (j 0) (j 1) k 2

/-- Greatest depth over a part's vertices. -/
def depthMax (hN : 0 < N) (A : (⟨3, ![256, N, 3]⟩ : Shape).Idx → EReal) (I : IVec (⟨2, ![8, K]⟩ : Shape) 32) :
    (⟨2, ![256, 8]⟩ : Shape).Idx → EReal :=
  fun j => (Finset.univ : Finset (Fin K)).fold max (⊥ : EReal) fun k => partVertex hN A I (j 0) (j 1) k 2

/-- Per batch entry, part and coordinate, the sum of that coordinate over the part's K vertices. -/
def partSum (hN : 0 < N) (A : (⟨3, ![256, N, 3]⟩ : Shape).Idx → EReal) (I : IVec (⟨2, ![8, K]⟩ : Shape) 32) :
    (⟨3, ![256, 8, 3]⟩ : Shape).Idx → EReal :=
  fun j => ∑ k : Fin K, partVertex hN A I (j 0) (j 1) k (j 2)

/-! ## The same, over rows: an array X of R rows of K vertices laid out [row, coordinate, vertex] and one camera matrix per row -/

section Rows
variable {R : Nat}

/-- Screen coordinate j of vertex k of row r. -/
def rowScreen (X : (⟨3, ![R, 3, K]⟩ : Shape).Idx → EReal) (Cm : (⟨3, ![R, 3, 3]⟩ : Shape).Idx → EReal)
    (r : Fin R) (k : Fin K) (j : Fin 2) : EReal :=
  if j.val = 0 then screenU (X (ix3 r 0 k)) (X (ix3 r 2 k)) (Cm (ix3 r 0 0)) (Cm (ix3 r 0 2))
  else screenW (X (ix3 r 1 k)) (X (ix3 r 2 k)) (Cm (ix3 r 1 1)) (Cm (ix3 r 1 2))

/-- Least screen coordinate over a row's vertices. -/
def rowLo (X : (⟨3, ![R, 3, K]⟩ : Shape).Idx → EReal) (Cm : (⟨3, ![R, 3, 3]⟩ : Shape).Idx → EReal) :
    (⟨2, ![R, 2]⟩ : Shape).Idx → EReal :=
  fun j => (Finset.univ : Finset (Fin K)).fold min (⊤ : EReal) fun k => rowScreen X Cm (j 0) k (j 1)

/-- Greatest screen coordinate over a row's vertices. -/
def rowHi (X : (⟨3, ![R, 3, K]⟩ : Shape).Idx → EReal) (Cm : (⟨3, ![R, 3, 3]⟩ : Shape).Idx → EReal) :
    (⟨2, ![R, 2]⟩ : Shape).Idx → EReal :=
  fun j => (Finset.univ : Finset (Fin K)).fold max (⊥ : EReal) fun k => rowScreen X Cm (j 0) k (j 1)

/-- Least depth over a row's vertices. -/
def rowZmin (X : (⟨3, ![R, 3, K]⟩ : Shape).Idx → EReal) : (⟨2, ![R, 1]⟩ : Shape).Idx → EReal :=
  fun j => (Finset.univ : Finset (Fin K)).fold min (⊤ : EReal) fun k => X (ix3 (j 0) 2 k)

/-- Greatest depth over a row's vertices. -/
def rowZmax (X : (⟨3, ![R, 3, K]⟩ : Shape).Idx → EReal) : (⟨2, ![R, 1]⟩ : Shape).Idx → EReal :=
  fun j => (Finset.univ : Finset (Fin K)).fold max (⊥ : EReal) fun k => X (ix3 (j 0) 2 k)

/-- Per row and coordinate, the sum over the row's vertices. -/
def rowSum (X : (⟨3, ![R, 3, K]⟩ : Shape).Idx → EReal) : (⟨2, ![R, 3]⟩ : Shape).Idx → EReal :=
  fun j => ∑ k : Fin K, X (ix3 (j 0) (j 1) k)

end Rows

end Cert.Spec

end
-- ==== Proof.Tail.lean ====
/-
  What both programs do with the per-part quantities once they have them, as one function: from the two
  meshes' coordinate sums the centroid loss; from each part's screen box corners the box widened by half
  about its centre, the test that an object part's box meets the person part's box of the same number, the
  gap between the depth ranges of a person part and an object part (zero when they meet), the pair mask
  (boxes meet and the gap is under 5), the mean squared distance between part means, and the masked mean
  of those distances (zero when no pair is selected); the result is the pair of the two losses.
  Every operation is spelt as the programs print it, so that each program's own chain is this function of
  its ten part arrays and two sums by unfolding alone.
-/
import proofs.«400270_j61830349193773_3_alg».proof.KernelIdeal

noncomputable section

namespace Cert.Tail

open Idealize.ShloMosaic Cert.KernelIdeal

variable [Cert.KernelIdeal.Facts] {F : FTy → Type} [FloatOps F]
open Cert.KernelIdeal.Facts₀ Cert.KernelIdeal.Facts

/-- The centroid loss: the mean over batch entries and coordinates of the squared difference of the two
    meshes' centroids (coordinate sums over the vertex counts 10475 and 65536), over the batch size. -/
def centroidLoss (sumS sumO : FVec F S256x3 .f32) : FVec F S_ .f32 :=
  let cS : FVec F S256x3 .f32 := Host.divf sumS (broadcastInDim S256x3 ![] bcast_S_S256x3 (constant S_ .f32 0x4623AC00#32))
  let cO : FVec F S256x3 .f32 := Host.divf sumO (broadcastInDim S256x3 ![] bcast_S_S256x3 (constant S_ .f32 0x47800000#32))
  let dlt : FVec F S256x3 .f32 := subf cS cO
  let sq : FVec F S256x3 .f32 := mulf dlt dlt
  let tot : FVec F S_ .f32 := Host.reduceAdd sq (constant S_ .f32 0x00000000#32) reducesTo_S256x3_S_d0_1 h_S_
  Host.divf (Host.divf tot (constant S_ .f32 0x44400000#32)) (constant S_ .f32 0x43800000#32)

/-- A part's box (x0, y0, x1, y1) from its corners: the centre minus and plus 1.5 times the half width. -/
def box (lo hi : FVec F S256x8x2 .f32) : FVec F S256x8x4 .f32 :=
  let ctr : FVec F S256x8x2 .f32 := mulf (addf lo hi) (broadcastInDim S256x8x2 ![] bcast_S_S256x8x2 (constant S_ .f32 0x3F000000#32))
  let hw : FVec F S256x8x2 .f32 :=
    mulf (mulf (subf hi lo) (broadcastInDim S256x8x2 ![] bcast_S_S256x8x2 (constant S_ .f32 0x3F000000#32)))
      (broadcastInDim S256x8x2 ![] bcast_S_S256x8x2 (constant S_ .f32 0x3FC00000#32))
  concatenate S256x8x4 2 [⟨S256x8x2, subf ctr hw⟩, ⟨S256x8x2, addf ctr hw⟩] concatenates_S256x8x2_S256x8x2_S256x8x4_d2

/-- The four columns of a box array. -/
def col0 (bb : FVec F S256x8x4 .f32) : FVec F S256x8 .f32 :=
  shapeCast S256x8 (extractStridedSlice S256x8x1 ![0, 0, 0] bb slices_S256x8x4_S256x8x1_0_0_0) shapeCasts_S256x8x1_S256x8
def col1 (bb : FVec F S256x8x4 .f32) : FVec F S256x8 .f32 :=
  shapeCast S256x8 (extractStridedSlice S256x8x1 ![0, 0, 1] bb slices_S256x8x4_S256x8x1_0_0_1) shapeCasts_S256x8x1_S256x8
def col2 (bb : FVec F S256x8x4 .f32) : FVec F S256x8 .f32 :=
  shapeCast S256x8 (extractStridedSlice S256x8x1 ![0, 0, 2] bb slices_S256x8x4_S256x8x1_0_0_2) shapeCasts_S256x8x1_S256x8
def col3 (bb : FVec F S256x8x4 .f32) : FVec F S256x8 .f32 :=
  shapeCast S256x8 (extractStridedSlice S256x8x1 ![0, 0, 3] bb slices_S256x8x4_S256x8x1_0_0_3) shapeCasts_S256x8x1_S256x8

/-- Whether the object part's box meets the person part's box of the same number: neither lies wholly to
    one side of the other on either axis. -/
def boxesMeet (bbP bbO : FVec F S256x8x4 .f32) : IVec S256x8 1 :=
  noti (ori (ori (ori (cmpf .ogt (col0 bbO) (col2 bbP)) (cmpf .ogt (col0 bbP) (col2 bbO)))
    (cmpf .ogt (col1 bbO) (col3 bbP))) (cmpf .ogt (col1 bbP) (col3 bbO)))

/-- The gap between the depth range [a, b] of person part s and [c, d] of object part o: zero when the
    ranges meet, else the lesser of |c − b| and |a − d|. -/
def depthGap (a b c d : FVec F S256x8 .f32) : FVec F S256x8x8 .f32 :=
  let a1 : FVec F S256x8x1 .f32 := broadcastInDim S256x8x1 ![0, 1] bcast_S256x8_S256x8x1_0_1 a
  let b1 : FVec F S256x8x1 .f32 := broadcastInDim S256x8x1 ![0, 1] bcast_S256x8_S256x8x1_0_1 b
  let c1 : FVec F S256x1x8 .f32 := broadcastInDim S256x1x8 ![0, 2] bcast_S256x8_S256x1x8_0_2 c
  let d1 : FVec F S256x1x8 .f32 := broadcastInDim S256x1x8 ![0, 2] bcast_S256x8_S256x1x8_0_2 d
  let gap : FVec F S256x8x8 .f32 :=
    minimumf
      (Host.absf (subf (broadcastInDim S256x8x8 ![0, 1, 2] bcast_S256x1x8_S256x8x8_0_1_2 c1)
        (broadcastInDim S256x8x8 ![0, 1, 2] bcast_S256x8x1_S256x8x8_0_1_2 b1)))
      (Host.absf (subf (broadcastInDim S256x8x8 ![0, 1, 2] bcast_S256x8x1_S256x8x8_0_1_2 a1)
        (broadcastInDim S256x8x8 ![0, 1, 2] bcast_S256x1x8_S256x8x8_0_1_2 d1)))
  let meet : IVec S256x8x8 1 :=
    andi
      (cmpf .oge (broadcastInDim S256x8x8 ![0, 1, 2] bcast_S256x1x8_S256x8x8_0_1_2 d1)
        (broadcastInDim S256x8x8 ![0, 1, 2] bcast_S256x8x1_S256x8x8_0_1_2 a1))
      (cmpf .oge (broadcastInDim S256x8x8 ![0, 1, 2] bcast_S256x8x1_S256x8x8_0_1_2 b1)
        (broadcastInDim S256x8x8 ![0, 1, 2] bcast_S256x1x8_S256x8x8_0_1_2 c1))
  select meet (broadcastInDim S256x8x8 ![] bcast_S_S256x8x8 (id (constant S_ .f32 0x00000000#32))) gap

/-- The pair mask: the object part's box meets the person's box of the same number, and the depth gap is
    under 5. -/
def pairMask (meet : IVec S256x8 1) (gap : FVec F S256x8x8 .f32) : IVec S256x8x8 1 :=
  andi
    (broadcastInDim S256x8x8 ![0, 1, 2] bcast_S256x1x8_S256x8x8_0_1_2
      (broadcastInDim S256x1x8 ![0, 2] bcast_S256x8_S256x1x8_0_2 meet))
    (cmpf .olt gap (broadcastInDim S256x8x8 ![] bcast_S_S256x8x8 (constant S_ .f32 0x40A00000#32)))

/-- The mean over the three coordinates of the squared difference of a person part's and an object part's
    mean vertex. -/
def pairMse (meanS meanO : FVec F S256x8x3 .f32) : FVec F S256x8x8 .f32 :=
  let dlt : FVec F S256x8x8x3 .f32 :=
    subf
      (broadcastInDim S256x8x8x3 ![0, 1, 2, 3] bcast_S256x8x1x3_S256x8x8x3_0_1_2_3
        (broadcastInDim S256x8x1x3 ![0, 1, 3] bcast_S256x8x3_S256x8x1x3_0_1_3 meanS))
      (broadcastInDim S256x8x8x3 ![0, 1, 2, 3] bcast_S256x1x8x3_S256x8x8x3_0_1_2_3
        (broadcastInDim S256x1x8x3 ![0, 2, 3] bcast_S256x8x3_S256x1x8x3_0_2_3 meanO))
  Host.divf (Host.reduceAdd (mulf dlt dlt) (constant S_ .f32 0x00000000#32) reducesTo_S256x8x8x3_S256x8x8_d3 h_S_)
    (broadcastInDim S256x8x8 ![] bcast_S_S256x8x8 (constant S_ .f32 0x40400000#32))

/-- The masked mean of the pair distances: their sum over the selected pairs over the number selected, zero
    when none is. -/
def partsLoss (mask : IVec S256x8x8 1) (mse : FVec F S256x8x8 .f32) : FVec F S_ .f32 :=
  let cnt : IVec S_ 32 := Host.reduce IntOp.addi (extui 32 mask natLt_1_32) (constantI S_ 32 0#32) reducesTo_S256x8x8_S_d0_1_2 h_S_
  select (cmpi .sgt cnt (constantI S_ 32 0#32))
    (Host.divf (Host.reduceAdd (mulf mse (uitofp .f32 mask)) (constant S_ .f32 0x00000000#32) reducesTo_S256x8x8_S_d0_1_2 h_S_)
      (sitofp .f32 cnt))
    (constant S_ .f32 0x00000000#32)

/-- The two losses side by side. -/
def pair (l0 l1 : FVec F S_ .f32) : FVec F S2 .f32 :=
  concatenate S2 0 [⟨S1, broadcastInDim S1 ![] bcast_S_S1 l0⟩, ⟨S1, broadcastInDim S1 ![] bcast_S_S1 l1⟩] concatenates_S1_S1_S2_d0

/-- Everything after the per-part quantities. -/
def out (sumS sumO : FVec F S256x3 .f32)
    (loS hiS : FVec F S256x8x2 .f32) (zminS zmaxS : FVec F S256x8 .f32) (meanS : FVec F S256x8x3 .f32)
    (loO hiO : FVec F S256x8x2 .f32) (zminO zmaxO : FVec F S256x8 .f32) (meanO : FVec F S256x8x3 .f32) : FVec F S2 .f32 :=
  pair (centroidLoss sumS sumO)
    (partsLoss (pairMask (boxesMeet (box loS hiS) (box loO hiO)) (depthGap zminS zmaxS zminO zmaxO)) (pairMse meanS meanO))

end Cert.Tail

end
-- ==== Proof.SpecOut.lean ====
/-
  The result both programs compute, as a function of the five argument arrays: the pair of losses of
  the two meshes' coordinate sums and of the ten per-part arrays (box corners, depth ranges, means)
  of the person mesh with its part table and of the object mesh with its own.
-/
import proofs.«400270_j61830349193773_3_alg».proof.Proof.Spec
import proofs.«400270_j61830349193773_3_alg».proof.Proof.Tail
import proofs.«400270_j61830349193773_3_alg».proof.Proof.Gen.KernelIdeal

noncomputable section

namespace Cert.SpecOut

open Idealize.ShloMosaic Idealize.ShloMosaic.ValueIdx Cert.Spec

/-- A part's mean vertex: its coordinate sums over the vertex count, the count as its float word. -/
def partMean {N K : Nat} (hN : 0 < N) (A : (⟨3, ![256, N, 3]⟩ : Shape).Idx → EReal) (I : IVec (⟨2, ![8, K]⟩ : Shape) 32)
    (w : BitVec 32) : (⟨3, ![256, 8, 3]⟩ : Shape).Idx → EReal :=
  fun j => Ideal.div (partSum hN A I j) (Ideal.ofBits .f32 w)

theorem pos_smpl : 0 < 10475 := by decide
theorem pos_object : 0 < 65536 := by decide

/-- The two losses as a function of the person mesh A0, the object mesh A1, the cameras A2 and the two
    part tables I3, I4. -/
def out (A0 : (⟨3, ![256, 10475, 3]⟩ : Shape).Idx → EReal) (A1 : (⟨3, ![256, 65536, 3]⟩ : Shape).Idx → EReal)
    (A2 : (⟨3, ![256, 3, 3]⟩ : Shape).Idx → EReal) (I3 : IVec (⟨2, ![8, 1024]⟩ : Shape) 32)
    (I4 : IVec (⟨2, ![8, 2048]⟩ : Shape) 32) : Cert.KernelIdeal.S2.Idx → EReal :=
  Cert.Tail.out (F := Ideal) (coordSum A0) (coordSum A1)
    (boxLo pos_smpl A0 A2 I3) (boxHi pos_smpl A0 A2 I3) (depthMin pos_smpl A0 I3) (depthMax pos_smpl A0 I3)
    (partMean pos_smpl A0 I3 0x44800000#32)
    (boxLo pos_object A1 A2 I4) (boxHi pos_object A1 A2 I4) (depthMin pos_object A1 I4) (depthMax pos_object A1 I4)
    (partMean pos_object A1 I4 0x45000000#32)

end Cert.SpecOut

end
-- ==== Proof.KernelStagesDefs.lean ====
/-
  Names for reading the kernel program's stages: the launch contents of its five arguments at their
  literal types, and what the precondition says of the two part tables.
-/
import proofs.«400270_j61830349193773_3_alg».proof.Proof.KernelRun
import proofs.«400270_j61830349193773_3_alg».proof.Proof.SpecOut

noncomputable section

namespace Cert.KernelIdeal.Stages

open Idealize.ShloMosaic Idealize.ShloMosaic.TcCoe Idealize.ShloMosaic.StableHlo Idealize.ShloMosaic.ValueIdx
open Cert.KernelIdeal Cert.KernelIdeal.Gen

variable (m : (ℓ : Loc nD τ sig) → Buf (Elt Ideal) ℓ) (c : Dev nD)

/-- The launch contents of the five arguments on core c. -/
abbrev a0 : (⟨3, ![256, 10475, 3]⟩ : Shape).Idx → EReal := m ((c : Thread nD τ).loc main_arg0)
abbrev a1 : (⟨3, ![256, 65536, 3]⟩ : Shape).Idx → EReal := m ((c : Thread nD τ).loc main_arg1)
abbrev a2 : (⟨3, ![256, 3, 3]⟩ : Shape).Idx → EReal := m ((c : Thread nD τ).loc main_arg2)
abbrev i3 : IVec (⟨2, ![8, 1024]⟩ : Shape) 32 := m ((c : Thread nD τ).loc main_arg3)
abbrev i4 : IVec (⟨2, ![8, 2048]⟩ : Shape) 32 := m ((c : Thread nD τ).loc main_arg4)

/-- Every entry of the first part table is a vertex number of the person mesh. -/
abbrev InRangeS : Prop :=
  ∀ (p : Fin 8) (k : Fin 1024), 0 ≤ (i3 m c (ix2 p k)).toInt ∧ (i3 m c (ix2 p k)).toInt < 10475
/-- Every entry of the second part table is a vertex number of the object mesh. -/
abbrev InRangeO : Prop :=
  ∀ (p : Fin 8) (k : Fin 2048), 0 ≤ (i4 m c (ix2 p k)).toInt ∧ (i4 m c (ix2 p k)).toInt < 65536

end Cert.KernelIdeal.Stages

end
-- ==== Proof.KernelTail.lean ====
/-
  The kernel program's result is the shared closing function of its own two coordinate sums and ten per-part arrays.

  The 125 operations after the last region (the long stretch and the four after it) are read as ONE line, run from
  the contents at that region's exit. Each named piece of the closing function (a box array, the meeting test, the
  depth gap, the pair mask, the pair distances, their masked mean, the pair of losses) is one stage: the line less
  the operations before the stage's first, run from any contents, gives the stage's output buffer as the piece
  applied to its input buffers. Both sides are evaluated operation by operation; the inputs are written before the
  stage's first operation, so both sides read them at the starting contents. Cutting the line at a stage's first
  operation then states the stage at the last boundary, where the pieces compose by rewriting. The centroid loss is
  computed three stretches and two regions earlier and is carried to the last boundary by the buffers' being kept.
-/
import proofs.«400270_j61830349193773_3_alg».proof.Proof.KernelStagesDefs

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.Spec Cert.SpecOut

/-- Two lines run one after the other leave what their concatenation leaves. -/
theorem after_append {τ : Topo} {sig : RefSig} {Val : EltTy → Type} (l₁ l₂ : List (HloOp τ sig Val)) :
    ∀ V : Valuation τ sig Val, after (l₁ ++ l₂) V = after l₂ (after l₁ V) := by
  induction l₁ with
  | nil => intro V; rfl
  | cons op l ih => intro V; exact ih (op.result V)

/-- A line cut anywhere: its first n operations, then the rest. -/
theorem after_drop_take {τ : Topo} {sig : RefSig} {Val : EltTy → Type} (l : List (HloOp τ sig Val)) (n : Nat)
    (V : Valuation τ sig Val) : after (l.drop n) (after (l.take n) V) = after l V := by
  rw [← after_append, List.take_append_drop]

/-- The long stretch after the last region and the four stretches after it, as one line of 125 operations. -/
abbrev line4 : List (HloOp τ sig (Elt Ideal)) :=
  hostOps4 (F := Ideal) ++ (hostOps4_1 (F := Ideal) ++ (hostOps4_2 (F := Ideal) ++ (hostOps4_3 (F := Ideal) ++ hostOps4_4 (F := Ideal))))

/-- Makes the line, or what is left of it after its first n operations, a literal list. -/
macro "line4_literal" : tactic =>
  `(tactic| simp only [line4, hostOps4, hostOps4_1, hostOps4_2, hostOps4_3, hostOps4_4, List.cons_append, List.nil_append,
      List.drop_succ_cons, List.drop_zero])

/-! ## The stages, each over the operations from its own first one to the end, from any contents Y

Both sides are evaluated: a stage's inputs are written before its first operation, so they are read at Y on both
sides. -/

section Stages

variable (Y : Valuation τ sig (Elt Ideal))

set_option maxHeartbeats 4000000 in
/-- The person parts' boxes. -/
theorem st_bbP :
    (after (line4.drop 16) Y (Proc.devRef .tc main_v55) : S256x8x4.Idx → EReal)
      = Cert.Tail.box (F := Ideal) (after (line4.drop 16) Y (Proc.devRef .tc main_v31))
          (after (line4.drop 16) Y (Proc.devRef .tc main_v32)) := by
  line4_literal
  after_results_simp
  unfold Cert.Tail.box
  refine congrArg₂ (fun a b => concatenate S256x8x4 2 [⟨S256x8x2, a⟩, ⟨S256x8x2, b⟩] concatenates_S256x8x2_S256x8x2_S256x8x4_d2) ?_ ?_
  · after_results_simp
  · after_results_simp

set_option maxHeartbeats 4000000 in
/-- The object parts' boxes. -/
theorem st_bbO :
    (after (line4.drop 30) Y (Proc.devRef .tc main_v66) : S256x8x4.Idx → EReal)
      = Cert.Tail.box (F := Ideal) (after (line4.drop 30) Y (Proc.devRef .tc main_v38))
          (after (line4.drop 30) Y (Proc.devRef .tc main_v39)) := by
  line4_literal
  after_results_simp
  unfold Cert.Tail.box
  refine congrArg₂ (fun a b => concatenate S256x8x4 2 [⟨S256x8x2, a⟩, ⟨S256x8x2, b⟩] concatenates_S256x8x2_S256x8x2_S256x8x4_d2) ?_ ?_
  · after_results_simp
  · after_results_simp

set_option maxHeartbeats 4000000 in
/-- Whether the two boxes of a part number meet. -/
theorem st_meet :
    (after (line4.drop 44) Y (Proc.devRef .tc main_v90) : IVec S256x8 1)
      = Cert.Tail.boxesMeet (F := Ideal) (after (line4.drop 44) Y (Proc.devRef .tc main_v55))
          (after (line4.drop 44) Y (Proc.devRef .tc main_v66)) := by
  line4_literal
  after_results_simp
  rfl

set_option maxHeartbeats 4000000 in
/-- The depth gap of every pair of parts. -/
theorem st_gap :
    (after (line4.drop 68) Y (Proc.devRef .tc main_v111) : S256x8x8.Idx → EReal)
      = Cert.Tail.depthGap (F := Ideal) (after (line4.drop 68) Y (Proc.devRef .tc main_v33))
          (after (line4.drop 68) Y (Proc.devRef .tc main_v34)) (after (line4.drop 68) Y (Proc.devRef .tc main_v40))
          (after (line4.drop 68) Y (Proc.devRef .tc main_v41)) := by
  line4_literal
  after_results_simp
  rfl

set_option maxHeartbeats 4000000 in
/-- The pair mask. -/
theorem st_mask :
    (after (line4.drop 92) Y (Proc.devRef .tc main_v116) : IVec S256x8x8 1)
      = Cert.Tail.pairMask (F := Ideal) (after (line4.drop 92) Y (Proc.devRef .tc main_v90))
          (after (line4.drop 92) Y (Proc.devRef .tc main_v111)) := by
  line4_literal
  after_results_simp
  rfl

set_option maxHeartbeats 4000000 in
/-- The pair distances. -/
theorem st_mse :
    (after (line4.drop 98) Y (Proc.devRef .tc main_v125) : S256x8x8.Idx → EReal)
      = Cert.Tail.pairMse (F := Ideal) (after (line4.drop 98) Y (Proc.devRef .tc main_v37))
          (after (line4.drop 98) Y (Proc.devRef .tc main_v44)) := by
  line4_literal
  after_results_simp
  rfl

set_option maxHeartbeats 4000000 in
/-- The masked mean of the pair distances. -/
theorem st_parts :
    (after (line4.drop 109) Y (Proc.devRef .tc main_v134) : S_.Idx → EReal)
      = Cert.Tail.partsLoss (F := Ideal) (after (line4.drop 109) Y (Proc.devRef .tc main_v116))
          (after (line4.drop 109) Y (Proc.devRef .tc main_v125)) := by
  line4_literal
  after_results_simp
  simp only [TRef.toBuf, TRef.ofBuf, cast_eq]
  rfl

set_option maxHeartbeats 4000000 in
/-- The two losses side by side. -/
theorem st_last :
    (after (line4.drop 122) Y (Proc.devRef .tc main_v137) : S2.Idx → EReal)
      = Cert.Tail.pair (F := Ideal) (after (line4.drop 122) Y (Proc.devRef .tc main_v19))
          (after (line4.drop 122) Y (Proc.devRef .tc main_v134)) := by
  line4_literal
  after_results_simp
  unfold Cert.Tail.pair
  refine congrArg₂ (fun a b => concatenate S2 0 [⟨S1, a⟩, ⟨S1, b⟩] concatenates_S1_S1_S2_d0) ?_ ?_
  · after_results_simp
  · after_results_simp

set_option maxHeartbeats 4000000 in
/-- The centroid loss, in the stretch that computes it. -/
theorem st_cl :
    (after (hostOps2 (F := Ideal)) Y (Proc.devRef .tc main_v19) : S_.Idx → EReal)
      = Cert.Tail.centroidLoss (F := Ideal) (after (hostOps2 (F := Ideal)) Y (Proc.devRef .tc main_v5))
          (after (hostOps2 (F := Ideal)) Y (Proc.devRef .tc main_v10)) := by
  simp only [hostOps2]
  after_results_simp
  rfl

end Stages

/-! ## The same at the last boundary

The last boundary's contents are the line's from the contents at the last region's exit; a stage's window is the
line less its first n operations, run from what those n leave. -/

section Boundary

variable (m : (ℓ : Loc nD τ sig) → Buf (Elt Ideal) ℓ) (ρ : Dev nD → PrngReg) (c : Dev nD)

theorem W17_eq : W17 m ρ c = after line4 (W12 m ρ c) := by
  show after hostOps4_4 (after hostOps4_3 (after hostOps4_2 (after hostOps4_1 (after hostOps4 (W12 m ρ c))))) = _
  rw [line4, after_append, after_append, after_append, after_append]

theorem at17 (n : Nat) (b : DevRef τ sig) :
    after (line4.drop n) (after (line4.take n) (W12 m ρ c)) b = W17 m ρ c b := by
  rw [W17_eq, after_drop_take]

theorem bbP17 :
    (W17 m ρ c (Proc.devRef .tc main_v55) : S256x8x4.Idx → EReal)
      = Cert.Tail.box (F := Ideal) (W17 m ρ c (Proc.devRef .tc main_v31)) (W17 m ρ c (Proc.devRef .tc main_v32)) := by
  have h := st_bbP (after (line4.take 16) (W12 m ρ c))
  simp only [at17] at h
  exact h

theorem bbO17 :
    (W17 m ρ c (Proc.devRef .tc main_v66) : S256x8x4.Idx → EReal)
      = Cert.Tail.box (F := Ideal) (W17 m ρ c (Proc.devRef .tc main_v38)) (W17 m ρ c (Proc.devRef .tc main_v39)) := by
  have h := st_bbO (after (line4.take 30) (W12 m ρ c))
  simp only [at17] at h
  exact h

theorem meet17 :
    (W17 m ρ c (Proc.devRef .tc main_v90) : IVec S256x8 1)
      = Cert.Tail.boxesMeet (F := Ideal) (W17 m ρ c (Proc.devRef .tc main_v55)) (W17 m ρ c (Proc.devRef .tc main_v66)) := by
  have h := st_meet (after (line4.take 44) (W12 m ρ c))
  simp only [at17] at h
  exact h

theorem gap17 :
    (W17 m ρ c (Proc.devRef .tc main_v111) : S256x8x8.Idx → EReal)
      = Cert.Tail.depthGap (F := Ideal) (W17 m ρ c (Proc.devRef .tc main_v33)) (W17 m ρ c (Proc.devRef .tc main_v34))
          (W17 m ρ c (Proc.devRef .tc main_v40)) (W17 m ρ c (Proc.devRef .tc main_v41)) := by
  have h := st_gap (after (line4.take 68) (W12 m ρ c))
  simp only [at17] at h
  exact h

theorem mask17 :
    (W17 m ρ c (Proc.devRef .tc main_v116) : IVec S256x8x8 1)
      = Cert.Tail.pairMask (F := Ideal) (W17 m ρ c (Proc.devRef .tc main_v90)) (W17 m ρ c (Proc.devRef .tc main_v111)) := by
  have h := st_mask (after (line4.take 92) (W12 m ρ c))
  simp only [at17] at h
  exact h

theorem mse17 :
    (W17 m ρ c (Proc.devRef .tc main_v125) : S256x8x8.Idx → EReal)
      = Cert.Tail.pairMse (F := Ideal) (W17 m ρ c (Proc.devRef .tc main_v37)) (W17 m ρ c (Proc.devRef .tc main_v44)) := by
  have h := st_mse (after (line4.take 98) (W12 m ρ c))
  simp only [at17] at h
  exact h

theorem parts17 :
    (W17 m ρ c (Proc.devRef .tc main_v134) : S_.Idx → EReal)
      = Cert.Tail.partsLoss (F := Ideal) (W17 m ρ c (Proc.devRef .tc main_v116)) (W17 m ρ c (Proc.devRef .tc main_v125)) := by
  have h := st_parts (after (line4.take 109) (W12 m ρ c))
  simp only [at17] at h
  exact h

theorem last17 :
    (W17 m ρ c (Proc.devRef .tc main_v137) : S2.Idx → EReal)
      = Cert.Tail.pair (F := Ideal) (W17 m ρ c (Proc.devRef .tc main_v19)) (W17 m ρ c (Proc.devRef .tc main_v134)) := by
  have h := st_last (after (line4.take 122) (W12 m ρ c))
  simp only [at17] at h
  exact h

/-! ### The centroid loss: written three stretches and two regions earlier, and kept since -/

set_option maxHeartbeats 4000000 in
/-- The line writes neither coordinate sum nor the centroid loss. -/
theorem keep_line4 (Y : Valuation τ sig (Elt Ideal)) :
    after line4 Y (Proc.devRef .tc main_v5) = Y (Proc.devRef .tc main_v5)
      ∧ after line4 Y (Proc.devRef .tc main_v10) = Y (Proc.devRef .tc main_v10)
      ∧ after line4 Y (Proc.devRef .tc main_v19) = Y (Proc.devRef .tc main_v19) := by
  refine ⟨?_, ?_, ?_⟩ <;> (line4_literal; after_results_simp)

set_option maxHeartbeats 4000000 in
/-- Nor do the two row gathers and the stretch that lays the regions' inputs out. -/
theorem keep_mid (Y : Valuation τ sig (Elt Ideal)) :
    after (hostOps2_3 (F := Ideal)) (after (hostOps2_2 (F := Ideal)) (after (hostOps2_1 (F := Ideal)) Y)) (Proc.devRef .tc main_v5)
        = Y (Proc.devRef .tc main_v5)
      ∧ after (hostOps2_3 (F := Ideal)) (after (hostOps2_2 (F := Ideal)) (after (hostOps2_1 (F := Ideal)) Y)) (Proc.devRef .tc main_v10)
        = Y (Proc.devRef .tc main_v10)
      ∧ after (hostOps2_3 (F := Ideal)) (after (hostOps2_2 (F := Ideal)) (after (hostOps2_1 (F := Ideal)) Y)) (Proc.devRef .tc main_v19)
        = Y (Proc.devRef .tc main_v19) := by
  refine ⟨?_, ?_, ?_⟩ <;> (simp only [hostOps2_3, hostOps2_2, hostOps2_1]; after_results_simp)

theorem lift5 : W17 m ρ c (Proc.devRef .tc main_v5) = W7 m ρ c (Proc.devRef .tc main_v5) :=
  calc W17 m ρ c (Proc.devRef .tc main_v5)
    _ = W12 m ρ c (Proc.devRef .tc main_v5) := by rw [W17_eq]; exact (keep_line4 _).1
    _ = W11 m ρ c (Proc.devRef .tc main_v5) := W12_of_ne m ρ c main_v5 (by decide)
    _ = W10 m ρ c (Proc.devRef .tc main_v5) := W11_of_ne m ρ c main_v5 (by decide)
    _ = W7 m ρ c (Proc.devRef .tc main_v5) := (keep_mid (W7 m ρ c)).1

theorem lift10 : W17 m ρ c (Proc.devRef .tc main_v10) = W7 m ρ c (Proc.devRef .tc main_v10) :=
  calc W17 m ρ c (Proc.devRef .tc main_v10)
    _ = W12 m ρ c (Proc.devRef .tc main_v10) := by rw [W17_eq]; exact (keep_line4 _).2.1
    _ = W11 m ρ c (Proc.devRef .tc main_v10) := W12_of_ne m ρ c main_v10 (by decide)
    _ = W10 m ρ c (Proc.devRef .tc main_v10) := W11_of_ne m ρ c main_v10 (by decide)
    _ = W7 m ρ c (Proc.devRef .tc main_v10) := (keep_mid (W7 m ρ c)).2.1

theorem lift19 : W17 m ρ c (Proc.devRef .tc main_v19) = W7 m ρ c (Proc.devRef .tc main_v19) :=
  calc W17 m ρ c (Proc.devRef .tc main_v19)
    _ = W12 m ρ c (Proc.devRef .tc main_v19) := by rw [W17_eq]; exact (keep_line4 _).2.2
    _ = W11 m ρ c (Proc.devRef .tc main_v19) := W12_of_ne m ρ c main_v19 (by decide)
    _ = W10 m ρ c (Proc.devRef .tc main_v19) := W11_of_ne m ρ c main_v19 (by decide)
    _ = W7 m ρ c (Proc.devRef .tc main_v19) := (keep_mid (W7 m ρ c)).2.2

theorem cl17 :
    (W17 m ρ c (Proc.devRef .tc main_v19) : S_.Idx → EReal)
      = Cert.Tail.centroidLoss (F := Ideal) (W17 m ρ c (Proc.devRef .tc main_v5)) (W17 m ρ c (Proc.devRef .tc main_v10)) := by
  rw [lift19, lift5, lift10]
  exact st_cl (W6 m ρ c)

theorem result_eq :
    (W17 m ρ c (Proc.devRef .tc main_v137) : S2.Idx → EReal)
      = Cert.Tail.out (F := Ideal) (W17 m ρ c (Proc.devRef .tc main_v5)) (W17 m ρ c (Proc.devRef .tc main_v10))
          (W17 m ρ c (Proc.devRef .tc main_v31)) (W17 m ρ c (Proc.devRef .tc main_v32))
          (W17 m ρ c (Proc.devRef .tc main_v33)) (W17 m ρ c (Proc.devRef .tc main_v34)) (W17 m ρ c (Proc.devRef .tc main_v37))
          (W17 m ρ c (Proc.devRef .tc main_v38)) (W17 m ρ c (Proc.devRef .tc main_v39))
          (W17 m ρ c (Proc.devRef .tc main_v40)) (W17 m ρ c (Proc.devRef .tc main_v41)) (W17 m ρ c (Proc.devRef .tc main_v44)) := by
  unfold Cert.Tail.out
  rw [last17, cl17, parts17, mask17, meet17, bbP17, bbO17, gap17, mse17]

end Boundary

end Cert.KernelIdeal.Stages

end
-- ==== Proof.CoordSumsKernel.lean ====
/-
  What the two summing regions leave in their output arrays, on the extended reals.

  Each region walks a grid (i, j): i names a block of 128 rows, j a block of 32 groups. Its body keeps the
  block of row sums for row block i in one buffer across the points j of that i: at j = 0 it stores zeros,
  and at every j it stores what the buffer holds plus the input block summed over its 32 groups. The buffer
  is written back to the output array after the last j of each i.

  So after point (i, j) the buffer holds, at row p and lane q, the sum of the input at row 128·i + p over the
  first 32·(j + 1) groups (induction on j: 0 is neutral for addition, and a run of runs of terms is one run);
  after the last j that is the sum over all groups, and the blocks written back, one per i, tile the output.
  Hence output element (r, q) is the sum over all groups g of the input at (r, g, q): 96 groups in the first
  region (3 blocks of 32), 512 in the second (16 blocks of 32). No subtraction and no finiteness is used: only
  that addition of extended reals is a commutative monoid with 0 neutral.
-/
import proofs.«400270_j61830349193773_3_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
import Mathlib.Algebra.BigOperators.Fin
import Mathlib.Algebra.BigOperators.Intervals

noncomputable section

open Idealize.ShloMosaic Idealize.ShloMosaic.TcCoe Idealize.SL.Sem
open Idealize.ShloMosaic.Pipeline (Dat)
open Idealize.ShloMosaic.ValueIdx

namespace Cert.KernelIdeal.CoordSums

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- J consecutive runs of L terms of a sequence, summed run by run, are its first J · L terms. -/
theorem sum_runs {M : Type*} [AddCommMonoid M] (L : Nat) (h : Nat → M) :
    ∀ J : Nat, (∑ s ∈ Finset.range J, ∑ g : Fin L, h (L * s + g.val)) = ∑ n ∈ Finset.range (L * J), h n
  | 0 => by simp
  | J + 1 => by
    rw [Finset.sum_range_succ, sum_runs L h J, Nat.mul_succ, Finset.sum_range_add,
      Fin.sum_univ_eq_sum_range (fun l => h (L * J + l)) L]

/-! ## Region 0: the row sums over all 96 groups, accumulated 3 blocks of 32 groups at a time -/

section Region0

/-- What one point leaves, case by case, as the body's payloads of what it read. -/
theorem out0_B (c : Dev nD) (i : grid0.Coords) (a2 : Memref sig .tc .vmem S128x32x384 .f32) (h2 : a2.IsWhole)
    (a3 : Memref sig .tc .vmem S128x384 .f32) (h3 : a3.IsWhole) (hc : ¬cond0_0 i)
    (x : Vec F S128x32x384 .f32) (xo : Vec F S128x384 .f32) :
    out0_B_1 c i a2 h2 a3 h3 hc x xo = k0_pay2 xo x := by
  unfold out0_B_1
  rw [View.read_writes_eq_canon _ _ _ (cover0_B_1 c i a2 h2 a3 h3 hc x xo)]
  unfold kernelRun0_B
  dsimp only
  sl_unfold_words
  rw [View.canon_unit_zero hz2]
  simp only [View.readAt_eq_ld, h2.read_unread, h3.read_unread, View.ld_unit_zero (S := S128x384) hz2,
    View.ld_unit_zero (S := S128x32x384) hz3]

theorem out0_A (c : Dev nD) (i : grid0.Coords) (a2 : Memref sig .tc .vmem S128x32x384 .f32) (h2 : a2.IsWhole)
    (a3 : Memref sig .tc .vmem S128x384 .f32) (h3 : a3.IsWhole) (hc : cond0_0 i)
    (x : Vec F S128x32x384 .f32) :
    out0_A_1 c i a2 h2 a3 h3 hc x = k0_pay2 (k0_pay1 (F := F)) x := by
  unfold out0_A_1
  rw [View.read_writes_eq_canon _ _ _ (cover0_A_1 c i a2 h2 a3 h3 hc x)]
  unfold kernelRun0_A
  dsimp only
  sl_unfold_words
  rw [View.canon_cons_unit_zero (S := S128x384) hz2, View.readCov_unit_zero (S := S128x384) _ hz2]
  simp only [View.readAt_eq_ld, h2.read_unread, View.ld_unit_zero (S := S128x32x384) hz3]

/-- The accumulating payload at row p, lane q, on the extended reals: what was held there plus the sum of the
    block over its 32 groups. -/
theorem pay0_2_apply (xo : FVec Ideal S128x384 .f32) (x : FVec Ideal S128x32x384 .f32) (p : Fin 128) (q : Fin 384) :
    k0_pay2 (F := Ideal) xo x (ix2 p q) = xo (ix2 p q) + ∑ g : Fin 32, x (ix3 p g q) := by
  unfold k0_pay2
  dsimp only
  refine (addf_apply _ _ (ix2 p q)).trans ?_
  refine congrArg₂ (· + ·) (congrFun (shapeCast_self xo _) (ix2 p q)) ?_
  refine (Ideal.multiReduction_add_single _ 0x00000000#32 reduces_S128x32x384_S128x384 (.inl rfl) rfl (ix2 p q)).trans ?_
  refine Finset.sum_congr rfl fun g _ => ?_
  refine (congrFun (shapeCast_self x _) _).trans ?_
  refine congrArg x (funext fun a => ?_)
  match a with
  | ⟨0, _⟩ => rfl
  | ⟨1, _⟩ => rfl
  | ⟨2, _⟩ => rfl

/-- The resetting payload is zero everywhere. -/
theorem pay0_1_apply (p : Fin 128) (q : Fin 384) : k0_pay1 (F := Ideal) (ix2 p q) = 0 :=
  Ideal.ofBits_zero_f32

variable (V : (c : Dev nD) → (b : Ref sig .tc) → Buf (Elt Ideal) ((c : Thread nD τ).loc b))

/-- The summed array as the region finds it, and its block at a point. -/
abbrev groups0 (c : Dev nD) : S256x96x384.Idx → EReal := V c (Pipeline.arrRef spec0 0)
abbrev inBlk0 (c : Dev nD) (t : Fin cfg0.N) : FVec Ideal S128x32x384 .f32 := iblk0 V c 0 t

/-- The array read at natural-number row and group (zero outside its extents), so that sums over runs of groups
    can be regrouped as sums over ranges. -/
def arrN0 (c : Dev nD) (r n : Nat) (q : Fin 384) : EReal :=
  if h : r < 256 ∧ n < 96 then groups0 V c (ix3 ⟨r, h.1⟩ ⟨n, h.2⟩ q) else 0

/-- The printed index maps in closed form, decided over the grid: point t is row block t / 3, group block t % 3. -/
theorem idx0 : ∀ t : Fin cfg0.N, win0_0.index t (0 : Fin 3) = t.val / 3 ∧ win0_0.index t (1 : Fin 3) = t.val % 3
    ∧ win0_0.index t (2 : Fin 3) = 0 ∧ win0_1.index t (0 : Fin 2) = t.val / 3 ∧ win0_1.index t (1 : Fin 2) = 0 :=
  (by decide +kernel : ∀ t : Fin grid0.N, _)

/-- The block at point t holds rows 128·(t / 3) + p and groups 32·(t % 3) + g of the array. -/
theorem inBlk0_apply (c : Dev nD) (t : Fin cfg0.N) (p : Fin 128) (g : Fin 32) (q : Fin 384) :
    inBlk0 V c t (ix3 p g q) = arrN0 V c (128 * (t.val / 3) + p.val) (32 * (t.val % 3) + g.val) q := by
  have hN : t.val < 6 := lt_of_lt_of_eq t.isLt (show cfg0.N = 6 from N_0)
  have hp := p.isLt
  have hg := g.isLt
  obtain ⟨e0, e1, e2, -, -⟩ := idx0 t
  unfold arrN0
  rw [dif_pos ⟨by omega, by omega⟩]
  unfold inBlk0 iblk0
  rw [View.read_apply]
  show V c (Pipeline.arrRef spec0 0) _ = V c (Pipeline.arrRef spec0 0) _
  congr 1
  funext a
  apply Fin.ext
  match a with
  | ⟨0, _⟩ => show win0_0.index t (0 : Fin 3) * 128 + 1 * p.val = 128 * (t.val / 3) + p.val; rw [e0]; omega
  | ⟨1, _⟩ => show win0_0.index t (1 : Fin 3) * 32 + 1 * g.val = 32 * (t.val % 3) + g.val; rw [e1]; omega
  | ⟨2, _⟩ => show win0_0.index t (2 : Fin 3) * 384 + 1 * q.val = q.val; rw [e2]; omega

/-- At the first point of a run the buffer is reset and then holds the block's group sums. -/
theorem step0_A (c : Dev nD) (t : Fin cfg0.N) (h0 : t.val % 3 = 0) (p : Fin 128) (q : Fin 384) :
    outsAt0 V c t.val t.isLt (ix2 p q) = ∑ g : Fin 32, inBlk0 V c t (ix3 p g q) := by
  rw [outsAt0_A V c t h0]
  refine (congrFun (out0_A (F := Ideal) c (grid0.coords t) (ms0_0 t) (hs0_0 t) (ms0_1 t) (hs0_1 t)
    ((hcond0_0 t).mpr h0) (iblk0 V c 0 t)) (ix2 p q)).trans ?_
  refine (pay0_2_apply (k0_pay1 (F := Ideal)) (inBlk0 V c t) p q).trans ?_
  rw [pay0_1_apply, zero_add]

/-- At every other point it holds what the point before left plus the block's group sums. -/
theorem step0_B (c : Dev nD) (t : Fin cfg0.N) (h0 : ¬t.val % 3 = 0) (p : Fin 128) (q : Fin 384) :
    outsAt0 V c t.val t.isLt (ix2 p q)
      = outsAt0 V c (t.val - 1) (Nat.lt_of_le_of_lt (Nat.sub_le _ _) t.isLt) (ix2 p q)
        + ∑ g : Fin 32, inBlk0 V c t (ix3 p g q) := by
  rw [outsAt0_B V c t h0]
  refine (congrFun (out0_B (F := Ideal) c (grid0.coords t) (ms0_0 t) (hs0_0 t) (ms0_1 t) (hs0_1 t)
    (fun h => h0 ((hcond0_0 t).mp h)) (iblk0 V c 0 t)
    (outsAt0 V c (t.val - 1) (Nat.lt_of_le_of_lt (Nat.sub_le _ _) t.isLt))) (ix2 p q)).trans ?_
  exact pay0_2_apply _ (inBlk0 V c t) p q

/-- The same point named twice. -/
theorem outsAt0_congr (c : Dev nD) (a b : Nat) (e : a = b) (ha : a < cfg0.N) (hb : b < cfg0.N) :
    outsAt0 V c a ha = outsAt0 V c b hb := by subst e; rfl

/-- THE RUNNING SUM: after point 3·i + j of row block i the buffer holds, at row p and lane q, the sum over the
    first 32·(j + 1) groups — by induction on j. -/
theorem acc0 (c : Dev nD) (i : Nat) (p : Fin 128) (q : Fin 384) :
    ∀ (j : Nat) (_ : j < 3) (h : 3 * i + j < cfg0.N),
      outsAt0 V c (3 * i + j) h (ix2 p q)
        = ∑ s ∈ Finset.range (j + 1), ∑ g : Fin 32, arrN0 V c (128 * i + p.val) (32 * s + g.val) q
  | 0, _, h => by
    have e1 : (3 * i + 0) / 3 = i := by omega
    have e2 : (3 * i + 0) % 3 = 0 := by omega
    refine (step0_A V c ⟨3 * i + 0, h⟩ e2 p q).trans ?_
    rw [Finset.sum_range_one]
    refine Finset.sum_congr rfl fun g _ => ?_
    refine (inBlk0_apply V c ⟨3 * i + 0, h⟩ p g q).trans ?_
    show arrN0 V c (128 * ((3 * i + 0) / 3) + p.val) (32 * ((3 * i + 0) % 3) + g.val) q = _
    rw [e1, e2]
  | j + 1, hj, h => by
    have e1 : (3 * i + (j + 1)) / 3 = i := by omega
    have e2 : (3 * i + (j + 1)) % 3 = j + 1 := by omega
    have hB : ¬(3 * i + (j + 1)) % 3 = 0 := by omega
    refine (step0_B V c ⟨3 * i + (j + 1), h⟩ hB p q).trans ?_
    rw [Finset.sum_range_succ _ (j + 1)]
    refine congrArg₂ (· + ·) ?_ ?_
    · refine (congrFun (outsAt0_congr V c _ (3 * i + j) (by show 3 * i + (j + 1) - 1 = 3 * i + j; omega) _
        (Nat.lt_of_succ_lt h)) (ix2 p q)).trans ?_
      exact acc0 c i p q j (Nat.lt_of_succ_lt hj) (Nat.lt_of_succ_lt h)
    · refine Finset.sum_congr rfl fun g _ => ?_
      refine (inBlk0_apply V c ⟨3 * i + (j + 1), h⟩ p g q).trans ?_
      show arrN0 V c (128 * ((3 * i + (j + 1)) / 3) + p.val) (32 * ((3 * i + (j + 1)) % 3) + g.val) q = _
      rw [e1, e2]

/-- A row's sum over all 96 groups. -/
def rowSum0 (c : Dev nD) (r : Fin 256) (q : Fin 384) : EReal := ∑ g : Fin 96, groups0 V c (ix3 r g q)

/-- The natural-number reading summed over the first 96 groups is the row's sum. -/
theorem sum_arrN0 (c : Dev nD) (r : Fin 256) (q : Fin 384) :
    (∑ n ∈ Finset.range 96, arrN0 V c r.val n q) = rowSum0 V c r q := by
  rw [← Fin.sum_univ_eq_sum_range (fun n => arrN0 V c r.val n q) 96]
  refine Finset.sum_congr rfl fun g _ => ?_
  unfold arrN0
  rw [dif_pos ⟨r.isLt, g.isLt⟩]

/-- What the output array ends holding: at (r, q) the row's sum. -/
def sums0 (c : Dev nD) : FVec Ideal S256x384 .f32 := fun j => rowSum0 V c (j 0) (j 1)

/-- An index of the output array is in point t's block iff each coordinate is in the block's range. -/
theorem mem_blk0 (t : Fin cfg0.N) (i : S256x384.Idx) :
    i ∈ ((cfg0.win 1).blk t).view.set ↔ ∀ a : Fin 2, win0_1.index t a * S128x384.size a ≤ (i a).val
      ∧ (i a).val < win0_1.index t a * S128x384.size a + S128x384.size a := by
  show i ∈ ((View.whole main_v3).slice (win0_1.rect t)).set ↔ _
  rw [View.set_slice_whole, Rect.mem_set_unit]
  exact Iff.rfl

/-- WHAT A WRITING-BACK POINT WRITES (the last of its row block's run) is its block of the row sums. -/
theorem flushed0_eq (c : Dev nD) (t : Fin cfg0.N) (hf : (cfg0.win 1).flush t = true) :
    (dat0 (F := Ideal) V c).flushed 1 t = ((cfg0.win 1).blk t).view.read (Elt Ideal) (sums0 V c) := by
  have hN : t.val < 6 := lt_of_lt_of_eq t.isLt (show cfg0.N = 6 from N_0)
  have hm : t.val % 3 = 3 - 1 := (flush0_1 t).mp hf
  obtain ⟨-, -, -, e3, e4⟩ := idx0 t
  show (cfg0.win 1).cut (grid0.coords t) ((dat0 (F := Ideal) V c).after 1 t) = _
  rw [after0_1]
  funext y
  obtain ⟨p, q, rfl⟩ : ∃ (p : Fin 128) (q : Fin 384), y = ix2 p q := ⟨y 0, y 1, eq_ix2 y⟩
  have hp := p.isLt
  have hr : 128 * (t.val / 3) + p.val < 256 := by omega
  have hemb : ((cfg0.win 1).blk t).view.emb (ix2 p q) = (ix2 ⟨128 * (t.val / 3) + p.val, hr⟩ q : S256x384.Idx) := by
    funext a
    apply Fin.ext
    match a with
    | ⟨0, _⟩ => show win0_1.index t (0 : Fin 2) * 128 + 1 * p.val = 128 * (t.val / 3) + p.val; rw [e3]; omega
    | ⟨1, _⟩ => show win0_1.index t (1 : Fin 2) * 384 + 1 * q.val = q.val; rw [e4]; omega
  rw [View.read_apply, hemb]
  show outsAt0 V c t.val t.isLt (ix2 p q) = rowSum0 V c ⟨128 * (t.val / 3) + p.val, hr⟩ q
  have ht : 3 * (t.val / 3) + (3 - 1) = t.val := by omega
  refine (congrFun (outsAt0_congr V c t.val (3 * (t.val / 3) + (3 - 1)) ht.symm t.isLt (lt_of_eq_of_lt ht t.isLt)) (ix2 p q)).trans ?_
  refine (acc0 V c (t.val / 3) p q (3 - 1) (by omega) (lt_of_eq_of_lt ht t.isLt)).trans ?_
  rw [sum_runs 32 (fun n => arrN0 V c (128 * (t.val / 3) + p.val) n q) (3 - 1 + 1)]
  exact sum_arrN0 V c ⟨128 * (t.val / 3) + p.val, hr⟩ q

/-- Every row of the output lies in the block its row block's last point writes back. -/
theorem cover0 (i : S256x384.Idx) :
    ∃ t : Fin cfg0.N, (cfg0.win 1).flush t = true ∧ i ∈ ((cfg0.win 1).blk t).view.set := by
  have h0 : (i 0).val < 256 := (i 0).isLt
  have h1 : (i 1).val < 384 := (i 1).isLt
  have hN : cfg0.N = 6 := N_0
  have hlt : 3 * ((i 0).val / 128) + (3 - 1) < cfg0.N := by rw [hN]; omega
  refine ⟨⟨3 * ((i 0).val / 128) + (3 - 1), hlt⟩, (flush0_1 _).mpr (by show (3 * ((i 0).val / 128) + (3 - 1)) % 3 = 3 - 1; omega), ?_⟩
  obtain ⟨-, -, -, e3, e4⟩ := idx0 ⟨3 * ((i 0).val / 128) + (3 - 1), hlt⟩
  have e3' : win0_1.index ⟨3 * ((i 0).val / 128) + (3 - 1), hlt⟩ (0 : Fin 2) = (i 0).val / 128 := by
    rw [e3]; show (3 * ((i 0).val / 128) + (3 - 1)) / 3 = (i 0).val / 128; omega
  rw [mem_blk0]
  intro a
  match a with
  | ⟨0, _⟩ =>
    show win0_1.index ⟨3 * ((i 0).val / 128) + (3 - 1), hlt⟩ (0 : Fin 2) * 128 ≤ (i 0).val
      ∧ (i 0).val < win0_1.index ⟨3 * ((i 0).val / 128) + (3 - 1), hlt⟩ (0 : Fin 2) * 128 + 128
    rw [e3']; omega
  | ⟨1, _⟩ =>
    show win0_1.index ⟨3 * ((i 0).val / 128) + (3 - 1), hlt⟩ (1 : Fin 2) * 384 ≤ (i 1).val
      ∧ (i 1).val < win0_1.index ⟨3 * ((i 0).val / 128) + (3 - 1), hlt⟩ (1 : Fin 2) * 384 + 384
    rw [e4]; omega

/-- The output array after the region: the row sums. -/
theorem final0 (c : Dev nD) : (dat0 (F := Ideal) V c).arrAt 1 cfg0.N = sums0 V c :=
  (dat0 (F := Ideal) V c).arrAt_eq_of_cover 1 (sums0 V c) (flushed0_eq V c) cover0

/-- After region 0, output element (r, q) is the sum over all 96 groups g of the input at (r, g, q). -/
theorem region0_sums (c : Dev nD) (r : Fin 256) (q : Fin 384) :
    (dat0 (F := Ideal) V c).arrAt 1 cfg0.N (ix2 r q) = ∑ g : Fin 96, groups0 V c (ix3 r g q) :=
  congrFun (final0 V c) (ix2 r q)

end Region0

/-! ## Region 1: the row sums over all 512 groups, accumulated 16 blocks of 32 groups at a time -/

section Region1

/-- What one point leaves, case by case, as the body's payloads of what it read. -/
theorem out1_B (c : Dev nD) (i : grid1.Coords) (a2 : Memref sig .tc .vmem S128x32x384 .f32) (h2 : a2.IsWhole)
    (a3 : Memref sig .tc .vmem S128x384 .f32) (h3 : a3.IsWhole) (hc : ¬cond1_0 i)
    (x : Vec F S128x32x384 .f32) (xo : Vec F S128x384 .f32) :
    out1_B_1 c i a2 h2 a3 h3 hc x xo = k1_pay2 xo x := by
  unfold out1_B_1
  rw [View.read_writes_eq_canon _ _ _ (cover1_B_1 c i a2 h2 a3 h3 hc x xo)]
  unfold kernelRun1_B
  dsimp only
  sl_unfold_words
  rw [View.canon_unit_zero hz2]
  simp only [View.readAt_eq_ld, h2.read_unread, h3.read_unread, View.ld_unit_zero (S := S128x384) hz2,
    View.ld_unit_zero (S := S128x32x384) hz3]

theorem out1_A (c : Dev nD) (i : grid1.Coords) (a2 : Memref sig .tc .vmem S128x32x384 .f32) (h2 : a2.IsWhole)
    (a3 : Memref sig .tc .vmem S128x384 .f32) (h3 : a3.IsWhole) (hc : cond1_0 i)
    (x : Vec F S128x32x384 .f32) :
    out1_A_1 c i a2 h2 a3 h3 hc x = k1_pay2 (k1_pay1 (F := F)) x := by
  unfold out1_A_1
  rw [View.read_writes_eq_canon _ _ _ (cover1_A_1 c i a2 h2 a3 h3 hc x)]
  unfold kernelRun1_A
  dsimp only
  sl_unfold_words
  rw [View.canon_cons_unit_zero (S := S128x384) hz2, View.readCov_unit_zero (S := S128x384) _ hz2]
  simp only [View.readAt_eq_ld, h2.read_unread, View.ld_unit_zero (S := S128x32x384) hz3]

/-- The accumulating payload at row p, lane q, on the extended reals: what was held there plus the sum of the
    block over its 32 groups. -/
theorem pay1_2_apply (xo : FVec Ideal S128x384 .f32) (x : FVec Ideal S128x32x384 .f32) (p : Fin 128) (q : Fin 384) :
    k1_pay2 (F := Ideal) xo x (ix2 p q) = xo (ix2 p q) + ∑ g : Fin 32, x (ix3 p g q) := by
  unfold k1_pay2
  dsimp only
  refine (addf_apply _ _ (ix2 p q)).trans ?_
  refine congrArg₂ (· + ·) (congrFun (shapeCast_self xo _) (ix2 p q)) ?_
  refine (Ideal.multiReduction_add_single _ 0x00000000#32 reduces_S128x32x384_S128x384 (.inl rfl) rfl (ix2 p q)).trans ?_
  refine Finset.sum_congr rfl fun g _ => ?_
  refine (congrFun (shapeCast_self x _) _).trans ?_
  refine congrArg x (funext fun a => ?_)
  match a with
  | ⟨0, _⟩ => rfl
  | ⟨1, _⟩ => rfl
  | ⟨2, _⟩ => rfl

/-- The resetting payload is zero everywhere. -/
theorem pay1_1_apply (p : Fin 128) (q : Fin 384) : k1_pay1 (F := Ideal) (ix2 p q) = 0 :=
  Ideal.ofBits_zero_f32

variable (V : (c : Dev nD) → (b : Ref sig .tc) → Buf (Elt Ideal) ((c : Thread nD τ).loc b))

/-- The summed array as the region finds it, and its block at a point. -/
abbrev groups1 (c : Dev nD) : S256x512x384.Idx → EReal := V c (Pipeline.arrRef spec1 0)
abbrev inBlk1 (c : Dev nD) (t : Fin cfg1.N) : FVec Ideal S128x32x384 .f32 := iblk1 V c 0 t

/-- The array read at natural-number row and group (zero outside its extents), so that sums over runs of groups
    can be regrouped as sums over ranges. -/
def arrN1 (c : Dev nD) (r n : Nat) (q : Fin 384) : EReal :=
  if h : r < 256 ∧ n < 512 then groups1 V c (ix3 ⟨r, h.1⟩ ⟨n, h.2⟩ q) else 0

/-- The printed index maps in closed form, decided over the grid: point t is row block t / 16, group block t % 16. -/
theorem idx1 : ∀ t : Fin cfg1.N, win1_0.index t (0 : Fin 3) = t.val / 16 ∧ win1_0.index t (1 : Fin 3) = t.val % 16
    ∧ win1_0.index t (2 : Fin 3) = 0 ∧ win1_1.index t (0 : Fin 2) = t.val / 16 ∧ win1_1.index t (1 : Fin 2) = 0 :=
  (by decide +kernel : ∀ t : Fin grid1.N, _)

/-- The block at point t holds rows 128·(t / 16) + p and groups 32·(t % 16) + g of the array. -/
theorem inBlk1_apply (c : Dev nD) (t : Fin cfg1.N) (p : Fin 128) (g : Fin 32) (q : Fin 384) :
    inBlk1 V c t (ix3 p g q) = arrN1 V c (128 * (t.val / 16) + p.val) (32 * (t.val % 16) + g.val) q := by
  have hN : t.val < 32 := lt_of_lt_of_eq t.isLt (show cfg1.N = 32 from N_1)
  have hp := p.isLt
  have hg := g.isLt
  obtain ⟨e0, e1, e2, -, -⟩ := idx1 t
  unfold arrN1
  rw [dif_pos ⟨by omega, by omega⟩]
  unfold inBlk1 iblk1
  rw [View.read_apply]
  show V c (Pipeline.arrRef spec1 0) _ = V c (Pipeline.arrRef spec1 0) _
  congr 1
  funext a
  apply Fin.ext
  match a with
  | ⟨0, _⟩ => show win1_0.index t (0 : Fin 3) * 128 + 1 * p.val = 128 * (t.val / 16) + p.val; rw [e0]; omega
  | ⟨1, _⟩ => show win1_0.index t (1 : Fin 3) * 32 + 1 * g.val = 32 * (t.val % 16) + g.val; rw [e1]; omega
  | ⟨2, _⟩ => show win1_0.index t (2 : Fin 3) * 384 + 1 * q.val = q.val; rw [e2]; omega

/-- At the first point of a run the buffer is reset and then holds the block's group sums. -/
theorem step1_A (c : Dev nD) (t : Fin cfg1.N) (h0 : t.val % 16 = 0) (p : Fin 128) (q : Fin 384) :
    outsAt1 V c t.val t.isLt (ix2 p q) = ∑ g : Fin 32, inBlk1 V c t (ix3 p g q) := by
  rw [outsAt1_A V c t h0]
  refine (congrFun (out1_A (F := Ideal) c (grid1.coords t) (ms1_0 t) (hs1_0 t) (ms1_1 t) (hs1_1 t)
    ((hcond1_0 t).mpr h0) (iblk1 V c 0 t)) (ix2 p q)).trans ?_
  refine (pay1_2_apply (k1_pay1 (F := Ideal)) (inBlk1 V c t) p q).trans ?_
  rw [pay1_1_apply, zero_add]

/-- At every other point it holds what the point before left plus the block's group sums. -/
theorem step1_B (c : Dev nD) (t : Fin cfg1.N) (h0 : ¬t.val % 16 = 0) (p : Fin 128) (q : Fin 384) :
    outsAt1 V c t.val t.isLt (ix2 p q)
      = outsAt1 V c (t.val - 1) (Nat.lt_of_le_of_lt (Nat.sub_le _ _) t.isLt) (ix2 p q)
        + ∑ g : Fin 32, inBlk1 V c t (ix3 p g q) := by
  rw [outsAt1_B V c t h0]
  refine (congrFun (out1_B (F := Ideal) c (grid1.coords t) (ms1_0 t) (hs1_0 t) (ms1_1 t) (hs1_1 t)
    (fun h => h0 ((hcond1_0 t).mp h)) (iblk1 V c 0 t)
    (outsAt1 V c (t.val - 1) (Nat.lt_of_le_of_lt (Nat.sub_le _ _) t.isLt))) (ix2 p q)).trans ?_
  exact pay1_2_apply _ (inBlk1 V c t) p q

/-- The same point named twice. -/
theorem outsAt1_congr (c : Dev nD) (a b : Nat) (e : a = b) (ha : a < cfg1.N) (hb : b < cfg1.N) :
    outsAt1 V c a ha = outsAt1 V c b hb := by subst e; rfl

/-- THE RUNNING SUM: after point 16·i + j of row block i the buffer holds, at row p and lane q, the sum over the
    first 32·(j + 1) groups — by induction on j. -/
theorem acc1 (c : Dev nD) (i : Nat) (p : Fin 128) (q : Fin 384) :
    ∀ (j : Nat) (_ : j < 16) (h : 16 * i + j < cfg1.N),
      outsAt1 V c (16 * i + j) h (ix2 p q)
        = ∑ s ∈ Finset.range (j + 1), ∑ g : Fin 32, arrN1 V c (128 * i + p.val) (32 * s + g.val) q
  | 0, _, h => by
    have e1 : (16 * i + 0) / 16 = i := by omega
    have e2 : (16 * i + 0) % 16 = 0 := by omega
    refine (step1_A V c ⟨16 * i + 0, h⟩ e2 p q).trans ?_
    rw [Finset.sum_range_one]
    refine Finset.sum_congr rfl fun g _ => ?_
    refine (inBlk1_apply V c ⟨16 * i + 0, h⟩ p g q).trans ?_
    show arrN1 V c (128 * ((16 * i + 0) / 16) + p.val) (32 * ((16 * i + 0) % 16) + g.val) q = _
    rw [e1, e2]
  | j + 1, hj, h => by
    have e1 : (16 * i + (j + 1)) / 16 = i := by omega
    have e2 : (16 * i + (j + 1)) % 16 = j + 1 := by omega
    have hB : ¬(16 * i + (j + 1)) % 16 = 0 := by omega
    refine (step1_B V c ⟨16 * i + (j + 1), h⟩ hB p q).trans ?_
    rw [Finset.sum_range_succ _ (j + 1)]
    refine congrArg₂ (· + ·) ?_ ?_
    · refine (congrFun (outsAt1_congr V c _ (16 * i + j) (by show 16 * i + (j + 1) - 1 = 16 * i + j; omega) _
        (Nat.lt_of_succ_lt h)) (ix2 p q)).trans ?_
      exact acc1 c i p q j (Nat.lt_of_succ_lt hj) (Nat.lt_of_succ_lt h)
    · refine Finset.sum_congr rfl fun g _ => ?_
      refine (inBlk1_apply V c ⟨16 * i + (j + 1), h⟩ p g q).trans ?_
      show arrN1 V c (128 * ((16 * i + (j + 1)) / 16) + p.val) (32 * ((16 * i + (j + 1)) % 16) + g.val) q = _
      rw [e1, e2]

/-- A row's sum over all 512 groups. -/
def rowSum1 (c : Dev nD) (r : Fin 256) (q : Fin 384) : EReal := ∑ g : Fin 512, groups1 V c (ix3 r g q)

/-- The natural-number reading summed over the first 512 groups is the row's sum. -/
theorem sum_arrN1 (c : Dev nD) (r : Fin 256) (q : Fin 384) :
    (∑ n ∈ Finset.range 512, arrN1 V c r.val n q) = rowSum1 V c r q := by
  rw [← Fin.sum_univ_eq_sum_range (fun n => arrN1 V c r.val n q) 512]
  refine Finset.sum_congr rfl fun g _ => ?_
  unfold arrN1
  rw [dif_pos ⟨r.isLt, g.isLt⟩]

/-- What the output array ends holding: at (r, q) the row's sum. -/
def sums1 (c : Dev nD) : FVec Ideal S256x384 .f32 := fun j => rowSum1 V c (j 0) (j 1)

/-- An index of the output array is in point t's block iff each coordinate is in the block's range. -/
theorem mem_blk1 (t : Fin cfg1.N) (i : S256x384.Idx) :
    i ∈ ((cfg1.win 1).blk t).view.set ↔ ∀ a : Fin 2, win1_1.index t a * S128x384.size a ≤ (i a).val
      ∧ (i a).val < win1_1.index t a * S128x384.size a + S128x384.size a := by
  show i ∈ ((View.whole main_v8).slice (win1_1.rect t)).set ↔ _
  rw [View.set_slice_whole, Rect.mem_set_unit]
  exact Iff.rfl

/-- WHAT A WRITING-BACK POINT WRITES (the last of its row block's run) is its block of the row sums. -/
theorem flushed1_eq (c : Dev nD) (t : Fin cfg1.N) (hf : (cfg1.win 1).flush t = true) :
    (dat1 (F := Ideal) V c).flushed 1 t = ((cfg1.win 1).blk t).view.read (Elt Ideal) (sums1 V c) := by
  have hN : t.val < 32 := lt_of_lt_of_eq t.isLt (show cfg1.N = 32 from N_1)
  have hm : t.val % 16 = 16 - 1 := (flush1_1 t).mp hf
  obtain ⟨-, -, -, e3, e4⟩ := idx1 t
  show (cfg1.win 1).cut (grid1.coords t) ((dat1 (F := Ideal) V c).after 1 t) = _
  rw [after1_1]
  funext y
  obtain ⟨p, q, rfl⟩ : ∃ (p : Fin 128) (q : Fin 384), y = ix2 p q := ⟨y 0, y 1, eq_ix2 y⟩
  have hp := p.isLt
  have hr : 128 * (t.val / 16) + p.val < 256 := by omega
  have hemb : ((cfg1.win 1).blk t).view.emb (ix2 p q) = (ix2 ⟨128 * (t.val / 16) + p.val, hr⟩ q : S256x384.Idx) := by
    funext a
    apply Fin.ext
    match a with
    | ⟨0, _⟩ => show win1_1.index t (0 : Fin 2) * 128 + 1 * p.val = 128 * (t.val / 16) + p.val; rw [e3]; omega
    | ⟨1, _⟩ => show win1_1.index t (1 : Fin 2) * 384 + 1 * q.val = q.val; rw [e4]; omega
  rw [View.read_apply, hemb]
  show outsAt1 V c t.val t.isLt (ix2 p q) = rowSum1 V c ⟨128 * (t.val / 16) + p.val, hr⟩ q
  have ht : 16 * (t.val / 16) + (16 - 1) = t.val := by omega
  refine (congrFun (outsAt1_congr V c t.val (16 * (t.val / 16) + (16 - 1)) ht.symm t.isLt (lt_of_eq_of_lt ht t.isLt)) (ix2 p q)).trans ?_
  refine (acc1 V c (t.val / 16) p q (16 - 1) (by omega) (lt_of_eq_of_lt ht t.isLt)).trans ?_
  rw [sum_runs 32 (fun n => arrN1 V c (128 * (t.val / 16) + p.val) n q) (16 - 1 + 1)]
  exact sum_arrN1 V c ⟨128 * (t.val / 16) + p.val, hr⟩ q

/-- Every row of the output lies in the block its row block's last point writes back. -/
theorem cover1 (i : S256x384.Idx) :
    ∃ t : Fin cfg1.N, (cfg1.win 1).flush t = true ∧ i ∈ ((cfg1.win 1).blk t).view.set := by
  have h0 : (i 0).val < 256 := (i 0).isLt
  have h1 : (i 1).val < 384 := (i 1).isLt
  have hN : cfg1.N = 32 := N_1
  have hlt : 16 * ((i 0).val / 128) + (16 - 1) < cfg1.N := by rw [hN]; omega
  refine ⟨⟨16 * ((i 0).val / 128) + (16 - 1), hlt⟩, (flush1_1 _).mpr (by show (16 * ((i 0).val / 128) + (16 - 1)) % 16 = 16 - 1; omega), ?_⟩
  obtain ⟨-, -, -, e3, e4⟩ := idx1 ⟨16 * ((i 0).val / 128) + (16 - 1), hlt⟩
  have e3' : win1_1.index ⟨16 * ((i 0).val / 128) + (16 - 1), hlt⟩ (0 : Fin 2) = (i 0).val / 128 := by
    rw [e3]; show (16 * ((i 0).val / 128) + (16 - 1)) / 16 = (i 0).val / 128; omega
  rw [mem_blk1]
  intro a
  match a with
  | ⟨0, _⟩ =>
    show win1_1.index ⟨16 * ((i 0).val / 128) + (16 - 1), hlt⟩ (0 : Fin 2) * 128 ≤ (i 0).val
      ∧ (i 0).val < win1_1.index ⟨16 * ((i 0).val / 128) + (16 - 1), hlt⟩ (0 : Fin 2) * 128 + 128
    rw [e3']; omega
  | ⟨1, _⟩ =>
    show win1_1.index ⟨16 * ((i 0).val / 128) + (16 - 1), hlt⟩ (1 : Fin 2) * 384 ≤ (i 1).val
      ∧ (i 1).val < win1_1.index ⟨16 * ((i 0).val / 128) + (16 - 1), hlt⟩ (1 : Fin 2) * 384 + 384
    rw [e4]; omega

/-- The output array after the region: the row sums. -/
theorem final1 (c : Dev nD) : (dat1 (F := Ideal) V c).arrAt 1 cfg1.N = sums1 V c :=
  (dat1 (F := Ideal) V c).arrAt_eq_of_cover 1 (sums1 V c) (flushed1_eq V c) cover1

/-- After region 1, output element (r, q) is the sum over all 512 groups g of the input at (r, g, q). -/
theorem region1_sums (c : Dev nD) (r : Fin 256) (q : Fin 384) :
    (dat1 (F := Ideal) V c).arrAt 1 cfg1.N (ix2 r q) = ∑ g : Fin 512, groups1 V c (ix3 r g q) :=
  congrFun (final1 V c) (ix2 r q)

end Region1

end Cert.KernelIdeal.CoordSums

end
-- ==== Proof.LibGroupedSum.lean ====
/-
  A sum over the first N terms of a sequence, regrouped: the terms laid out in G groups of L lanes
  (term g·L + l in lane l of group g, the positions from N on empty), summed first over the groups
  lane by lane and then over the lanes.
-/
import Mathlib.Algebra.BigOperators.Fin
import Mathlib.Algebra.BigOperators.Group.Finset.Basic
import Mathlib.Data.Finset.Range

namespace Cert.LibGroupedSum

open Finset

/-- G consecutive blocks of L terms, summed block by block, are the first G · L terms:
    induction on G, peeling off the last block. -/
theorem sum_groups_lanes_range {M : Type*} [AddCommMonoid M] (G L : Nat) (h : Nat → M) :
    (∑ g : Fin G, ∑ l : Fin L, h (g.val * L + l.val)) = ∑ n ∈ range (G * L), h n := by
  induction G with
  | zero => simp
  | succ G ih =>
    rw [Fin.sum_univ_castSucc, Nat.succ_mul, Finset.sum_range_add]
    simp only [Fin.coe_castSucc, Fin.val_last]
    rw [ih, Fin.sum_univ_eq_sum_range (fun l => h (G * L + l)) L]

/-- The same with the lanes outside: the two finite sums commute. -/
theorem sum_lanes_groups_range {M : Type*} [AddCommMonoid M] (G L : Nat) (h : Nat → M) :
    (∑ l : Fin L, ∑ g : Fin G, h (g.val * L + l.val)) = ∑ n ∈ range (G * L), h n := by
  rw [Finset.sum_comm]
  exact sum_groups_lanes_range G L h

/-- Cutting a sequence off at N (zero from N on) and summing its first K ≥ N terms gives the sum
    of its first N terms: the terms from N to K are all zero. -/
theorem sum_range_cut {M : Type*} [AddCommMonoid M] (K N : Nat) (hN : N ≤ K) (f : Nat → M) :
    (∑ n ∈ range K, if n < N then f n else 0) = ∑ n ∈ range N, f n := by
  rw [← Finset.sum_subset (Finset.range_subset_range.2 hN)
    (f := fun n => if n < N then f n else 0)]
  · refine Finset.sum_congr rfl (fun n hn => ?_)
    rw [if_pos (Finset.mem_range.1 hn)]
  · intro n _ hn
    rw [if_neg (fun hlt => hn (Finset.mem_range.2 hlt))]

/-- For N ≤ G · L: the sum over lanes l < L of the sum over groups g < G of term g·L + l where that
    position is below N, and 0 where it is not, is the sum of the first N terms. -/
theorem sum_lanes_groups {M : Type*} [AddCommMonoid M] (G L N : Nat) (hN : N ≤ G * L) (f : Nat → M) :
    (∑ l : Fin L, ∑ g : Fin G, if g.val * L + l.val < N then f (g.val * L + l.val) else 0)
      = ∑ n : Fin N, f n.val := by
  rw [sum_lanes_groups_range G L (fun n => if n < N then f n else 0), sum_range_cut (G * L) N hN f,
    Fin.sum_univ_eq_sum_range f N]

/-- The full layout, N = G · L: no position is empty, so no case distinction is needed. -/
theorem sum_lanes_groups_full {M : Type*} [AddCommMonoid M] (G L : Nat) (f : Nat → M) :
    (∑ l : Fin L, ∑ g : Fin G, f (g.val * L + l.val)) = ∑ n : Fin (G * L), f n.val := by
  rw [sum_lanes_groups_range G L f, Fin.sum_univ_eq_sum_range f (G * L)]

/-- The groups-outside forms of the two statements above. -/
theorem sum_groups_lanes {M : Type*} [AddCommMonoid M] (G L N : Nat) (hN : N ≤ G * L) (f : Nat → M) :
    (∑ g : Fin G, ∑ l : Fin L, if g.val * L + l.val < N then f (g.val * L + l.val) else 0)
      = ∑ n : Fin N, f n.val := by
  rw [Finset.sum_comm]
  exact sum_lanes_groups G L N hN f

theorem sum_groups_lanes_full {M : Type*} [AddCommMonoid M] (G L : Nat) (f : Nat → M) :
    (∑ g : Fin G, ∑ l : Fin L, f (g.val * L + l.val)) = ∑ n : Fin (G * L), f n.val := by
  rw [Finset.sum_comm]
  exact sum_lanes_groups_full G L f

end Cert.LibGroupedSum
-- ==== Proof.KernelSums.lean ====
/-
  The kernel program's two coordinate-sum arrays: each summing region's output, regrouped by the host into per-coordinate sums over all vertices of the mesh.
-/
import proofs.«400270_j61830349193773_3_alg».proof.Proof.KernelStagesDefs
import proofs.«400270_j61830349193773_3_alg».proof.Proof.CoordSumsKernel
import proofs.«400270_j61830349193773_3_alg».proof.Proof.LibGroupedSum
import Idealize.ShloMosaic.Lib.IdealHost
import Idealize.ShloMosaic.Lib.KernelVsHost
import Idealize.ShloMosaic.Lib.Pipeline.Value

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.Spec Cert.SpecOut Cert.KernelIdeal.CoordSums

variable (m : (ℓ : Loc nD τ sig) → Buf (Elt Ideal) ℓ) (ρ : Dev nD → PrngReg) (c : Dev nD)

/-- A host stretch leaves alone a buffer none of its operations writes. -/
local macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- A [256, 384] array regrouped as [256, 128, 3] and summed over its middle axis from the zero word: entry (b, k) is
    the sum over the 128 lanes l of the array's entry (b, 3 l + k). -/
theorem reduce_rows (x : S256x384.Idx → EReal) (b : Fin 256) (k : Fin 3) :
    Host.reduceAdd (F := Ideal) (shapeCast S256x128x3 x shapeCasts_S256x384_S256x128x3)
        (constant S_ .f32 0x00000000#32) reducesTo_S256x128x3_S256x3_d1 h_S_ (ix2 b k)
      = ∑ l : Fin 128, x (ix2 b ⟨l.val * 3 + k.val, by omega⟩) := by
  rw [hostReduceAdd_apply,
    Ideal.hostReduceAdd_single _ (by decide : Shape.Reduces S256x128x3 [1] S256x3), constant_apply,
    Ideal.ofBits_zero_f32, zero_add]
  refine Finset.sum_congr rfl fun l _ => ?_
  refine shapeCast_apply _ _ _ _ ?_
  rw [Shape.rowMajor_val_two, Shape.rowMajor_val_three]
  show b.val * 384 + (l.val * 3 + k.val) = (b.val * 128 + l.val) * 3 + k.val
  omega

/-- A [256, 10475, 3] array laid out flat as [256, 31425], padded with the converted integer zero at the high end of
    its rows up to 36864 and cut into 96 groups of 384: entry (b, g, q) is the array's entry at row b and flat
    position 384 g + q — vertex (384 g + q) / 3, coordinate (384 g + q) % 3 — where that position is below 31425, and
    zero in the padding. -/
theorem padded_groups (x : S256x10475x3.Idx → EReal) (b : Fin 256) (g : Fin 96) (q : Fin 384) :
    shapeCast S256x96x384
        (pad S256x36864 ![0, 0] ![0, 5439] ![0, 0] (shapeCast S256x31425 x shapeCasts_S256x10475x3_S256x31425)
          (sitofp (F := Ideal) .f32 (constantI S_ 32 0#32)) pads_S256x31425_S256x36864_000_054390 h_S_)
        shapeCasts_S256x36864_S256x96x384 (ix3 b g q)
      = if h : g.val * 384 + q.val < 31425 then
          x (ix3 b ⟨(g.val * 384 + q.val) / 3, by omega⟩ ⟨(g.val * 384 + q.val) % 3, by omega⟩)
        else 0 := by
  have hq := q.isLt
  have hg := g.isLt
  have hlt : g.val * 384 + q.val < 36864 := by omega
  refine (shapeCast_apply _ _ (ix3 b g q) (ix2 b ⟨g.val * 384 + q.val, hlt⟩) ?_).trans ?_
  · rw [Shape.rowMajor_val_two, Shape.rowMajor_val_three]
    show b.val * 36864 + (g.val * 384 + q.val) = (b.val * 96 + g.val) * 384 + q.val
    omega
  by_cases h : g.val * 384 + q.val < 31425
  · rw [dif_pos h]
    refine (pad_apply_of_inside _ _ _ _ _ _ _ _ (ix2 b ⟨g.val * 384 + q.val, h⟩) ?_).trans ?_
    · intro a
      match a with
      | ⟨0, _⟩ => show b.val = 0 + b.val * (0 + 1); omega
      | ⟨1, _⟩ => show g.val * 384 + q.val = 0 + (g.val * 384 + q.val) * (0 + 1); omega
    refine shapeCast_apply _ _ _ _ ?_
    rw [Shape.rowMajor_val_two, Shape.rowMajor_val_three]
    show (b.val * 10475 + (g.val * 384 + q.val) / 3) * 3 + (g.val * 384 + q.val) % 3
      = b.val * 31425 + (g.val * 384 + q.val)
    omega
  · rw [dif_neg h]
    refine (pad_apply_of_not_inside _ _ _ _ _ _ _ _ (1 : Fin 2) ?_).trans ?_
    · show ¬(0 ≤ g.val * 384 + q.val ∧ (g.val * 384 + q.val - 0) % (0 + 1) = 0
        ∧ (g.val * 384 + q.val - 0) / (0 + 1) < 31425)
      omega
    show ((((0#32 : BitVec 32).toInt : ℤ) : ℝ) : EReal) = 0
    simp

/-- A [256, 65536, 3] array laid out flat as [256, 196608] and cut into 512 groups of 384, with no padding: entry
    (b, g, q) is the array's entry at row b, vertex (384 g + q) / 3, coordinate (384 g + q) % 3. -/
theorem flat_groups (x : S256x65536x3.Idx → EReal) (b : Fin 256) (g : Fin 512) (q : Fin 384) :
    shapeCast S256x512x384 (shapeCast S256x196608 x shapeCasts_S256x65536x3_S256x196608)
        shapeCasts_S256x196608_S256x512x384 (ix3 b g q)
      = x (ix3 b ⟨(g.val * 384 + q.val) / 3, by omega⟩ ⟨(g.val * 384 + q.val) % 3, by omega⟩) := by
  have hq := q.isLt
  have hg := g.isLt
  have hlt : g.val * 384 + q.val < 196608 := by omega
  refine (shapeCast_apply _ _ (ix3 b g q) (ix2 b ⟨g.val * 384 + q.val, hlt⟩) ?_).trans ?_
  · rw [Shape.rowMajor_val_two, Shape.rowMajor_val_three]
    show b.val * 196608 + (g.val * 384 + q.val) = (b.val * 512 + g.val) * 384 + q.val
    omega
  refine shapeCast_apply _ _ _ _ ?_
  rw [Shape.rowMajor_val_two, Shape.rowMajor_val_three]
  show (b.val * 65536 + (g.val * 384 + q.val) / 3) * 3 + (g.val * 384 + q.val) % 3
    = b.val * 196608 + (g.val * 384 + q.val)
  omega

/-! ## The person mesh: region 0's input and output arrays, and the host's regrouping of the output -/

/-- Region 0's and region 1's output arrays as the regions leave them. -/
abbrev rows0 : S256x384.Idx → EReal := W4 m ρ c (Proc.devRef .tc main_v3)
abbrev rows1 : S256x384.Idx → EReal := W6 m ρ c (Proc.devRef .tc main_v8)

/-- Coordinate k of vertex n of batch entry b, as a sequence in n (zero from the mesh's size on): the person mesh's
    and the object mesh's. -/
def seq0 (b : Fin 256) (k : Fin 3) (n : Nat) : EReal := if h : n < 10475 then a0 m c (ix3 b ⟨n, h⟩ k) else 0
def seq1 (b : Fin 256) (k : Fin 3) (n : Nat) : EReal := if h : n < 65536 then a1 m c (ix3 b ⟨n, h⟩ k) else 0

/-- No later operation writes the person mesh's coordinate sums: at the return they are what the stretch after
    region 0 left. -/
theorem v5_walk : W17 m ρ c (Proc.devRef .tc main_v5) = W5 m ρ c (Proc.devRef .tc main_v5) :=
  calc W17 m ρ c (Proc.devRef .tc main_v5)
    _ = W16 m ρ c (Proc.devRef .tc main_v5) := by not_written hostOps4_4
    _ = W15 m ρ c (Proc.devRef .tc main_v5) := by not_written hostOps4_3
    _ = W14 m ρ c (Proc.devRef .tc main_v5) := by not_written hostOps4_2
    _ = W13 m ρ c (Proc.devRef .tc main_v5) := by not_written hostOps4_1
    _ = W12 m ρ c (Proc.devRef .tc main_v5) := by not_written hostOps4
    _ = W11 m ρ c (Proc.devRef .tc main_v5) := W12_of_ne m ρ c main_v5 (by decide)
    _ = W10 m ρ c (Proc.devRef .tc main_v5) := W11_of_ne m ρ c main_v5 (by decide)
    _ = W9 m ρ c (Proc.devRef .tc main_v5) := by not_written hostOps2_3
    _ = W8 m ρ c (Proc.devRef .tc main_v5) := by not_written hostOps2_2
    _ = W7 m ρ c (Proc.devRef .tc main_v5) := by not_written hostOps2_1
    _ = W6 m ρ c (Proc.devRef .tc main_v5) := by not_written hostOps2
    _ = W5 m ρ c (Proc.devRef .tc main_v5) := W6_of_ne m ρ c main_v5 (by decide)

/-- The person mesh's coordinate sums, from region 0's output: entry (b, k) sums the output's row b over the lanes
    3 l + k. -/
theorem v5_at (b : Fin 256) (k : Fin 3) :
    (W5 m ρ c (Proc.devRef .tc main_v5) : S256x3.Idx → EReal) (ix2 b k)
      = ∑ l : Fin 128, rows0 m ρ c (ix2 b ⟨l.val * 3 + k.val, by omega⟩) := by
  show StableHlo.after hostOps1 (W4 m ρ c) (Proc.devRef .tc main_v5) (ix2 b k) = _
  after_results
  exact reduce_rows _ b k

/-- Region 0's input array, from the launch: the person mesh flat, padded and grouped. -/
theorem groups0_at (b : Fin 256) (g : Fin 96) (q : Fin 384) :
    groups0 (V3 m ρ) c (ix3 b g q)
      = if h : g.val * 384 + q.val < 31425 then
          a0 m c (ix3 b ⟨(g.val * 384 + q.val) / 3, by omega⟩ ⟨(g.val * 384 + q.val) % 3, by omega⟩)
        else 0 := by
  show StableHlo.after hostOps0_2 (StableHlo.after hostOps0_1 (StableHlo.after hostOps0 (W0 m ρ c)))
    (Proc.devRef .tc main_v2) (ix3 b g q) = _
  after_results
  exact padded_groups (a0 m c) b g q

/-- Region 0's output at row b, lane 3 l + k: the sum over the 96 groups g of coordinate k of vertex 128 g + l where
    that vertex exists, and of zero where it does not. -/
theorem rows0_at (b : Fin 256) (l : Fin 128) (k : Fin 3) :
    rows0 m ρ c (ix2 b ⟨l.val * 3 + k.val, by omega⟩)
      = ∑ g : Fin 96, if g.val * 128 + l.val < 10475 then seq0 m c b k (g.val * 128 + l.val) else 0 := by
  have hl := l.isLt
  have hk := k.isLt
  have e : rows0 m ρ c = ((dat0 (F := Ideal) (V3 m ρ) c).arrAt 1 cfg0.N : S256x384.Idx → EReal) := W4_arr m ρ c 1
  rw [e, region0_sums]
  refine Finset.sum_congr rfl fun g _ => ?_
  rw [groups0_at]
  by_cases h : g.val * 128 + l.val < 10475
  · rw [dif_pos (show g.val * 384 + (l.val * 3 + k.val) < 31425 by omega), if_pos h, seq0, dif_pos h]
    refine congrArg (a0 m c) (funext fun a => ?_)
    match a with
    | ⟨0, _⟩ => rfl
    | ⟨1, _⟩ => exact Fin.ext (by show (g.val * 384 + (l.val * 3 + k.val)) / 3 = g.val * 128 + l.val; omega)
    | ⟨2, _⟩ => exact Fin.ext (by show (g.val * 384 + (l.val * 3 + k.val)) % 3 = k.val; omega)
  · rw [dif_neg (show ¬ g.val * 384 + (l.val * 3 + k.val) < 31425 by omega), if_neg h]

theorem sums_smpl : (W17 m ρ c (Proc.devRef .tc main_v5) : (⟨2, ![256, 3]⟩ : Shape).Idx → EReal) = coordSum (a0 m c) := by
  refine (v5_walk m ρ c).trans ?_
  funext j
  obtain ⟨b, k, rfl⟩ : ∃ (b : Fin 256) (k : Fin 3), j = ix2 b k := ⟨j 0, j 1, eq_ix2 j⟩
  refine (v5_at m ρ c b k).trans ?_
  refine (Finset.sum_congr rfl fun l _ => rows0_at m ρ c b l k).trans ?_
  refine (Cert.LibGroupedSum.sum_lanes_groups 96 128 10475 (by norm_num) (seq0 m c b k)).trans ?_
  show _ = ∑ n : Fin 10475, a0 m c (ix3 b n k)
  refine Finset.sum_congr rfl fun n _ => ?_
  rw [seq0, dif_pos n.isLt]

/-! ## The object mesh: the same through region 1, with no padding -/

theorem v10_walk : W17 m ρ c (Proc.devRef .tc main_v10) = W7 m ρ c (Proc.devRef .tc main_v10) :=
  calc W17 m ρ c (Proc.devRef .tc main_v10)
    _ = W16 m ρ c (Proc.devRef .tc main_v10) := by not_written hostOps4_4
    _ = W15 m ρ c (Proc.devRef .tc main_v10) := by not_written hostOps4_3
    _ = W14 m ρ c (Proc.devRef .tc main_v10) := by not_written hostOps4_2
    _ = W13 m ρ c (Proc.devRef .tc main_v10) := by not_written hostOps4_1
    _ = W12 m ρ c (Proc.devRef .tc main_v10) := by not_written hostOps4
    _ = W11 m ρ c (Proc.devRef .tc main_v10) := W12_of_ne m ρ c main_v10 (by decide)
    _ = W10 m ρ c (Proc.devRef .tc main_v10) := W11_of_ne m ρ c main_v10 (by decide)
    _ = W9 m ρ c (Proc.devRef .tc main_v10) := by not_written hostOps2_3
    _ = W8 m ρ c (Proc.devRef .tc main_v10) := by not_written hostOps2_2
    _ = W7 m ρ c (Proc.devRef .tc main_v10) := by not_written hostOps2_1

/-- The object mesh's coordinate sums, from region 1's output. -/
theorem v10_at (b : Fin 256) (k : Fin 3) :
    (W7 m ρ c (Proc.devRef .tc main_v10) : S256x3.Idx → EReal) (ix2 b k)
      = ∑ l : Fin 128, rows1 m ρ c (ix2 b ⟨l.val * 3 + k.val, by omega⟩) := by
  show StableHlo.after hostOps2 (W6 m ρ c) (Proc.devRef .tc main_v10) (ix2 b k) = _
  after_results
  exact reduce_rows _ b k

/-- The object mesh's argument is as launched when region 1 is entered. -/
theorem arg1_walk : W4 m ρ c (Proc.devRef .tc main_arg1) = a1 m c :=
  calc W4 m ρ c (Proc.devRef .tc main_arg1)
    _ = W3 m ρ c (Proc.devRef .tc main_arg1) := W4_of_ne m ρ c main_arg1 (by decide)
    _ = W2 m ρ c (Proc.devRef .tc main_arg1) := by not_written hostOps0_2
    _ = W1 m ρ c (Proc.devRef .tc main_arg1) := by not_written hostOps0_1
    _ = W0 m ρ c (Proc.devRef .tc main_arg1) := by not_written hostOps0
    _ = a1 m c := rfl

/-- Region 1's input array, from the launch: the object mesh flat and grouped. -/
theorem groups1_at (b : Fin 256) (g : Fin 512) (q : Fin 384) :
    groups1 (V5 m ρ) c (ix3 b g q)
      = a1 m c (ix3 b ⟨(g.val * 384 + q.val) / 3, by omega⟩ ⟨(g.val * 384 + q.val) % 3, by omega⟩) := by
  show StableHlo.after hostOps1 (W4 m ρ c) (Proc.devRef .tc main_v7) (ix3 b g q) = _
  after_results
  rw [arg1_walk]
  exact flat_groups (a1 m c) b g q

/-- Region 1's output at row b, lane 3 l + k: the sum over the 512 groups g of coordinate k of vertex 128 g + l. -/
theorem rows1_at (b : Fin 256) (l : Fin 128) (k : Fin 3) :
    rows1 m ρ c (ix2 b ⟨l.val * 3 + k.val, by omega⟩)
      = ∑ g : Fin 512, seq1 m c b k (g.val * 128 + l.val) := by
  have hl := l.isLt
  have hk := k.isLt
  have e : rows1 m ρ c = ((dat1 (F := Ideal) (V5 m ρ) c).arrAt 1 cfg1.N : S256x384.Idx → EReal) := W6_arr m ρ c 1
  rw [e, region1_sums]
  refine Finset.sum_congr rfl fun g _ => ?_
  have hg := g.isLt
  have h : g.val * 128 + l.val < 65536 := by omega
  rw [groups1_at, seq1, dif_pos h]
  refine congrArg (a1 m c) (funext fun a => ?_)
  match a with
  | ⟨0, _⟩ => rfl
  | ⟨1, _⟩ => exact Fin.ext (by show (g.val * 384 + (l.val * 3 + k.val)) / 3 = g.val * 128 + l.val; omega)
  | ⟨2, _⟩ => exact Fin.ext (by show (g.val * 384 + (l.val * 3 + k.val)) % 3 = k.val; omega)

theorem sums_object : (W17 m ρ c (Proc.devRef .tc main_v10) : (⟨2, ![256, 3]⟩ : Shape).Idx → EReal) = coordSum (a1 m c) := by
  refine (v10_walk m ρ c).trans ?_
  funext j
  obtain ⟨b, k, rfl⟩ : ∃ (b : Fin 256) (k : Fin 3), j = ix2 b k := ⟨j 0, j 1, eq_ix2 j⟩
  refine (v10_at m ρ c b k).trans ?_
  refine (Finset.sum_congr rfl fun l _ => rows1_at m ρ c b l k).trans ?_
  refine (Cert.LibGroupedSum.sum_lanes_groups_full 512 128 (seq1 m c b k)).trans ?_
  show (∑ n : Fin 65536, seq1 m c b k n.val) = ∑ n : Fin 65536, a1 m c (ix3 b n k)
  refine Finset.sum_congr rfl fun n _ => ?_
  rw [seq1, dif_pos n.isLt]

end Cert.KernelIdeal.Stages

end
-- ==== Proof.PartRowsKernel.lean ====
/-
  What the two part-reducing regions leave in their five output arrays, index by index on the extended reals.

  Each of the two regions runs one body over a grid of 16 points. Point t reads rows 128 t … 128 t + 127 of a
  vertex array X : [2048, 3, K] (row, coordinate, vertex; K = 1024 in region 2, K = 2048 in region 3) and of a camera
  array Cm : [2048, 3, 3] (one 3 × 3 matrix per row), and writes the same rows of five arrays. For each row the body
  projects every vertex (x, y, z) to two screen coordinates with the row's camera entries (0,0), (0,2), (1,1), (1,2),
  and keeps: the least and the greatest of each screen coordinate over the row's vertices, the least and the greatest
  depth z, and the sum of each of the three coordinates.

  The file goes in three steps. First the body's values at a row and a vertex: a coordinate line of the block, a camera
  entry spread along the vertices, the two screen coordinates, a reduction along the vertex axis read as a fold of min
  from +∞, of max from −∞, or a sum, and columns put side by side; together they say that the five blocks the body
  stores are Spec.rowLo, rowHi, rowZmin, rowZmax and rowSum OF THE TWO BLOCKS IT LOADED. Then the step from blocks to
  arrays: those five functions look at one row only, and row r' of block t is row 128 t + r' of the array, so what point
  t writes back is block t of the same function of the whole arrays; the 16 blocks cover the 2048 rows (row r lies in
  block r / 128). Last the statements region2_lo … region2_sum and region3_lo … region3_sum.
-/
import proofs.«400270_j61830349193773_3_alg».proof.Proof.Spec
import proofs.«400270_j61830349193773_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PartRows

open Idealize.ShloMosaic Idealize.ShloMosaic.TcCoe Idealize.ShloMosaic.ValueIdx
open Idealize.SL.Sem
open Idealize.ShloMosaic.Pipeline (Dat)
open Cert.KernelIdeal Cert.KernelIdeal.Gen

/-! ## Reductions over the last axis of a matrix, read at a row -/

/-- A float minimum-reduction over one axis, read at the ideal values: the fold of min from the
    accumulator's value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of +∞ is the top extended real. -/
theorem ofBits_posInf : Ideal.ofBits .f32 0x7F800000#32 = (⊤ : EReal) := by simp [Ideal.ofBits, Ideal.ieee]

/-- The f32 word of −∞ is the bottom extended real. -/
theorem ofBits_negInf : Ideal.ofBits .f32 0xFF800000#32 = (⊥ : EReal) := by simp [Ideal.ofBits, Ideal.ieee]

/-- Over the row axis of an [n, K] matrix, the source index above row r with column k is (r, k). -/
theorem lift_row {n K : Nat} (h : (⟨2, ![n, K]⟩ : Shape).Reduces [1] ⟨1, ![n]⟩) (r : Fin n) (k : Fin K) :
    h.lift (ix1 r) k = ix2 r k := by
  funext c
  match c with
  | ⟨0, _⟩ => rfl
  | ⟨1, _⟩ => rfl

/-- The row minimum of an [n, K] matrix: the least entry of row r, from +∞. -/
theorem rowMin_apply {n K : Nat} (v : FVec Ideal ⟨2, ![n, K]⟩ .f32) (h : (⟨2, ![n, K]⟩ : Shape).Reduces [1] ⟨1, ![n]⟩)
    (hφ : FKind.Formats .f32) (hacc : (0x7F800000#32 : BitVec 32) = FKind.minimumf.neutral .f32 hφ) (r : Fin n) :
    multiReduction .minimumf [1] ⟨1, ![n]⟩ v 0x7F800000#32 h hφ hacc (ix1 r)
      = (Finset.univ : Finset (Fin K)).fold min (⊤ : EReal) fun k => v (ix2 r k) := by
  refine (multiReduction_minimumf_single v 0x7F800000#32 h hφ hacc (ix1 r)).trans ?_
  show (Finset.univ : Finset (Fin K)).fold min (Ideal.ofBits .f32 0x7F800000#32) (fun k => v (h.lift (ix1 r) k)) = _
  rw [ofBits_posInf]
  exact Finset.fold_congr fun k _ => congrArg v (lift_row h r k)

/-- The row maximum of an [n, K] matrix: the greatest entry of row r, from −∞. -/
theorem rowMax_apply {n K : Nat} (v : FVec Ideal ⟨2, ![n, K]⟩ .f32) (h : (⟨2, ![n, K]⟩ : Shape).Reduces [1] ⟨1, ![n]⟩)
    (hφ : FKind.Formats .f32) (hacc : (0xFF800000#32 : BitVec 32) = FKind.maximumf.neutral .f32 hφ) (r : Fin n) :
    multiReduction .maximumf [1] ⟨1, ![n]⟩ v 0xFF800000#32 h hφ hacc (ix1 r)
      = (Finset.univ : Finset (Fin K)).fold max (⊥ : EReal) fun k => v (ix2 r k) := by
  refine (Ideal.multiReduction_maximumf_single v 0xFF800000#32 h hφ hacc (ix1 r)).trans ?_
  show (Finset.univ : Finset (Fin K)).fold max (Ideal.ofBits .f32 0xFF800000#32) (fun k => v (h.lift (ix1 r) k)) = _
  rw [ofBits_negInf]
  exact Finset.fold_congr fun k _ => congrArg v (lift_row h r k)

/-- The row sum of an [n, K] matrix. -/
theorem rowSum_apply {n K : Nat} (v : FVec Ideal ⟨2, ![n, K]⟩ .f32) (h : (⟨2, ![n, K]⟩ : Shape).Reduces [1] ⟨1, ![n]⟩)
    (hφ : FKind.Formats .f32) (hacc : (0x00000000#32 : BitVec 32) = FKind.add.neutral .f32 hφ) (r : Fin n) :
    multiReduction .add [1] ⟨1, ![n]⟩ v 0x00000000#32 h hφ hacc (ix1 r) = ∑ k : Fin K, v (ix2 r k) := by
  refine (Ideal.multiReduction_add_single v 0x00000000#32 h hφ hacc (ix1 r)).trans ?_
  show ∑ k : Fin K, v (h.lift (ix1 r) k) = _
  refine Finset.sum_congr rfl fun k _ => ?_
  rw [lift_row]

/-! ## Layout operations of the body, read at coordinates -/

section Layout
variable {α : Type}

/-- An [a] vector cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1, 1] array cast to the vector [a] reads, at i, the operand at (i, 0, 0). -/
theorem shapeCast_a11_a_apply {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    rw [Nat.add_zero, Nat.mul_one, Nat.add_zero, Nat.mul_one])

/-- An [a, 1, b] array cast to the matrix [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.add_zero, Nat.mul_one])

/-- A column [a, 1] broadcast along its rows to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rank-3 array cut to one entry of its last two axes, at (p, q): at (i, 0, 0) the source at (i, p, q). -/
theorem slice3_entry_apply {n0 n1 n2 : Nat} (p q : Nat) (X : (⟨3, ![n0, n1, n2]⟩ : Shape).Idx → α)
    (h : (⟨3, ![n0, n1, n2]⟩ : Shape).Slices ![0, p, q] ⟨3, ![n0, 1, 1]⟩)
    (i : Fin n0) (u w : Fin 1) (kp : Fin n1) (kq : Fin n2) (hp : kp.val = p) (hq : kq.val = q) :
    extractStridedSlice ⟨3, ![n0, 1, 1]⟩ ![0, p, q] X h (ix3 i u w) = X (ix3 i kp kq) :=
  extractStridedSlice_apply _ _ _ _ _ (fun ax => by
    match ax with
    | ⟨0, _⟩ => exact (Nat.zero_add _).symm
    | ⟨1, _⟩ => show kp.val = p + u.val; omega
    | ⟨2, _⟩ => show kq.val = q + w.val; omega)

end Layout

/-! ## A camera entry spread over a row's vertices -/

/-- Entry (p, q) of each row's 3 × 3 matrix, taken as a column and spread along K lanes, reads at
    (r, k) that entry of row r. -/
theorem camEntry_apply {K : Nat} (X : (⟨3, ![128, 3, 3]⟩ : Shape).Idx → EReal) (p q : Nat)
    (hs : (⟨3, ![128, 3, 3]⟩ : Shape).Slices ![0, p, q] ⟨3, ![128, 1, 1]⟩)
    (h1 : (⟨3, ![128, 1, 1]⟩ : Shape).ShapeCasts ⟨1, ![128]⟩)
    (h2 : (⟨1, ![128]⟩ : Shape).ShapeCasts ⟨2, ![128, 1]⟩)
    (hb : (⟨2, ![128, 1]⟩ : Shape).Broadcasts ⟨2, ![128, K]⟩)
    (kp kq : Fin 3) (hp : kp.val = p) (hq : kq.val = q) (r : Fin 128) (k : Fin K) :
    broadcastTo ⟨2, ![128, K]⟩ (shapeCast ⟨2, ![128, 1]⟩ (shapeCast ⟨1, ![128]⟩
        (extractStridedSlice ⟨3, ![128, 1, 1]⟩ ![0, p, q] X hs) h1) h2) hb (ix2 r k) = X (ix3 r kp kq) := by
  refine (broadcastTo_a1_ab_apply _ hb r k).trans ?_
  refine (shapeCast_a_a1_apply _ h2 r 0).trans ?_
  refine (shapeCast_a11_a_apply _ h1 r).trans ?_
  exact slice3_entry_apply p q X hs r 0 0 kp kq hp hq

/-- Coordinate line o of an [128, 3, K] block, as a [128, K] matrix, reads at (r, k) the block at (r, o, k). -/
theorem coordLine_apply {K : Nat} (X : (⟨3, ![128, 3, K]⟩ : Shape).Idx → EReal) (o : Nat)
    (hs : (⟨3, ![128, 3, K]⟩ : Shape).Slices ![0, o, 0] ⟨3, ![128, 1, K]⟩)
    (h1 : (⟨3, ![128, 1, K]⟩ : Shape).ShapeCasts ⟨2, ![128, K]⟩)
    (ko : Fin 3) (ho : ko.val = o) (r : Fin 128) (k : Fin K) :
    shapeCast ⟨2, ![128, K]⟩ (extractStridedSlice ⟨3, ![128, 1, K]⟩ ![0, o, 0] X hs) h1 (ix2 r k) = X (ix3 r ko k) := by
  refine (shapeCast_a1b_ab_apply _ h1 r k).trans ?_
  exact slice3_axis1_apply o X hs r 0 k ko (by rw [ho]; rfl)

/-! ## Columns put side by side -/

section Columns
variable {α : Type}

/-- Two columns side by side read, at (r, j), column j at row r. -/
theorem concat2_cols_apply {n : Nat} (u v : (⟨2, ![n, 1]⟩ : Shape).Idx → α)
    (h : Shape.Concatenates [(⟨2, ![n, 1]⟩ : Shape), ⟨2, ![n, 1]⟩] ⟨2, ![n, 2]⟩ 1) (r : Fin n) (j : Fin 2) :
    concatenate ⟨2, ![n, 2]⟩ 1 [⟨⟨2, ![n, 1]⟩, u⟩, ⟨⟨2, ![n, 1]⟩, v⟩] h (ix2 r j)
      = if j.val = 0 then u (ix2 r (0 : Fin 1)) else v (ix2 r (0 : Fin 1)) := by
  match j with
  | ⟨0, _⟩ =>
    rw [if_pos rfl]
    exact concatenate_pair_apply_left 1 u v h (ix2 r ⟨0, by omega⟩) rfl (ix2 r (0 : Fin 1)) fun b => by
      match b with
      | ⟨0, _⟩ => rfl
      | ⟨1, _⟩ => rfl
  | ⟨1, _⟩ =>
    rw [if_neg (show ¬((1 : ℕ) = 0) by decide)]
    exact concatenate_pair_apply_right 1 u v h (ix2 r ⟨1, by omega⟩) rfl rfl (ix2 r (0 : Fin 1))
      (fun b hb => by
        match b, hb with
        | ⟨0, _⟩, _ => rfl
        | ⟨1, _⟩, hb => exact absurd (Fin.ext rfl) hb)
      rfl

/-- Three columns side by side read, at (r, j), column j at row r. -/
theorem concat3_cols_apply {n : Nat} (u v w : (⟨2, ![n, 1]⟩ : Shape).Idx → α)
    (h : Shape.Concatenates [(⟨2, ![n, 1]⟩ : Shape), ⟨2, ![n, 1]⟩, ⟨2, ![n, 1]⟩] ⟨2, ![n, 3]⟩ 1) (r : Fin n) (j : Fin 3) :
    concatenate ⟨2, ![n, 3]⟩ 1 [⟨⟨2, ![n, 1]⟩, u⟩, ⟨⟨2, ![n, 1]⟩, v⟩, ⟨⟨2, ![n, 1]⟩, w⟩] h (ix2 r j)
      = if j.val = 0 then u (ix2 r (0 : Fin 1)) else if j.val = 1 then v (ix2 r (0 : Fin 1)) else w (ix2 r (0 : Fin 1)) := by
  have hi : ∀ (jj : Fin 3) (b : Fin 2), b.cast (rfl : (⟨2, ![n, 1]⟩ : Shape).rank = (⟨2, ![n, 3]⟩ : Shape).rank) ≠ 1 →
      ((ix2 r (0 : Fin 1) : (⟨2, ![n, 1]⟩ : Shape).Idx) b).val = ((ix2 r jj : (⟨2, ![n, 3]⟩ : Shape).Idx) (b.cast rfl)).val := by
    intro jj b hb
    match b, hb with
    | ⟨0, _⟩, _ => rfl
    | ⟨1, _⟩, hb => exact absurd (Fin.ext rfl) hb
  match j with
  | ⟨0, _⟩ =>
    rw [if_pos rfl]
    exact concatenate_apply_piece 1
      ([⟨⟨2, ![n, 1]⟩, u⟩, ⟨⟨2, ![n, 1]⟩, v⟩, ⟨⟨2, ![n, 1]⟩, w⟩] : List ((s : Shape) × (s.Idx → α))) h
      (ix2 r ⟨0, by omega⟩) 0 (show 0 < 3 by decide) ⟨2, ![n, 1]⟩ u rfl rfl 0 rfl (ix2 r (0 : Fin 1)) (hi _) rfl
  | ⟨1, _⟩ =>
    rw [if_neg (show ¬((1 : ℕ) = 0) by decide), if_pos rfl]
    exact concatenate_apply_piece 1
      ([⟨⟨2, ![n, 1]⟩, u⟩, ⟨⟨2, ![n, 1]⟩, v⟩, ⟨⟨2, ![n, 1]⟩, w⟩] : List ((s : Shape) × (s.Idx → α))) h
      (ix2 r ⟨1, by omega⟩) 1 (show 1 < 3 by decide) ⟨2, ![n, 1]⟩ v rfl rfl 1 rfl (ix2 r (0 : Fin 1)) (hi _) rfl
  | ⟨2, _⟩ =>
    rw [if_neg (show ¬((2 : ℕ) = 0) by decide), if_neg (show ¬((2 : ℕ) = 1) by decide)]
    exact concatenate_apply_piece 1
      ([⟨⟨2, ![n, 1]⟩, u⟩, ⟨⟨2, ![n, 1]⟩, v⟩, ⟨⟨2, ![n, 1]⟩, w⟩] : List ((s : Shape) × (s.Idx → α))) h
      (ix2 r ⟨2, by omega⟩) 2 (show 2 < 3 by decide) ⟨2, ![n, 1]⟩ w rfl rfl 2 rfl (ix2 r (0 : Fin 1)) (hi _) rfl

end Columns

/-! ## A block of rows against the whole array

A block of 128 rows of an array, read at a row of the block, is the array read at the row that block row
is; the five row functions only look at one row, so on a block they are the array's at that row. -/

section BlockRows
variable {R K : Nat}

theorem rowLo_of_block (X : (⟨3, ![R, 3, K]⟩ : Shape).Idx → EReal) (Cm : (⟨3, ![R, 3, 3]⟩ : Shape).Idx → EReal)
    (B0 : (⟨3, ![128, 3, K]⟩ : Shape).Idx → EReal) (B1 : (⟨3, ![128, 3, 3]⟩ : Shape).Idx → EReal)
    (r' : Fin 128) (j : Fin 2) (i : Fin R) (j' : Fin 2) (hj : j.val = j'.val)
    (h0 : ∀ (a : Fin 3) (k : Fin K), B0 (ix3 r' a k) = X (ix3 i a k))
    (h1 : ∀ (a b : Fin 3), B1 (ix3 r' a b) = Cm (ix3 i a b)) :
    Cert.Spec.rowLo B0 B1 (ix2 r' j) = Cert.Spec.rowLo X Cm (ix2 i j') := by
  obtain rfl : j = j' := Fin.ext hj
  show (Finset.univ : Finset (Fin K)).fold min (⊤ : EReal) (fun k => Cert.Spec.rowScreen B0 B1 r' k j)
    = (Finset.univ : Finset (Fin K)).fold min (⊤ : EReal) (fun k => Cert.Spec.rowScreen X Cm i k j)
  refine Finset.fold_congr fun k _ => ?_
  unfold Cert.Spec.rowScreen
  simp only [h0, h1]

theorem rowHi_of_block (X : (⟨3, ![R, 3, K]⟩ : Shape).Idx → EReal) (Cm : (⟨3, ![R, 3, 3]⟩ : Shape).Idx → EReal)
    (B0 : (⟨3, ![128, 3, K]⟩ : Shape).Idx → EReal) (B1 : (⟨3, ![128, 3, 3]⟩ : Shape).Idx → EReal)
    (r' : Fin 128) (j : Fin 2) (i : Fin R) (j' : Fin 2) (hj : j.val = j'.val)
    (h0 : ∀ (a : Fin 3) (k : Fin K), B0 (ix3 r' a k) = X (ix3 i a k))
    (h1 : ∀ (a b : Fin 3), B1 (ix3 r' a b) = Cm (ix3 i a b)) :
    Cert.Spec.rowHi B0 B1 (ix2 r' j) = Cert.Spec.rowHi X Cm (ix2 i j') := by
  obtain rfl : j = j' := Fin.ext hj
  show (Finset.univ : Finset (Fin K)).fold max (⊥ : EReal) (fun k => Cert.Spec.rowScreen B0 B1 r' k j)
    = (Finset.univ : Finset (Fin K)).fold max (⊥ : EReal) (fun k => Cert.Spec.rowScreen X Cm i k j)
  refine Finset.fold_congr fun k _ => ?_
  unfold Cert.Spec.rowScreen
  simp only [h0, h1]

theorem rowZmin_of_block (X : (⟨3, ![R, 3, K]⟩ : Shape).Idx → EReal) (B0 : (⟨3, ![128, 3, K]⟩ : Shape).Idx → EReal)
    (r' : Fin 128) (u : Fin 1) (i : Fin R) (u' : Fin 1)
    (h0 : ∀ (a : Fin 3) (k : Fin K), B0 (ix3 r' a k) = X (ix3 i a k)) :
    Cert.Spec.rowZmin B0 (ix2 r' u) = Cert.Spec.rowZmin X (ix2 i u') := by
  show (Finset.univ : Finset (Fin K)).fold min (⊤ : EReal) (fun k => B0 (ix3 r' 2 k))
    = (Finset.univ : Finset (Fin K)).fold min (⊤ : EReal) (fun k => X (ix3 i 2 k))
  exact Finset.fold_congr fun k _ => h0 2 k

theorem rowZmax_of_block (X : (⟨3, ![R, 3, K]⟩ : Shape).Idx → EReal) (B0 : (⟨3, ![128, 3, K]⟩ : Shape).Idx → EReal)
    (r' : Fin 128) (u : Fin 1) (i : Fin R) (u' : Fin 1)
    (h0 : ∀ (a : Fin 3) (k : Fin K), B0 (ix3 r' a k) = X (ix3 i a k)) :
    Cert.Spec.rowZmax B0 (ix2 r' u) = Cert.Spec.rowZmax X (ix2 i u') := by
  show (Finset.univ : Finset (Fin K)).fold max (⊥ : EReal) (fun k => B0 (ix3 r' 2 k))
    = (Finset.univ : Finset (Fin K)).fold max (⊥ : EReal) (fun k => X (ix3 i 2 k))
  exact Finset.fold_congr fun k _ => h0 2 k

theorem rowSum_of_block (X : (⟨3, ![R, 3, K]⟩ : Shape).Idx → EReal) (B0 : (⟨3, ![128, 3, K]⟩ : Shape).Idx → EReal)
    (r' : Fin 128) (a : Fin 3) (i : Fin R) (a' : Fin 3) (ha : a.val = a'.val)
    (h0 : ∀ (a : Fin 3) (k : Fin K), B0 (ix3 r' a k) = X (ix3 i a k)) :
    Cert.Spec.rowSum B0 (ix2 r' a) = Cert.Spec.rowSum X (ix2 i a') := by
  obtain rfl : a = a' := Fin.ext ha
  show ∑ k : Fin K, B0 (ix3 r' a k) = ∑ k : Fin K, X (ix3 i a k)
  exact Finset.sum_congr rfl fun k _ => h0 a k

end BlockRows

theorem hz2 : (![0, 0] : Fin 2 → Nat) = fun _ => 0 := funext fun a => by fin_cases a <;> rfl
theorem hz3 : (![0, 0, 0] : Fin 3 → Nat) = fun _ => 0 := funext fun a => by fin_cases a <;> rfl

/-! ## Region 2 (1024 vertices a row): the body's values at a row and a vertex -/

section Region2Payloads
variable (x0 : Vec Ideal S128x3x1024 .f32) (x1 : Vec Ideal S128x3x3 .f32)

/-- The x line of the block. -/
theorem lineX2 (r : Fin 128) (k : Fin 1024) : k2_pay9 x0 (ix2 r k) = x0 (ix3 r 0 k) := by
  unfold k2_pay9 k2_pay7
  dsimp only
  rw [shapeCast_self]
  exact coordLine_apply x0 0 _ _ 0 rfl r k

/-- The y line of the block. -/
theorem lineY2 (r : Fin 128) (k : Fin 1024) : k2_pay10 x0 (ix2 r k) = x0 (ix3 r 1 k) := by
  unfold k2_pay10 k2_pay7
  dsimp only
  rw [shapeCast_self]
  exact coordLine_apply x0 1 _ _ 1 rfl r k

/-- The z line of the block. -/
theorem lineZ2 (r : Fin 128) (k : Fin 1024) : k2_pay11 x0 (ix2 r k) = x0 (ix3 r 2 k) := by
  unfold k2_pay11 k2_pay7
  dsimp only
  rw [shapeCast_self]
  exact coordLine_apply x0 2 _ _ 2 rfl r k

/-- The horizontal screen coordinate of vertex k of row r. -/
theorem screenU2 (r : Fin 128) (k : Fin 1024) :
    k2_pay12 x0 x1 (ix2 r k)
      = Cert.Spec.screenU (x0 (ix3 r 0 k)) (x0 (ix3 r 2 k)) (x1 (ix3 r 0 0)) (x1 (ix3 r 0 2)) := by
  unfold k2_pay12 k2_pay8 Cert.Spec.screenU
  dsimp only
  rw [shapeCast_self]
  simp only [mulf_apply, addf_apply, subf_apply, divf_apply, broadcast_apply, lineX2, lineZ2]
  rw [camEntry_apply x1 0 0 _ _ _ _ 0 0 rfl rfl r k, camEntry_apply x1 0 2 _ _ _ _ 0 2 rfl rfl r k]
  rfl

end Region2Payloads

section Region2Payloads2
variable (x0 : Vec Ideal S128x3x1024 .f32) (x1 : Vec Ideal S128x3x3 .f32)

/-- The vertical screen coordinate of vertex k of row r. -/
theorem screenW2 (r : Fin 128) (k : Fin 1024) :
    k2_pay1 (k2_pay13 x0 x1) (ix2 r k)
      = Cert.Spec.screenW (x0 (ix3 r 1 k)) (x0 (ix3 r 2 k)) (x1 (ix3 r 1 1)) (x1 (ix3 r 1 2)) := by
  unfold k2_pay1 k2_pay13 k2_pay8 Cert.Spec.screenW
  dsimp only
  rw [shapeCast_self]
  simp only [mulf_apply, addf_apply, subf_apply, divf_apply, broadcast_apply, lineY2, lineZ2]
  rw [camEntry_apply x1 1 1 _ _ _ _ 1 1 rfl rfl r k, camEntry_apply x1 1 2 _ _ _ _ 1 2 rfl rfl r k]
  rfl

/-- The body's first result block: per row, the least screen coordinates over the row's vertices. -/
theorem lo2_eq : k2_pay2 (k2_pay12 x0 x1) (k2_pay13 x0 x1) = Cert.Spec.rowLo x0 x1 := by
  funext y
  obtain ⟨r, j, rfl⟩ : ∃ (r : Fin 128) (j : Fin 2), y = ix2 r j := ⟨y 0, y 1, eq_ix2 y⟩
  unfold k2_pay2
  dsimp only
  refine (concat2_cols_apply _ _ _ r j).trans ?_
  show _ = (Finset.univ : Finset (Fin 1024)).fold min (⊤ : EReal) fun k => Cert.Spec.rowScreen x0 x1 r k j
  unfold Cert.Spec.rowScreen
  split
  · next hj =>
    refine (shapeCast_a_a1_apply _ _ r 0).trans ?_
    refine (rowMin_apply _ _ _ _ r).trans ?_
    exact Finset.fold_congr fun k _ => screenU2 x0 x1 r k
  · next hj =>
    refine (shapeCast_a_a1_apply _ _ r 0).trans ?_
    refine (rowMin_apply _ _ _ _ r).trans ?_
    exact Finset.fold_congr fun k _ => screenW2 x0 x1 r k

/-- The second: the greatest screen coordinates. -/
theorem hi2_eq : k2_pay3 (k2_pay12 x0 x1) (k2_pay13 x0 x1) = Cert.Spec.rowHi x0 x1 := by
  funext y
  obtain ⟨r, j, rfl⟩ : ∃ (r : Fin 128) (j : Fin 2), y = ix2 r j := ⟨y 0, y 1, eq_ix2 y⟩
  unfold k2_pay3
  dsimp only
  refine (concat2_cols_apply _ _ _ r j).trans ?_
  show _ = (Finset.univ : Finset (Fin 1024)).fold max (⊥ : EReal) fun k => Cert.Spec.rowScreen x0 x1 r k j
  unfold Cert.Spec.rowScreen
  split
  · next hj =>
    refine (shapeCast_a_a1_apply _ _ r 0).trans ?_
    refine (rowMax_apply _ _ _ _ r).trans ?_
    exact Finset.fold_congr fun k _ => screenU2 x0 x1 r k
  · next hj =>
    refine (shapeCast_a_a1_apply _ _ r 0).trans ?_
    refine (rowMax_apply _ _ _ _ r).trans ?_
    exact Finset.fold_congr fun k _ => screenW2 x0 x1 r k

/-- The third: the least depth. -/
theorem zmin2_eq : k2_pay4 (k2_pay11 x0) = Cert.Spec.rowZmin x0 := by
  funext y
  obtain ⟨r, u, rfl⟩ : ∃ (r : Fin 128) (u : Fin 1), y = ix2 r u := ⟨y 0, y 1, eq_ix2 y⟩
  unfold k2_pay4
  dsimp only
  refine (shapeCast_a_a1_apply _ _ r u).trans ?_
  refine (rowMin_apply _ _ _ _ r).trans ?_
  exact Finset.fold_congr fun k _ => lineZ2 x0 r k

/-- The fourth: the greatest depth. -/
theorem zmax2_eq : k2_pay5 (k2_pay11 x0) = Cert.Spec.rowZmax x0 := by
  funext y
  obtain ⟨r, u, rfl⟩ : ∃ (r : Fin 128) (u : Fin 1), y = ix2 r u := ⟨y 0, y 1, eq_ix2 y⟩
  unfold k2_pay5
  dsimp only
  refine (shapeCast_a_a1_apply _ _ r u).trans ?_
  refine (rowMax_apply _ _ _ _ r).trans ?_
  exact Finset.fold_congr fun k _ => lineZ2 x0 r k

/-- The fifth: per row and coordinate, the sum over the row's vertices. -/
theorem sum2_eq : k2_pay6 (k2_pay9 x0) (k2_pay10 x0) (k2_pay11 x0) = Cert.Spec.rowSum x0 := by
  funext y
  obtain ⟨r, a, rfl⟩ : ∃ (r : Fin 128) (a : Fin 3), y = ix2 r a := ⟨y 0, y 1, eq_ix2 y⟩
  unfold k2_pay6
  dsimp only
  refine (concat3_cols_apply _ _ _ _ r a).trans ?_
  show _ = ∑ k : Fin 1024, x0 (ix3 r a k)
  match a with
  | ⟨0, _⟩ =>
    rw [if_pos rfl]
    refine (shapeCast_a_a1_apply _ _ r 0).trans ?_
    refine (rowSum_apply _ _ _ _ r).trans ?_
    exact Finset.sum_congr rfl fun k _ => lineX2 x0 r k
  | ⟨1, _⟩ =>
    rw [if_neg (show ¬((1 : ℕ) = 0) by decide), if_pos rfl]
    refine (shapeCast_a_a1_apply _ _ r 0).trans ?_
    refine (rowSum_apply _ _ _ _ r).trans ?_
    exact Finset.sum_congr rfl fun k _ => lineY2 x0 r k
  | ⟨2, _⟩ =>
    rw [if_neg (show ¬((2 : ℕ) = 0) by decide), if_neg (show ¬((2 : ℕ) = 1) by decide)]
    refine (shapeCast_a_a1_apply _ _ r 0).trans ?_
    refine (rowSum_apply _ _ _ _ r).trans ?_
    exact Finset.sum_congr rfl fun k _ => lineZ2 x0 r k

end Region2Payloads2

/-! ## Region 2: from the blocks to the arrays -/

section Region2Arrays
variable (V : (c : Dev nD) → (b : Ref sig .tc) → Buf (Elt Ideal) ((c : Thread nD τ).loc b))

/-- The vertex array the region reads: [2048, 3, 1024], row, coordinate, vertex. -/
abbrev verts2 (c : Dev nD) : S2048x3x1024.Idx → EReal := V c (Pipeline.arrRef spec2 0)
/-- The camera array the region reads: one 3 × 3 matrix per row. -/
abbrev cams2 (c : Dev nD) : S2048x3x3.Idx → EReal := V c (Pipeline.arrRef spec2 1)
/-- The vertex block of grid point t: rows 128 t … 128 t + 127. -/
abbrev vblk2 (c : Dev nD) (t : Fin cfg2.N) : S128x3x1024.Idx → EReal := iblk2 V c 0 t
/-- The camera block of grid point t. -/
abbrev cblk2 (c : Dev nD) (t : Fin cfg2.N) : S128x3x3.Idx → EReal := iblk2 V c 1 t

/-- The windows' block indices over the grid: point t takes block t of the rows and block 0 of every other axis. -/
theorem idx2_0 : ∀ t : Fin cfg2.N,
    win2_0.index t (0 : Fin 3) = t.val ∧ win2_0.index t (1 : Fin 3) = 0 ∧ win2_0.index t (2 : Fin 3) = 0 :=
  (by decide +kernel : ∀ t : Fin grid2.N, _)
theorem idx2_1 : ∀ t : Fin cfg2.N,
    win2_1.index t (0 : Fin 3) = t.val ∧ win2_1.index t (1 : Fin 3) = 0 ∧ win2_1.index t (2 : Fin 3) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)

/-- The grid has 16 points. -/
theorem point_lt2 (t : Fin cfg2.N) : t.val < 16 := lt_of_lt_of_eq t.isLt N_2

/-- The vertex block at point t, read at (r', a, k), is the vertex array at row 128 t + r'. -/
theorem vblk2_apply (c : Dev nD) (t : Fin cfg2.N) (r' : Fin 128) (a : Fin 3) (k : Fin 1024) (i : Fin 2048)
    (hi : i.val = t.val * 128 + r'.val) :
    vblk2 V c t (ix3 r' a k) = verts2 V c (ix3 i a k) := by
  obtain ⟨e0, e1, e2⟩ := idx2_0 t
  show V c (Pipeline.arrRef spec2 0) (((cfg2.win 0).blk t).view.emb (ix3 r' a k)) = V c (Pipeline.arrRef spec2 0) (ix3 i a k)
  refine congrArg _ (funext fun ax => Fin.ext ?_)
  match ax with
  | ⟨0, _⟩ => show win2_0.index t (0 : Fin 3) * 128 + 1 * r'.val = i.val; omega
  | ⟨1, _⟩ => show win2_0.index t (1 : Fin 3) * 3 + 1 * a.val = a.val; omega
  | ⟨2, _⟩ => show win2_0.index t (2 : Fin 3) * 1024 + 1 * k.val = k.val; omega

/-- The camera block at point t, read at (r', a, b), is the camera array at row 128 t + r'. -/
theorem cblk2_apply (c : Dev nD) (t : Fin cfg2.N) (r' : Fin 128) (a b : Fin 3) (i : Fin 2048)
    (hi : i.val = t.val * 128 + r'.val) :
    cblk2 V c t (ix3 r' a b) = cams2 V c (ix3 i a b) := by
  obtain ⟨e0, e1, e2⟩ := idx2_1 t
  show V c (Pipeline.arrRef spec2 1) (((cfg2.win 1).blk t).view.emb (ix3 r' a b)) = V c (Pipeline.arrRef spec2 1) (ix3 i a b)
  refine congrArg _ (funext fun ax => Fin.ext ?_)
  match ax with
  | ⟨0, _⟩ => show win2_1.index t (0 : Fin 3) * 128 + 1 * r'.val = i.val; omega
  | ⟨1, _⟩ => show win2_1.index t (1 : Fin 3) * 3 + 1 * a.val = a.val; omega
  | ⟨2, _⟩ => show win2_1.index t (2 : Fin 3) * 3 + 1 * b.val = b.val; omega

/-! ### Output window 2: the least screen coordinates -/

/-- An index of the array is in point t's block iff each coordinate is in the block's range on its axis. -/
theorem mem_blk2_2 (t : Fin cfg2.N) (i : S2048x2.Idx) :
    i ∈ ((cfg2.win 2).blk t).view.set ↔ ∀ a : Fin 2, win2_2.index t a * S128x2.size a ≤ (i a).val ∧ (i a).val < win2_2.index t a * S128x2.size a + S128x2.size a := by
  show i ∈ ((View.whole main_v29_0).slice (win2_2.rect t)).set ↔ _
  rw [View.set_slice_whole, Rect.mem_set_unit]
  exact Iff.rfl

/-- Row i of the array lies in the block of point i / 128, which is written back. -/
theorem cover2_2 (i : S2048x2.Idx) :
    ∃ t : Fin cfg2.N, (cfg2.win 2).flush t = true ∧ i ∈ ((cfg2.win 2).blk t).view.set := by
  have hi0 : (i 0).val < 2048 := (i 0).isLt
  have hi1 : (i 1).val < 2 := (i 1).isLt
  obtain ⟨t, ht⟩ : ∃ t : Fin cfg2.N, t.val = (i 0).val / 128 :=
    ⟨⟨(i 0).val / 128, by rw [show cfg2.N = 16 from N_2]; omega⟩, rfl⟩
  obtain ⟨e0, e1⟩ := idx2_2 t
  refine ⟨t, flush2_2 t, ?_⟩
  rw [mem_blk2_2]
  intro a
  match a with
  | ⟨0, _⟩ =>
    show win2_2.index t (0 : Fin 2) * 128 ≤ (i 0).val ∧ (i 0).val < win2_2.index t (0 : Fin 2) * 128 + 128
    omega
  | ⟨1, _⟩ =>
    show win2_2.index t (1 : Fin 2) * 2 ≤ (i 1).val ∧ (i 1).val < win2_2.index t (1 : Fin 2) * 2 + 2
    omega

/-- What point t writes back is block t of rowLo of the arrays the region reads. -/
theorem flushed2_2 (c : Dev nD) (t : Fin cfg2.N) :
    (dat2 (F := Ideal) V c).flushed 2 t
      = ((cfg2.win 2).blk t).view.read (Elt Ideal) (Cert.Spec.rowLo (verts2 V c) (cams2 V c)) := by
  show (cfg2.win 2).cut (grid2.coords t) ((dat2 V c).after 2 t) = _
  rw [after2_2]
  unfold out2_2
  rw [View.canon_unit_zero hz2]
  simp only [View.ld_unit_zero (S := S128x3x1024) hz3, View.ld_unit_zero (S := S128x3x3) hz3]
  refine (congrArg ((cfg2.win 2).cut (grid2.coords t)) (lo2_eq (vblk2 V c t) (cblk2 V c t))).trans ?_
  obtain ⟨e0, e1⟩ := idx2_2 t
  have hN := point_lt2 t
  funext y
  have hy0 : (y 0).val < 128 := (y 0).isLt
  have hy1 : (y 1).val < 2 := (y 1).isLt
  show Cert.Spec.rowLo (vblk2 V c t) (cblk2 V c t) (ix2 ⟨(y 0).val, hy0⟩ ⟨(y 1).val, hy1⟩)
    = Cert.Spec.rowLo (verts2 V c) (cams2 V c)
        (ix2 ⟨win2_2.index t (0 : Fin 2) * 128 + 1 * (y 0).val, by omega⟩
          ⟨win2_2.index t (1 : Fin 2) * 2 + 1 * (y 1).val, by omega⟩)
  exact rowLo_of_block _ _ _ _ _ _ _ _ (by show (y 1).val = win2_2.index t (1 : Fin 2) * 2 + 1 * (y 1).val; omega)
    (fun a k => vblk2_apply V c t _ a k _ (by show win2_2.index t (0 : Fin 2) * 128 + 1 * (y 0).val = t.val * 128 + (y 0).val; omega))
    (fun a b => cblk2_apply V c t _ a b _ (by show win2_2.index t (0 : Fin 2) * 128 + 1 * (y 0).val = t.val * 128 + (y 0).val; omega))

/-- So the array ends holding rowLo of the arrays the region reads. -/
theorem final2_2 (c : Dev nD) : (dat2 (F := Ideal) V c).arrAt 2 cfg2.N = Cert.Spec.rowLo (verts2 V c) (cams2 V c) :=
  (dat2 V c).arrAt_eq_of_cover 2 (Cert.Spec.rowLo (verts2 V c) (cams2 V c)) (fun t _ => flushed2_2 V c t) cover2_2

/-! ### Output window 3: the greatest screen coordinates -/

/-- An index of the array is in point t's block iff each coordinate is in the block's range on its axis. -/
theorem mem_blk2_3 (t : Fin cfg2.N) (i : S2048x2.Idx) :
    i ∈ ((cfg2.win 3).blk t).view.set ↔ ∀ a : Fin 2, win2_3.index t a * S128x2.size a ≤ (i a).val ∧ (i a).val < win2_3.index t a * S128x2.size a + S128x2.size a := by
  show i ∈ ((View.whole main_v29_1).slice (win2_3.rect t)).set ↔ _
  rw [View.set_slice_whole, Rect.mem_set_unit]
  exact Iff.rfl

/-- Row i of the array lies in the block of point i / 128, which is written back. -/
theorem cover2_3 (i : S2048x2.Idx) :
    ∃ t : Fin cfg2.N, (cfg2.win 3).flush t = true ∧ i ∈ ((cfg2.win 3).blk t).view.set := by
  have hi0 : (i 0).val < 2048 := (i 0).isLt
  have hi1 : (i 1).val < 2 := (i 1).isLt
  obtain ⟨t, ht⟩ : ∃ t : Fin cfg2.N, t.val = (i 0).val / 128 :=
    ⟨⟨(i 0).val / 128, by rw [show cfg2.N = 16 from N_2]; omega⟩, rfl⟩
  obtain ⟨e0, e1⟩ := idx2_3 t
  refine ⟨t, flush2_3 t, ?_⟩
  rw [mem_blk2_3]
  intro a
  match a with
  | ⟨0, _⟩ =>
    show win2_3.index t (0 : Fin 2) * 128 ≤ (i 0).val ∧ (i 0).val < win2_3.index t (0 : Fin 2) * 128 + 128
    omega
  | ⟨1, _⟩ =>
    show win2_3.index t (1 : Fin 2) * 2 ≤ (i 1).val ∧ (i 1).val < win2_3.index t (1 : Fin 2) * 2 + 2
    omega

/-- What point t writes back is block t of rowHi of the arrays the region reads. -/
theorem flushed2_3 (c : Dev nD) (t : Fin cfg2.N) :
    (dat2 (F := Ideal) V c).flushed 3 t
      = ((cfg2.win 3).blk t).view.read (Elt Ideal) (Cert.Spec.rowHi (verts2 V c) (cams2 V c)) := by
  show (cfg2.win 3).cut (grid2.coords t) ((dat2 V c).after 3 t) = _
  rw [after2_3]
  unfold out2_3
  rw [View.canon_unit_zero hz2]
  simp only [View.ld_unit_zero (S := S128x3x1024) hz3, View.ld_unit_zero (S := S128x3x3) hz3]
  refine (congrArg ((cfg2.win 3).cut (grid2.coords t)) (hi2_eq (vblk2 V c t) (cblk2 V c t))).trans ?_
  obtain ⟨e0, e1⟩ := idx2_3 t
  have hN := point_lt2 t
  funext y
  have hy0 : (y 0).val < 128 := (y 0).isLt
  have hy1 : (y 1).val < 2 := (y 1).isLt
  show Cert.Spec.rowHi (vblk2 V c t) (cblk2 V c t) (ix2 ⟨(y 0).val, hy0⟩ ⟨(y 1).val, hy1⟩)
    = Cert.Spec.rowHi (verts2 V c) (cams2 V c)
        (ix2 ⟨win2_3.index t (0 : Fin 2) * 128 + 1 * (y 0).val, by omega⟩
          ⟨win2_3.index t (1 : Fin 2) * 2 + 1 * (y 1).val, by omega⟩)
  exact rowHi_of_block _ _ _ _ _ _ _ _ (by show (y 1).val = win2_3.index t (1 : Fin 2) * 2 + 1 * (y 1).val; omega)
    (fun a k => vblk2_apply V c t _ a k _ (by show win2_3.index t (0 : Fin 2) * 128 + 1 * (y 0).val = t.val * 128 + (y 0).val; omega))
    (fun a b => cblk2_apply V c t _ a b _ (by show win2_3.index t (0 : Fin 2) * 128 + 1 * (y 0).val = t.val * 128 + (y 0).val; omega))

/-- So the array ends holding rowHi of the arrays the region reads. -/
theorem final2_3 (c : Dev nD) : (dat2 (F := Ideal) V c).arrAt 3 cfg2.N = Cert.Spec.rowHi (verts2 V c) (cams2 V c) :=
  (dat2 V c).arrAt_eq_of_cover 3 (Cert.Spec.rowHi (verts2 V c) (cams2 V c)) (fun t _ => flushed2_3 V c t) cover2_3

/-! ### Output window 4: the least depth -/

/-- An index of the array is in point t's block iff each coordinate is in the block's range on its axis. -/
theorem mem_blk2_4 (t : Fin cfg2.N) (i : S2048x1.Idx) :
    i ∈ ((cfg2.win 4).blk t).view.set ↔ ∀ a : Fin 2, win2_4.index t a * S128x1.size a ≤ (i a).val ∧ (i a).val < win2_4.index t a * S128x1.size a + S128x1.size a := by
  show i ∈ ((View.whole main_v29_2).slice (win2_4.rect t)).set ↔ _
  rw [View.set_slice_whole, Rect.mem_set_unit]
  exact Iff.rfl

/-- Row i of the array lies in the block of point i / 128, which is written back. -/
theorem cover2_4 (i : S2048x1.Idx) :
    ∃ t : Fin cfg2.N, (cfg2.win 4).flush t = true ∧ i ∈ ((cfg2.win 4).blk t).view.set := by
  have hi0 : (i 0).val < 2048 := (i 0).isLt
  have hi1 : (i 1).val < 1 := (i 1).isLt
  obtain ⟨t, ht⟩ : ∃ t : Fin cfg2.N, t.val = (i 0).val / 128 :=
    ⟨⟨(i 0).val / 128, by rw [show cfg2.N = 16 from N_2]; omega⟩, rfl⟩
  obtain ⟨e0, e1⟩ := idx2_4 t
  refine ⟨t, flush2_4 t, ?_⟩
  rw [mem_blk2_4]
  intro a
  match a with
  | ⟨0, _⟩ =>
    show win2_4.index t (0 : Fin 2) * 128 ≤ (i 0).val ∧ (i 0).val < win2_4.index t (0 : Fin 2) * 128 + 128
    omega
  | ⟨1, _⟩ =>
    show win2_4.index t (1 : Fin 2) * 1 ≤ (i 1).val ∧ (i 1).val < win2_4.index t (1 : Fin 2) * 1 + 1
    omega

/-- What point t writes back is block t of rowZmin of the arrays the region reads. -/
theorem flushed2_4 (c : Dev nD) (t : Fin cfg2.N) :
    (dat2 (F := Ideal) V c).flushed 4 t
      = ((cfg2.win 4).blk t).view.read (Elt Ideal) (Cert.Spec.rowZmin (verts2 V c)) := by
  show (cfg2.win 4).cut (grid2.coords t) ((dat2 V c).after 4 t) = _
  rw [after2_4]
  unfold out2_4
  rw [View.canon_unit_zero hz2]
  simp only [View.ld_unit_zero (S := S128x3x1024) hz3]
  refine (congrArg ((cfg2.win 4).cut (grid2.coords t)) (zmin2_eq (vblk2 V c t))).trans ?_
  obtain ⟨e0, e1⟩ := idx2_4 t
  have hN := point_lt2 t
  funext y
  have hy0 : (y 0).val < 128 := (y 0).isLt
  have hy1 : (y 1).val < 1 := (y 1).isLt
  show Cert.Spec.rowZmin (vblk2 V c t) (ix2 ⟨(y 0).val, hy0⟩ ⟨(y 1).val, hy1⟩)
    = Cert.Spec.rowZmin (verts2 V c)
        (ix2 ⟨win2_4.index t (0 : Fin 2) * 128 + 1 * (y 0).val, by omega⟩
          ⟨win2_4.index t (1 : Fin 2) * 1 + 1 * (y 1).val, by omega⟩)
  exact rowZmin_of_block _ _ _ _ _ _
    (fun a k => vblk2_apply V c t _ a k _ (by show win2_4.index t (0 : Fin 2) * 128 + 1 * (y 0).val = t.val * 128 + (y 0).val; omega))

/-- So the array ends holding rowZmin of the arrays the region reads. -/
theorem final2_4 (c : Dev nD) : (dat2 (F := Ideal) V c).arrAt 4 cfg2.N = Cert.Spec.rowZmin (verts2 V c) :=
  (dat2 V c).arrAt_eq_of_cover 4 (Cert.Spec.rowZmin (verts2 V c)) (fun t _ => flushed2_4 V c t) cover2_4

/-! ### Output window 5: the greatest depth -/

/-- An index of the array is in point t's block iff each coordinate is in the block's range on its axis. -/
theorem mem_blk2_5 (t : Fin cfg2.N) (i : S2048x1.Idx) :
    i ∈ ((cfg2.win 5).blk t).view.set ↔ ∀ a : Fin 2, win2_5.index t a * S128x1.size a ≤ (i a).val ∧ (i a).val < win2_5.index t a * S128x1.size a + S128x1.size a := by
  show i ∈ ((View.whole main_v29_3).slice (win2_5.rect t)).set ↔ _
  rw [View.set_slice_whole, Rect.mem_set_unit]
  exact Iff.rfl

/-- Row i of the array lies in the block of point i / 128, which is written back. -/
theorem cover2_5 (i : S2048x1.Idx) :
    ∃ t : Fin cfg2.N, (cfg2.win 5).flush t = true ∧ i ∈ ((cfg2.win 5).blk t).view.set := by
  have hi0 : (i 0).val < 2048 := (i 0).isLt
  have hi1 : (i 1).val < 1 := (i 1).isLt
  obtain ⟨t, ht⟩ : ∃ t : Fin cfg2.N, t.val = (i 0).val / 128 :=
    ⟨⟨(i 0).val / 128, by rw [show cfg2.N = 16 from N_2]; omega⟩, rfl⟩
  obtain ⟨e0, e1⟩ := idx2_5 t
  refine ⟨t, flush2_5 t, ?_⟩
  rw [mem_blk2_5]
  intro a
  match a with
  | ⟨0, _⟩ =>
    show win2_5.index t (0 : Fin 2) * 128 ≤ (i 0).val ∧ (i 0).val < win2_5.index t (0 : Fin 2) * 128 + 128
    omega
  | ⟨1, _⟩ =>
    show win2_5.index t (1 : Fin 2) * 1 ≤ (i 1).val ∧ (i 1).val < win2_5.index t (1 : Fin 2) * 1 + 1
    omega

/-- What point t writes back is block t of rowZmax of the arrays the region reads. -/
theorem flushed2_5 (c : Dev nD) (t : Fin cfg2.N) :
    (dat2 (F := Ideal) V c).flushed 5 t
      = ((cfg2.win 5).blk t).view.read (Elt Ideal) (Cert.Spec.rowZmax (verts2 V c)) := by
  show (cfg2.win 5).cut (grid2.coords t) ((dat2 V c).after 5 t) = _
  rw [after2_5]
  unfold out2_5
  rw [View.canon_unit_zero hz2]
  simp only [View.ld_unit_zero (S := S128x3x1024) hz3]
  refine (congrArg ((cfg2.win 5).cut (grid2.coords t)) (zmax2_eq (vblk2 V c t))).trans ?_
  obtain ⟨e0, e1⟩ := idx2_5 t
  have hN := point_lt2 t
  funext y
  have hy0 : (y 0).val < 128 := (y 0).isLt
  have hy1 : (y 1).val < 1 := (y 1).isLt
  show Cert.Spec.rowZmax (vblk2 V c t) (ix2 ⟨(y 0).val, hy0⟩ ⟨(y 1).val, hy1⟩)
    = Cert.Spec.rowZmax (verts2 V c)
        (ix2 ⟨win2_5.index t (0 : Fin 2) * 128 + 1 * (y 0).val, by omega⟩
          ⟨win2_5.index t (1 : Fin 2) * 1 + 1 * (y 1).val, by omega⟩)
  exact rowZmax_of_block _ _ _ _ _ _
    (fun a k => vblk2_apply V c t _ a k _ (by show win2_5.index t (0 : Fin 2) * 128 + 1 * (y 0).val = t.val * 128 + (y 0).val; omega))

/-- So the array ends holding rowZmax of the arrays the region reads. -/
theorem final2_5 (c : Dev nD) : (dat2 (F := Ideal) V c).arrAt 5 cfg2.N = Cert.Spec.rowZmax (verts2 V c) :=
  (dat2 V c).arrAt_eq_of_cover 5 (Cert.Spec.rowZmax (verts2 V c)) (fun t _ => flushed2_5 V c t) cover2_5

/-! ### Output window 6: the coordinate sums -/

/-- An index of the array is in point t's block iff each coordinate is in the block's range on its axis. -/
theorem mem_blk2_6 (t : Fin cfg2.N) (i : S2048x3.Idx) :
    i ∈ ((cfg2.win 6).blk t).view.set ↔ ∀ a : Fin 2, win2_6.index t a * S128x3.size a ≤ (i a).val ∧ (i a).val < win2_6.index t a * S128x3.size a + S128x3.size a := by
  show i ∈ ((View.whole main_v29_4).slice (win2_6.rect t)).set ↔ _
  rw [View.set_slice_whole, Rect.mem_set_unit]
  exact Iff.rfl

/-- Row i of the array lies in the block of point i / 128, which is written back. -/
theorem cover2_6 (i : S2048x3.Idx) :
    ∃ t : Fin cfg2.N, (cfg2.win 6).flush t = true ∧ i ∈ ((cfg2.win 6).blk t).view.set := by
  have hi0 : (i 0).val < 2048 := (i 0).isLt
  have hi1 : (i 1).val < 3 := (i 1).isLt
  obtain ⟨t, ht⟩ : ∃ t : Fin cfg2.N, t.val = (i 0).val / 128 :=
    ⟨⟨(i 0).val / 128, by rw [show cfg2.N = 16 from N_2]; omega⟩, rfl⟩
  obtain ⟨e0, e1⟩ := idx2_6 t
  refine ⟨t, flush2_6 t, ?_⟩
  rw [mem_blk2_6]
  intro a
  match a with
  | ⟨0, _⟩ =>
    show win2_6.index t (0 : Fin 2) * 128 ≤ (i 0).val ∧ (i 0).val < win2_6.index t (0 : Fin 2) * 128 + 128
    omega
  | ⟨1, _⟩ =>
    show win2_6.index t (1 : Fin 2) * 3 ≤ (i 1).val ∧ (i 1).val < win2_6.index t (1 : Fin 2) * 3 + 3
    omega

/-- What point t writes back is block t of rowSum of the arrays the region reads. -/
theorem flushed2_6 (c : Dev nD) (t : Fin cfg2.N) :
    (dat2 (F := Ideal) V c).flushed 6 t
      = ((cfg2.win 6).blk t).view.read (Elt Ideal) (Cert.Spec.rowSum (verts2 V c)) := by
  show (cfg2.win 6).cut (grid2.coords t) ((dat2 V c).after 6 t) = _
  rw [after2_6]
  unfold out2_6
  rw [View.canon_unit_zero hz2]
  simp only [View.ld_unit_zero (S := S128x3x1024) hz3]
  refine (congrArg ((cfg2.win 6).cut (grid2.coords t)) (sum2_eq (vblk2 V c t))).trans ?_
  obtain ⟨e0, e1⟩ := idx2_6 t
  have hN := point_lt2 t
  funext y
  have hy0 : (y 0).val < 128 := (y 0).isLt
  have hy1 : (y 1).val < 3 := (y 1).isLt
  show Cert.Spec.rowSum (vblk2 V c t) (ix2 ⟨(y 0).val, hy0⟩ ⟨(y 1).val, hy1⟩)
    = Cert.Spec.rowSum (verts2 V c)
        (ix2 ⟨win2_6.index t (0 : Fin 2) * 128 + 1 * (y 0).val, by omega⟩
          ⟨win2_6.index t (1 : Fin 2) * 3 + 1 * (y 1).val, by omega⟩)
  exact rowSum_of_block _ _ _ _ _ _ (by show (y 1).val = win2_6.index t (1 : Fin 2) * 3 + 1 * (y 1).val; omega)
    (fun a k => vblk2_apply V c t _ a k _ (by show win2_6.index t (0 : Fin 2) * 128 + 1 * (y 0).val = t.val * 128 + (y 0).val; omega))

/-- So the array ends holding rowSum of the arrays the region reads. -/
theorem final2_6 (c : Dev nD) : (dat2 (F := Ideal) V c).arrAt 6 cfg2.N = Cert.Spec.rowSum (verts2 V c) :=
  (dat2 V c).arrAt_eq_of_cover 6 (Cert.Spec.rowSum (verts2 V c)) (fun t _ => flushed2_6 V c t) cover2_6

/-! ### What region 2 leaves, index by index -/

theorem region2_lo (c : Dev nD) (r : Fin 2048) (j : Fin 2) :
    (dat2 (F := Ideal) V c).arrAt 2 cfg2.N (ix2 r j) = Cert.Spec.rowLo (verts2 V c) (cams2 V c) (ix2 r j) :=
  congrFun (final2_2 V c) (ix2 r j)

theorem region2_hi (c : Dev nD) (r : Fin 2048) (j : Fin 2) :
    (dat2 (F := Ideal) V c).arrAt 3 cfg2.N (ix2 r j) = Cert.Spec.rowHi (verts2 V c) (cams2 V c) (ix2 r j) :=
  congrFun (final2_3 V c) (ix2 r j)

theorem region2_zmin (c : Dev nD) (r : Fin 2048) :
    (dat2 (F := Ideal) V c).arrAt 4 cfg2.N (ix2 r (0 : Fin 1)) = Cert.Spec.rowZmin (verts2 V c) (ix2 r 0) :=
  congrFun (final2_4 V c) (ix2 r (0 : Fin 1))

theorem region2_zmax (c : Dev nD) (r : Fin 2048) :
    (dat2 (F := Ideal) V c).arrAt 5 cfg2.N (ix2 r (0 : Fin 1)) = Cert.Spec.rowZmax (verts2 V c) (ix2 r 0) :=
  congrFun (final2_5 V c) (ix2 r (0 : Fin 1))

theorem region2_sum (c : Dev nD) (r : Fin 2048) (k : Fin 3) :
    (dat2 (F := Ideal) V c).arrAt 6 cfg2.N (ix2 r k) = Cert.Spec.rowSum (verts2 V c) (ix2 r k) :=
  congrFun (final2_6 V c) (ix2 r k)

end Region2Arrays

/-! ## Region 3 (2048 vertices a row): the body's values at a row and a vertex -/

section Region3Payloads
variable (x0 : Vec Ideal S128x3x2048 .f32) (x1 : Vec Ideal S128x3x3 .f32)

/-- The x line of the block. -/
theorem lineX3 (r : Fin 128) (k : Fin 2048) : k3_pay9 x0 (ix2 r k) = x0 (ix3 r 0 k) := by
  unfold k3_pay9 k3_pay7
  dsimp only
  rw [shapeCast_self]
  exact coordLine_apply x0 0 _ _ 0 rfl r k

/-- The y line of the block. -/
theorem lineY3 (r : Fin 128) (k : Fin 2048) : k3_pay10 x0 (ix2 r k) = x0 (ix3 r 1 k) := by
  unfold k3_pay10 k3_pay7
  dsimp only
  rw [shapeCast_self]
  exact coordLine_apply x0 1 _ _ 1 rfl r k

/-- The z line of the block. -/
theorem lineZ3 (r : Fin 128) (k : Fin 2048) : k3_pay11 x0 (ix2 r k) = x0 (ix3 r 2 k) := by
  unfold k3_pay11 k3_pay7
  dsimp only
  rw [shapeCast_self]
  exact coordLine_apply x0 2 _ _ 2 rfl r k

/-- The horizontal screen coordinate of vertex k of row r. -/
theorem screenU3 (r : Fin 128) (k : Fin 2048) :
    k3_pay12 x0 x1 (ix2 r k)
      = Cert.Spec.screenU (x0 (ix3 r 0 k)) (x0 (ix3 r 2 k)) (x1 (ix3 r 0 0)) (x1 (ix3 r 0 2)) := by
  unfold k3_pay12 k3_pay8 Cert.Spec.screenU
  dsimp only
  rw [shapeCast_self]
  simp only [mulf_apply, addf_apply, subf_apply, divf_apply, broadcast_apply, lineX3, lineZ3]
  rw [camEntry_apply x1 0 0 _ _ _ _ 0 0 rfl rfl r k, camEntry_apply x1 0 2 _ _ _ _ 0 2 rfl rfl r k]
  rfl

end Region3Payloads

section Region3Payloads2
variable (x0 : Vec Ideal S128x3x2048 .f32) (x1 : Vec Ideal S128x3x3 .f32)

/-- The vertical screen coordinate of vertex k of row r. -/
theorem screenW3 (r : Fin 128) (k : Fin 2048) :
    k3_pay1 (k3_pay13 x0 x1) (ix2 r k)
      = Cert.Spec.screenW (x0 (ix3 r 1 k)) (x0 (ix3 r 2 k)) (x1 (ix3 r 1 1)) (x1 (ix3 r 1 2)) := by
  unfold k3_pay1 k3_pay13 k3_pay8 Cert.Spec.screenW
  dsimp only
  rw [shapeCast_self]
  simp only [mulf_apply, addf_apply, subf_apply, divf_apply, broadcast_apply, lineY3, lineZ3]
  rw [camEntry_apply x1 1 1 _ _ _ _ 1 1 rfl rfl r k, camEntry_apply x1 1 2 _ _ _ _ 1 2 rfl rfl r k]
  rfl

/-- The body's first result block: per row, the least screen coordinates over the row's vertices. -/
theorem lo3_eq : k3_pay2 (k3_pay12 x0 x1) (k3_pay13 x0 x1) = Cert.Spec.rowLo x0 x1 := by
  funext y
  obtain ⟨r, j, rfl⟩ : ∃ (r : Fin 128) (j : Fin 2), y = ix2 r j := ⟨y 0, y 1, eq_ix2 y⟩
  unfold k3_pay2
  dsimp only
  refine (concat2_cols_apply _ _ _ r j).trans ?_
  show _ = (Finset.univ : Finset (Fin 2048)).fold min (⊤ : EReal) fun k => Cert.Spec.rowScreen x0 x1 r k j
  unfold Cert.Spec.rowScreen
  split
  · next hj =>
    refine (shapeCast_a_a1_apply _ _ r 0).trans ?_
    refine (rowMin_apply _ _ _ _ r).trans ?_
    exact Finset.fold_congr fun k _ => screenU3 x0 x1 r k
  · next hj =>
    refine (shapeCast_a_a1_apply _ _ r 0).trans ?_
    refine (rowMin_apply _ _ _ _ r).trans ?_
    exact Finset.fold_congr fun k _ => screenW3 x0 x1 r k

/-- The second: the greatest screen coordinates. -/
theorem hi3_eq : k3_pay3 (k3_pay12 x0 x1) (k3_pay13 x0 x1) = Cert.Spec.rowHi x0 x1 := by
  funext y
  obtain ⟨r, j, rfl⟩ : ∃ (r : Fin 128) (j : Fin 2), y = ix2 r j := ⟨y 0, y 1, eq_ix2 y⟩
  unfold k3_pay3
  dsimp only
  refine (concat2_cols_apply _ _ _ r j).trans ?_
  show _ = (Finset.univ : Finset (Fin 2048)).fold max (⊥ : EReal) fun k => Cert.Spec.rowScreen x0 x1 r k j
  unfold Cert.Spec.rowScreen
  split
  · next hj =>
    refine (shapeCast_a_a1_apply _ _ r 0).trans ?_
    refine (rowMax_apply _ _ _ _ r).trans ?_
    exact Finset.fold_congr fun k _ => screenU3 x0 x1 r k
  · next hj =>
    refine (shapeCast_a_a1_apply _ _ r 0).trans ?_
    refine (rowMax_apply _ _ _ _ r).trans ?_
    exact Finset.fold_congr fun k _ => screenW3 x0 x1 r k

/-- The third: the least depth. -/
theorem zmin3_eq : k3_pay4 (k3_pay11 x0) = Cert.Spec.rowZmin x0 := by
  funext y
  obtain ⟨r, u, rfl⟩ : ∃ (r : Fin 128) (u : Fin 1), y = ix2 r u := ⟨y 0, y 1, eq_ix2 y⟩
  unfold k3_pay4
  dsimp only
  refine (shapeCast_a_a1_apply _ _ r u).trans ?_
  refine (rowMin_apply _ _ _ _ r).trans ?_
  exact Finset.fold_congr fun k _ => lineZ3 x0 r k

/-- The fourth: the greatest depth. -/
theorem zmax3_eq : k3_pay5 (k3_pay11 x0) = Cert.Spec.rowZmax x0 := by
  funext y
  obtain ⟨r, u, rfl⟩ : ∃ (r : Fin 128) (u : Fin 1), y = ix2 r u := ⟨y 0, y 1, eq_ix2 y⟩
  unfold k3_pay5
  dsimp only
  refine (shapeCast_a_a1_apply _ _ r u).trans ?_
  refine (rowMax_apply _ _ _ _ r).trans ?_
  exact Finset.fold_congr fun k _ => lineZ3 x0 r k

/-- The fifth: per row and coordinate, the sum over the row's vertices. -/
theorem sum3_eq : k3_pay6 (k3_pay9 x0) (k3_pay10 x0) (k3_pay11 x0) = Cert.Spec.rowSum x0 := by
  funext y
  obtain ⟨r, a, rfl⟩ : ∃ (r : Fin 128) (a : Fin 3), y = ix2 r a := ⟨y 0, y 1, eq_ix2 y⟩
  unfold k3_pay6
  dsimp only
  refine (concat3_cols_apply _ _ _ _ r a).trans ?_
  show _ = ∑ k : Fin 2048, x0 (ix3 r a k)
  match a with
  | ⟨0, _⟩ =>
    rw [if_pos rfl]
    refine (shapeCast_a_a1_apply _ _ r 0).trans ?_
    refine (rowSum_apply _ _ _ _ r).trans ?_
    exact Finset.sum_congr rfl fun k _ => lineX3 x0 r k
  | ⟨1, _⟩ =>
    rw [if_neg (show ¬((1 : ℕ) = 0) by decide), if_pos rfl]
    refine (shapeCast_a_a1_apply _ _ r 0).trans ?_
    refine (rowSum_apply _ _ _ _ r).trans ?_
    exact Finset.sum_congr rfl fun k _ => lineY3 x0 r k
  | ⟨2, _⟩ =>
    rw [if_neg (show ¬((2 : ℕ) = 0) by decide), if_neg (show ¬((2 : ℕ) = 1) by decide)]
    refine (shapeCast_a_a1_apply _ _ r 0).trans ?_
    refine (rowSum_apply _ _ _ _ r).trans ?_
    exact Finset.sum_congr rfl fun k _ => lineZ3 x0 r k

end Region3Payloads2

/-! ## Region 3: from the blocks to the arrays -/

section Region3Arrays
variable (V : (c : Dev nD) → (b : Ref sig .tc) → Buf (Elt Ideal) ((c : Thread nD τ).loc b))

/-- The vertex array the region reads: [2048, 3, 2048], row, coordinate, vertex. -/
abbrev verts3 (c : Dev nD) : S2048x3x2048.Idx → EReal := V c (Pipeline.arrRef spec3 0)
/-- The camera array the region reads: one 3 × 3 matrix per row. -/
abbrev cams3 (c : Dev nD) : S2048x3x3.Idx → EReal := V c (Pipeline.arrRef spec3 1)
/-- The vertex block of grid point t: rows 128 t … 128 t + 127. -/
abbrev vblk3 (c : Dev nD) (t : Fin cfg3.N) : S128x3x2048.Idx → EReal := iblk3 V c 0 t
/-- The camera block of grid point t. -/
abbrev cblk3 (c : Dev nD) (t : Fin cfg3.N) : S128x3x3.Idx → EReal := iblk3 V c 1 t

/-- The windows' block indices over the grid: point t takes block t of the rows and block 0 of every other axis. -/
theorem idx3_0 : ∀ t : Fin cfg3.N,
    win3_0.index t (0 : Fin 3) = t.val ∧ win3_0.index t (1 : Fin 3) = 0 ∧ win3_0.index t (2 : Fin 3) = 0 :=
  (by decide +kernel : ∀ t : Fin grid3.N, _)
theorem idx3_1 : ∀ t : Fin cfg3.N,
    win3_1.index t (0 : Fin 3) = t.val ∧ win3_1.index t (1 : Fin 3) = 0 ∧ win3_1.index t (2 : Fin 3) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = t.val ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)
theorem idx3_6 : ∀ t : Fin cfg3.N, win3_6.index t (0 : Fin 2) = t.val ∧ win3_6.index t (1 : Fin 2) = 0 :=
  (by decide +kernel : ∀ t : Fin grid3.N, _)

/-- The grid has 16 points. -/
theorem point_lt3 (t : Fin cfg3.N) : t.val < 16 := lt_of_lt_of_eq t.isLt N_3

/-- The vertex block at point t, read at (r', a, k), is the vertex array at row 128 t + r'. -/
theorem vblk3_apply (c : Dev nD) (t : Fin cfg3.N) (r' : Fin 128) (a : Fin 3) (k : Fin 2048) (i : Fin 2048)
    (hi : i.val = t.val * 128 + r'.val) :
    vblk3 V c t (ix3 r' a k) = verts3 V c (ix3 i a k) := by
  obtain ⟨e0, e1, e2⟩ := idx3_0 t
  show V c (Pipeline.arrRef spec3 0) (((cfg3.win 0).blk t).view.emb (ix3 r' a k)) = V c (Pipeline.arrRef spec3 0) (ix3 i a k)
  refine congrArg _ (funext fun ax => Fin.ext ?_)
  match ax with
  | ⟨0, _⟩ => show win3_0.index t (0 : Fin 3) * 128 + 1 * r'.val = i.val; omega
  | ⟨1, _⟩ => show win3_0.index t (1 : Fin 3) * 3 + 1 * a.val = a.val; omega
  | ⟨2, _⟩ => show win3_0.index t (2 : Fin 3) * 2048 + 1 * k.val = k.val; omega

/-- The camera block at point t, read at (r', a, b), is the camera array at row 128 t + r'. -/
theorem cblk3_apply (c : Dev nD) (t : Fin cfg3.N) (r' : Fin 128) (a b : Fin 3) (i : Fin 2048)
    (hi : i.val = t.val * 128 + r'.val) :
    cblk3 V c t (ix3 r' a b) = cams3 V c (ix3 i a b) := by
  obtain ⟨e0, e1, e2⟩ := idx3_1 t
  show V c (Pipeline.arrRef spec3 1) (((cfg3.win 1).blk t).view.emb (ix3 r' a b)) = V c (Pipeline.arrRef spec3 1) (ix3 i a b)
  refine congrArg _ (funext fun ax => Fin.ext ?_)
  match ax with
  | ⟨0, _⟩ => show win3_1.index t (0 : Fin 3) * 128 + 1 * r'.val = i.val; omega
  | ⟨1, _⟩ => show win3_1.index t (1 : Fin 3) * 3 + 1 * a.val = a.val; omega
  | ⟨2, _⟩ => show win3_1.index t (2 : Fin 3) * 3 + 1 * b.val = b.val; omega

/-! ### Output window 2: the least screen coordinates -/

/-- An index of the array is in point t's block iff each coordinate is in the block's range on its axis. -/
theorem mem_blk3_2 (t : Fin cfg3.N) (i : S2048x2.Idx) :
    i ∈ ((cfg3.win 2).blk t).view.set ↔ ∀ a : Fin 2, win3_2.index t a * S128x2.size a ≤ (i a).val ∧ (i a).val < win3_2.index t a * S128x2.size a + S128x2.size a := by
  show i ∈ ((View.whole main_v30_0).slice (win3_2.rect t)).set ↔ _
  rw [View.set_slice_whole, Rect.mem_set_unit]
  exact Iff.rfl

/-- Row i of the array lies in the block of point i / 128, which is written back. -/
theorem cover3_2 (i : S2048x2.Idx) :
    ∃ t : Fin cfg3.N, (cfg3.win 2).flush t = true ∧ i ∈ ((cfg3.win 2).blk t).view.set := by
  have hi0 : (i 0).val < 2048 := (i 0).isLt
  have hi1 : (i 1).val < 2 := (i 1).isLt
  obtain ⟨t, ht⟩ : ∃ t : Fin cfg3.N, t.val = (i 0).val / 128 :=
    ⟨⟨(i 0).val / 128, by rw [show cfg3.N = 16 from N_3]; omega⟩, rfl⟩
  obtain ⟨e0, e1⟩ := idx3_2 t
  refine ⟨t, flush3_2 t, ?_⟩
  rw [mem_blk3_2]
  intro a
  match a with
  | ⟨0, _⟩ =>
    show win3_2.index t (0 : Fin 2) * 128 ≤ (i 0).val ∧ (i 0).val < win3_2.index t (0 : Fin 2) * 128 + 128
    omega
  | ⟨1, _⟩ =>
    show win3_2.index t (1 : Fin 2) * 2 ≤ (i 1).val ∧ (i 1).val < win3_2.index t (1 : Fin 2) * 2 + 2
    omega

/-- What point t writes back is block t of rowLo of the arrays the region reads. -/
theorem flushed3_2 (c : Dev nD) (t : Fin cfg3.N) :
    (dat3 (F := Ideal) V c).flushed 2 t
      = ((cfg3.win 2).blk t).view.read (Elt Ideal) (Cert.Spec.rowLo (verts3 V c) (cams3 V c)) := by
  show (cfg3.win 2).cut (grid3.coords t) ((dat3 V c).after 2 t) = _
  rw [after3_2]
  unfold out3_2
  rw [View.canon_unit_zero hz2]
  simp only [View.ld_unit_zero (S := S128x3x2048) hz3, View.ld_unit_zero (S := S128x3x3) hz3]
  refine (congrArg ((cfg3.win 2).cut (grid3.coords t)) (lo3_eq (vblk3 V c t) (cblk3 V c t))).trans ?_
  obtain ⟨e0, e1⟩ := idx3_2 t
  have hN := point_lt3 t
  funext y
  have hy0 : (y 0).val < 128 := (y 0).isLt
  have hy1 : (y 1).val < 2 := (y 1).isLt
  show Cert.Spec.rowLo (vblk3 V c t) (cblk3 V c t) (ix2 ⟨(y 0).val, hy0⟩ ⟨(y 1).val, hy1⟩)
    = Cert.Spec.rowLo (verts3 V c) (cams3 V c)
        (ix2 ⟨win3_2.index t (0 : Fin 2) * 128 + 1 * (y 0).val, by omega⟩
          ⟨win3_2.index t (1 : Fin 2) * 2 + 1 * (y 1).val, by omega⟩)
  exact rowLo_of_block _ _ _ _ _ _ _ _ (by show (y 1).val = win3_2.index t (1 : Fin 2) * 2 + 1 * (y 1).val; omega)
    (fun a k => vblk3_apply V c t _ a k _ (by show win3_2.index t (0 : Fin 2) * 128 + 1 * (y 0).val = t.val * 128 + (y 0).val; omega))
    (fun a b => cblk3_apply V c t _ a b _ (by show win3_2.index t (0 : Fin 2) * 128 + 1 * (y 0).val = t.val * 128 + (y 0).val; omega))

/-- So the array ends holding rowLo of the arrays the region reads. -/
theorem final3_2 (c : Dev nD) : (dat3 (F := Ideal) V c).arrAt 2 cfg3.N = Cert.Spec.rowLo (verts3 V c) (cams3 V c) :=
  (dat3 V c).arrAt_eq_of_cover 2 (Cert.Spec.rowLo (verts3 V c) (cams3 V c)) (fun t _ => flushed3_2 V c t) cover3_2

/-! ### Output window 3: the greatest screen coordinates -/

/-- An index of the array is in point t's block iff each coordinate is in the block's range on its axis. -/
theorem mem_blk3_3 (t : Fin cfg3.N) (i : S2048x2.Idx) :
    i ∈ ((cfg3.win 3).blk t).view.set ↔ ∀ a : Fin 2, win3_3.index t a * S128x2.size a ≤ (i a).val ∧ (i a).val < win3_3.index t a * S128x2.size a + S128x2.size a := by
  show i ∈ ((View.whole main_v30_1).slice (win3_3.rect t)).set ↔ _
  rw [View.set_slice_whole, Rect.mem_set_unit]
  exact Iff.rfl

/-- Row i of the array lies in the block of point i / 128, which is written back. -/
theorem cover3_3 (i : S2048x2.Idx) :
    ∃ t : Fin cfg3.N, (cfg3.win 3).flush t = true ∧ i ∈ ((cfg3.win 3).blk t).view.set := by
  have hi0 : (i 0).val < 2048 := (i 0).isLt
  have hi1 : (i 1).val < 2 := (i 1).isLt
  obtain ⟨t, ht⟩ : ∃ t : Fin cfg3.N, t.val = (i 0).val / 128 :=
    ⟨⟨(i 0).val / 128, by rw [show cfg3.N = 16 from N_3]; omega⟩, rfl⟩
  obtain ⟨e0, e1⟩ := idx3_3 t
  refine ⟨t, flush3_3 t, ?_⟩
  rw [mem_blk3_3]
  intro a
  match a with
  | ⟨0, _⟩ =>
    show win3_3.index t (0 : Fin 2) * 128 ≤ (i 0).val ∧ (i 0).val < win3_3.index t (0 : Fin 2) * 128 + 128
    omega
  | ⟨1, _⟩ =>
    show win3_3.index t (1 : Fin 2) * 2 ≤ (i 1).val ∧ (i 1).val < win3_3.index t (1 : Fin 2) * 2 + 2
    omega

/-- What point t writes back is block t of rowHi of the arrays the region reads. -/
theorem flushed3_3 (c : Dev nD) (t : Fin cfg3.N) :
    (dat3 (F := Ideal) V c).flushed 3 t
      = ((cfg3.win 3).blk t).view.read (Elt Ideal) (Cert.Spec.rowHi (verts3 V c) (cams3 V c)) := by
  show (cfg3.win 3).cut (grid3.coords t) ((dat3 V c).after 3 t) = _
  rw [after3_3]
  unfold out3_3
  rw [View.canon_unit_zero hz2]
  simp only [View.ld_unit_zero (S := S128x3x2048) hz3, View.ld_unit_zero (S := S128x3x3) hz3]
  refine (congrArg ((cfg3.win 3).cut (grid3.coords t)) (hi3_eq (vblk3 V c t) (cblk3 V c t))).trans ?_
  obtain ⟨e0, e1⟩ := idx3_3 t
  have hN := point_lt3 t
  funext y
  have hy0 : (y 0).val < 128 := (y 0).isLt
  have hy1 : (y 1).val < 2 := (y 1).isLt
  show Cert.Spec.rowHi (vblk3 V c t) (cblk3 V c t) (ix2 ⟨(y 0).val, hy0⟩ ⟨(y 1).val, hy1⟩)
    = Cert.Spec.rowHi (verts3 V c) (cams3 V c)
        (ix2 ⟨win3_3.index t (0 : Fin 2) * 128 + 1 * (y 0).val, by omega⟩
          ⟨win3_3.index t (1 : Fin 2) * 2 + 1 * (y 1).val, by omega⟩)
  exact rowHi_of_block _ _ _ _ _ _ _ _ (by show (y 1).val = win3_3.index t (1 : Fin 2) * 2 + 1 * (y 1).val; omega)
    (fun a k => vblk3_apply V c t _ a k _ (by show win3_3.index t (0 : Fin 2) * 128 + 1 * (y 0).val = t.val * 128 + (y 0).val; omega))
    (fun a b => cblk3_apply V c t _ a b _ (by show win3_3.index t (0 : Fin 2) * 128 + 1 * (y 0).val = t.val * 128 + (y 0).val; omega))

/-- So the array ends holding rowHi of the arrays the region reads. -/
theorem final3_3 (c : Dev nD) : (dat3 (F := Ideal) V c).arrAt 3 cfg3.N = Cert.Spec.rowHi (verts3 V c) (cams3 V c) :=
  (dat3 V c).arrAt_eq_of_cover 3 (Cert.Spec.rowHi (verts3 V c) (cams3 V c)) (fun t _ => flushed3_3 V c t) cover3_3

/-! ### Output window 4: the least depth -/

/-- An index of the array is in point t's block iff each coordinate is in the block's range on its axis. -/
theorem mem_blk3_4 (t : Fin cfg3.N) (i : S2048x1.Idx) :
    i ∈ ((cfg3.win 4).blk t).view.set ↔ ∀ a : Fin 2, win3_4.index t a * S128x1.size a ≤ (i a).val ∧ (i a).val < win3_4.index t a * S128x1.size a + S128x1.size a := by
  show i ∈ ((View.whole main_v30_2).slice (win3_4.rect t)).set ↔ _
  rw [View.set_slice_whole, Rect.mem_set_unit]
  exact Iff.rfl

/-- Row i of the array lies in the block of point i / 128, which is written back. -/
theorem cover3_4 (i : S2048x1.Idx) :
    ∃ t : Fin cfg3.N, (cfg3.win 4).flush t = true ∧ i ∈ ((cfg3.win 4).blk t).view.set := by
  have hi0 : (i 0).val < 2048 := (i 0).isLt
  have hi1 : (i 1).val < 1 := (i 1).isLt
  obtain ⟨t, ht⟩ : ∃ t : Fin cfg3.N, t.val = (i 0).val / 128 :=
    ⟨⟨(i 0).val / 128, by rw [show cfg3.N = 16 from N_3]; omega⟩, rfl⟩
  obtain ⟨e0, e1⟩ := idx3_4 t
  refine ⟨t, flush3_4 t, ?_⟩
  rw [mem_blk3_4]
  intro a
  match a with
  | ⟨0, _⟩ =>
    show win3_4.index t (0 : Fin 2) * 128 ≤ (i 0).val ∧ (i 0).val < win3_4.index t (0 : Fin 2) * 128 + 128
    omega
  | ⟨1, _⟩ =>
    show win3_4.index t (1 : Fin 2) * 1 ≤ (i 1).val ∧ (i 1).val < win3_4.index t (1 : Fin 2) * 1 + 1
    omega

/-- What point t writes back is block t of rowZmin of the arrays the region reads. -/
theorem flushed3_4 (c : Dev nD) (t : Fin cfg3.N) :
    (dat3 (F := Ideal) V c).flushed 4 t
      = ((cfg3.win 4).blk t).view.read (Elt Ideal) (Cert.Spec.rowZmin (verts3 V c)) := by
  show (cfg3.win 4).cut (grid3.coords t) ((dat3 V c).after 4 t) = _
  rw [after3_4]
  unfold out3_4
  rw [View.canon_unit_zero hz2]
  simp only [View.ld_unit_zero (S := S128x3x2048) hz3]
  refine (congrArg ((cfg3.win 4).cut (grid3.coords t)) (zmin3_eq (vblk3 V c t))).trans ?_
  obtain ⟨e0, e1⟩ := idx3_4 t
  have hN := point_lt3 t
  funext y
  have hy0 : (y 0).val < 128 := (y 0).isLt
  have hy1 : (y 1).val < 1 := (y 1).isLt
  show Cert.Spec.rowZmin (vblk3 V c t) (ix2 ⟨(y 0).val, hy0⟩ ⟨(y 1).val, hy1⟩)
    = Cert.Spec.rowZmin (verts3 V c)
        (ix2 ⟨win3_4.index t (0 : Fin 2) * 128 + 1 * (y 0).val, by omega⟩
          ⟨win3_4.index t (1 : Fin 2) * 1 + 1 * (y 1).val, by omega⟩)
  exact rowZmin_of_block _ _ _ _ _ _
    (fun a k => vblk3_apply V c t _ a k _ (by show win3_4.index t (0 : Fin 2) * 128 + 1 * (y 0).val = t.val * 128 + (y 0).val; omega))

/-- So the array ends holding rowZmin of the arrays the region reads. -/
theorem final3_4 (c : Dev nD) : (dat3 (F := Ideal) V c).arrAt 4 cfg3.N = Cert.Spec.rowZmin (verts3 V c) :=
  (dat3 V c).arrAt_eq_of_cover 4 (Cert.Spec.rowZmin (verts3 V c)) (fun t _ => flushed3_4 V c t) cover3_4

/-! ### Output window 5: the greatest depth -/

/-- An index of the array is in point t's block iff each coordinate is in the block's range on its axis. -/
theorem mem_blk3_5 (t : Fin cfg3.N) (i : S2048x1.Idx) :
    i ∈ ((cfg3.win 5).blk t).view.set ↔ ∀ a : Fin 2, win3_5.index t a * S128x1.size a ≤ (i a).val ∧ (i a).val < win3_5.index t a * S128x1.size a + S128x1.size a := by
  show i ∈ ((View.whole main_v30_3).slice (win3_5.rect t)).set ↔ _
  rw [View.set_slice_whole, Rect.mem_set_unit]
  exact Iff.rfl

/-- Row i of the array lies in the block of point i / 128, which is written back. -/
theorem cover3_5 (i : S2048x1.Idx) :
    ∃ t : Fin cfg3.N, (cfg3.win 5).flush t = true ∧ i ∈ ((cfg3.win 5).blk t).view.set := by
  have hi0 : (i 0).val < 2048 := (i 0).isLt
  have hi1 : (i 1).val < 1 := (i 1).isLt
  obtain ⟨t, ht⟩ : ∃ t : Fin cfg3.N, t.val = (i 0).val / 128 :=
    ⟨⟨(i 0).val / 128, by rw [show cfg3.N = 16 from N_3]; omega⟩, rfl⟩
  obtain ⟨e0, e1⟩ := idx3_5 t
  refine ⟨t, flush3_5 t, ?_⟩
  rw [mem_blk3_5]
  intro a
  match a with
  | ⟨0, _⟩ =>
    show win3_5.index t (0 : Fin 2) * 128 ≤ (i 0).val ∧ (i 0).val < win3_5.index t (0 : Fin 2) * 128 + 128
    omega
  | ⟨1, _⟩ =>
    show win3_5.index t (1 : Fin 2) * 1 ≤ (i 1).val ∧ (i 1).val < win3_5.index t (1 : Fin 2) * 1 + 1
    omega

/-- What point t writes back is block t of rowZmax of the arrays the region reads. -/
theorem flushed3_5 (c : Dev nD) (t : Fin cfg3.N) :
    (dat3 (F := Ideal) V c).flushed 5 t
      = ((cfg3.win 5).blk t).view.read (Elt Ideal) (Cert.Spec.rowZmax (verts3 V c)) := by
  show (cfg3.win 5).cut (grid3.coords t) ((dat3 V c).after 5 t) = _
  rw [after3_5]
  unfold out3_5
  rw [View.canon_unit_zero hz2]
  simp only [View.ld_unit_zero (S := S128x3x2048) hz3]
  refine (congrArg ((cfg3.win 5).cut (grid3.coords t)) (zmax3_eq (vblk3 V c t))).trans ?_
  obtain ⟨e0, e1⟩ := idx3_5 t
  have hN := point_lt3 t
  funext y
  have hy0 : (y 0).val < 128 := (y 0).isLt
  have hy1 : (y 1).val < 1 := (y 1).isLt
  show Cert.Spec.rowZmax (vblk3 V c t) (ix2 ⟨(y 0).val, hy0⟩ ⟨(y 1).val, hy1⟩)
    = Cert.Spec.rowZmax (verts3 V c)
        (ix2 ⟨win3_5.index t (0 : Fin 2) * 128 + 1 * (y 0).val, by omega⟩
          ⟨win3_5.index t (1 : Fin 2) * 1 + 1 * (y 1).val, by omega⟩)
  exact rowZmax_of_block _ _ _ _ _ _
    (fun a k => vblk3_apply V c t _ a k _ (by show win3_5.index t (0 : Fin 2) * 128 + 1 * (y 0).val = t.val * 128 + (y 0).val; omega))

/-- So the array ends holding rowZmax of the arrays the region reads. -/
theorem final3_5 (c : Dev nD) : (dat3 (F := Ideal) V c).arrAt 5 cfg3.N = Cert.Spec.rowZmax (verts3 V c) :=
  (dat3 V c).arrAt_eq_of_cover 5 (Cert.Spec.rowZmax (verts3 V c)) (fun t _ => flushed3_5 V c t) cover3_5

/-! ### Output window 6: the coordinate sums -/

/-- An index of the array is in point t's block iff each coordinate is in the block's range on its axis. -/
theorem mem_blk3_6 (t : Fin cfg3.N) (i : S2048x3.Idx) :
    i ∈ ((cfg3.win 6).blk t).view.set ↔ ∀ a : Fin 2, win3_6.index t a * S128x3.size a ≤ (i a).val ∧ (i a).val < win3_6.index t a * S128x3.size a + S128x3.size a := by
  show i ∈ ((View.whole main_v30_4).slice (win3_6.rect t)).set ↔ _
  rw [View.set_slice_whole, Rect.mem_set_unit]
  exact Iff.rfl

/-- Row i of the array lies in the block of point i / 128, which is written back. -/
theorem cover3_6 (i : S2048x3.Idx) :
    ∃ t : Fin cfg3.N, (cfg3.win 6).flush t = true ∧ i ∈ ((cfg3.win 6).blk t).view.set := by
  have hi0 : (i 0).val < 2048 := (i 0).isLt
  have hi1 : (i 1).val < 3 := (i 1).isLt
  obtain ⟨t, ht⟩ : ∃ t : Fin cfg3.N, t.val = (i 0).val / 128 :=
    ⟨⟨(i 0).val / 128, by rw [show cfg3.N = 16 from N_3]; omega⟩, rfl⟩
  obtain ⟨e0, e1⟩ := idx3_6 t
  refine ⟨t, flush3_6 t, ?_⟩
  rw [mem_blk3_6]
  intro a
  match a with
  | ⟨0, _⟩ =>
    show win3_6.index t (0 : Fin 2) * 128 ≤ (i 0).val ∧ (i 0).val < win3_6.index t (0 : Fin 2) * 128 + 128
    omega
  | ⟨1, _⟩ =>
    show win3_6.index t (1 : Fin 2) * 3 ≤ (i 1).val ∧ (i 1).val < win3_6.index t (1 : Fin 2) * 3 + 3
    omega

/-- What point t writes back is block t of rowSum of the arrays the region reads. -/
theorem flushed3_6 (c : Dev nD) (t : Fin cfg3.N) :
    (dat3 (F := Ideal) V c).flushed 6 t
      = ((cfg3.win 6).blk t).view.read (Elt Ideal) (Cert.Spec.rowSum (verts3 V c)) := by
  show (cfg3.win 6).cut (grid3.coords t) ((dat3 V c).after 6 t) = _
  rw [after3_6]
  unfold out3_6
  rw [View.canon_unit_zero hz2]
  simp only [View.ld_unit_zero (S := S128x3x2048) hz3]
  refine (congrArg ((cfg3.win 6).cut (grid3.coords t)) (sum3_eq (vblk3 V c t))).trans ?_
  obtain ⟨e0, e1⟩ := idx3_6 t
  have hN := point_lt3 t
  funext y
  have hy0 : (y 0).val < 128 := (y 0).isLt
  have hy1 : (y 1).val < 3 := (y 1).isLt
  show Cert.Spec.rowSum (vblk3 V c t) (ix2 ⟨(y 0).val, hy0⟩ ⟨(y 1).val, hy1⟩)
    = Cert.Spec.rowSum (verts3 V c)
        (ix2 ⟨win3_6.index t (0 : Fin 2) * 128 + 1 * (y 0).val, by omega⟩
          ⟨win3_6.index t (1 : Fin 2) * 3 + 1 * (y 1).val, by omega⟩)
  exact rowSum_of_block _ _ _ _ _ _ (by show (y 1).val = win3_6.index t (1 : Fin 2) * 3 + 1 * (y 1).val; omega)
    (fun a k => vblk3_apply V c t _ a k _ (by show win3_6.index t (0 : Fin 2) * 128 + 1 * (y 0).val = t.val * 128 + (y 0).val; omega))

/-- So the array ends holding rowSum of the arrays the region reads. -/
theorem final3_6 (c : Dev nD) : (dat3 (F := Ideal) V c).arrAt 6 cfg3.N = Cert.Spec.rowSum (verts3 V c) :=
  (dat3 V c).arrAt_eq_of_cover 6 (Cert.Spec.rowSum (verts3 V c)) (fun t _ => flushed3_6 V c t) cover3_6

/-! ### What region 3 leaves, index by index -/

theorem region3_lo (c : Dev nD) (r : Fin 2048) (j : Fin 2) :
    (dat3 (F := Ideal) V c).arrAt 2 cfg3.N (ix2 r j) = Cert.Spec.rowLo (verts3 V c) (cams3 V c) (ix2 r j) :=
  congrFun (final3_2 V c) (ix2 r j)

theorem region3_hi (c : Dev nD) (r : Fin 2048) (j : Fin 2) :
    (dat3 (F := Ideal) V c).arrAt 3 cfg3.N (ix2 r j) = Cert.Spec.rowHi (verts3 V c) (cams3 V c) (ix2 r j) :=
  congrFun (final3_3 V c) (ix2 r j)

theorem region3_zmin (c : Dev nD) (r : Fin 2048) :
    (dat3 (F := Ideal) V c).arrAt 4 cfg3.N (ix2 r (0 : Fin 1)) = Cert.Spec.rowZmin (verts3 V c) (ix2 r 0) :=
  congrFun (final3_4 V c) (ix2 r (0 : Fin 1))

theorem region3_zmax (c : Dev nD) (r : Fin 2048) :
    (dat3 (F := Ideal) V c).arrAt 5 cfg3.N (ix2 r (0 : Fin 1)) = Cert.Spec.rowZmax (verts3 V c) (ix2 r 0) :=
  congrFun (final3_5 V c) (ix2 r (0 : Fin 1))

theorem region3_sum (c : Dev nD) (r : Fin 2048) (k : Fin 3) :
    (dat3 (F := Ideal) V c).arrAt 6 cfg3.N (ix2 r k) = Cert.Spec.rowSum (verts3 V c) (ix2 r k) :=
  congrFun (final3_6 V c) (ix2 r k)

end Region3Arrays

end Cert.KernelIdeal.PartRows

end
-- ==== Proof.LibGatherRows.lean ====
/-
  A gather that picks whole rows, or single elements, of a rank-3 array along its middle axis, read at
  a result index: the operand at the start index the table holds there, read signed and clamped into
  the axis (every start index of a gather is clamped so that the slice fits).
-/
import Idealize.ShloMosaic.PureOps
import Idealize.ShloMosaic.Lib.ValueIdx

noncomputable section

namespace Cert.LibGatherRows

open Idealize.ShloMosaic Idealize.ShloMosaic.ValueIdx

variable {α : Type}

/-- A singleton list of axes does not hold an axis of another position. -/
private theorem not_mem_single {n : Nat} {a b : Fin n} (h : a.val ≠ b.val) : a ∉ [b] :=
  fun hm => h (congrArg Fin.val (List.mem_singleton.1 hm))

/-- The dimension numbers of the row gather with their list fields as literals; only the slice sizes and the
    well-formedness evidence stay variable. -/
private abbrev rowsDims (B N C P K : Nat) (ss : Fin 3 → Nat)
    (wf : GatherDims.WF ⟨3, ![B, N, C]⟩ ⟨3, ![P, K, 1]⟩ ⟨4, ![B, P, K, C]⟩ [0, 3] [1] [] [1] [] 2 ss) :
    GatherDims ⟨3, ![B, N, C]⟩ ⟨3, ![P, K, 1]⟩ ⟨4, ![B, P, K, C]⟩ where
  offsetDims := [0, 3]
  collapsedSliceDims := [1]
  operandBatchingDims := []
  startIndicesBatchingDims := []
  startIndexMap := [1]
  indexVectorDim := 2
  sliceSizes := ss
  wf := wf

/-- The row gather at the literal dimension numbers: per operand axis the coordinate is start + batch + offset.
    Axis 0 and axis 2 are offset axes (start 0, read off result axes 0 and 3); axis 1 is collapsed (offset 0) and
    carries the clamped start index, whose slice size is 1. -/
private theorem rows_aux {B N C P K w : Nat} (hN : 0 < N) (ss : Fin 3 → Nat)
    (wf : GatherDims.WF ⟨3, ![B, N, C]⟩ ⟨3, ![P, K, 1]⟩ ⟨4, ![B, P, K, C]⟩ [0, 3] [1] [] [1] [] 2 ss)
    (x : (⟨3, ![B, N, C]⟩ : Shape).Idx → α) (idx : IVec ⟨3, ![P, K, 1]⟩ w)
    (b : Fin B) (p : Fin P) (k : Fin K) (c : Fin C) :
    Host.gather (rowsDims B N C P K ss wf) x idx (ix4 b p k c)
      = x (ix3 b ⟨min (idx (ix3 p k (0 : Fin 1))).toInt.toNat (N - 1), by omega⟩ c) := by
  have hss : ss 1 = 1 := wf.2.2.2.2.2.2.2.2.2.2.2.1 1 (List.mem_singleton.mpr rfl)
  unfold Host.gather
  congr 1
  funext a
  refine Fin.ext ?_
  match a with
  | ⟨0, h0⟩ =>
    show (rowsDims B N C P K ss wf).start (ix4 b p k c) idx ⟨0, h0⟩ + (rowsDims B N C P K ss wf).batchCoord (ix4 b p k c) ⟨0, h0⟩
      + (rowsDims B N C P K ss wf).offCoord (ix4 b p k c) ⟨0, h0⟩ = b.val
    have hsm : (⟨0, h0⟩ : Fin 3) ∉ (rowsDims B N C P K ss wf).startIndexMap := not_mem_single (by decide : (0 : Nat) ≠ 1)
    have hk : (⟨0, h0⟩ : Fin 3) ∈ (rowsDims B N C P K ss wf).sKept :=
      (GatherDims.mem_sKept _ _).2 ⟨not_mem_single (by decide : (0 : Nat) ≠ 1), List.not_mem_nil⟩
    rw [GatherDims.batchCoord_eq_zero _ _ _ List.not_mem_nil]
    unfold GatherDims.start GatherDims.offCoord
    rw [dif_neg hsm, dif_pos hk]
    simp only [Nat.add_zero, Nat.zero_add]
    rfl
  | ⟨1, h1⟩ =>
    show (rowsDims B N C P K ss wf).start (ix4 b p k c) idx ⟨1, h1⟩ + (rowsDims B N C P K ss wf).batchCoord (ix4 b p k c) ⟨1, h1⟩
      + (rowsDims B N C P K ss wf).offCoord (ix4 b p k c) ⟨1, h1⟩ = min (idx (ix3 p k (0 : Fin 1))).toInt.toNat (N - 1)
    have hsm : (⟨1, h1⟩ : Fin 3) ∈ (rowsDims B N C P K ss wf).startIndexMap := List.mem_singleton.mpr rfl
    rw [GatherDims.batchCoord_eq_zero _ _ _ List.not_mem_nil,
      GatherDims.offCoord_eq_zero _ _ _ (fun h => ((GatherDims.mem_sKept _ _).1 h).1 (List.mem_singleton.mpr rfl))]
    simp only [Nat.add_zero]
    unfold GatherDims.start
    rw [dif_pos hsm]
    have hsi : (rowsDims B N C P K ss wf).siIdx (ix4 b p k c)
        ⟨List.idxOf (⟨1, h1⟩ : Fin 3) (rowsDims B N C P K ss wf).startIndexMap, List.idxOf_lt_length_iff.2 hsm⟩
        = ix3 p k (0 : Fin 1) := by
      funext e; refine Fin.ext ?_
      match e with
      | ⟨0, _⟩ => rfl
      | ⟨1, _⟩ => rfl
      | ⟨2, _⟩ => rfl
    rw [hsi]
    show min _ (N - ss 1) = _
    rw [hss]
  | ⟨2, h2⟩ =>
    show (rowsDims B N C P K ss wf).start (ix4 b p k c) idx ⟨2, h2⟩ + (rowsDims B N C P K ss wf).batchCoord (ix4 b p k c) ⟨2, h2⟩
      + (rowsDims B N C P K ss wf).offCoord (ix4 b p k c) ⟨2, h2⟩ = c.val
    have hsm : (⟨2, h2⟩ : Fin 3) ∉ (rowsDims B N C P K ss wf).startIndexMap := not_mem_single (by decide : (2 : Nat) ≠ 1)
    have hk : (⟨2, h2⟩ : Fin 3) ∈ (rowsDims B N C P K ss wf).sKept :=
      (GatherDims.mem_sKept _ _).2 ⟨not_mem_single (by decide : (2 : Nat) ≠ 1), List.not_mem_nil⟩
    rw [GatherDims.batchCoord_eq_zero _ _ _ List.not_mem_nil]
    unfold GatherDims.start GatherDims.offCoord
    rw [dif_neg hsm, dif_pos hk]
    simp only [Nat.add_zero, Nat.zero_add]
    rfl

/-- Rows of x : [B, N, C] picked along axis 1 by a table idx : [P, K, 1] into a result [B, P, K, C]
    (offset axes 0 and 3, axis 1 collapsed, one start-index component for axis 1, the index vector on
    axis 2): result (b, p, k, c) is x at (b, idx(p, k, 0) clamped into [0, N − 1], c). -/
theorem gather_rows_apply {B N C P K w : Nat} (hN : 0 < N)
    (d : GatherDims ⟨3, ![B, N, C]⟩ ⟨3, ![P, K, 1]⟩ ⟨4, ![B, P, K, C]⟩)
    (hod : d.offsetDims = [0, 3]) (hcd : d.collapsedSliceDims = [1]) (hob : d.operandBatchingDims = [])
    (hsb : d.startIndicesBatchingDims = []) (hsm : d.startIndexMap = [1]) (hiv : d.indexVectorDim = 2)
    (x : (⟨3, ![B, N, C]⟩ : Shape).Idx → α) (idx : IVec ⟨3, ![P, K, 1]⟩ w)
    (b : Fin B) (p : Fin P) (k : Fin K) (c : Fin C) :
    Host.gather d x idx (ix4 b p k c)
      = x (ix3 b ⟨min (idx (ix3 p k (0 : Fin 1))).toInt.toNat (N - 1), by omega⟩ c) := by
  obtain ⟨od, cd, ob, sb, sm, iv, ss, wf⟩ := d
  simp only at hod hcd hob hsb hsm hiv
  subst hod hcd hob hsb hsm hiv
  exact rows_aux hN ss wf x idx b p k c

/-- A two-element list of axes does not hold an axis of a third position. -/
private theorem not_mem_pair {n : Nat} {a b c : Fin n} (hb : a.val ≠ b.val) (hc : a.val ≠ c.val) : a ∉ [b, c] := by
  intro hm
  rcases List.mem_cons.1 hm with h | h
  · exact hb (congrArg Fin.val h)
  · exact hc (congrArg Fin.val (List.mem_singleton.1 h))

/-- The dimension numbers of the element gather with their list fields as literals. -/
private abbrev elemsDims (B N C P K : Nat) (ss : Fin 3 → Nat)
    (wf : GatherDims.WF ⟨3, ![B, N, C]⟩ ⟨3, ![P, K, 2]⟩ ⟨3, ![B, P, K]⟩ [0] [1, 2] [] [1, 2] [] 2 ss) :
    GatherDims ⟨3, ![B, N, C]⟩ ⟨3, ![P, K, 2]⟩ ⟨3, ![B, P, K]⟩ where
  offsetDims := [0]
  collapsedSliceDims := [1, 2]
  operandBatchingDims := []
  startIndicesBatchingDims := []
  startIndexMap := [1, 2]
  indexVectorDim := 2
  sliceSizes := ss
  wf := wf

/-- The element gather at the literal dimension numbers: axis 0 is the one offset axis (read off result axis 0);
    axes 1 and 2 are collapsed and carry the clamped start-index components 0 and 1, each of slice size 1. -/
private theorem elems_aux {B N C P K w : Nat} (hN : 0 < N) (hC : 0 < C) (ss : Fin 3 → Nat)
    (wf : GatherDims.WF ⟨3, ![B, N, C]⟩ ⟨3, ![P, K, 2]⟩ ⟨3, ![B, P, K]⟩ [0] [1, 2] [] [1, 2] [] 2 ss)
    (x : (⟨3, ![B, N, C]⟩ : Shape).Idx → α) (idx : IVec ⟨3, ![P, K, 2]⟩ w)
    (b : Fin B) (p : Fin P) (k : Fin K) :
    Host.gather (elemsDims B N C P K ss wf) x idx (ix3 b p k)
      = x (ix3 b ⟨min (idx (ix3 p k (0 : Fin 2))).toInt.toNat (N - 1), by omega⟩
                 ⟨min (idx (ix3 p k (1 : Fin 2))).toInt.toNat (C - 1), by omega⟩) := by
  have hss1 : ss 1 = 1 := wf.2.2.2.2.2.2.2.2.2.2.2.1 1 List.mem_cons_self
  have hss2 : ss 2 = 1 := wf.2.2.2.2.2.2.2.2.2.2.2.1 2 (List.mem_cons_of_mem _ (List.mem_singleton.mpr rfl))
  unfold Host.gather
  congr 1
  funext a
  refine Fin.ext ?_
  match a with
  | ⟨0, h0⟩ =>
    show (elemsDims B N C P K ss wf).start (ix3 b p k) idx ⟨0, h0⟩ + (elemsDims B N C P K ss wf).batchCoord (ix3 b p k) ⟨0, h0⟩
      + (elemsDims B N C P K ss wf).offCoord (ix3 b p k) ⟨0, h0⟩ = b.val
    have hsm : (⟨0, h0⟩ : Fin 3) ∉ (elemsDims B N C P K ss wf).startIndexMap :=
      not_mem_pair (by decide : (0 : Nat) ≠ 1) (by decide : (0 : Nat) ≠ 2)
    have hk : (⟨0, h0⟩ : Fin 3) ∈ (elemsDims B N C P K ss wf).sKept :=
      (GatherDims.mem_sKept _ _).2 ⟨not_mem_pair (by decide : (0 : Nat) ≠ 1) (by decide : (0 : Nat) ≠ 2), List.not_mem_nil⟩
    rw [GatherDims.batchCoord_eq_zero _ _ _ List.not_mem_nil]
    unfold GatherDims.start GatherDims.offCoord
    rw [dif_neg hsm, dif_pos hk]
    simp only [Nat.add_zero, Nat.zero_add]
    rfl
  | ⟨1, h1⟩ =>
    show (elemsDims B N C P K ss wf).start (ix3 b p k) idx ⟨1, h1⟩ + (elemsDims B N C P K ss wf).batchCoord (ix3 b p k) ⟨1, h1⟩
      + (elemsDims B N C P K ss wf).offCoord (ix3 b p k) ⟨1, h1⟩ = min (idx (ix3 p k (0 : Fin 2))).toInt.toNat (N - 1)
    have hsm : (⟨1, h1⟩ : Fin 3) ∈ (elemsDims B N C P K ss wf).startIndexMap := List.mem_cons_self
    rw [GatherDims.batchCoord_eq_zero _ _ _ List.not_mem_nil,
      GatherDims.offCoord_eq_zero _ _ _ (fun h => ((GatherDims.mem_sKept _ _).1 h).1 List.mem_cons_self)]
    simp only [Nat.add_zero]
    unfold GatherDims.start
    rw [dif_pos hsm]
    have hsi : (elemsDims B N C P K ss wf).siIdx (ix3 b p k)
        ⟨List.idxOf (⟨1, h1⟩ : Fin 3) (elemsDims B N C P K ss wf).startIndexMap, List.idxOf_lt_length_iff.2 hsm⟩
        = ix3 p k (0 : Fin 2) := by
      funext e; refine Fin.ext ?_
      match e with
      | ⟨0, _⟩ => rfl
      | ⟨1, _⟩ => rfl
      | ⟨2, _⟩ => rfl
    rw [hsi]
    show min _ (N - ss 1) = _
    rw [hss1]
  | ⟨2, h2⟩ =>
    show (elemsDims B N C P K ss wf).start (ix3 b p k) idx ⟨2, h2⟩ + (elemsDims B N C P K ss wf).batchCoord (ix3 b p k) ⟨2, h2⟩
      + (elemsDims B N C P K ss wf).offCoord (ix3 b p k) ⟨2, h2⟩ = min (idx (ix3 p k (1 : Fin 2))).toInt.toNat (C - 1)
    have hsm : (⟨2, h2⟩ : Fin 3) ∈ (elemsDims B N C P K ss wf).startIndexMap :=
      List.mem_cons_of_mem _ (List.mem_singleton.mpr rfl)
    rw [GatherDims.batchCoord_eq_zero _ _ _ List.not_mem_nil,
      GatherDims.offCoord_eq_zero _ _ _ (fun h => ((GatherDims.mem_sKept _ _).1 h).1
        (List.mem_cons_of_mem _ (List.mem_singleton.mpr rfl)))]
    simp only [Nat.add_zero]
    unfold GatherDims.start
    rw [dif_pos hsm]
    have hsi : (elemsDims B N C P K ss wf).siIdx (ix3 b p k)
        ⟨List.idxOf (⟨2, h2⟩ : Fin 3) (elemsDims B N C P K ss wf).startIndexMap, List.idxOf_lt_length_iff.2 hsm⟩
        = ix3 p k (1 : Fin 2) := by
      funext e; refine Fin.ext ?_
      match e with
      | ⟨0, _⟩ => rfl
      | ⟨1, _⟩ => rfl
      | ⟨2, _⟩ => rfl
    rw [hsi]
    show min _ (C - ss 2) = _
    rw [hss2]

/-- Single elements of x : [B, N, C] picked along axes 1 and 2 by a table idx : [P, K, 2] into a result
    [B, P, K] (offset axis 0, axes 1 and 2 collapsed, start-index components for axes 1 and 2, the index
    vector on axis 2): result (b, p, k) is x at (b, idx(p, k, 0) clamped into [0, N − 1],
    idx(p, k, 1) clamped into [0, C − 1]). -/
theorem gather_elems_apply {B N C P K w : Nat} (hN : 0 < N) (hC : 0 < C)
    (d : GatherDims ⟨3, ![B, N, C]⟩ ⟨3, ![P, K, 2]⟩ ⟨3, ![B, P, K]⟩)
    (hod : d.offsetDims = [0]) (hcd : d.collapsedSliceDims = [1, 2]) (hob : d.operandBatchingDims = [])
    (hsb : d.startIndicesBatchingDims = []) (hsm : d.startIndexMap = [1, 2]) (hiv : d.indexVectorDim = 2)
    (x : (⟨3, ![B, N, C]⟩ : Shape).Idx → α) (idx : IVec ⟨3, ![P, K, 2]⟩ w)
    (b : Fin B) (p : Fin P) (k : Fin K) :
    Host.gather d x idx (ix3 b p k)
      = x (ix3 b ⟨min (idx (ix3 p k (0 : Fin 2))).toInt.toNat (N - 1), by omega⟩
                 ⟨min (idx (ix3 p k (1 : Fin 2))).toInt.toNat (C - 1), by omega⟩) := by
  obtain ⟨od, cd, ob, sb, sm, iv, ss, wf⟩ := d
  simp only at hod hcd hob hsb hsm hiv
  subst hod hcd hob hsb hsm hiv
  exact elems_aux hN hC ss wf x idx b p k

end Cert.LibGatherRows

end
-- ==== Proof.KernelParts.lean ====
/-
  The kernel program's five per-part arrays of the person mesh: each part-reducing region's outputs, read back per batch entry and part, over the part vertices the host gathers out of the mesh.

  The road, backwards from the program's end. Each of the five arrays is a reshape, 2048 rows to 256 · 8, of one output
  of the first part-reducing region (the coordinate sums first divided by the vertex count), and nothing later writes
  it; the second part-reducing region, which runs in between, holds none of them. The region's outputs are the row
  minima, maxima and sums of the two arrays it reads: a vertex array [2048, 3, 1024] and a camera array [2048, 3, 3].
  Row b·8 + p of the vertex array is part p of batch entry b of the mesh: the host takes the mesh rows the part table
  names (for a table of vertex numbers nothing is wrapped, every index passes the in-bounds test, and the gather reads
  the named row), swaps the last two axes and merges the first two. Row b·8 + p of the camera array is batch entry b's
  camera matrix, copied to every part. So a row's projected vertices are the part's, and the row reductions are the
  part's box corners, depth range and coordinate sums.
-/
import proofs.«400270_j61830349193773_3_alg».proof.Proof.KernelStagesDefs
import proofs.«400270_j61830349193773_3_alg».proof.Proof.PartRowsKernel
import proofs.«400270_j61830349193773_3_alg».proof.Proof.LibGatherRows
import Idealize.ShloMosaic.PureOps.Reduce
import Idealize.ShloMosaic.Lib.ValueIdx
import Idealize.ShloMosaic.Lib.Pipeline.Value

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.Spec Cert.SpecOut Cert.KernelIdeal.PartRows

variable (m : (ℓ : Loc nD τ sig) → Buf (Elt Ideal) ℓ) (ρ : Dev nD → PrngReg) (c : Dev nD)

namespace Smpl

/-- A host stretch leaves a buffer none of its operations writes as it was. -/
local macro "not_written" h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Reshapes that split or merge the row axis 2048 = 256 · 8, read at an index -/

section Casts
variable {α : Type}

/-- A [2048, n] array cast to [256, 8, n] reads, at (b, p, j), the operand at row b·8 + p. -/
theorem cast_rows_n {n : Nat} (x : (⟨2, ![2048, n]⟩ : Shape).Idx → α)
    (h : (⟨2, ![2048, n]⟩ : Shape).ShapeCasts ⟨3, ![256, 8, n]⟩) (b : Fin 256) (p : Fin 8) (j : Fin n) :
    shapeCast ⟨3, ![256, 8, n]⟩ x h (ix3 b p j) = x (ix2 ⟨b.val * 8 + p.val, by omega⟩ j) :=
  shapeCast_apply x h _ _ (by
    rw [Shape.rowMajor_val_three, Shape.rowMajor_val_two]
    rfl)

/-- A [2048, 1] array cast to [256, 8] reads, at (b, p), the operand at row b·8 + p. -/
theorem cast_rows_unit (x : (⟨2, ![2048, 1]⟩ : Shape).Idx → α)
    (h : (⟨2, ![2048, 1]⟩ : Shape).ShapeCasts ⟨2, ![256, 8]⟩) (b : Fin 256) (p : Fin 8) :
    shapeCast ⟨2, ![256, 8]⟩ x h (ix2 b p) = x (ix2 ⟨b.val * 8 + p.val, by omega⟩ (0 : Fin 1)) :=
  shapeCast_apply x h _ _ (by
    rw [Shape.rowMajor_val_two, Shape.rowMajor_val_two]
    show (b.val * 8 + p.val) * 1 + 0 = b.val * 8 + p.val
    omega)

/-- A [256, 8, n, k] array cast to [2048, n, k] reads, at (b·8 + p, i, j), the operand at (b, p, i, j). -/
theorem cast_merge_rows {n k : Nat} (x : (⟨4, ![256, 8, n, k]⟩ : Shape).Idx → α)
    (h : (⟨4, ![256, 8, n, k]⟩ : Shape).ShapeCasts ⟨3, ![2048, n, k]⟩) (b : Fin 256) (p : Fin 8) (i : Fin n) (j : Fin k) :
    shapeCast ⟨3, ![2048, n, k]⟩ x h (ix3 ⟨b.val * 8 + p.val, by omega⟩ i j) = x (ix4 b p i j) :=
  shapeCast_apply x h _ _ (by
    rw [Shape.rowMajor_val_four, Shape.rowMajor_val_three]
    rfl)

/-- The last two axes of a rank-4 array swapped. -/
theorem transpose_0132_apply {a b n k : Nat} (x : (⟨4, ![a, b, n, k]⟩ : Shape).Idx → α)
    (h : (⟨4, ![a, b, n, k]⟩ : Shape).Transposes [0, 1, 3, 2] ⟨4, ![a, b, k, n]⟩) (i0 : Fin a) (i1 : Fin b) (i2 : Fin k) (i3 : Fin n) :
    transpose ⟨4, ![a, b, k, n]⟩ [0, 1, 3, 2] x h (ix4 i0 i1 i2 i3) = x (ix4 i0 i1 i3 i2) :=
  transpose_apply _ x h _ _ fun c => match c with | ⟨0, _⟩ => rfl | ⟨1, _⟩ => rfl | ⟨2, _⟩ => rfl | ⟨3, _⟩ => rfl

end Casts

/-! ## Words of a part table: wrapping a negative entry, and the in-bounds test -/

/-- A non-negative word is not wrapped. -/
theorem wrap_word (x n : BitVec 32) (hx : 0 ≤ x.toInt) :
    Scalar.select (IntOp.cmpi .slt x 0#32) (IntOp.addi x n) x = x := by
  have h : IntOp.cmpi .slt x 0#32 = 0#1 := by
    show BitVec.ofBool (x.slt 0#32) = 0#1
    have e : x.slt 0#32 = false := by
      unfold BitVec.slt
      exact decide_eq_false (by rw [BitVec.toInt_zero]; omega)
    rw [e]; rfl
  rw [h]; exact select_zero _ _

/-- A word between 0 and a bound, read signed, passes both comparisons. -/
theorem inb_word (x hi : BitVec 32) (h0 : 0 ≤ x.toInt) (h1 : x.toInt ≤ hi.toInt) :
    IntOp.andi (IntOp.cmpi .sge x 0#32) (IntOp.cmpi .sle x hi) = 1#1 := by
  have a : IntOp.cmpi .sge x 0#32 = 1#1 := by
    show BitVec.ofBool ((0#32 : BitVec 32).sle x) = 1#1
    have e : (0#32 : BitVec 32).sle x = true := by
      unfold BitVec.sle
      exact decide_eq_true (by rw [BitVec.toInt_zero]; exact h0)
    rw [e]; rfl
  have b : IntOp.cmpi .sle x hi = 1#1 := by
    show BitVec.ofBool (x.sle hi) = 1#1
    have e : x.sle hi = true := by
      unfold BitVec.sle
      exact decide_eq_true h1
    rw [e]; rfl
  rw [a, b]; decide

/-- A fold of "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-- An and-reduction from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The host's take of the part vertices out of the person mesh

Its 23 operations in three stages: the table with negative entries wrapped and a unit axis added (8 operations); the
in-bounds mask (10); the gather, and the select that keeps a gathered value where the mask holds (5). -/

section Take
variable (V : Valuation τ sig (Elt Ideal))

/-- Stage one leaves the table itself, a unit axis added, where the entry is not negative. -/
theorem take_idx (p : Fin 8) (k : Fin 1024) (u : Fin 1)
    (hI : 0 ≤ ((V (Proc.devRef .tc main_arg3) : IVec S8x1024 32) (ix2 p k)).toInt) :
    (StableHlo.after ((hostOps2_1 (F := Ideal)).take 8) V (Proc.devRef .tc main_call1_v5) : IVec S8x1024x1 32) (ix3 p k u)
      = (V (Proc.devRef .tc main_arg3) : IVec S8x1024 32) (ix2 p k) := by
  simp only [hostOps2_1, List.take]
  after_results_simp
  simp only [TRef.ofBuf, TRef.toBuf, cast_eq]
  refine (broadcastInDim_apply _ _ _ (ix3 p k u) (ix2 p k) (fun a => match a with | ⟨0, _⟩ => rfl | ⟨1, _⟩ => rfl)).trans ?_
  exact wrap_word _ 10475#32 hI

/-- Stage one does not touch the mesh. -/
theorem take_idx_mesh :
    StableHlo.after ((hostOps2_1 (F := Ideal)).take 8) V (Proc.devRef .tc main_arg0) = V (Proc.devRef .tc main_arg0) := by
  simp only [hostOps2_1, List.take]
  after_results_simp

/-- Stage two's mask is 1 wherever every index it tests lies in the vertex axis. -/
theorem take_mask (p : Fin 8) (k : Fin 1024)
    (hJ : ∀ i, 0 ≤ ((V (Proc.devRef .tc main_call1_v5) : IVec S8x1024x1 32) i).toInt
      ∧ ((V (Proc.devRef .tc main_call1_v5) : IVec S8x1024x1 32) i).toInt ≤ (10474#32 : BitVec 32).toInt) :
    (StableHlo.after (((hostOps2_1 (F := Ideal)).drop 8).take 10) V (Proc.devRef .tc main_call1_v12) : IVec S8x1024 1) (ix2 p k) = 1#1 := by
  simp only [hostOps2_1, List.take, List.drop]
  after_results_simp
  simp only [TRef.ofBuf, TRef.toBuf, cast_eq]
  exact reduce_andi_ones _ _ _ _ (fun i => inb_word _ 10474#32 (hJ i).1 (hJ i).2) rfl _

/-- Stage two touches neither the index array nor the mesh. -/
theorem take_mask_idx :
    StableHlo.after (((hostOps2_1 (F := Ideal)).drop 8).take 10) V (Proc.devRef .tc main_call1_v5) = V (Proc.devRef .tc main_call1_v5) := by
  simp only [hostOps2_1, List.take, List.drop]
  after_results_simp
theorem take_mask_mesh :
    StableHlo.after (((hostOps2_1 (F := Ideal)).drop 8).take 10) V (Proc.devRef .tc main_arg0) = V (Proc.devRef .tc main_arg0) := by
  simp only [hostOps2_1, List.take, List.drop]
  after_results_simp

/-- Stage three, where the mask holds: the mesh at the index clamped into the vertex axis. -/
theorem take_val (b : Fin 256) (p : Fin 8) (k : Fin 1024) (cc : Fin 3)
    (hm : (V (Proc.devRef .tc main_call1_v12) : IVec S8x1024 1) (ix2 p k) = 1#1) :
    (StableHlo.after (((hostOps2_1 (F := Ideal)).drop 8).drop 10) V (Proc.devRef .tc main_v20) : S256x8x1024x3.Idx → EReal) (ix4 b p k cc)
      = (V (Proc.devRef .tc main_arg0) : S256x10475x3.Idx → EReal)
          (ix3 b ⟨min ((V (Proc.devRef .tc main_call1_v5) : IVec S8x1024x1 32) (ix3 p k (0 : Fin 1))).toInt.toNat (10475 - 1), by omega⟩ cc) := by
  simp only [hostOps2_1, List.drop]
  after_results_simp
  simp only [TRef.ofBuf, TRef.toBuf, cast_eq]
  rw [select_apply, broadcastInDim_apply _ _ _ (ix4 b p k cc) (ix2 p k) (fun a => match a with | ⟨0, _⟩ => rfl | ⟨1, _⟩ => rfl), hm, select_one]
  exact Cert.LibGatherRows.gather_rows_apply pos_smpl _ rfl rfl rfl rfl rfl rfl _ _ b p k cc

/-- The 23 operations as the three stages in a row. -/
theorem take_split : (hostOps2_1 (F := Ideal) : List (HloOp τ sig (Elt Ideal)))
      = (hostOps2_1 (F := Ideal)).take 8 ++ (((hostOps2_1 (F := Ideal)).drop 8).take 10 ++ ((hostOps2_1 (F := Ideal)).drop 8).drop 10) :=
  ((List.take_append_drop 8 _).symm).trans
    (congrArg (fun l => (hostOps2_1 (F := Ideal) : List (HloOp τ sig (Elt Ideal))).take 8 ++ l) (List.take_append_drop 10 _).symm)

theorem toInt_10474 : (10474#32 : BitVec 32).toInt = 10474 := by decide

/-- The whole take at an index, for a table whose entries are vertex numbers. -/
theorem take_apply (b : Fin 256) (p : Fin 8) (k : Fin 1024) (cc : Fin 3)
    (hI : ∀ (p : Fin 8) (k : Fin 1024), 0 ≤ ((V (Proc.devRef .tc main_arg3) : IVec S8x1024 32) (ix2 p k)).toInt
      ∧ ((V (Proc.devRef .tc main_arg3) : IVec S8x1024 32) (ix2 p k)).toInt < 10475) :
    (StableHlo.after (hostOps2_1 (F := Ideal)) V (Proc.devRef .tc main_v20) : S256x8x1024x3.Idx → EReal) (ix4 b p k cc)
      = (V (Proc.devRef .tc main_arg0) : S256x10475x3.Idx → EReal)
          (ix3 b (vertexOf pos_smpl (V (Proc.devRef .tc main_arg3) : IVec S8x1024 32) p k) cc) := by
  rw [take_split, StableHlo.after_append, StableHlo.after_append]
  have h5 : ∀ (p : Fin 8) (k : Fin 1024) (u : Fin 1), _ := fun p k u => take_idx V p k u (hI p k).1
  have h1 := take_idx_mesh V
  generalize StableHlo.after ((hostOps2_1 (F := Ideal)).take 8) V = V1 at h5 h1 ⊢
  have hJ : ∀ i, 0 ≤ ((V1 (Proc.devRef .tc main_call1_v5) : IVec S8x1024x1 32) i).toInt
      ∧ ((V1 (Proc.devRef .tc main_call1_v5) : IVec S8x1024x1 32) i).toInt ≤ (10474#32 : BitVec 32).toInt := by
    intro i
    obtain ⟨p', k', u', rfl⟩ : ∃ a b c, i = ix3 a b c := ⟨i 0, i 1, i 2, eq_ix3 i⟩
    rw [h5 p' k' u', toInt_10474]
    exact ⟨(hI p' k').1, by have := (hI p' k').2; omega⟩
  have h12 := take_mask V1 p k hJ
  have h5' := take_mask_idx V1
  have h1' := take_mask_mesh V1
  generalize StableHlo.after (((hostOps2_1 (F := Ideal)).drop 8).take 10) V1 = V2 at h12 h5' h1' ⊢
  rw [take_val V2 b p k cc h12, h1', h1]
  have e : (V2 (Proc.devRef .tc main_call1_v5) : IVec S8x1024x1 32) (ix3 p k (0 : Fin 1))
      = (V (Proc.devRef .tc main_arg3) : IVec S8x1024 32) (ix2 p k) := by rw [h5', h5 p k 0]
  refine congrArg (fun v => (V (Proc.devRef .tc main_arg0) : S256x10475x3.Idx → EReal) (ix3 b v cc)) (Fin.ext ?_)
  show min _ _ = min _ _
  rw [e]

end Take

/-! ## The arguments as launched, at the boundaries where the part arrays are built -/

theorem w7_arg (b : Ref sig .tc) (h0 : b = main_arg0 ∨ b = main_arg3) :
    W7 m ρ c (Proc.devRef .tc b) = m ((c : Thread nD τ).loc b) := by
  rcases h0 with rfl | rfl
  · exact
      calc W7 m ρ c (Proc.devRef .tc main_arg0)
        _ = W6 m ρ c (Proc.devRef .tc main_arg0) := by not_written hostOps2
        _ = W5 m ρ c (Proc.devRef .tc main_arg0) := W6_of_ne m ρ c main_arg0 (by decide)
        _ = W4 m ρ c (Proc.devRef .tc main_arg0) := by not_written hostOps1
        _ = W3 m ρ c (Proc.devRef .tc main_arg0) := W4_of_ne m ρ c main_arg0 (by decide)
        _ = W2 m ρ c (Proc.devRef .tc main_arg0) := by not_written hostOps0_2
        _ = W1 m ρ c (Proc.devRef .tc main_arg0) := by not_written hostOps0_1
        _ = W0 m ρ c (Proc.devRef .tc main_arg0) := by not_written hostOps0
        _ = m ((c : Thread nD τ).loc main_arg0) := rfl
  · exact
      calc W7 m ρ c (Proc.devRef .tc main_arg3)
        _ = W6 m ρ c (Proc.devRef .tc main_arg3) := by not_written hostOps2
        _ = W5 m ρ c (Proc.devRef .tc main_arg3) := W6_of_ne m ρ c main_arg3 (by decide)
        _ = W4 m ρ c (Proc.devRef .tc main_arg3) := by not_written hostOps1
        _ = W3 m ρ c (Proc.devRef .tc main_arg3) := W4_of_ne m ρ c main_arg3 (by decide)
        _ = W2 m ρ c (Proc.devRef .tc main_arg3) := by not_written hostOps0_2
        _ = W1 m ρ c (Proc.devRef .tc main_arg3) := by not_written hostOps0_1
        _ = W0 m ρ c (Proc.devRef .tc main_arg3) := by not_written hostOps0
        _ = m ((c : Thread nD τ).loc main_arg3) := rfl

theorem w9_arg2 : W9 m ρ c (Proc.devRef .tc main_arg2) = m ((c : Thread nD τ).loc main_arg2) :=
  calc W9 m ρ c (Proc.devRef .tc main_arg2)
    _ = W8 m ρ c (Proc.devRef .tc main_arg2) := by not_written hostOps2_2
    _ = W7 m ρ c (Proc.devRef .tc main_arg2) := by not_written hostOps2_1
    _ = W6 m ρ c (Proc.devRef .tc main_arg2) := by not_written hostOps2
    _ = W5 m ρ c (Proc.devRef .tc main_arg2) := W6_of_ne m ρ c main_arg2 (by decide)
    _ = W4 m ρ c (Proc.devRef .tc main_arg2) := by not_written hostOps1
    _ = W3 m ρ c (Proc.devRef .tc main_arg2) := W4_of_ne m ρ c main_arg2 (by decide)
    _ = W2 m ρ c (Proc.devRef .tc main_arg2) := by not_written hostOps0_2
    _ = W1 m ρ c (Proc.devRef .tc main_arg2) := by not_written hostOps0_1
    _ = W0 m ρ c (Proc.devRef .tc main_arg2) := by not_written hostOps0
    _ = m ((c : Thread nD τ).loc main_arg2) := rfl

/-- The second take leaves the first take's result as it was. -/
theorem w9_v20 : W9 m ρ c (Proc.devRef .tc main_v20) = W8 m ρ c (Proc.devRef .tc main_v20) := by
  not_written hostOps2_2

/-! ## The cameras, one copy per part -/

/-- The camera array the region reads is the one the host built just before it. -/
theorem cams2_entry : cams2 (V10 m ρ) c = (W10 m ρ c (Proc.devRef .tc main_v28) : S2048x3x3.Idx → EReal) := rfl

theorem w10_v28 : (W10 m ρ c (Proc.devRef .tc main_v28) : S2048x3x3.Idx → EReal)
    = shapeCast S2048x3x3 (broadcastInDim S256x8x3x3 ![0, 1, 2, 3] bcast_S256x1x3x3_S256x8x3x3_0_1_2_3
        (broadcastInDim S256x1x3x3 ![0, 2, 3] bcast_S256x3x3_S256x1x3x3_0_2_3 (a2 m c))) shapeCasts_S256x8x3x3_S2048x3x3 := by
  show StableHlo.after hostOps2_3 (W9 m ρ c) (Proc.devRef .tc main_v28) = _
  have h2 := w9_arg2 m ρ c
  generalize W9 m ρ c = V at h2
  after_results_simp
  rw [h2]
  rfl

theorem cams_eq (b : Fin 256) (p : Fin 8) (i j : Fin 3) :
    cams2 (V10 m ρ) c (ix3 ⟨b.val * 8 + p.val, by omega⟩ i j) = a2 m c (ix3 b i j) := by
  rw [cams2_entry, w10_v28]
  refine (cast_merge_rows _ _ b p i j).trans ?_
  refine (broadcastInDim_apply _ _ _ (ix4 b p i j) (ix4 b (0 : Fin 1) i j)
    (fun a => match a with | ⟨0, _⟩ => rfl | ⟨1, _⟩ => rfl | ⟨2, _⟩ => rfl | ⟨3, _⟩ => rfl)).trans ?_
  exact broadcastInDim_apply _ _ _ (ix4 b (0 : Fin 1) i j) (ix3 b i j)
    (fun a => match a with | ⟨0, _⟩ => rfl | ⟨1, _⟩ => rfl | ⟨2, _⟩ => rfl)

/-! ## The part vertices, as the region reads them -/

/-- The vertex array the region reads is the one the host built just before it. -/
theorem verts2_entry : verts2 (V10 m ρ) c = (W10 m ρ c (Proc.devRef .tc main_v24) : S2048x3x1024.Idx → EReal) := rfl

/-- The vertex array is the take's result with its last two axes swapped and its first two merged. -/
theorem w10_v24 : (W10 m ρ c (Proc.devRef .tc main_v24) : S2048x3x1024.Idx → EReal)
    = shapeCast S2048x3x1024 (transpose S256x8x3x1024 [0, 1, 3, 2] (W9 m ρ c (Proc.devRef .tc main_v20) : S256x8x1024x3.Idx → EReal)
        transposes_S256x8x1024x3_S256x8x3x1024_0_1_3_2) shapeCasts_S256x8x3x1024_S2048x3x1024 := by
  show StableHlo.after hostOps2_3 (W9 m ρ c) (Proc.devRef .tc main_v24) = _
  generalize W9 m ρ c = V
  after_results_simp
  rfl

/-- Row b·8 + p of the vertex array holds part p of batch entry b: coordinate cc of its k-th vertex. -/
theorem verts_eq (hS : InRangeS m c) (b : Fin 256) (p : Fin 8) (cc : Fin 3) (k : Fin 1024) :
    verts2 (V10 m ρ) c (ix3 ⟨b.val * 8 + p.val, by omega⟩ cc k) = Cert.Spec.partVertex pos_smpl (a0 m c) (i3 m c) b p k cc := by
  rw [verts2_entry, w10_v24]
  refine (cast_merge_rows _ _ b p cc k).trans ?_
  refine (transpose_0132_apply _ _ b p cc k).trans ?_
  refine (congrFun (w9_v20 m ρ c) (ix4 b p k cc)).trans ?_
  show (StableHlo.after (hostOps2_1 (F := Ideal)) (W7 m ρ c) (Proc.devRef .tc main_v20) : S256x8x1024x3.Idx → EReal) (ix4 b p k cc) = _
  have h0 := w7_arg m ρ c main_arg0 (Or.inl rfl)
  have h3 := w7_arg m ρ c main_arg3 (Or.inr rfl)
  rw [take_apply (W7 m ρ c) b p k cc (by rw [h3]; exact hS), h0, h3]
  rfl

/-- A row's screen coordinates are the part's. -/
theorem rowScreen_eq (hS : InRangeS m c) (b : Fin 256) (p : Fin 8) (k : Fin 1024) (j : Fin 2) :
    rowScreen (verts2 (V10 m ρ) c) (cams2 (V10 m ρ) c) ⟨b.val * 8 + p.val, by omega⟩ k j
      = partScreen pos_smpl (a0 m c) (a2 m c) (i3 m c) b p k j := by
  unfold rowScreen partScreen
  rw [verts_eq m ρ c hS b p 0 k, verts_eq m ρ c hS b p 1 k, verts_eq m ρ c hS b p 2 k,
    cams_eq m ρ c b p 0 0, cams_eq m ρ c b p 0 2, cams_eq m ρ c b p 1 1, cams_eq m ρ c b p 1 2]

/-! ## From the program's end back to the region's exit

The five arrays are written by the first host stretch after the two part-reducing regions and by nothing later; that
stretch reshapes the first region's outputs from 2048 rows to 256 · 8, the coordinate sums first divided by the vertex
count's float word. The second region, which runs in between, holds none of the first region's outputs. -/

theorem tail_v31 : W17 m ρ c (Proc.devRef .tc main_v31) = W13 m ρ c (Proc.devRef .tc main_v31) :=
  calc W17 m ρ c (Proc.devRef .tc main_v31)
    _ = W16 m ρ c (Proc.devRef .tc main_v31) := by not_written hostOps4_4
    _ = W15 m ρ c (Proc.devRef .tc main_v31) := by not_written hostOps4_3
    _ = W14 m ρ c (Proc.devRef .tc main_v31) := by not_written hostOps4_2
    _ = W13 m ρ c (Proc.devRef .tc main_v31) := by not_written hostOps4_1
theorem tail_v32 : W17 m ρ c (Proc.devRef .tc main_v32) = W13 m ρ c (Proc.devRef .tc main_v32) :=
  calc W17 m ρ c (Proc.devRef .tc main_v32)
    _ = W16 m ρ c (Proc.devRef .tc main_v32) := by not_written hostOps4_4
    _ = W15 m ρ c (Proc.devRef .tc main_v32) := by not_written hostOps4_3
    _ = W14 m ρ c (Proc.devRef .tc main_v32) := by not_written hostOps4_2
    _ = W13 m ρ c (Proc.devRef .tc main_v32) := by not_written hostOps4_1
theorem tail_v33 : W17 m ρ c (Proc.devRef .tc main_v33) = W13 m ρ c (Proc.devRef .tc main_v33) :=
  calc W17 m ρ c (Proc.devRef .tc main_v33)
    _ = W16 m ρ c (Proc.devRef .tc main_v33) := by not_written hostOps4_4
    _ = W15 m ρ c (Proc.devRef .tc main_v33) := by not_written hostOps4_3
    _ = W14 m ρ c (Proc.devRef .tc main_v33) := by not_written hostOps4_2
    _ = W13 m ρ c (Proc.devRef .tc main_v33) := by not_written hostOps4_1
theorem tail_v34 : W17 m ρ c (Proc.devRef .tc main_v34) = W13 m ρ c (Proc.devRef .tc main_v34) :=
  calc W17 m ρ c (Proc.devRef .tc main_v34)
    _ = W16 m ρ c (Proc.devRef .tc main_v34) := by not_written hostOps4_4
    _ = W15 m ρ c (Proc.devRef .tc main_v34) := by not_written hostOps4_3
    _ = W14 m ρ c (Proc.devRef .tc main_v34) := by not_written hostOps4_2
    _ = W13 m ρ c (Proc.devRef .tc main_v34) := by not_written hostOps4_1
theorem tail_v37 : W17 m ρ c (Proc.devRef .tc main_v37) = W13 m ρ c (Proc.devRef .tc main_v37) :=
  calc W17 m ρ c (Proc.devRef .tc main_v37)
    _ = W16 m ρ c (Proc.devRef .tc main_v37) := by not_written hostOps4_4
    _ = W15 m ρ c (Proc.devRef .tc main_v37) := by not_written hostOps4_3
    _ = W14 m ρ c (Proc.devRef .tc main_v37) := by not_written hostOps4_2
    _ = W13 m ρ c (Proc.devRef .tc main_v37) := by not_written hostOps4_1

theorem w13_v31 : (W13 m ρ c (Proc.devRef .tc main_v31) : S256x8x2.Idx → EReal)
    = shapeCast S256x8x2 (W12 m ρ c (Proc.devRef .tc main_v29_0) : S2048x2.Idx → EReal) shapeCasts_S2048x2_S256x8x2 := by
  show StableHlo.after hostOps4 (W12 m ρ c) (Proc.devRef .tc main_v31) = _
  generalize W12 m ρ c = V
  after_results_simp
  rfl
theorem w13_v32 : (W13 m ρ c (Proc.devRef .tc main_v32) : S256x8x2.Idx → EReal)
    = shapeCast S256x8x2 (W12 m ρ c (Proc.devRef .tc main_v29_1) : S2048x2.Idx → EReal) shapeCasts_S2048x2_S256x8x2 := by
  show StableHlo.after hostOps4 (W12 m ρ c) (Proc.devRef .tc main_v32) = _
  generalize W12 m ρ c = V
  after_results_simp
  rfl
theorem w13_v33 : (W13 m ρ c (Proc.devRef .tc main_v33) : S256x8.Idx → EReal)
    = shapeCast S256x8 (W12 m ρ c (Proc.devRef .tc main_v29_2) : S2048x1.Idx → EReal) shapeCasts_S2048x1_S256x8 := by
  show StableHlo.after hostOps4 (W12 m ρ c) (Proc.devRef .tc main_v33) = _
  generalize W12 m ρ c = V
  after_results_simp
  rfl
theorem w13_v34 : (W13 m ρ c (Proc.devRef .tc main_v34) : S256x8.Idx → EReal)
    = shapeCast S256x8 (W12 m ρ c (Proc.devRef .tc main_v29_3) : S2048x1.Idx → EReal) shapeCasts_S2048x1_S256x8 := by
  show StableHlo.after hostOps4 (W12 m ρ c) (Proc.devRef .tc main_v34) = _
  generalize W12 m ρ c = V
  after_results_simp
  rfl
theorem w13_v37 : (W13 m ρ c (Proc.devRef .tc main_v37) : S256x8x3.Idx → EReal)
    = shapeCast S256x8x3 (Host.divf (W12 m ρ c (Proc.devRef .tc main_v29_4) : S2048x3.Idx → EReal)
        (broadcastInDim S2048x3 ![] bcast_S_S2048x3 (constant (F := Ideal) S_ .f32 0x44800000#32))) shapeCasts_S2048x3_S256x8x3 := by
  show StableHlo.after hostOps4 (W12 m ρ c) (Proc.devRef .tc main_v37) = _
  generalize W12 m ρ c = V
  after_results_simp
  rfl

/-- The second part-reducing region leaves the first one's outputs as they were: what the first left there. -/
theorem w12_out (w : Fin cfg2.W) (hw : ∀ w', Pipeline.arrRef spec3 w' ≠ Pipeline.arrRef spec2 w) :
    W12 m ρ c (Proc.devRef .tc (Pipeline.arrRef spec2 w)) = (dat2 (V10 m ρ) c).arrAt w cfg2.N :=
  (W12_of_ne m ρ c (Pipeline.arrRef spec2 w) hw).trans (W11_arr m ρ c w)

end Smpl

open Smpl

/-! ## The five arrays of the person mesh -/

theorem lo_smpl (hS : InRangeS m c) : (W17 m ρ c (Proc.devRef .tc main_v31) : (⟨3, ![256, 8, 2]⟩ : Shape).Idx → EReal) = boxLo pos_smpl (a0 m c) (a2 m c) (i3 m c) := by
  rw [tail_v31, w13_v31]
  funext j
  obtain ⟨b, p, q, rfl⟩ : ∃ b p q, j = ix3 b p q := ⟨j 0, j 1, j 2, eq_ix3 j⟩
  refine (cast_rows_n _ _ b p q).trans ?_
  have e : (W12 m ρ c (Proc.devRef .tc main_v29_0) : S2048x2.Idx → EReal) = (dat2 (V10 m ρ) c).arrAt 2 cfg2.N := w12_out m ρ c 2 (by decide)
  rw [e, region2_lo]
  unfold rowLo boxLo
  exact Finset.fold_congr fun k _ => rowScreen_eq m ρ c hS b p k q
theorem hi_smpl (hS : InRangeS m c) : (W17 m ρ c (Proc.devRef .tc main_v32) : (⟨3, ![256, 8, 2]⟩ : Shape).Idx → EReal) = boxHi pos_smpl (a0 m c) (a2 m c) (i3 m c) := by
  rw [tail_v32, w13_v32]
  funext j
  obtain ⟨b, p, q, rfl⟩ : ∃ b p q, j = ix3 b p q := ⟨j 0, j 1, j 2, eq_ix3 j⟩
  refine (cast_rows_n _ _ b p q).trans ?_
  have e : (W12 m ρ c (Proc.devRef .tc main_v29_1) : S2048x2.Idx → EReal) = (dat2 (V10 m ρ) c).arrAt 3 cfg2.N := w12_out m ρ c 3 (by decide)
  rw [e, region2_hi]
  unfold rowHi boxHi
  exact Finset.fold_congr fun k _ => rowScreen_eq m ρ c hS b p k q
theorem zmin_smpl (hS : InRangeS m c) : (W17 m ρ c (Proc.devRef .tc main_v33) : (⟨2, ![256, 8]⟩ : Shape).Idx → EReal) = depthMin pos_smpl (a0 m c) (i3 m c) := by
  rw [tail_v33, w13_v33]
  funext j
  obtain ⟨b, p, rfl⟩ : ∃ b p, j = ix2 b p := ⟨j 0, j 1, eq_ix2 j⟩
  refine (cast_rows_unit _ _ b p).trans ?_
  have e : (W12 m ρ c (Proc.devRef .tc main_v29_2) : S2048x1.Idx → EReal) = (dat2 (V10 m ρ) c).arrAt 4 cfg2.N := w12_out m ρ c 4 (by decide)
  rw [e, region2_zmin]
  unfold rowZmin depthMin
  exact Finset.fold_congr fun k _ => verts_eq m ρ c hS b p 2 k
theorem zmax_smpl (hS : InRangeS m c) : (W17 m ρ c (Proc.devRef .tc main_v34) : (⟨2, ![256, 8]⟩ : Shape).Idx → EReal) = depthMax pos_smpl (a0 m c) (i3 m c) := by
  rw [tail_v34, w13_v34]
  funext j
  obtain ⟨b, p, rfl⟩ : ∃ b p, j = ix2 b p := ⟨j 0, j 1, eq_ix2 j⟩
  refine (cast_rows_unit _ _ b p).trans ?_
  have e : (W12 m ρ c (Proc.devRef .tc main_v29_3) : S2048x1.Idx → EReal) = (dat2 (V10 m ρ) c).arrAt 5 cfg2.N := w12_out m ρ c 5 (by decide)
  rw [e, region2_zmax]
  unfold rowZmax depthMax
  exact Finset.fold_congr fun k _ => verts_eq m ρ c hS b p 2 k
theorem mean_smpl (hS : InRangeS m c) : (W17 m ρ c (Proc.devRef .tc main_v37) : (⟨3, ![256, 8, 3]⟩ : Shape).Idx → EReal) = partMean pos_smpl (a0 m c) (i3 m c) 0x44800000#32 := by
  rw [tail_v37, w13_v37]
  funext j
  obtain ⟨b, p, q, rfl⟩ : ∃ b p q, j = ix3 b p q := ⟨j 0, j 1, j 2, eq_ix3 j⟩
  refine (cast_rows_n _ _ b p q).trans ?_
  show Ideal.div ((W12 m ρ c (Proc.devRef .tc main_v29_4) : S2048x3.Idx → EReal) (ix2 ⟨b.val * 8 + p.val, by omega⟩ q))
    (Ideal.ofBits .f32 0x44800000#32) = _
  have e : (W12 m ρ c (Proc.devRef .tc main_v29_4) : S2048x3.Idx → EReal) = (dat2 (V10 m ρ) c).arrAt 6 cfg2.N := w12_out m ρ c 6 (by decide)
  rw [e, region2_sum]
  unfold partMean partSum rowSum
  exact congrArg (fun s => Ideal.div s (Ideal.ofBits .f32 0x44800000#32)) (Finset.sum_congr rfl fun k _ => verts_eq m ρ c hS b p q k)

end Cert.KernelIdeal.Stages

end
-- ==== Proof.KernelPartsObj.lean ====
/-
  The kernel program's five per-part arrays of the object mesh: each part-reducing region's outputs, read back per batch entry and part, over the part vertices the host gathers out of the mesh.

  The road, backwards from the program's end. Each of the five arrays is a reshape, 2048 rows to 256 · 8, of one output
  of the second part-reducing region (the coordinate sums first divided by the vertex count), and nothing later writes
  it. That region's outputs are the row minima, maxima and sums of the two arrays it reads: a vertex array
  [2048, 3, 2048] and a camera array [2048, 3, 3]. Row b·8 + p of the vertex array is part p of batch entry b of the
  mesh: the host takes the mesh rows the part table names (for a table of vertex numbers nothing is wrapped, every
  index passes the in-bounds test, and the gather reads the named row), swaps the last two axes and merges the first
  two. Row b·8 + p of the camera array is batch entry b's camera matrix, copied to every part. So a row's projected
  vertices are the part's, and the row reductions are the part's box corners, depth range and coordinate sums.
-/
import proofs.«400270_j61830349193773_3_alg».proof.Proof.KernelStagesDefs
import proofs.«400270_j61830349193773_3_alg».proof.Proof.PartRowsKernel
import proofs.«400270_j61830349193773_3_alg».proof.Proof.LibGatherRows
import Idealize.ShloMosaic.PureOps.Reduce
import Idealize.ShloMosaic.Lib.ValueIdx
import Idealize.ShloMosaic.Lib.Pipeline.Value

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.Spec Cert.SpecOut Cert.KernelIdeal.PartRows

variable (m : (ℓ : Loc nD τ sig) → Buf (Elt Ideal) ℓ) (ρ : Dev nD → PrngReg) (c : Dev nD)

namespace Obj

/-- A host stretch leaves a buffer none of its operations writes as it was. -/
local macro "not_written" h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Reshapes that split or merge the row axis 2048 = 256 · 8, read at an index -/

section Casts
variable {α : Type}

/-- A [2048, n] array cast to [256, 8, n] reads, at (b, p, j), the operand at row b·8 + p. -/
theorem cast_rows_n {n : Nat} (x : (⟨2, ![2048, n]⟩ : Shape).Idx → α)
    (h : (⟨2, ![2048, n]⟩ : Shape).ShapeCasts ⟨3, ![256, 8, n]⟩) (b : Fin 256) (p : Fin 8) (j : Fin n) :
    shapeCast ⟨3, ![256, 8, n]⟩ x h (ix3 b p j) = x (ix2 ⟨b.val * 8 + p.val, by omega⟩ j) :=
  shapeCast_apply x h _ _ (by
    rw [Shape.rowMajor_val_three, Shape.rowMajor_val_two]
    rfl)

/-- A [2048, 1] array cast to [256, 8] reads, at (b, p), the operand at row b·8 + p. -/
theorem cast_rows_unit (x : (⟨2, ![2048, 1]⟩ : Shape).Idx → α)
    (h : (⟨2, ![2048, 1]⟩ : Shape).ShapeCasts ⟨2, ![256, 8]⟩) (b : Fin 256) (p : Fin 8) :
    shapeCast ⟨2, ![256, 8]⟩ x h (ix2 b p) = x (ix2 ⟨b.val * 8 + p.val, by omega⟩ (0 : Fin 1)) :=
  shapeCast_apply x h _ _ (by
    rw [Shape.rowMajor_val_two, Shape.rowMajor_val_two]
    show (b.val * 8 + p.val) * 1 + 0 = b.val * 8 + p.val
    omega)

/-- A [256, 8, n, k] array cast to [2048, n, k] reads, at (b·8 + p, i, j), the operand at (b, p, i, j). -/
theorem cast_merge_rows {n k : Nat} (x : (⟨4, ![256, 8, n, k]⟩ : Shape).Idx → α)
    (h : (⟨4, ![256, 8, n, k]⟩ : Shape).ShapeCasts ⟨3, ![2048, n, k]⟩) (b : Fin 256) (p : Fin 8) (i : Fin n) (j : Fin k) :
    shapeCast ⟨3, ![2048, n, k]⟩ x h (ix3 ⟨b.val * 8 + p.val, by omega⟩ i j) = x (ix4 b p i j) :=
  shapeCast_apply x h _ _ (by
    rw [Shape.rowMajor_val_four, Shape.rowMajor_val_three]
    rfl)

/-- The last two axes of a rank-4 array swapped. -/
theorem transpose_0132_apply {a b n k : Nat} (x : (⟨4, ![a, b, n, k]⟩ : Shape).Idx → α)
    (h : (⟨4, ![a, b, n, k]⟩ : Shape).Transposes [0, 1, 3, 2] ⟨4, ![a, b, k, n]⟩) (i0 : Fin a) (i1 : Fin b) (i2 : Fin k) (i3 : Fin n) :
    transpose ⟨4, ![a, b, k, n]⟩ [0, 1, 3, 2] x h (ix4 i0 i1 i2 i3) = x (ix4 i0 i1 i3 i2) :=
  transpose_apply _ x h _ _ fun c => match c with | ⟨0, _⟩ => rfl | ⟨1, _⟩ => rfl | ⟨2, _⟩ => rfl | ⟨3, _⟩ => rfl

end Casts

/-! ## Words of a part table: wrapping a negative entry, and the in-bounds test -/

/-- A non-negative word is not wrapped. -/
theorem wrap_word (x n : BitVec 32) (hx : 0 ≤ x.toInt) :
    Scalar.select (IntOp.cmpi .slt x 0#32) (IntOp.addi x n) x = x := by
  have h : IntOp.cmpi .slt x 0#32 = 0#1 := by
    show BitVec.ofBool (x.slt 0#32) = 0#1
    have e : x.slt 0#32 = false := by
      unfold BitVec.slt
      exact decide_eq_false (by rw [BitVec.toInt_zero]; omega)
    rw [e]; rfl
  rw [h]; exact select_zero _ _

/-- A word between 0 and a bound, read signed, passes both comparisons. -/
theorem inb_word (x hi : BitVec 32) (h0 : 0 ≤ x.toInt) (h1 : x.toInt ≤ hi.toInt) :
    IntOp.andi (IntOp.cmpi .sge x 0#32) (IntOp.cmpi .sle x hi) = 1#1 := by
  have a : IntOp.cmpi .sge x 0#32 = 1#1 := by
    show BitVec.ofBool ((0#32 : BitVec 32).sle x) = 1#1
    have e : (0#32 : BitVec 32).sle x = true := by
      unfold BitVec.sle
      exact decide_eq_true (by rw [BitVec.toInt_zero]; exact h0)
    rw [e]; rfl
  have b : IntOp.cmpi .sle x hi = 1#1 := by
    show BitVec.ofBool (x.sle hi) = 1#1
    have e : x.sle hi = true := by
      unfold BitVec.sle
      exact decide_eq_true h1
    rw [e]; rfl
  rw [a, b]; decide

/-- A fold of "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-- An and-reduction from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The host's take of the part vertices out of the object mesh

Its 23 operations in three stages: the table with negative entries wrapped and a unit axis added (8 operations); the
in-bounds mask (10); the gather, and the select that keeps a gathered value where the mask holds (5). -/

section Take
variable (V : Valuation τ sig (Elt Ideal))

/-- Stage one leaves the table itself, a unit axis added, where the entry is not negative. -/
theorem take_idx (p : Fin 8) (k : Fin 2048) (u : Fin 1)
    (hI : 0 ≤ ((V (Proc.devRef .tc main_arg4) : IVec S8x2048 32) (ix2 p k)).toInt) :
    (StableHlo.after ((hostOps2_2 (F := Ideal)).take 8) V (Proc.devRef .tc main_call2_v5) : IVec S8x2048x1 32) (ix3 p k u)
      = (V (Proc.devRef .tc main_arg4) : IVec S8x2048 32) (ix2 p k) := by
  simp only [hostOps2_2, List.take]
  after_results_simp
  simp only [TRef.ofBuf, TRef.toBuf, cast_eq]
  refine (broadcastInDim_apply _ _ _ (ix3 p k u) (ix2 p k) (fun a => match a with | ⟨0, _⟩ => rfl | ⟨1, _⟩ => rfl)).trans ?_
  exact wrap_word _ 65536#32 hI

/-- Stage one does not touch the mesh. -/
theorem take_idx_mesh :
    StableHlo.after ((hostOps2_2 (F := Ideal)).take 8) V (Proc.devRef .tc main_arg1) = V (Proc.devRef .tc main_arg1) := by
  simp only [hostOps2_2, List.take]
  after_results_simp

/-- Stage two's mask is 1 wherever every index it tests lies in the vertex axis. -/
theorem take_mask (p : Fin 8) (k : Fin 2048)
    (hJ : ∀ i, 0 ≤ ((V (Proc.devRef .tc main_call2_v5) : IVec S8x2048x1 32) i).toInt
      ∧ ((V (Proc.devRef .tc main_call2_v5) : IVec S8x2048x1 32) i).toInt ≤ (65535#32 : BitVec 32).toInt) :
    (StableHlo.after (((hostOps2_2 (F := Ideal)).drop 8).take 10) V (Proc.devRef .tc main_call2_v12) : IVec S8x2048 1) (ix2 p k) = 1#1 := by
  simp only [hostOps2_2, List.take, List.drop]
  after_results_simp
  simp only [TRef.ofBuf, TRef.toBuf, cast_eq]
  exact reduce_andi_ones _ _ _ _ (fun i => inb_word _ 65535#32 (hJ i).1 (hJ i).2) rfl _

/-- Stage two touches neither the index array nor the mesh. -/
theorem take_mask_idx :
    StableHlo.after (((hostOps2_2 (F := Ideal)).drop 8).take 10) V (Proc.devRef .tc main_call2_v5) = V (Proc.devRef .tc main_call2_v5) := by
  simp only [hostOps2_2, List.take, List.drop]
  after_results_simp
theorem take_mask_mesh :
    StableHlo.after (((hostOps2_2 (F := Ideal)).drop 8).take 10) V (Proc.devRef .tc main_arg1) = V (Proc.devRef .tc main_arg1) := by
  simp only [hostOps2_2, List.take, List.drop]
  after_results_simp

/-- Stage three, where the mask holds: the mesh at the index clamped into the vertex axis. -/
theorem take_val (b : Fin 256) (p : Fin 8) (k : Fin 2048) (cc : Fin 3)
    (hm : (V (Proc.devRef .tc main_call2_v12) : IVec S8x2048 1) (ix2 p k) = 1#1) :
    (StableHlo.after (((hostOps2_2 (F := Ideal)).drop 8).drop 10) V (Proc.devRef .tc main_v21) : S256x8x2048x3.Idx → EReal) (ix4 b p k cc)
      = (V (Proc.devRef .tc main_arg1) : S256x65536x3.Idx → EReal)
          (ix3 b ⟨min ((V (Proc.devRef .tc main_call2_v5) : IVec S8x2048x1 32) (ix3 p k (0 : Fin 1))).toInt.toNat (65536 - 1), by omega⟩ cc) := by
  simp only [hostOps2_2, List.drop]
  after_results_simp
  simp only [TRef.ofBuf, TRef.toBuf, cast_eq]
  rw [select_apply, broadcastInDim_apply _ _ _ (ix4 b p k cc) (ix2 p k) (fun a => match a with | ⟨0, _⟩ => rfl | ⟨1, _⟩ => rfl), hm, select_one]
  exact Cert.LibGatherRows.gather_rows_apply pos_object _ rfl rfl rfl rfl rfl rfl _ _ b p k cc

/-- The 23 operations as the three stages in a row. -/
theorem take_split : (hostOps2_2 (F := Ideal) : List (HloOp τ sig (Elt Ideal)))
      = (hostOps2_2 (F := Ideal)).take 8 ++ (((hostOps2_2 (F := Ideal)).drop 8).take 10 ++ ((hostOps2_2 (F := Ideal)).drop 8).drop 10) :=
  ((List.take_append_drop 8 _).symm).trans
    (congrArg (fun l => (hostOps2_2 (F := Ideal) : List (HloOp τ sig (Elt Ideal))).take 8 ++ l) (List.take_append_drop 10 _).symm)

theorem toInt_65535 : (65535#32 : BitVec 32).toInt = 65535 := by decide

/-- The whole take at an index, for a table whose entries are vertex numbers. -/
theorem take_apply (b : Fin 256) (p : Fin 8) (k : Fin 2048) (cc : Fin 3)
    (hI : ∀ (p : Fin 8) (k : Fin 2048), 0 ≤ ((V (Proc.devRef .tc main_arg4) : IVec S8x2048 32) (ix2 p k)).toInt
      ∧ ((V (Proc.devRef .tc main_arg4) : IVec S8x2048 32) (ix2 p k)).toInt < 65536) :
    (StableHlo.after (hostOps2_2 (F := Ideal)) V (Proc.devRef .tc main_v21) : S256x8x2048x3.Idx → EReal) (ix4 b p k cc)
      = (V (Proc.devRef .tc main_arg1) : S256x65536x3.Idx → EReal)
          (ix3 b (vertexOf pos_object (V (Proc.devRef .tc main_arg4) : IVec S8x2048 32) p k) cc) := by
  rw [take_split, StableHlo.after_append, StableHlo.after_append]
  have h5 : ∀ (p : Fin 8) (k : Fin 2048) (u : Fin 1), _ := fun p k u => take_idx V p k u (hI p k).1
  have h1 := take_idx_mesh V
  generalize StableHlo.after ((hostOps2_2 (F := Ideal)).take 8) V = V1 at h5 h1 ⊢
  have hJ : ∀ i, 0 ≤ ((V1 (Proc.devRef .tc main_call2_v5) : IVec S8x2048x1 32) i).toInt
      ∧ ((V1 (Proc.devRef .tc main_call2_v5) : IVec S8x2048x1 32) i).toInt ≤ (65535#32 : BitVec 32).toInt := by
    intro i
    obtain ⟨p', k', u', rfl⟩ : ∃ a b c, i = ix3 a b c := ⟨i 0, i 1, i 2, eq_ix3 i⟩
    rw [h5 p' k' u', toInt_65535]
    exact ⟨(hI p' k').1, by have := (hI p' k').2; omega⟩
  have h12 := take_mask V1 p k hJ
  have h5' := take_mask_idx V1
  have h1' := take_mask_mesh V1
  generalize StableHlo.after (((hostOps2_2 (F := Ideal)).drop 8).take 10) V1 = V2 at h12 h5' h1' ⊢
  rw [take_val V2 b p k cc h12, h1', h1]
  have e : (V2 (Proc.devRef .tc main_call2_v5) : IVec S8x2048x1 32) (ix3 p k (0 : Fin 1))
      = (V (Proc.devRef .tc main_arg4) : IVec S8x2048 32) (ix2 p k) := by rw [h5', h5 p k 0]
  refine congrArg (fun v => (V (Proc.devRef .tc main_arg1) : S256x65536x3.Idx → EReal) (ix3 b v cc)) (Fin.ext ?_)
  show min _ _ = min _ _
  rw [e]

end Take

/-! ## The arguments as launched, at the boundaries where the part arrays are built -/

theorem w8_arg (b : Ref sig .tc) (h0 : b = main_arg1 ∨ b = main_arg4) :
    W8 m ρ c (Proc.devRef .tc b) = m ((c : Thread nD τ).loc b) := by
  rcases h0 with rfl | rfl
  · exact
      calc W8 m ρ c (Proc.devRef .tc main_arg1)
        _ = W7 m ρ c (Proc.devRef .tc main_arg1) := by not_written hostOps2_1
        _ = W6 m ρ c (Proc.devRef .tc main_arg1) := by not_written hostOps2
        _ = W5 m ρ c (Proc.devRef .tc main_arg1) := W6_of_ne m ρ c main_arg1 (by decide)
        _ = W4 m ρ c (Proc.devRef .tc main_arg1) := by not_written hostOps1
        _ = W3 m ρ c (Proc.devRef .tc main_arg1) := W4_of_ne m ρ c main_arg1 (by decide)
        _ = W2 m ρ c (Proc.devRef .tc main_arg1) := by not_written hostOps0_2
        _ = W1 m ρ c (Proc.devRef .tc main_arg1) := by not_written hostOps0_1
        _ = W0 m ρ c (Proc.devRef .tc main_arg1) := by not_written hostOps0
        _ = m ((c : Thread nD τ).loc main_arg1) := rfl
  · exact
      calc W8 m ρ c (Proc.devRef .tc main_arg4)
        _ = W7 m ρ c (Proc.devRef .tc main_arg4) := by not_written hostOps2_1
        _ = W6 m ρ c (Proc.devRef .tc main_arg4) := by not_written hostOps2
        _ = W5 m ρ c (Proc.devRef .tc main_arg4) := W6_of_ne m ρ c main_arg4 (by decide)
        _ = W4 m ρ c (Proc.devRef .tc main_arg4) := by not_written hostOps1
        _ = W3 m ρ c (Proc.devRef .tc main_arg4) := W4_of_ne m ρ c main_arg4 (by decide)
        _ = W2 m ρ c (Proc.devRef .tc main_arg4) := by not_written hostOps0_2
        _ = W1 m ρ c (Proc.devRef .tc main_arg4) := by not_written hostOps0_1
        _ = W0 m ρ c (Proc.devRef .tc main_arg4) := by not_written hostOps0
        _ = m ((c : Thread nD τ).loc main_arg4) := rfl

theorem w9_arg2 : W9 m ρ c (Proc.devRef .tc main_arg2) = m ((c : Thread nD τ).loc main_arg2) :=
  calc W9 m ρ c (Proc.devRef .tc main_arg2)
    _ = W8 m ρ c (Proc.devRef .tc main_arg2) := by not_written hostOps2_2
    _ = W7 m ρ c (Proc.devRef .tc main_arg2) := by not_written hostOps2_1
    _ = W6 m ρ c (Proc.devRef .tc main_arg2) := by not_written hostOps2
    _ = W5 m ρ c (Proc.devRef .tc main_arg2) := W6_of_ne m ρ c main_arg2 (by decide)
    _ = W4 m ρ c (Proc.devRef .tc main_arg2) := by not_written hostOps1
    _ = W3 m ρ c (Proc.devRef .tc main_arg2) := W4_of_ne m ρ c main_arg2 (by decide)
    _ = W2 m ρ c (Proc.devRef .tc main_arg2) := by not_written hostOps0_2
    _ = W1 m ρ c (Proc.devRef .tc main_arg2) := by not_written hostOps0_1
    _ = W0 m ρ c (Proc.devRef .tc main_arg2) := by not_written hostOps0
    _ = m ((c : Thread nD τ).loc main_arg2) := rfl

/-! ## The cameras, one copy per part -/

/-- The camera array region 3 reads is the one the host built for region 2, which only reads it. -/
theorem cams3_entry : cams3 (V11 m ρ) c = (W10 m ρ c (Proc.devRef .tc main_v28) : S2048x3x3.Idx → EReal) := by
  show W11 m ρ c (Proc.devRef .tc (Pipeline.arrRef spec2 1)) = _
  rw [W11_arr m ρ c 1, Pipeline.Dat.arrAt_in (dat2 (V10 m ρ) c) 1 rfl, A_eq2]

theorem w10_v28 : (W10 m ρ c (Proc.devRef .tc main_v28) : S2048x3x3.Idx → EReal)
    = shapeCast S2048x3x3 (broadcastInDim S256x8x3x3 ![0, 1, 2, 3] bcast_S256x1x3x3_S256x8x3x3_0_1_2_3
        (broadcastInDim S256x1x3x3 ![0, 2, 3] bcast_S256x3x3_S256x1x3x3_0_2_3 (a2 m c))) shapeCasts_S256x8x3x3_S2048x3x3 := by
  show StableHlo.after hostOps2_3 (W9 m ρ c) (Proc.devRef .tc main_v28) = _
  have h2 := w9_arg2 m ρ c
  generalize W9 m ρ c = V at h2
  after_results_simp
  rw [h2]
  rfl

theorem cams_eq (b : Fin 256) (p : Fin 8) (i j : Fin 3) :
    cams3 (V11 m ρ) c (ix3 ⟨b.val * 8 + p.val, by omega⟩ i j) = a2 m c (ix3 b i j) := by
  rw [cams3_entry, w10_v28]
  refine (cast_merge_rows _ _ b p i j).trans ?_
  refine (broadcastInDim_apply _ _ _ (ix4 b p i j) (ix4 b (0 : Fin 1) i j)
    (fun a => match a with | ⟨0, _⟩ => rfl | ⟨1, _⟩ => rfl | ⟨2, _⟩ => rfl | ⟨3, _⟩ => rfl)).trans ?_
  exact broadcastInDim_apply _ _ _ (ix4 b (0 : Fin 1) i j) (ix3 b i j)
    (fun a => match a with | ⟨0, _⟩ => rfl | ⟨1, _⟩ => rfl | ⟨2, _⟩ => rfl)

/-! ## The part vertices, as region 3 reads them -/

/-- Region 2 does not hold the object mesh's vertex array: it is as the host left it. -/
theorem verts3_entry : verts3 (V11 m ρ) c = (W10 m ρ c (Proc.devRef .tc main_v25) : S2048x3x2048.Idx → EReal) :=
  W11_of_ne m ρ c main_v25 (by decide)

/-- The vertex array is the take's result with its last two axes swapped and its first two merged. -/
theorem w10_v25 : (W10 m ρ c (Proc.devRef .tc main_v25) : S2048x3x2048.Idx → EReal)
    = shapeCast S2048x3x2048 (transpose S256x8x3x2048 [0, 1, 3, 2] (W9 m ρ c (Proc.devRef .tc main_v21) : S256x8x2048x3.Idx → EReal)
        transposes_S256x8x2048x3_S256x8x3x2048_0_1_3_2) shapeCasts_S256x8x3x2048_S2048x3x2048 := by
  show StableHlo.after hostOps2_3 (W9 m ρ c) (Proc.devRef .tc main_v25) = _
  generalize W9 m ρ c = V
  after_results_simp
  rfl

/-- Row b·8 + p of the vertex array holds part p of batch entry b: coordinate cc of its k-th vertex. -/
theorem verts_eq (hO : InRangeO m c) (b : Fin 256) (p : Fin 8) (cc : Fin 3) (k : Fin 2048) :
    verts3 (V11 m ρ) c (ix3 ⟨b.val * 8 + p.val, by omega⟩ cc k) = Cert.Spec.partVertex pos_object (a1 m c) (i4 m c) b p k cc := by
  rw [verts3_entry, w10_v25]
  refine (cast_merge_rows _ _ b p cc k).trans ?_
  refine (transpose_0132_apply _ _ b p cc k).trans ?_
  show (StableHlo.after (hostOps2_2 (F := Ideal)) (W8 m ρ c) (Proc.devRef .tc main_v21) : S256x8x2048x3.Idx → EReal) (ix4 b p k cc) = _
  have h1 := w8_arg m ρ c main_arg1 (Or.inl rfl)
  have h4 := w8_arg m ρ c main_arg4 (Or.inr rfl)
  rw [take_apply (W8 m ρ c) b p k cc (by rw [h4]; exact hO), h1, h4]
  rfl

/-- A row's screen coordinates are the part's. -/
theorem rowScreen_eq (hO : InRangeO m c) (b : Fin 256) (p : Fin 8) (k : Fin 2048) (j : Fin 2) :
    rowScreen (verts3 (V11 m ρ) c) (cams3 (V11 m ρ) c) ⟨b.val * 8 + p.val, by omega⟩ k j
      = partScreen pos_object (a1 m c) (a2 m c) (i4 m c) b p k j := by
  unfold rowScreen partScreen
  rw [verts_eq m ρ c hO b p 0 k, verts_eq m ρ c hO b p 1 k, verts_eq m ρ c hO b p 2 k,
    cams_eq m ρ c b p 0 0, cams_eq m ρ c b p 0 2, cams_eq m ρ c b p 1 1, cams_eq m ρ c b p 1 2]

/-! ## From the program's end back to region 3's exit

The five arrays are written by the first host stretch after region 3 and by nothing later; that stretch reshapes
region 3's outputs from 2048 rows to 256 · 8, the coordinate sums first divided by the vertex count's float word. -/

theorem tail_v38 : W17 m ρ c (Proc.devRef .tc main_v38) = W13 m ρ c (Proc.devRef .tc main_v38) :=
  calc W17 m ρ c (Proc.devRef .tc main_v38)
    _ = W16 m ρ c (Proc.devRef .tc main_v38) := by not_written hostOps4_4
    _ = W15 m ρ c (Proc.devRef .tc main_v38) := by not_written hostOps4_3
    _ = W14 m ρ c (Proc.devRef .tc main_v38) := by not_written hostOps4_2
    _ = W13 m ρ c (Proc.devRef .tc main_v38) := by not_written hostOps4_1
theorem tail_v39 : W17 m ρ c (Proc.devRef .tc main_v39) = W13 m ρ c (Proc.devRef .tc main_v39) :=
  calc W17 m ρ c (Proc.devRef .tc main_v39)
    _ = W16 m ρ c (Proc.devRef .tc main_v39) := by not_written hostOps4_4
    _ = W15 m ρ c (Proc.devRef .tc main_v39) := by not_written hostOps4_3
    _ = W14 m ρ c (Proc.devRef .tc main_v39) := by not_written hostOps4_2
    _ = W13 m ρ c (Proc.devRef .tc main_v39) := by not_written hostOps4_1
theorem tail_v40 : W17 m ρ c (Proc.devRef .tc main_v40) = W13 m ρ c (Proc.devRef .tc main_v40) :=
  calc W17 m ρ c (Proc.devRef .tc main_v40)
    _ = W16 m ρ c (Proc.devRef .tc main_v40) := by not_written hostOps4_4
    _ = W15 m ρ c (Proc.devRef .tc main_v40) := by not_written hostOps4_3
    _ = W14 m ρ c (Proc.devRef .tc main_v40) := by not_written hostOps4_2
    _ = W13 m ρ c (Proc.devRef .tc main_v40) := by not_written hostOps4_1
theorem tail_v41 : W17 m ρ c (Proc.devRef .tc main_v41) = W13 m ρ c (Proc.devRef .tc main_v41) :=
  calc W17 m ρ c (Proc.devRef .tc main_v41)
    _ = W16 m ρ c (Proc.devRef .tc main_v41) := by not_written hostOps4_4
    _ = W15 m ρ c (Proc.devRef .tc main_v41) := by not_written hostOps4_3
    _ = W14 m ρ c (Proc.devRef .tc main_v41) := by not_written hostOps4_2
    _ = W13 m ρ c (Proc.devRef .tc main_v41) := by not_written hostOps4_1
theorem tail_v44 : W17 m ρ c (Proc.devRef .tc main_v44) = W13 m ρ c (Proc.devRef .tc main_v44) :=
  calc W17 m ρ c (Proc.devRef .tc main_v44)
    _ = W16 m ρ c (Proc.devRef .tc main_v44) := by not_written hostOps4_4
    _ = W15 m ρ c (Proc.devRef .tc main_v44) := by not_written hostOps4_3
    _ = W14 m ρ c (Proc.devRef .tc main_v44) := by not_written hostOps4_2
    _ = W13 m ρ c (Proc.devRef .tc main_v44) := by not_written hostOps4_1

theorem w13_v38 : (W13 m ρ c (Proc.devRef .tc main_v38) : S256x8x2.Idx → EReal)
    = shapeCast S256x8x2 (W12 m ρ c (Proc.devRef .tc main_v30_0) : S2048x2.Idx → EReal) shapeCasts_S2048x2_S256x8x2 := by
  show StableHlo.after hostOps4 (W12 m ρ c) (Proc.devRef .tc main_v38) = _
  generalize W12 m ρ c = V
  after_results_simp
  rfl
theorem w13_v39 : (W13 m ρ c (Proc.devRef .tc main_v39) : S256x8x2.Idx → EReal)
    = shapeCast S256x8x2 (W12 m ρ c (Proc.devRef .tc main_v30_1) : S2048x2.Idx → EReal) shapeCasts_S2048x2_S256x8x2 := by
  show StableHlo.after hostOps4 (W12 m ρ c) (Proc.devRef .tc main_v39) = _
  generalize W12 m ρ c = V
  after_results_simp
  rfl
theorem w13_v40 : (W13 m ρ c (Proc.devRef .tc main_v40) : S256x8.Idx → EReal)
    = shapeCast S256x8 (W12 m ρ c (Proc.devRef .tc main_v30_2) : S2048x1.Idx → EReal) shapeCasts_S2048x1_S256x8 := by
  show StableHlo.after hostOps4 (W12 m ρ c) (Proc.devRef .tc main_v40) = _
  generalize W12 m ρ c = V
  after_results_simp
  rfl
theorem w13_v41 : (W13 m ρ c (Proc.devRef .tc main_v41) : S256x8.Idx → EReal)
    = shapeCast S256x8 (W12 m ρ c (Proc.devRef .tc main_v30_3) : S2048x1.Idx → EReal) shapeCasts_S2048x1_S256x8 := by
  show StableHlo.after hostOps4 (W12 m ρ c) (Proc.devRef .tc main_v41) = _
  generalize W12 m ρ c = V
  after_results_simp
  rfl
theorem w13_v44 : (W13 m ρ c (Proc.devRef .tc main_v44) : S256x8x3.Idx → EReal)
    = shapeCast S256x8x3 (Host.divf (W12 m ρ c (Proc.devRef .tc main_v30_4) : S2048x3.Idx → EReal)
        (broadcastInDim S2048x3 ![] bcast_S_S2048x3 (constant (F := Ideal) S_ .f32 0x45000000#32))) shapeCasts_S2048x3_S256x8x3 := by
  show StableHlo.after hostOps4 (W12 m ρ c) (Proc.devRef .tc main_v44) = _
  generalize W12 m ρ c = V
  after_results_simp
  rfl

end Obj

open Obj

/-! ## The five arrays of the object mesh -/

theorem lo_object (hO : InRangeO m c) : (W17 m ρ c (Proc.devRef .tc main_v38) : (⟨3, ![256, 8, 2]⟩ : Shape).Idx → EReal) = boxLo pos_object (a1 m c) (a2 m c) (i4 m c) := by
  rw [tail_v38, w13_v38]
  funext j
  obtain ⟨b, p, q, rfl⟩ : ∃ b p q, j = ix3 b p q := ⟨j 0, j 1, j 2, eq_ix3 j⟩
  refine (cast_rows_n _ _ b p q).trans ?_
  have e : (W12 m ρ c (Proc.devRef .tc main_v30_0) : S2048x2.Idx → EReal) = (dat3 (V11 m ρ) c).arrAt 2 cfg3.N := W12_arr m ρ c 2
  rw [e, region3_lo]
  unfold rowLo boxLo
  exact Finset.fold_congr fun k _ => rowScreen_eq m ρ c hO b p k q
theorem hi_object (hO : InRangeO m c) : (W17 m ρ c (Proc.devRef .tc main_v39) : (⟨3, ![256, 8, 2]⟩ : Shape).Idx → EReal) = boxHi pos_object (a1 m c) (a2 m c) (i4 m c) := by
  rw [tail_v39, w13_v39]
  funext j
  obtain ⟨b, p, q, rfl⟩ : ∃ b p q, j = ix3 b p q := ⟨j 0, j 1, j 2, eq_ix3 j⟩
  refine (cast_rows_n _ _ b p q).trans ?_
  have e : (W12 m ρ c (Proc.devRef .tc main_v30_1) : S2048x2.Idx → EReal) = (dat3 (V11 m ρ) c).arrAt 3 cfg3.N := W12_arr m ρ c 3
  rw [e, region3_hi]
  unfold rowHi boxHi
  exact Finset.fold_congr fun k _ => rowScreen_eq m ρ c hO b p k q
theorem zmin_object (hO : InRangeO m c) : (W17 m ρ c (Proc.devRef .tc main_v40) : (⟨2, ![256, 8]⟩ : Shape).Idx → EReal) = depthMin pos_object (a1 m c) (i4 m c) := by
  rw [tail_v40, w13_v40]
  funext j
  obtain ⟨b, p, rfl⟩ : ∃ b p, j = ix2 b p := ⟨j 0, j 1, eq_ix2 j⟩
  refine (cast_rows_unit _ _ b p).trans ?_
  have e : (W12 m ρ c (Proc.devRef .tc main_v30_2) : S2048x1.Idx → EReal) = (dat3 (V11 m ρ) c).arrAt 4 cfg3.N := W12_arr m ρ c 4
  rw [e, region3_zmin]
  unfold rowZmin depthMin
  exact Finset.fold_congr fun k _ => verts_eq m ρ c hO b p 2 k
theorem zmax_object (hO : InRangeO m c) : (W17 m ρ c (Proc.devRef .tc main_v41) : (⟨2, ![256, 8]⟩ : Shape).Idx → EReal) = depthMax pos_object (a1 m c) (i4 m c) := by
  rw [tail_v41, w13_v41]
  funext j
  obtain ⟨b, p, rfl⟩ : ∃ b p, j = ix2 b p := ⟨j 0, j 1, eq_ix2 j⟩
  refine (cast_rows_unit _ _ b p).trans ?_
  have e : (W12 m ρ c (Proc.devRef .tc main_v30_3) : S2048x1.Idx → EReal) = (dat3 (V11 m ρ) c).arrAt 5 cfg3.N := W12_arr m ρ c 5
  rw [e, region3_zmax]
  unfold rowZmax depthMax
  exact Finset.fold_congr fun k _ => verts_eq m ρ c hO b p 2 k
theorem mean_object (hO : InRangeO m c) : (W17 m ρ c (Proc.devRef .tc main_v44) : (⟨3, ![256, 8, 3]⟩ : Shape).Idx → EReal) = partMean pos_object (a1 m c) (i4 m c) 0x45000000#32 := by
  rw [tail_v44, w13_v44]
  funext j
  obtain ⟨b, p, q, rfl⟩ : ∃ b p q, j = ix3 b p q := ⟨j 0, j 1, j 2, eq_ix3 j⟩
  refine (cast_rows_n _ _ b p q).trans ?_
  show Ideal.div ((W12 m ρ c (Proc.devRef .tc main_v30_4) : S2048x3.Idx → EReal) (ix2 ⟨b.val * 8 + p.val, by omega⟩ q))
    (Ideal.ofBits .f32 0x45000000#32) = _
  have e : (W12 m ρ c (Proc.devRef .tc main_v30_4) : S2048x3.Idx → EReal) = (dat3 (V11 m ρ) c).arrAt 6 cfg3.N := W12_arr m ρ c 6
  rw [e, region3_sum]
  unfold partMean partSum rowSum
  exact congrArg (fun s => Ideal.div s (Ideal.ofBits .f32 0x45000000#32)) (Finset.sum_congr rfl fun k _ => verts_eq m ρ c hO b p q k)

end Cert.KernelIdeal.Stages

end
-- ==== Proof.KernelValue.lean ====
/-
  The kernel program's result as a function of its five arguments: the shared closing function of its
  coordinate sums and per-part arrays, each of which is the specification's array of the arguments.
-/
import proofs.«400270_j61830349193773_3_alg».proof.Proof.KernelTail
import proofs.«400270_j61830349193773_3_alg».proof.Proof.KernelSums
import proofs.«400270_j61830349193773_3_alg».proof.Proof.KernelParts
import proofs.«400270_j61830349193773_3_alg».proof.Proof.KernelPartsObj

set_option maxRecDepth 16384

noncomputable section

namespace Cert.KernelIdeal.Stages

open Idealize.ShloMosaic Idealize.ShloMosaic.TcCoe Idealize.ShloMosaic.StableHlo Idealize.ShloMosaic.ValueIdx
open Cert.KernelIdeal Cert.KernelIdeal.Gen Cert.Spec Cert.SpecOut

variable (m : (ℓ : Loc nD τ sig) → Buf (Elt Ideal) ℓ) (ρ : Dev nD → PrngReg) (c : Dev nD)

/-- Where every entry of the two part tables is a vertex number of its mesh, the last boundary holds in
    the result buffer the two losses of the arguments. -/
theorem value (hS : InRangeS m c) (hO : InRangeO m c) :
    (W17 m ρ c (Proc.devRef .tc main_v137) : S2.Idx → EReal)
      = Cert.SpecOut.out (a0 m c) (a1 m c) (a2 m c) (i3 m c) (i4 m c) := by
  rw [result_eq, sums_smpl, sums_object, lo_smpl m ρ c hS, hi_smpl m ρ c hS, zmin_smpl m ρ c hS, zmax_smpl m ρ c hS,
    mean_smpl m ρ c hS, lo_object m ρ c hO, hi_object m ρ c hO, zmin_object m ρ c hO, zmax_object m ρ c hO,
    mean_object m ρ c hO]
  rfl

end Cert.KernelIdeal.Stages

end
-- ==== Proof.RefOps.lean ====
/- The reference program's statements as lists of host operations, one list per printed window, in order;
   a call's line stands as the callee's operations over that call's buffers. 329 operations in 6 windows (60, 60, 60, 60, 62, 27). -/
import proofs.«400270_j61830349193773_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The operations of window 0, in order (60). -/
abbrev ops0 : List (HloOp τ sig (Elt F)) :=
  [ nullary main_cst (fun i => FloatOps.ofBits .f32 (lit0 (S3.rowMajor i))),
    nullary main_cst_0 (fun i => FloatOps.ofBits .f32 (lit1 (S3.rowMajor i))),
    nullary main_cst_1 (constant S_ .f32 0x00000000#32),
    binary main_arg0 main_cst_1 main_v0 ((fun x v => Host.reduceAdd x v reducesTo_S256x10475x3_S256x3_d1 h_S_) : (⟨S256x10475x3, .f32⟩ : BufTy).Contents (Elt F) → (⟨S_, .f32⟩ : BufTy).Contents (Elt F) → (⟨S256x3, .f32⟩ : BufTy).Contents (Elt F)),
    nullary main_cst_2 (constant S_ .f32 0x4623AC00#32),
    unary main_cst_2 main_v1 (broadcastInDim S256x3 ![] bcast_S_S256x3 : (⟨S_, .f32⟩ : BufTy).Contents (Elt F) → (⟨S256x3, .f32⟩ : BufTy).Contents (Elt F)),
    binary main_v0 main_v1 main_v2 (Host.divf : (⟨S256x3, .f32⟩ : BufTy).Contents (Elt F) → (⟨S256x3, .f32⟩ : BufTy).Contents (Elt F) → (⟨S256x3, .f32⟩ : BufTy).Contents (Elt F)),
    nullary main_cst_3 (constant S_ .f32 0x00000000#32),
    binary main_arg1 main_cst_3 main_v3 ((fun x v => Host.reduceAdd x v reducesTo_S256x65536x3_S256x3_d1 h_S_) : (⟨S256x65536x3, .f32⟩ : BufTy).Contents (Elt F) → (⟨S_, .f32⟩ : BufTy).Contents (Elt F) → (⟨S256x3, .f32⟩ : BufTy).Contents (Elt F)),
    nullary main_cst_4 (constant S_ .f32 0x47800000#32),
    unary main_cst_4 main_v4 (broadcastInDim S256x3 ![] bcast_S_S256x3 : (⟨S_, .f32⟩ : BufTy).Contents (Elt F) → (⟨S256x3, .f32⟩ : BufTy).Contents (Elt F)),
    binary main_v3 main_v4 main_v5 (Host.divf : (⟨S256x3, .f32⟩ : BufTy).Contents (Elt F) → (⟨S256x3, .f32⟩ : BufTy).Contents (Elt F) → (⟨S256x3, .f32⟩ : BufTy).Contents (Elt F)),
    binary main_v2 main_v5 main_v6 (subf : (⟨S256x3, .f32⟩ : BufTy).Contents (Elt F) → (⟨S256x3, .f32⟩ : BufTy).Contents (Elt F) → (⟨S256x3, .f32⟩ : BufTy).Contents (Elt F)),
    binary main_v6 main_v6 main_v7 (mulf : (⟨S256x3, .f32⟩ : BufTy).Contents (Elt F) → (⟨S256x3, .f32⟩ : BufTy).Contents (Elt F) → (⟨S256x3, .f32⟩ : BufTy).Contents (Elt F)),
    nullary main_cst_5 (constant S_ .f32 0x00000000#32),
    binary main_v7 main_cst_5 main_v8 ((fun x v => Host.reduceAdd x v reducesTo_S256x3_S_d0_1 h_S_) : (⟨S256x3, .f32⟩ : BufTy).Contents (Elt F) → (⟨S_, .f32⟩ : BufTy).Contents (Elt F) → (⟨S_, .f32⟩ : BufTy).Contents (Elt F)),
    nullary main_cst_6 (constant S_ .f32 0x44400000#32),
    binary main_v8 main_cst_6 main_v9 (Host.divf : (⟨S_, .f32⟩ : BufTy).Contents (Elt F) → (⟨S_, .f32⟩ : BufTy).Contents (Elt F) → (⟨S_, .f32⟩ : BufTy).Contents (Elt F)),
    nullary main_cst_7 (constant S_ .f32 0x43800000#32),
    binary main_v9 main_cst_7 main_v10 (Host.divf : (⟨S_, .f32⟩ : BufTy).Contents (Elt F) → (⟨S_, .f32⟩ : BufTy).Contents (Elt F) → (⟨S_, .f32⟩ : BufTy).Contents (Elt F)),
    unary main_cst main_v11 (broadcastInDim S1x1x3 ![2] bcast_S3_S1x1x3_2 : (⟨S3, .f32⟩ : BufTy).Contents (Elt F) → (⟨S1x1x3, .f32⟩ : BufTy).Contents (Elt F)),
    unary main_v11 main_v12 (broadcastInDim S256x10475x3 ![0, 1, 2] bcast_S1x1x3_S256x10475x3_0_1_2 : (⟨S1x1x3, .f32⟩ : BufTy).Contents (Elt F) → (⟨S256x10475x3, .f32⟩ : BufTy).Contents (Elt F)),
    binary main_arg0 main_v12 main_v13 (mulf : (⟨S256x10475x3, .f32⟩ : BufTy).Contents (Elt F) → (⟨S256x10475x3, .f32⟩ : BufTy).Contents (Elt F) → (⟨S256x10475x3, .f32⟩ : BufTy).Contents (Elt F)),
    unary main_v13 main_v14 ((extractStridedSlice S256x10475x1 ![0, 0, 0] · slices_S256x10475x3_S256x10475x1_0_0_0) : (⟨S256x10475x3, .f32⟩ : BufTy).Contents (Elt F) → (⟨S256x10475x1, .f32⟩ : BufTy).Contents (Elt F)),
    reshape main_v14 main_v15 rfl shapeCasts_S256x10475x1_S256x10475,
    unary main_v13 main_v16 ((extractStridedSlice S256x10475x1 ![0, 0, 1] · slices_S256x10475x3_S256x10475x1_0_0_1) : (⟨S256x10475x3, .f32⟩ : BufTy).Contents (Elt F) → (⟨S256x10475x1, .f32⟩ : BufTy).Contents (Elt F)),
    reshape main_v16 main_v17 rfl shapeCasts_S256x10475x1_S256x10475,
    unary main_v13 main_v18 ((extractStridedSlice S256x10475x1 ![0, 0, 2] · slices_S256x10475x3_S256x10475x1_0_0_2) : (⟨S256x10475x3, .f32⟩ : BufTy).Contents (Elt F) → (⟨S256x10475x1, .f32⟩ : BufTy).Contents (Elt F)),
    reshape main_v18 main_v19 rfl shapeCasts_S256x10475x1_S256x10475,
    nullary main_cst_8 (constant S_ .f32 0x3089705F#32),
    unary main_cst_8 main_v20 (broadcastInDim S256x10475 ![] bcast_S_S256x10475 : (⟨S_, .f32⟩ : BufTy).Contents (Elt F) → (⟨S256x10475, .f32⟩ : BufTy).Contents (Elt F)),
    binary main_v19 main_v20 main_v21 (addf : (⟨S256x10475, .f32⟩ : BufTy).Contents (Elt F) → (⟨S256x10475, .f32⟩ : BufTy).Contents (Elt F) → (⟨S256x10475, .f32⟩ : BufTy).Contents (Elt F)),
    binary main_v15 main_v21 main_v22 (Host.divf : (⟨S256x10475, .f32⟩ : BufTy).Contents (Elt F) → (⟨S256x10475, .f32⟩ : BufTy).Contents (Elt F) → (⟨S256x10475, .f32⟩ : BufTy).Contents (Elt F)),
    nullary main_cst_9 (constant S_ .f32 0x3089705F#32),
    unary main_cst_9 main_v23 (broadcastInDim S256x10475 ![] bcast_S_S256x10475 : (⟨S_, .f32⟩ : BufTy).Contents (Elt F) → (⟨S256x10475, .f32⟩ : BufTy).Contents (Elt F)),
    binary main_v19 main_v23 main_v24 (addf : (⟨S256x10475, .f32⟩ : BufTy).Contents (Elt F) → (⟨S256x10475, .f32⟩ : BufTy).Contents (Elt F) → (⟨S256x10475, .f32⟩ : BufTy).Contents (Elt F)),
    binary main_v17 main_v24 main_v25 (Host.divf : (⟨S256x10475, .f32⟩ : BufTy).Contents (Elt F) → (⟨S256x10475, .f32⟩ : BufTy).Contents (Elt F) → (⟨S256x10475, .f32⟩ : BufTy).Contents (Elt F)),
    unary main_arg2 main_v26 ((extractStridedSlice S256x1x1 ![0, 0, 0] · slices_S256x3x3_S256x1x1_0_0_0) : (⟨S256x3x3, .f32⟩ : BufTy).Contents (Elt F) → (⟨S256x1x1, .f32⟩ : BufTy).Contents (Elt F)),
    reshape main_v26 main_v27 rfl shapeCasts_S256x1x1_S256,
    unary main_v27 main_v28 (broadcastInDim S256x1 ![0] bcast_S256_S256x1_0 : (⟨S256, .f32⟩ : BufTy).Contents (Elt F) → (⟨S256x1, .f32⟩ : BufTy).Contents (Elt F)),
    unary main_arg2 main_v29 ((extractStridedSlice S256x1x1 ![0, 1, 1] · slices_S256x3x3_S256x1x1_0_1_1) : (⟨S256x3x3, .f32⟩ : BufTy).Contents (Elt F) → (⟨S256x1x1, .f32⟩ : BufTy).Contents (Elt F)),
    reshape main_v29 main_v30 rfl shapeCasts_S256x1x1_S256,
    unary main_v30 main_v31 (broadcastInDim S256x1 ![0] bcast_S256_S256x1_0 : (⟨S256, .f32⟩ : BufTy).Contents (Elt F) → (⟨S256x1, .f32⟩ : BufTy).Contents (Elt F)),
    unary main_arg2 main_v32 ((extractStridedSlice S256x1x1 ![0, 0, 2] · slices_S256x3x3_S256x1x1_0_0_2) : (⟨S256x3x3, .f32⟩ : BufTy).Contents (Elt F) → (⟨S256x1x1, .f32⟩ : BufTy).Contents (Elt F)),
    reshape main_v32 main_v33 rfl shapeCasts_S256x1x1_S256,
    unary main_v33 main_v34 (broadcastInDim S256x1 ![0] bcast_S256_S256x1_0 : (⟨S256, .f32⟩ : BufTy).Contents (Elt F) → (⟨S256x1, .f32⟩ : BufTy).Contents (Elt F)),
    unary main_arg2 main_v35 ((extractStridedSlice S256x1x1 ![0, 1, 2] · slices_S256x3x3_S256x1x1_0_1_2) : (⟨S256x3x3, .f32⟩ : BufTy).Contents (Elt F) → (⟨S256x1x1, .f32⟩ : BufTy).Contents (Elt F)),
    reshape main_v35 main_v36 rfl shapeCasts_S256x1x1_S256,
    unary main_v36 main_v37 (broadcastInDim S256x1 ![0] bcast_S256_S256x1_0 : (⟨S256, .f32⟩ : BufTy).Contents (Elt F) → (⟨S256x1, .f32⟩ : BufTy).Contents (Elt F)),
    unary main_v28 main_v38 (broadcastInDim S256x10475 ![0, 1] bcast_S256x1_S256x10475_0_1 : (⟨S256x1, .f32⟩ : BufTy).Contents (Elt F) → (⟨S256x10475, .f32⟩ : BufTy).Contents (Elt F)),
    binary main_v38 main_v22 main_v39 (mulf : (⟨S256x10475, .f32⟩ : BufTy).Contents (Elt F) → (⟨S256x10475, .f32⟩ : BufTy).Contents (Elt F) → (⟨S256x10475, .f32⟩ : BufTy).Contents (Elt F)),
    unary main_v34 main_v40 (broadcastInDim S256x10475 ![0, 1] bcast_S256x1_S256x10475_0_1 : (⟨S256x1, .f32⟩ : BufTy).Contents (Elt F) → (⟨S256x10475, .f32⟩ : BufTy).Contents (Elt F)),
    binary main_v39 main_v40 main_v41 (addf : (⟨S256x10475, .f32⟩ : BufTy).Contents (Elt F) → (⟨S256x10475, .f32⟩ : BufTy).Contents (Elt F) → (⟨S256x10475, .f32⟩ : BufTy).Contents (Elt F)),
    unary main_v31 main_v42 (broadcastInDim S256x10475 ![0, 1] bcast_S256x1_S256x10475_0_1 : (⟨S256x1, .f32⟩ : BufTy).Contents (Elt F) → (⟨S256x10475, .f32⟩ : BufTy).Contents (Elt F)),
    binary main_v42 main_v25 main_v43 (mulf : (⟨S256x10475, .f32⟩ : BufTy).Contents (Elt F) → (⟨S256x10475, .f32⟩ : BufTy).Contents (Elt F) → (⟨S256x10475, .f32⟩ : BufTy).Contents (Elt F)),
    unary main_v37 main_v44 (broadcastInDim S256x10475 ![0, 1] bcast_S256x1_S256x10475_0_1 : (⟨S256x1, .f32⟩ : BufTy).Contents (Elt F) → (⟨S256x10475, .f32⟩ : BufTy).Contents (Elt F)),
    binary main_v43 main_v44 main_v45 (addf : (⟨S256x10475, .f32⟩ : BufTy).Contents (Elt F) → (⟨S256x10475, .f32⟩ : BufTy).Contents (Elt F) → (⟨S256x10475, .f32⟩ : BufTy).Contents (Elt F)),
    nullary main_cst_10 (constant S_ .f32 0x3F800000#32),
    unary main_cst_10 main_v46 (broadcastInDim S256x10475 ![] bcast_S_S256x10475 : (⟨S_, .f32⟩ : BufTy).Contents (Elt F) → (⟨S256x10475, .f32⟩ : BufTy).Contents (Elt F)),
    binary main_v46 main_v45 main_v47 (subf : (⟨S256x10475, .f32⟩ : BufTy).Contents (Elt F) → (⟨S256x10475, .f32⟩ : BufTy).Contents (Elt F) → (⟨S256x10475, .f32⟩ : BufTy).Contents (Elt F)) ]

set_option maxHeartbeats 40000000 in
/-- The operations of window 1, in order (60). -/
abbrev ops1 : List (HloOp τ sig (Elt F)) :=
  [ nullary main_cst_11 (constant S_ .f32 0x3F000000#32),
    unary main_cst_11 main_v48 (broadcastInDim S256x10475 ![] bcast_S_S256x10475 : (⟨S_, .f32⟩ : BufTy).Contents (Elt F) → (⟨S256x10475, .f32⟩ : BufTy).Contents (Elt F)),
    binary main_v41 main_v48 main_v49 (subf : (⟨S256x10475, .f32⟩ : BufTy).Contents (Elt F) → (⟨S256x10475, .f32⟩ : BufTy).Contents (Elt F) → (⟨S256x10475, .f32⟩ : BufTy).Contents (Elt F)),
    nullary main_cst_12 (constant S_ .f32 0x40000000#32),
    unary main_cst_12 main_v50 (broadcastInDim S256x10475 ![] bcast_S_S256x10475 : (⟨S_, .f32⟩ : BufTy).Contents (Elt F) → (⟨S256x10475, .f32⟩ : BufTy).Contents (Elt F)),
    binary main_v50 main_v49 main_v51 (mulf : (⟨S256x10475, .f32⟩ : BufTy).Contents (Elt F) → (⟨S256x10475, .f32⟩ : BufTy).Contents (Elt F) → (⟨S256x10475, .f32⟩ : BufTy).Contents (Elt F)),
    nullary main_cst_13 (constant S_ .f32 0x3F000000#32),
    unary main_cst_13 main_v52 (broadcastInDim S256x10475 ![] bcast_S_S256x10475 : (⟨S_, .f32⟩ : BufTy).Contents (Elt F) → (⟨S256x10475, .f32⟩ : BufTy).Contents (Elt F)),
    binary main_v47 main_v52 main_v53 (subf : (⟨S256x10475, .f32⟩ : BufTy).Contents (Elt F) → (⟨S256x10475, .f32⟩ : BufTy).Contents (Elt F) → (⟨S256x10475, .f32⟩ : BufTy).Contents (Elt F)),
    nullary main_cst_14 (constant S_ .f32 0x40000000#32),
    unary main_cst_14 main_v54 (broadcastInDim S256x10475 ![] bcast_S_S256x10475 : (⟨S_, .f32⟩ : BufTy).Contents (Elt F) → (⟨S256x10475, .f32⟩ : BufTy).Contents (Elt F)),
    binary main_v54 main_v53 main_v55 (mulf : (⟨S256x10475, .f32⟩ : BufTy).Contents (Elt F) → (⟨S256x10475, .f32⟩ : BufTy).Contents (Elt F) → (⟨S256x10475, .f32⟩ : BufTy).Contents (Elt F)),
    unary main_v51 main_v56 (broadcastInDim S256x10475x1 ![0, 1] bcast_S256x10475_S256x10475x1_0_1 : (⟨S256x10475, .f32⟩ : BufTy).Contents (Elt F) → (⟨S256x10475x1, .f32⟩ : BufTy).Contents (Elt F)),
    unary main_v55 main_v57 (broadcastInDim S256x10475x1 ![0, 1] bcast_S256x10475_S256x10475x1_0_1 : (⟨S256x10475, .f32⟩ : BufTy).Contents (Elt F) → (⟨S256x10475x1, .f32⟩ : BufTy).Contents (Elt F)),
    binary main_v56 main_v57 main_v58 ((fun a b => concatenate S256x10475x2 2 [⟨S256x10475x1, a⟩, ⟨S256x10475x1, b⟩] concatenates_S256x10475x1_S256x10475x1_S256x10475x2_d2) : (⟨S256x10475x1, .f32⟩ : BufTy).Contents (Elt F) → (⟨S256x10475x1, .f32⟩ : BufTy).Contents (Elt F) → (⟨S256x10475x2, .f32⟩ : BufTy).Contents (Elt F)),
    unary main_cst_0 main_v59 (broadcastInDim S1x1x3 ![2] bcast_S3_S1x1x3_2 : (⟨S3, .f32⟩ : BufTy).Contents (Elt F) → (⟨S1x1x3, .f32⟩ : BufTy).Contents (Elt F)),
    unary main_v59 main_v60 (broadcastInDim S256x65536x3 ![0, 1, 2] bcast_S1x1x3_S256x65536x3_0_1_2 : (⟨S1x1x3, .f32⟩ : BufTy).Contents (Elt F) → (⟨S256x65536x3, .f32⟩ : BufTy).Contents (Elt F)),
    binary main_arg1 main_v60 main_v61 (mulf : (⟨S256x65536x3, .f32⟩ : BufTy).Contents (Elt F) → (⟨S256x65536x3, .f32⟩ : BufTy).Contents (Elt F) → (⟨S256x65536x3, .f32⟩ : BufTy).Contents (Elt F)),
    unary main_v61 main_v62 ((extractStridedSlice S256x65536x1 ![0, 0, 0] · slices_S256x65536x3_S256x65536x1_0_0_0) : (⟨S256x65536x3, .f32⟩ : BufTy).Contents (Elt F) → (⟨S256x65536x1, .f32⟩ : BufTy).Contents (Elt F)),
    reshape main_v62 main_v63 rfl shapeCasts_S256x65536x1_S256x65536,
    unary main_v61 main_v64 ((extractStridedSlice S256x65536x1 ![0, 0, 1] · slices_S256x65536x3_S256x65536x1_0_0_1) : (⟨S256x65536x3, .f32⟩ : BufTy).Contents (Elt F) → (⟨S256x65536x1, .f32⟩ : BufTy).Contents (Elt F)),
    reshape main_v64 main_v65 rfl shapeCasts_S256x65536x1_S256x65536,
    unary main_v61 main_v66 ((extractStridedSlice S256x65536x1 ![0, 0, 2] · slices_S256x65536x3_S256x65536x1_0_0_2) : (⟨S256x65536x3, .f32⟩ : BufTy).Contents (Elt F) → (⟨S256x65536x1, .f32⟩ : BufTy).Contents (Elt F)),
    reshape main_v66 main_v67 rfl shapeCasts_S256x65536x1_S256x65536,
    nullary main_cst_15 (constant S_ .f32 0x3089705F#32),
    unary main_cst_15 main_v68 (broadcastInDim S256x65536 ![] bcast_S_S256x65536 : (⟨S_, .f32⟩ : BufTy).Contents (Elt F) → (⟨S256x65536, .f32⟩ : BufTy).Contents (Elt F)),
    binary main_v67 main_v68 main_v69 (addf : (⟨S256x65536, .f32⟩ : BufTy).Contents (Elt F) → (⟨S256x65536, .f32⟩ : BufTy).Contents (Elt F) → (⟨S256x65536, .f32⟩ : BufTy).Contents (Elt F)),
    binary main_v63 main_v69 main_v70 (Host.divf : (⟨S256x65536, .f32⟩ : BufTy).Contents (Elt F) → (⟨S256x65536, .f32⟩ : BufTy).Contents (Elt F) → (⟨S256x65536, .f32⟩ : BufTy).Contents (Elt F)),
    nullary main_cst_16 (constant S_ .f32 0x3089705F#32),
    unary main_cst_16 main_v71 (broadcastInDim S256x65536 ![] bcast_S_S256x65536 : (⟨S_, .f32⟩ : BufTy).Contents (Elt F) → (⟨S256x65536, .f32⟩ : BufTy).Contents (Elt F)),
    binary main_v67 main_v71 main_v72 (addf : (⟨S256x65536, .f32⟩ : BufTy).Contents (Elt F) → (⟨S256x65536, .f32⟩ : BufTy).Contents (Elt F) → (⟨S256x65536, .f32⟩ : BufTy).Contents (Elt F)),
    binary main_v65 main_v72 main_v73 (Host.divf : (⟨S256x65536, .f32⟩ : BufTy).Contents (Elt F) → (⟨S256x65536, .f32⟩ : BufTy).Contents (Elt F) → (⟨S256x65536, .f32⟩ : BufTy).Contents (Elt F)),
    unary main_arg2 main_v74 ((extractStridedSlice S256x1x1 ![0, 0, 0] · slices_S256x3x3_S256x1x1_0_0_0) : (⟨S256x3x3, .f32⟩ : BufTy).Contents (Elt F) → (⟨S256x1x1, .f32⟩ : BufTy).Contents (Elt F)),
    reshape main_v74 main_v75 rfl shapeCasts_S256x1x1_S256,
    unary main_v75 main_v76 (broadcastInDim S256x1 ![0] bcast_S256_S256x1_0 : (⟨S256, .f32⟩ : BufTy).Contents (Elt F) → (⟨S256x1, .f32⟩ : BufTy).Contents (Elt F)),
    unary main_arg2 main_v77 ((extractStridedSlice S256x1x1 ![0, 1, 1] · slices_S256x3x3_S256x1x1_0_1_1) : (⟨S256x3x3, .f32⟩ : BufTy).Contents (Elt F) → (⟨S256x1x1, .f32⟩ : BufTy).Contents (Elt F)),
    reshape main_v77 main_v78 rfl shapeCasts_S256x1x1_S256,
    unary main_v78 main_v79 (broadcastInDim S256x1 ![0] bcast_S256_S256x1_0 : (⟨S256, .f32⟩ : BufTy).Contents (Elt F) → (⟨S256x1, .f32⟩ : BufTy).Contents (Elt F)),
    unary main_arg2 main_v80 ((extractStridedSlice S256x1x1 ![0, 0, 2] · slices_S256x3x3_S256x1x1_0_0_2) : (⟨S256x3x3, .f32⟩ : BufTy).Contents (Elt F) → (⟨S256x1x1, .f32⟩ : BufTy).Contents (Elt F)),
    reshape main_v80 main_v81 rfl shapeCasts_S256x1x1_S256,
    unary main_v81 main_v82 (broadcastInDim S256x1 ![0] bcast_S256_S256x1_0 : (⟨S256, .f32⟩ : BufTy).Contents (Elt F) → (⟨S256x1, .f32⟩ : BufTy).Contents (Elt F)),
    unary main_arg2 main_v83 ((extractStridedSlice S256x1x1 ![0, 1, 2] · slices_S256x3x3_S256x1x1_0_1_2) : (⟨S256x3x3, .f32⟩ : BufTy).Contents (Elt F) → (⟨S256x1x1, .f32⟩ : BufTy).Contents (Elt F)),
    reshape main_v83 main_v84 rfl shapeCasts_S256x1x1_S256,
    unary main_v84 main_v85 (broadcastInDim S256x1 ![0] bcast_S256_S256x1_0 : (⟨S256, .f32⟩ : BufTy).Contents (Elt F) → (⟨S256x1, .f32⟩ : BufTy).Contents (Elt F)),
    unary main_v76 main_v86 (broadcastInDim S256x65536 ![0, 1] bcast_S256x1_S256x65536_0_1 : (⟨S256x1, .f32⟩ : BufTy).Contents (Elt F) → (⟨S256x65536, .f32⟩ : BufTy).Contents (Elt F)),
    binary main_v86 main_v70 main_v87 (mulf : (⟨S256x65536, .f32⟩ : BufTy).Contents (Elt F) → (⟨S256x65536, .f32⟩ : BufTy).Contents (Elt F) → (⟨S256x65536, .f32⟩ : BufTy).Contents (Elt F)),
    unary main_v82 main_v88 (broadcastInDim S256x65536 ![0, 1] bcast_S256x1_S256x65536_0_1 : (⟨S256x1, .f32⟩ : BufTy).Contents (Elt F) → (⟨S256x65536, .f32⟩ : BufTy).Contents (Elt F)),
    binary main_v87 main_v88 main_v89 (addf : (⟨S256x65536, .f32⟩ : BufTy).Contents (Elt F) → (⟨S256x65536, .f32⟩ : BufTy).Contents (Elt F) → (⟨S256x65536, .f32⟩ : BufTy).Contents (Elt F)),
    unary main_v79 main_v90 (broadcastInDim S256x65536 ![0, 1] bcast_S256x1_S256x65536_0_1 : (⟨S256x1, .f32⟩ : BufTy).Contents (Elt F) → (⟨S256x65536, .f32⟩ : BufTy).Contents (Elt F)),
    binary main_v90 main_v73 main_v91 (mulf : (⟨S256x65536, .f32⟩ : BufTy).Contents (Elt F) → (⟨S256x65536, .f32⟩ : BufTy).Contents (Elt F) → (⟨S256x65536, .f32⟩ : BufTy).Contents (Elt F)),
    unary main_v85 main_v92 (broadcastInDim S256x65536 ![0, 1] bcast_S256x1_S256x65536_0_1 : (⟨S256x1, .f32⟩ : BufTy).Contents (Elt F) → (⟨S256x65536, .f32⟩ : BufTy).Contents (Elt F)),
    binary main_v91 main_v92 main_v93 (addf : (⟨S256x65536, .f32⟩ : BufTy).Contents (Elt F) → (⟨S256x65536, .f32⟩ : BufTy).Contents (Elt F) → (⟨S256x65536, .f32⟩ : BufTy).Contents (Elt F)),
    nullary main_cst_17 (constant S_ .f32 0x3F800000#32),
    unary main_cst_17 main_v94 (broadcastInDim S256x65536 ![] bcast_S_S256x65536 : (⟨S_, .f32⟩ : BufTy).Contents (Elt F) → (⟨S256x65536, .f32⟩ : BufTy).Contents (Elt F)),
    binary main_v94 main_v93 main_v95 (subf : (⟨S256x65536, .f32⟩ : BufTy).Contents (Elt F) → (⟨S256x65536, .f32⟩ : BufTy).Contents (Elt F) → (⟨S256x65536, .f32⟩ : BufTy).Contents (Elt F)),
    nullary main_cst_18 (constant S_ .f32 0x3F000000#32),
    unary main_cst_18 main_v96 (broadcastInDim S256x65536 ![] bcast_S_S256x65536 : (⟨S_, .f32⟩ : BufTy).Contents (Elt F) → (⟨S256x65536, .f32⟩ : BufTy).Contents (Elt F)),
    binary main_v89 main_v96 main_v97 (subf : (⟨S256x65536, .f32⟩ : BufTy).Contents (Elt F) → (⟨S256x65536, .f32⟩ : BufTy).Contents (Elt F) → (⟨S256x65536, .f32⟩ : BufTy).Contents (Elt F)),
    nullary main_cst_19 (constant S_ .f32 0x40000000#32),
    unary main_cst_19 main_v98 (broadcastInDim S256x65536 ![] bcast_S_S256x65536 : (⟨S_, .f32⟩ : BufTy).Contents (Elt F) → (⟨S256x65536, .f32⟩ : BufTy).Contents (Elt F)) ]

set_option maxHeartbeats 40000000 in
/-- The operations of window 2, in order (60). -/
abbrev ops2 : List (HloOp τ sig (Elt F)) :=
  [ binary main_v98 main_v97 main_v99 (mulf : (⟨S256x65536, .f32⟩ : BufTy).Contents (Elt F) → (⟨S256x65536, .f32⟩ : BufTy).Contents (Elt F) → (⟨S256x65536, .f32⟩ : BufTy).Contents (Elt F)),
    nullary main_cst_20 (constant S_ .f32 0x3F000000#32),
    unary main_cst_20 main_v100 (broadcastInDim S256x65536 ![] bcast_S_S256x65536 : (⟨S_, .f32⟩ : BufTy).Contents (Elt F) → (⟨S256x65536, .f32⟩ : BufTy).Contents (Elt F)),
    binary main_v95 main_v100 main_v101 (subf : (⟨S256x65536, .f32⟩ : BufTy).Contents (Elt F) → (⟨S256x65536, .f32⟩ : BufTy).Contents (Elt F) → (⟨S256x65536, .f32⟩ : BufTy).Contents (Elt F)),
    nullary main_cst_21 (constant S_ .f32 0x40000000#32),
    unary main_cst_21 main_v102 (broadcastInDim S256x65536 ![] bcast_S_S256x65536 : (⟨S_, .f32⟩ : BufTy).Contents (Elt F) → (⟨S256x65536, .f32⟩ : BufTy).Contents (Elt F)),
    binary main_v102 main_v101 main_v103 (mulf : (⟨S256x65536, .f32⟩ : BufTy).Contents (Elt F) → (⟨S256x65536, .f32⟩ : BufTy).Contents (Elt F) → (⟨S256x65536, .f32⟩ : BufTy).Contents (Elt F)),
    unary main_v99 main_v104 (broadcastInDim S256x65536x1 ![0, 1] bcast_S256x65536_S256x65536x1_0_1 : (⟨S256x65536, .f32⟩ : BufTy).Contents (Elt F) → (⟨S256x65536x1, .f32⟩ : BufTy).Contents (Elt F)),
    unary main_v103 main_v105 (broadcastInDim S256x65536x1 ![0, 1] bcast_S256x65536_S256x65536x1_0_1 : (⟨S256x65536, .f32⟩ : BufTy).Contents (Elt F) → (⟨S256x65536x1, .f32⟩ : BufTy).Contents (Elt F)),
    binary main_v104 main_v105 main_v106 ((fun a b => concatenate S256x65536x2 2 [⟨S256x65536x1, a⟩, ⟨S256x65536x1, b⟩] concatenates_S256x65536x1_S256x65536x1_S256x65536x2_d2) : (⟨S256x65536x1, .f32⟩ : BufTy).Contents (Elt F) → (⟨S256x65536x1, .f32⟩ : BufTy).Contents (Elt F) → (⟨S256x65536x2, .f32⟩ : BufTy).Contents (Elt F)),
    nullary main_c (constantI S_ 32 0#32),
    unary main_c main_v107 (broadcastInDim S8x1024 ![] bcast_S_S8x1024 : (⟨S_, .i32⟩ : BufTy).Contents (Elt F) → (⟨S8x1024, .i32⟩ : BufTy).Contents (Elt F)),
    binary main_arg3 main_v107 main_v108 (cmpi .slt : (⟨S8x1024, .i32⟩ : BufTy).Contents (Elt F) → (⟨S8x1024, .i32⟩ : BufTy).Contents (Elt F) → (⟨S8x1024, .i1⟩ : BufTy).Contents (Elt F)),
    nullary main_c_22 (constantI S_ 32 10475#32),
    unary main_c_22 main_v109 (broadcastInDim S8x1024 ![] bcast_S_S8x1024 : (⟨S_, .i32⟩ : BufTy).Contents (Elt F) → (⟨S8x1024, .i32⟩ : BufTy).Contents (Elt F)),
    binary main_arg3 main_v109 main_v110 (addi : (⟨S8x1024, .i32⟩ : BufTy).Contents (Elt F) → (⟨S8x1024, .i32⟩ : BufTy).Contents (Elt F) → (⟨S8x1024, .i32⟩ : BufTy).Contents (Elt F)),
    ternary main_v108 main_v110 main_arg3 main_v111 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v111 main_v112 (broadcastInDim S8x1024x1 ![0, 1] bcast_S8x1024_S8x1024x1_0_1 : (⟨S8x1024, .i32⟩ : BufTy).Contents (Elt F) → (⟨S8x1024x1, .i32⟩ : BufTy).Contents (Elt F)),
    binary main_v58 main_v112 main_v113 ((fun x i => Host.gather gather_S256x10475x2_S8x1024x1_S256x8x1024x2_03_1_n_n_1_2_25612 x i) : (⟨S256x10475x2, .f32⟩ : BufTy).Contents (Elt F) → (⟨S8x1024x1, .i32⟩ : BufTy).Contents (Elt F) → (⟨S256x8x1024x2, .f32⟩ : BufTy).Contents (Elt F)),
    nullary main_cst_23 (constant S_ .f32 0x7F800000#32),
    binary main_v113 main_cst_23 main_v114 ((fun x v => Host.reduce FloatOps.minimumf x v reducesTo_S256x8x1024x2_S256x8x2_d2 h_S_) : (⟨S256x8x1024x2, .f32⟩ : BufTy).Contents (Elt F) → (⟨S_, .f32⟩ : BufTy).Contents (Elt F) → (⟨S256x8x2, .f32⟩ : BufTy).Contents (Elt F)),
    nullary main_cst_24 (constant S_ .f32 0xFF800000#32),
    binary main_v113 main_cst_24 main_v115 ((fun x v => Host.reduce FloatOps.maximumf x v reducesTo_S256x8x1024x2_S256x8x2_d2 h_S_) : (⟨S256x8x1024x2, .f32⟩ : BufTy).Contents (Elt F) → (⟨S_, .f32⟩ : BufTy).Contents (Elt F) → (⟨S256x8x2, .f32⟩ : BufTy).Contents (Elt F)),
    binary main_v114 main_v115 main_v116 (addf : (⟨S256x8x2, .f32⟩ : BufTy).Contents (Elt F) → (⟨S256x8x2, .f32⟩ : BufTy).Contents (Elt F) → (⟨S256x8x2, .f32⟩ : BufTy).Contents (Elt F)),
    nullary main_cst_25 (constant S_ .f32 0x3F000000#32),
    unary main_cst_25 main_v117 (broadcastInDim S256x8x2 ![] bcast_S_S256x8x2 : (⟨S_, .f32⟩ : BufTy).Contents (Elt F) → (⟨S256x8x2, .f32⟩ : BufTy).Contents (Elt F)),
    binary main_v116 main_v117 main_v118 (mulf : (⟨S256x8x2, .f32⟩ : BufTy).Contents (Elt F) → (⟨S256x8x2, .f32⟩ : BufTy).Contents (Elt F) → (⟨S256x8x2, .f32⟩ : BufTy).Contents (Elt F)),
    binary main_v115 main_v114 main_v119 (subf : (⟨S256x8x2, .f32⟩ : BufTy).Contents (Elt F) → (⟨S256x8x2, .f32⟩ : BufTy).Contents (Elt F) → (⟨S256x8x2, .f32⟩ : BufTy).Contents (Elt F)),
    nullary main_cst_26 (constant S_ .f32 0x3F000000#32),
    unary main_cst_26 main_v120 (broadcastInDim S256x8x2 ![] bcast_S_S256x8x2 : (⟨S_, .f32⟩ : BufTy).Contents (Elt F) → (⟨S256x8x2, .f32⟩ : BufTy).Contents (Elt F)),
    binary main_v119 main_v120 main_v121 (mulf : (⟨S256x8x2, .f32⟩ : BufTy).Contents (Elt F) → (⟨S256x8x2, .f32⟩ : BufTy).Contents (Elt F) → (⟨S256x8x2, .f32⟩ : BufTy).Contents (Elt F)),
    nullary main_cst_27 (constant S_ .f32 0x3FC00000#32),
    unary main_cst_27 main_v122 (broadcastInDim S256x8x2 ![] bcast_S_S256x8x2 : (⟨S_, .f32⟩ : BufTy).Contents (Elt F) → (⟨S256x8x2, .f32⟩ : BufTy).Contents (Elt F)),
    binary main_v121 main_v122 main_v123 (mulf : (⟨S256x8x2, .f32⟩ : BufTy).Contents (Elt F) → (⟨S256x8x2, .f32⟩ : BufTy).Contents (Elt F) → (⟨S256x8x2, .f32⟩ : BufTy).Contents (Elt F)),
    binary main_v118 main_v123 main_v124 (subf : (⟨S256x8x2, .f32⟩ : BufTy).Contents (Elt F) → (⟨S256x8x2, .f32⟩ : BufTy).Contents (Elt F) → (⟨S256x8x2, .f32⟩ : BufTy).Contents (Elt F)),
    binary main_v118 main_v123 main_v125 (addf : (⟨S256x8x2, .f32⟩ : BufTy).Contents (Elt F) → (⟨S256x8x2, .f32⟩ : BufTy).Contents (Elt F) → (⟨S256x8x2, .f32⟩ : BufTy).Contents (Elt F)),
    binary main_v124 main_v125 main_v126 ((fun a b => concatenate S256x8x4 2 [⟨S256x8x2, a⟩, ⟨S256x8x2, b⟩] concatenates_S256x8x2_S256x8x2_S256x8x4_d2) : (⟨S256x8x2, .f32⟩ : BufTy).Contents (Elt F) → (⟨S256x8x2, .f32⟩ : BufTy).Contents (Elt F) → (⟨S256x8x4, .f32⟩ : BufTy).Contents (Elt F)),
    nullary main_c_28 (constantI S_ 32 0#32),
    unary main_c_28 main_v127 (broadcastInDim S8x2048 ![] bcast_S_S8x2048 : (⟨S_, .i32⟩ : BufTy).Contents (Elt F) → (⟨S8x2048, .i32⟩ : BufTy).Contents (Elt F)),
    binary main_arg4 main_v127 main_v128 (cmpi .slt : (⟨S8x2048, .i32⟩ : BufTy).Contents (Elt F) → (⟨S8x2048, .i32⟩ : BufTy).Contents (Elt F) → (⟨S8x2048, .i1⟩ : BufTy).Contents (Elt F)),
    nullary main_c_29 (constantI S_ 32 65536#32),
    unary main_c_29 main_v129 (broadcastInDim S8x2048 ![] bcast_S_S8x2048 : (⟨S_, .i32⟩ : BufTy).Contents (Elt F) → (⟨S8x2048, .i32⟩ : BufTy).Contents (Elt F)),
    binary main_arg4 main_v129 main_v130 (addi : (⟨S8x2048, .i32⟩ : BufTy).Contents (Elt F) → (⟨S8x2048, .i32⟩ : BufTy).Contents (Elt F) → (⟨S8x2048, .i32⟩ : BufTy).Contents (Elt F)),
    ternary main_v128 main_v130 main_arg4 main_v131 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v131 main_v132 (broadcastInDim S8x2048x1 ![0, 1] bcast_S8x2048_S8x2048x1_0_1 : (⟨S8x2048, .i32⟩ : BufTy).Contents (Elt F) → (⟨S8x2048x1, .i32⟩ : BufTy).Contents (Elt F)),
    binary main_v106 main_v132 main_v133 ((fun x i => Host.gather gather_S256x65536x2_S8x2048x1_S256x8x2048x2_03_1_n_n_1_2_25612 x i) : (⟨S256x65536x2, .f32⟩ : BufTy).Contents (Elt F) → (⟨S8x2048x1, .i32⟩ : BufTy).Contents (Elt F) → (⟨S256x8x2048x2, .f32⟩ : BufTy).Contents (Elt F)),
    nullary main_cst_30 (constant S_ .f32 0x7F800000#32),
    binary main_v133 main_cst_30 main_v134 ((fun x v => Host.reduce FloatOps.minimumf x v reducesTo_S256x8x2048x2_S256x8x2_d2 h_S_) : (⟨S256x8x2048x2, .f32⟩ : BufTy).Contents (Elt F) → (⟨S_, .f32⟩ : BufTy).Contents (Elt F) → (⟨S256x8x2, .f32⟩ : BufTy).Contents (Elt F)),
    nullary main_cst_31 (constant S_ .f32 0xFF800000#32),
    binary main_v133 main_cst_31 main_v135 ((fun x v => Host.reduce FloatOps.maximumf x v reducesTo_S256x8x2048x2_S256x8x2_d2 h_S_) : (⟨S256x8x2048x2, .f32⟩ : BufTy).Contents (Elt F) → (⟨S_, .f32⟩ : BufTy).Contents (Elt F) → (⟨S256x8x2, .f32⟩ : BufTy).Contents (Elt F)),
    binary main_v134 main_v135 main_v136 (addf : (⟨S256x8x2, .f32⟩ : BufTy).Contents (Elt F) → (⟨S256x8x2, .f32⟩ : BufTy).Contents (Elt F) → (⟨S256x8x2, .f32⟩ : BufTy).Contents (Elt F)),
    nullary main_cst_32 (constant S_ .f32 0x3F000000#32),
    unary main_cst_32 main_v137 (broadcastInDim S256x8x2 ![] bcast_S_S256x8x2 : (⟨S_, .f32⟩ : BufTy).Contents (Elt F) → (⟨S256x8x2, .f32⟩ : BufTy).Contents (Elt F)),
    binary main_v136 main_v137 main_v138 (mulf : (⟨S256x8x2, .f32⟩ : BufTy).Contents (Elt F) → (⟨S256x8x2, .f32⟩ : BufTy).Contents (Elt F) → (⟨S256x8x2, .f32⟩ : BufTy).Contents (Elt F)),
    binary main_v135 main_v134 main_v139 (subf : (⟨S256x8x2, .f32⟩ : BufTy).Contents (Elt F) → (⟨S256x8x2, .f32⟩ : BufTy).Contents (Elt F) → (⟨S256x8x2, .f32⟩ : BufTy).Contents (Elt F)),
    nullary main_cst_33 (constant S_ .f32 0x3F000000#32),
    unary main_cst_33 main_v140 (broadcastInDim S256x8x2 ![] bcast_S_S256x8x2 : (⟨S_, .f32⟩ : BufTy).Contents (Elt F) → (⟨S256x8x2, .f32⟩ : BufTy).Contents (Elt F)),
    binary main_v139 main_v140 main_v141 (mulf : (⟨S256x8x2, .f32⟩ : BufTy).Contents (Elt F) → (⟨S256x8x2, .f32⟩ : BufTy).Contents (Elt F) → (⟨S256x8x2, .f32⟩ : BufTy).Contents (Elt F)),
    nullary main_cst_34 (constant S_ .f32 0x3FC00000#32),
    unary main_cst_34 main_v142 (broadcastInDim S256x8x2 ![] bcast_S_S256x8x2 : (⟨S_, .f32⟩ : BufTy).Contents (Elt F) → (⟨S256x8x2, .f32⟩ : BufTy).Contents (Elt F)) ]

set_option maxHeartbeats 40000000 in
/-- The operations of window 3, in order (60). -/
abbrev ops3 : List (HloOp τ sig (Elt F)) :=
  [ binary main_v141 main_v142 main_v143 (mulf : (⟨S256x8x2, .f32⟩ : BufTy).Contents (Elt F) → (⟨S256x8x2, .f32⟩ : BufTy).Contents (Elt F) → (⟨S256x8x2, .f32⟩ : BufTy).Contents (Elt F)),
    binary main_v138 main_v143 main_v144 (subf : (⟨S256x8x2, .f32⟩ : BufTy).Contents (Elt F) → (⟨S256x8x2, .f32⟩ : BufTy).Contents (Elt F) → (⟨S256x8x2, .f32⟩ : BufTy).Contents (Elt F)),
    binary main_v138 main_v143 main_v145 (addf : (⟨S256x8x2, .f32⟩ : BufTy).Contents (Elt F) → (⟨S256x8x2, .f32⟩ : BufTy).Contents (Elt F) → (⟨S256x8x2, .f32⟩ : BufTy).Contents (Elt F)),
    binary main_v144 main_v145 main_v146 ((fun a b => concatenate S256x8x4 2 [⟨S256x8x2, a⟩, ⟨S256x8x2, b⟩] concatenates_S256x8x2_S256x8x2_S256x8x4_d2) : (⟨S256x8x2, .f32⟩ : BufTy).Contents (Elt F) → (⟨S256x8x2, .f32⟩ : BufTy).Contents (Elt F) → (⟨S256x8x4, .f32⟩ : BufTy).Contents (Elt F)),
    unary main_v146 main_v147 ((extractStridedSlice S256x8x1 ![0, 0, 0] · slices_S256x8x4_S256x8x1_0_0_0) : (⟨S256x8x4, .f32⟩ : BufTy).Contents (Elt F) → (⟨S256x8x1, .f32⟩ : BufTy).Contents (Elt F)),
    reshape main_v147 main_v148 rfl shapeCasts_S256x8x1_S256x8,
    unary main_v126 main_v149 ((extractStridedSlice S256x8x1 ![0, 0, 2] · slices_S256x8x4_S256x8x1_0_0_2) : (⟨S256x8x4, .f32⟩ : BufTy).Contents (Elt F) → (⟨S256x8x1, .f32⟩ : BufTy).Contents (Elt F)),
    reshape main_v149 main_v150 rfl shapeCasts_S256x8x1_S256x8,
    binary main_v148 main_v150 main_v151 (cmpf .ogt : (⟨S256x8, .f32⟩ : BufTy).Contents (Elt F) → (⟨S256x8, .f32⟩ : BufTy).Contents (Elt F) → (⟨S256x8, .i1⟩ : BufTy).Contents (Elt F)),
    unary main_v126 main_v152 ((extractStridedSlice S256x8x1 ![0, 0, 0] · slices_S256x8x4_S256x8x1_0_0_0) : (⟨S256x8x4, .f32⟩ : BufTy).Contents (Elt F) → (⟨S256x8x1, .f32⟩ : BufTy).Contents (Elt F)),
    reshape main_v152 main_v153 rfl shapeCasts_S256x8x1_S256x8,
    unary main_v146 main_v154 ((extractStridedSlice S256x8x1 ![0, 0, 2] · slices_S256x8x4_S256x8x1_0_0_2) : (⟨S256x8x4, .f32⟩ : BufTy).Contents (Elt F) → (⟨S256x8x1, .f32⟩ : BufTy).Contents (Elt F)),
    reshape main_v154 main_v155 rfl shapeCasts_S256x8x1_S256x8,
    binary main_v153 main_v155 main_v156 (cmpf .ogt : (⟨S256x8, .f32⟩ : BufTy).Contents (Elt F) → (⟨S256x8, .f32⟩ : BufTy).Contents (Elt F) → (⟨S256x8, .i1⟩ : BufTy).Contents (Elt F)),
    binary main_v151 main_v156 main_v157 (ori : (⟨S256x8, .i1⟩ : BufTy).Contents (Elt F) → (⟨S256x8, .i1⟩ : BufTy).Contents (Elt F) → (⟨S256x8, .i1⟩ : BufTy).Contents (Elt F)),
    unary main_v146 main_v158 ((extractStridedSlice S256x8x1 ![0, 0, 1] · slices_S256x8x4_S256x8x1_0_0_1) : (⟨S256x8x4, .f32⟩ : BufTy).Contents (Elt F) → (⟨S256x8x1, .f32⟩ : BufTy).Contents (Elt F)),
    reshape main_v158 main_v159 rfl shapeCasts_S256x8x1_S256x8,
    unary main_v126 main_v160 ((extractStridedSlice S256x8x1 ![0, 0, 3] · slices_S256x8x4_S256x8x1_0_0_3) : (⟨S256x8x4, .f32⟩ : BufTy).Contents (Elt F) → (⟨S256x8x1, .f32⟩ : BufTy).Contents (Elt F)),
    reshape main_v160 main_v161 rfl shapeCasts_S256x8x1_S256x8,
    binary main_v159 main_v161 main_v162 (cmpf .ogt : (⟨S256x8, .f32⟩ : BufTy).Contents (Elt F) → (⟨S256x8, .f32⟩ : BufTy).Contents (Elt F) → (⟨S256x8, .i1⟩ : BufTy).Contents (Elt F)),
    binary main_v157 main_v162 main_v163 (ori : (⟨S256x8, .i1⟩ : BufTy).Contents (Elt F) → (⟨S256x8, .i1⟩ : BufTy).Contents (Elt F) → (⟨S256x8, .i1⟩ : BufTy).Contents (Elt F)),
    unary main_v126 main_v164 ((extractStridedSlice S256x8x1 ![0, 0, 1] · slices_S256x8x4_S256x8x1_0_0_1) : (⟨S256x8x4, .f32⟩ : BufTy).Contents (Elt F) → (⟨S256x8x1, .f32⟩ : BufTy).Contents (Elt F)),
    reshape main_v164 main_v165 rfl shapeCasts_S256x8x1_S256x8,
    unary main_v146 main_v166 ((extractStridedSlice S256x8x1 ![0, 0, 3] · slices_S256x8x4_S256x8x1_0_0_3) : (⟨S256x8x4, .f32⟩ : BufTy).Contents (Elt F) → (⟨S256x8x1, .f32⟩ : BufTy).Contents (Elt F)),
    reshape main_v166 main_v167 rfl shapeCasts_S256x8x1_S256x8,
    binary main_v165 main_v167 main_v168 (cmpf .ogt : (⟨S256x8, .f32⟩ : BufTy).Contents (Elt F) → (⟨S256x8, .f32⟩ : BufTy).Contents (Elt F) → (⟨S256x8, .i1⟩ : BufTy).Contents (Elt F)),
    binary main_v163 main_v168 main_v169 (ori : (⟨S256x8, .i1⟩ : BufTy).Contents (Elt F) → (⟨S256x8, .i1⟩ : BufTy).Contents (Elt F) → (⟨S256x8, .i1⟩ : BufTy).Contents (Elt F)),
    unary main_v169 main_v170 (noti : (⟨S256x8, .i1⟩ : BufTy).Contents (Elt F) → (⟨S256x8, .i1⟩ : BufTy).Contents (Elt F)),
    nullary main_c_35 (constantI S_ 32 0#32),
    unary main_c_35 main_v171 (broadcastInDim S8x1024 ![] bcast_S_S8x1024 : (⟨S_, .i32⟩ : BufTy).Contents (Elt F) → (⟨S8x1024, .i32⟩ : BufTy).Contents (Elt F)),
    binary main_arg3 main_v171 main_v172 (cmpi .slt : (⟨S8x1024, .i32⟩ : BufTy).Contents (Elt F) → (⟨S8x1024, .i32⟩ : BufTy).Contents (Elt F) → (⟨S8x1024, .i1⟩ : BufTy).Contents (Elt F)),
    nullary main_c_36 (constantI S_ 32 10475#32),
    unary main_c_36 main_v173 (broadcastInDim S8x1024 ![] bcast_S_S8x1024 : (⟨S_, .i32⟩ : BufTy).Contents (Elt F) → (⟨S8x1024, .i32⟩ : BufTy).Contents (Elt F)),
    binary main_arg3 main_v173 main_v174 (addi : (⟨S8x1024, .i32⟩ : BufTy).Contents (Elt F) → (⟨S8x1024, .i32⟩ : BufTy).Contents (Elt F) → (⟨S8x1024, .i32⟩ : BufTy).Contents (Elt F)),
    ternary main_v172 main_v174 main_arg3 main_v175 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    nullary main_c_37 (constantI S_ 32 2#32),
    unary main_c_37 main_v176 (broadcastInDim S8x1024 ![] bcast_S_S8x1024 : (⟨S_, .i32⟩ : BufTy).Contents (Elt F) → (⟨S8x1024, .i32⟩ : BufTy).Contents (Elt F)),
    unary main_v176 main_v177 (id : (⟨S8x1024, .i32⟩ : BufTy).Contents (Elt F) → (⟨S8x1024, .i32⟩ : BufTy).Contents (Elt F)),
    unary main_v175 main_v178 (broadcastInDim S8x1024x1 ![0, 1] bcast_S8x1024_S8x1024x1_0_1 : (⟨S8x1024, .i32⟩ : BufTy).Contents (Elt F) → (⟨S8x1024x1, .i32⟩ : BufTy).Contents (Elt F)),
    unary main_v177 main_v179 (broadcastInDim S8x1024x1 ![0, 1] bcast_S8x1024_S8x1024x1_0_1 : (⟨S8x1024, .i32⟩ : BufTy).Contents (Elt F) → (⟨S8x1024x1, .i32⟩ : BufTy).Contents (Elt F)),
    binary main_v178 main_v179 main_v180 ((fun a b => concatenate S8x1024x2 2 [⟨S8x1024x1, a⟩, ⟨S8x1024x1, b⟩] concatenates_S8x1024x1_S8x1024x1_S8x1024x2_d2) : (⟨S8x1024x1, .i32⟩ : BufTy).Contents (Elt F) → (⟨S8x1024x1, .i32⟩ : BufTy).Contents (Elt F) → (⟨S8x1024x2, .i32⟩ : BufTy).Contents (Elt F)),
    binary main_arg0 main_v180 main_v181 ((fun x i => Host.gather gather_S256x10475x3_S8x1024x2_S256x8x1024_0_12_n_n_12_2_25611 x i) : (⟨S256x10475x3, .f32⟩ : BufTy).Contents (Elt F) → (⟨S8x1024x2, .i32⟩ : BufTy).Contents (Elt F) → (⟨S256x8x1024, .f32⟩ : BufTy).Contents (Elt F)),
    nullary main_c_38 (constantI S_ 32 0#32),
    unary main_c_38 main_v182 (broadcastInDim S8x2048 ![] bcast_S_S8x2048 : (⟨S_, .i32⟩ : BufTy).Contents (Elt F) → (⟨S8x2048, .i32⟩ : BufTy).Contents (Elt F)),
    binary main_arg4 main_v182 main_v183 (cmpi .slt : (⟨S8x2048, .i32⟩ : BufTy).Contents (Elt F) → (⟨S8x2048, .i32⟩ : BufTy).Contents (Elt F) → (⟨S8x2048, .i1⟩ : BufTy).Contents (Elt F)),
    nullary main_c_39 (constantI S_ 32 65536#32),
    unary main_c_39 main_v184 (broadcastInDim S8x2048 ![] bcast_S_S8x2048 : (⟨S_, .i32⟩ : BufTy).Contents (Elt F) → (⟨S8x2048, .i32⟩ : BufTy).Contents (Elt F)),
    binary main_arg4 main_v184 main_v185 (addi : (⟨S8x2048, .i32⟩ : BufTy).Contents (Elt F) → (⟨S8x2048, .i32⟩ : BufTy).Contents (Elt F) → (⟨S8x2048, .i32⟩ : BufTy).Contents (Elt F)),
    ternary main_v183 main_v185 main_arg4 main_v186 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    nullary main_c_40 (constantI S_ 32 2#32),
    unary main_c_40 main_v187 (broadcastInDim S8x2048 ![] bcast_S_S8x2048 : (⟨S_, .i32⟩ : BufTy).Contents (Elt F) → (⟨S8x2048, .i32⟩ : BufTy).Contents (Elt F)),
    unary main_v187 main_v188 (id : (⟨S8x2048, .i32⟩ : BufTy).Contents (Elt F) → (⟨S8x2048, .i32⟩ : BufTy).Contents (Elt F)),
    unary main_v186 main_v189 (broadcastInDim S8x2048x1 ![0, 1] bcast_S8x2048_S8x2048x1_0_1 : (⟨S8x2048, .i32⟩ : BufTy).Contents (Elt F) → (⟨S8x2048x1, .i32⟩ : BufTy).Contents (Elt F)),
    unary main_v188 main_v190 (broadcastInDim S8x2048x1 ![0, 1] bcast_S8x2048_S8x2048x1_0_1 : (⟨S8x2048, .i32⟩ : BufTy).Contents (Elt F) → (⟨S8x2048x1, .i32⟩ : BufTy).Contents (Elt F)),
    binary main_v189 main_v190 main_v191 ((fun a b => concatenate S8x2048x2 2 [⟨S8x2048x1, a⟩, ⟨S8x2048x1, b⟩] concatenates_S8x2048x1_S8x2048x1_S8x2048x2_d2) : (⟨S8x2048x1, .i32⟩ : BufTy).Contents (Elt F) → (⟨S8x2048x1, .i32⟩ : BufTy).Contents (Elt F) → (⟨S8x2048x2, .i32⟩ : BufTy).Contents (Elt F)),
    binary main_arg1 main_v191 main_v192 ((fun x i => Host.gather gather_S256x65536x3_S8x2048x2_S256x8x2048_0_12_n_n_12_2_25611 x i) : (⟨S256x65536x3, .f32⟩ : BufTy).Contents (Elt F) → (⟨S8x2048x2, .i32⟩ : BufTy).Contents (Elt F) → (⟨S256x8x2048, .f32⟩ : BufTy).Contents (Elt F)),
    nullary main_cst_41 (constant S_ .f32 0x7F800000#32),
    binary main_v181 main_cst_41 main_v193 ((fun x v => Host.reduce FloatOps.minimumf x v reducesTo_S256x8x1024_S256x8_d2 h_S_) : (⟨S256x8x1024, .f32⟩ : BufTy).Contents (Elt F) → (⟨S_, .f32⟩ : BufTy).Contents (Elt F) → (⟨S256x8, .f32⟩ : BufTy).Contents (Elt F)),
    unary main_v193 main_v194 (broadcastInDim S256x8x1 ![0, 1] bcast_S256x8_S256x8x1_0_1 : (⟨S256x8, .f32⟩ : BufTy).Contents (Elt F) → (⟨S256x8x1, .f32⟩ : BufTy).Contents (Elt F)),
    nullary main_cst_42 (constant S_ .f32 0xFF800000#32) ]

set_option maxHeartbeats 40000000 in
/-- The operations of window 4, in order (62). -/
abbrev ops4 : List (HloOp τ sig (Elt F)) :=
  [ binary main_v181 main_cst_42 main_v195 ((fun x v => Host.reduce FloatOps.maximumf x v reducesTo_S256x8x1024_S256x8_d2 h_S_) : (⟨S256x8x1024, .f32⟩ : BufTy).Contents (Elt F) → (⟨S_, .f32⟩ : BufTy).Contents (Elt F) → (⟨S256x8, .f32⟩ : BufTy).Contents (Elt F)),
    unary main_v195 main_v196 (broadcastInDim S256x8x1 ![0, 1] bcast_S256x8_S256x8x1_0_1 : (⟨S256x8, .f32⟩ : BufTy).Contents (Elt F) → (⟨S256x8x1, .f32⟩ : BufTy).Contents (Elt F)),
    nullary main_cst_43 (constant S_ .f32 0x7F800000#32),
    binary main_v192 main_cst_43 main_v197 ((fun x v => Host.reduce FloatOps.minimumf x v reducesTo_S256x8x2048_S256x8_d2 h_S_) : (⟨S256x8x2048, .f32⟩ : BufTy).Contents (Elt F) → (⟨S_, .f32⟩ : BufTy).Contents (Elt F) → (⟨S256x8, .f32⟩ : BufTy).Contents (Elt F)),
    unary main_v197 main_v198 (broadcastInDim S256x1x8 ![0, 2] bcast_S256x8_S256x1x8_0_2 : (⟨S256x8, .f32⟩ : BufTy).Contents (Elt F) → (⟨S256x1x8, .f32⟩ : BufTy).Contents (Elt F)),
    nullary main_cst_44 (constant S_ .f32 0xFF800000#32),
    binary main_v192 main_cst_44 main_v199 ((fun x v => Host.reduce FloatOps.maximumf x v reducesTo_S256x8x2048_S256x8_d2 h_S_) : (⟨S256x8x2048, .f32⟩ : BufTy).Contents (Elt F) → (⟨S_, .f32⟩ : BufTy).Contents (Elt F) → (⟨S256x8, .f32⟩ : BufTy).Contents (Elt F)),
    unary main_v199 main_v200 (broadcastInDim S256x1x8 ![0, 2] bcast_S256x8_S256x1x8_0_2 : (⟨S256x8, .f32⟩ : BufTy).Contents (Elt F) → (⟨S256x1x8, .f32⟩ : BufTy).Contents (Elt F)),
    unary main_v198 main_v201 (broadcastInDim S256x8x8 ![0, 1, 2] bcast_S256x1x8_S256x8x8_0_1_2 : (⟨S256x1x8, .f32⟩ : BufTy).Contents (Elt F) → (⟨S256x8x8, .f32⟩ : BufTy).Contents (Elt F)),
    unary main_v196 main_v202 (broadcastInDim S256x8x8 ![0, 1, 2] bcast_S256x8x1_S256x8x8_0_1_2 : (⟨S256x8x1, .f32⟩ : BufTy).Contents (Elt F) → (⟨S256x8x8, .f32⟩ : BufTy).Contents (Elt F)),
    binary main_v201 main_v202 main_v203 (subf : (⟨S256x8x8, .f32⟩ : BufTy).Contents (Elt F) → (⟨S256x8x8, .f32⟩ : BufTy).Contents (Elt F) → (⟨S256x8x8, .f32⟩ : BufTy).Contents (Elt F)),
    unary main_v203 main_v204 (Host.absf : (⟨S256x8x8, .f32⟩ : BufTy).Contents (Elt F) → (⟨S256x8x8, .f32⟩ : BufTy).Contents (Elt F)),
    unary main_v194 main_v205 (broadcastInDim S256x8x8 ![0, 1, 2] bcast_S256x8x1_S256x8x8_0_1_2 : (⟨S256x8x1, .f32⟩ : BufTy).Contents (Elt F) → (⟨S256x8x8, .f32⟩ : BufTy).Contents (Elt F)),
    unary main_v200 main_v206 (broadcastInDim S256x8x8 ![0, 1, 2] bcast_S256x1x8_S256x8x8_0_1_2 : (⟨S256x1x8, .f32⟩ : BufTy).Contents (Elt F) → (⟨S256x8x8, .f32⟩ : BufTy).Contents (Elt F)),
    binary main_v205 main_v206 main_v207 (subf : (⟨S256x8x8, .f32⟩ : BufTy).Contents (Elt F) → (⟨S256x8x8, .f32⟩ : BufTy).Contents (Elt F) → (⟨S256x8x8, .f32⟩ : BufTy).Contents (Elt F)),
    unary main_v207 main_v208 (Host.absf : (⟨S256x8x8, .f32⟩ : BufTy).Contents (Elt F) → (⟨S256x8x8, .f32⟩ : BufTy).Contents (Elt F)),
    binary main_v204 main_v208 main_v209 (minimumf : (⟨S256x8x8, .f32⟩ : BufTy).Contents (Elt F) → (⟨S256x8x8, .f32⟩ : BufTy).Contents (Elt F) → (⟨S256x8x8, .f32⟩ : BufTy).Contents (Elt F)),
    unary main_v200 main_v210 (broadcastInDim S256x8x8 ![0, 1, 2] bcast_S256x1x8_S256x8x8_0_1_2 : (⟨S256x1x8, .f32⟩ : BufTy).Contents (Elt F) → (⟨S256x8x8, .f32⟩ : BufTy).Contents (Elt F)),
    unary main_v194 main_v211 (broadcastInDim S256x8x8 ![0, 1, 2] bcast_S256x8x1_S256x8x8_0_1_2 : (⟨S256x8x1, .f32⟩ : BufTy).Contents (Elt F) → (⟨S256x8x8, .f32⟩ : BufTy).Contents (Elt F)),
    binary main_v210 main_v211 main_v212 (cmpf .oge : (⟨S256x8x8, .f32⟩ : BufTy).Contents (Elt F) → (⟨S256x8x8, .f32⟩ : BufTy).Contents (Elt F) → (⟨S256x8x8, .i1⟩ : BufTy).Contents (Elt F)),
    unary main_v196 main_v213 (broadcastInDim S256x8x8 ![0, 1, 2] bcast_S256x8x1_S256x8x8_0_1_2 : (⟨S256x8x1, .f32⟩ : BufTy).Contents (Elt F) → (⟨S256x8x8, .f32⟩ : BufTy).Contents (Elt F)),
    unary main_v198 main_v214 (broadcastInDim S256x8x8 ![0, 1, 2] bcast_S256x1x8_S256x8x8_0_1_2 : (⟨S256x1x8, .f32⟩ : BufTy).Contents (Elt F) → (⟨S256x8x8, .f32⟩ : BufTy).Contents (Elt F)),
    binary main_v213 main_v214 main_v215 (cmpf .oge : (⟨S256x8x8, .f32⟩ : BufTy).Contents (Elt F) → (⟨S256x8x8, .f32⟩ : BufTy).Contents (Elt F) → (⟨S256x8x8, .i1⟩ : BufTy).Contents (Elt F)),
    binary main_v212 main_v215 main_v216 (andi : (⟨S256x8x8, .i1⟩ : BufTy).Contents (Elt F) → (⟨S256x8x8, .i1⟩ : BufTy).Contents (Elt F) → (⟨S256x8x8, .i1⟩ : BufTy).Contents (Elt F)),
    nullary main_cst_45 (constant S_ .f32 0x00000000#32),
    TRef.unary (.of main_cst_45) main_call0.v0 id,
    TRef.unary main_call0.v0 main_call0.v1 (broadcastInDim S256x8x8 ![] bcast_S_S256x8x8),
    TRef.ternary (.of main_v216) main_call0.v1 (.of main_v209) main_call0.v2 select,
    unary main_v170 main_v218 (broadcastInDim S256x1x8 ![0, 2] bcast_S256x8_S256x1x8_0_2 : (⟨S256x8, .i1⟩ : BufTy).Contents (Elt F) → (⟨S256x1x8, .i1⟩ : BufTy).Contents (Elt F)),
    nullary main_cst_46 (constant S_ .f32 0x40A00000#32),
    unary main_cst_46 main_v219 (broadcastInDim S256x8x8 ![] bcast_S_S256x8x8 : (⟨S_, .f32⟩ : BufTy).Contents (Elt F) → (⟨S256x8x8, .f32⟩ : BufTy).Contents (Elt F)),
    binary main_v217 main_v219 main_v220 (cmpf .olt : (⟨S256x8x8, .f32⟩ : BufTy).Contents (Elt F) → (⟨S256x8x8, .f32⟩ : BufTy).Contents (Elt F) → (⟨S256x8x8, .i1⟩ : BufTy).Contents (Elt F)),
    unary main_v218 main_v221 (broadcastInDim S256x8x8 ![0, 1, 2] bcast_S256x1x8_S256x8x8_0_1_2 : (⟨S256x1x8, .i1⟩ : BufTy).Contents (Elt F) → (⟨S256x8x8, .i1⟩ : BufTy).Contents (Elt F)),
    binary main_v221 main_v220 main_v222 (andi : (⟨S256x8x8, .i1⟩ : BufTy).Contents (Elt F) → (⟨S256x8x8, .i1⟩ : BufTy).Contents (Elt F) → (⟨S256x8x8, .i1⟩ : BufTy).Contents (Elt F)),
    nullary main_c_47 (constantI S_ 32 0#32),
    unary main_c_47 main_v223 (broadcastInDim S8x1024 ![] bcast_S_S8x1024 : (⟨S_, .i32⟩ : BufTy).Contents (Elt F) → (⟨S8x1024, .i32⟩ : BufTy).Contents (Elt F)),
    binary main_arg3 main_v223 main_v224 (cmpi .slt : (⟨S8x1024, .i32⟩ : BufTy).Contents (Elt F) → (⟨S8x1024, .i32⟩ : BufTy).Contents (Elt F) → (⟨S8x1024, .i1⟩ : BufTy).Contents (Elt F)),
    nullary main_c_48 (constantI S_ 32 10475#32),
    unary main_c_48 main_v225 (broadcastInDim S8x1024 ![] bcast_S_S8x1024 : (⟨S_, .i32⟩ : BufTy).Contents (Elt F) → (⟨S8x1024, .i32⟩ : BufTy).Contents (Elt F)),
    binary main_arg3 main_v225 main_v226 (addi : (⟨S8x1024, .i32⟩ : BufTy).Contents (Elt F) → (⟨S8x1024, .i32⟩ : BufTy).Contents (Elt F) → (⟨S8x1024, .i32⟩ : BufTy).Contents (Elt F)),
    ternary main_v224 main_v226 main_arg3 main_v227 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    unary main_v227 main_v228 (broadcastInDim S8x1024x1 ![0, 1] bcast_S8x1024_S8x1024x1_0_1 : (⟨S8x1024, .i32⟩ : BufTy).Contents (Elt F) → (⟨S8x1024x1, .i32⟩ : BufTy).Contents (Elt F)),
    binary main_arg0 main_v228 main_v229 ((fun x i => Host.gather gather_S256x10475x3_S8x1024x1_S256x8x1024x3_03_1_n_n_1_2_25613 x i) : (⟨S256x10475x3, .f32⟩ : BufTy).Contents (Elt F) → (⟨S8x1024x1, .i32⟩ : BufTy).Contents (Elt F) → (⟨S256x8x1024x3, .f32⟩ : BufTy).Contents (Elt F)),
    nullary main_cst_49 (constant S_ .f32 0x00000000#32),
    binary main_v229 main_cst_49 main_v230 ((fun x v => Host.reduceAdd x v reducesTo_S256x8x1024x3_S256x8x3_d2 h_S_) : (⟨S256x8x1024x3, .f32⟩ : BufTy).Contents (Elt F) → (⟨S_, .f32⟩ : BufTy).Contents (Elt F) → (⟨S256x8x3, .f32⟩ : BufTy).Contents (Elt F)),
    nullary main_cst_50 (constant S_ .f32 0x44800000#32),
    unary main_cst_50 main_v231 (broadcastInDim S256x8x3 ![] bcast_S_S256x8x3 : (⟨S_, .f32⟩ : BufTy).Contents (Elt F) → (⟨S256x8x3, .f32⟩ : BufTy).Contents (Elt F)),
    binary main_v230 main_v231 main_v232 (Host.divf : (⟨S256x8x3, .f32⟩ : BufTy).Contents (Elt F) → (⟨S256x8x3, .f32⟩ : BufTy).Contents (Elt F) → (⟨S256x8x3, .f32⟩ : BufTy).Contents (Elt F)),
    nullary main_c_51 (constantI S_ 32 0#32),
    unary main_c_51 main_v233 (broadcastInDim S8x2048 ![] bcast_S_S8x2048 : (⟨S_, .i32⟩ : BufTy).Contents (Elt F) → (⟨S8x2048, .i32⟩ : BufTy).Contents (Elt F)),
    binary main_arg4 main_v233 main_v234 (cmpi .slt : (⟨S8x2048, .i32⟩ : BufTy).Contents (Elt F) → (⟨S8x2048, .i32⟩ : BufTy).Contents (Elt F) → (⟨S8x2048, .i1⟩ : BufTy).Contents (Elt F)),
    nullary main_c_52 (constantI S_ 32 65536#32),
    unary main_c_52 main_v235 (broadcastInDim S8x2048 ![] bcast_S_S8x2048 : (⟨S_, .i32⟩ : BufTy).Contents (Elt F) → (⟨S8x2048, .i32⟩ : BufTy).Contents (Elt F)),
    binary main_arg4 main_v235 main_v236 (addi : (⟨S8x2048, .i32⟩ : BufTy).Contents (Elt F) → (⟨S8x2048, .i32⟩ : BufTy).Contents (Elt F) → (⟨S8x2048, .i32⟩ : BufTy).Contents (Elt F)),
    ternary main_v234 main_v236 main_arg4 main_v237 (select : (⟨S8x2048, .i1⟩ : BufTy).Contents (Elt F) → (⟨S8x2048, .i32⟩ : BufTy).Contents (Elt F) → (⟨S8x2048, .i32⟩ : BufTy).Contents (Elt F) → (⟨S8x2048, .i32⟩ : BufTy).Contents (Elt F)),
    unary main_v237 main_v238 (broadcastInDim S8x2048x1 ![0, 1] bcast_S8x2048_S8x2048x1_0_1 : (⟨S8x2048, .i32⟩ : BufTy).Contents (Elt F) → (⟨S8x2048x1, .i32⟩ : BufTy).Contents (Elt F)),
    binary main_arg1 main_v238 main_v239 ((fun x i => Host.gather gather_S256x65536x3_S8x2048x1_S256x8x2048x3_03_1_n_n_1_2_25613 x i) : (⟨S256x65536x3, .f32⟩ : BufTy).Contents (Elt F) → (⟨S8x2048x1, .i32⟩ : BufTy).Contents (Elt F) → (⟨S256x8x2048x3, .f32⟩ : BufTy).Contents (Elt F)),
    nullary main_cst_53 (constant S_ .f32 0x00000000#32),
    binary main_v239 main_cst_53 main_v240 ((fun x v => Host.reduceAdd x v reducesTo_S256x8x2048x3_S256x8x3_d2 h_S_) : (⟨S256x8x2048x3, .f32⟩ : BufTy).Contents (Elt F) → (⟨S_, .f32⟩ : BufTy).Contents (Elt F) → (⟨S256x8x3, .f32⟩ : BufTy).Contents (Elt F)),
    nullary main_cst_54 (constant S_ .f32 0x45000000#32),
    unary main_cst_54 main_v241 (broadcastInDim S256x8x3 ![] bcast_S_S256x8x3 : (⟨S_, .f32⟩ : BufTy).Contents (Elt F) → (⟨S256x8x3, .f32⟩ : BufTy).Contents (Elt F)),
    binary main_v240 main_v241 main_v242 (Host.divf : (⟨S256x8x3, .f32⟩ : BufTy).Contents (Elt F) → (⟨S256x8x3, .f32⟩ : BufTy).Contents (Elt F) → (⟨S256x8x3, .f32⟩ : BufTy).Contents (Elt F)) ]

set_option maxHeartbeats 40000000 in
/-- The operations of window 5, in order (27). -/
abbrev ops5 : List (HloOp τ sig (Elt F)) :=
  [ unary main_v232 main_v243 (broadcastInDim S256x8x1x3 ![0, 1, 3] bcast_S256x8x3_S256x8x1x3_0_1_3 : (⟨S256x8x3, .f32⟩ : BufTy).Contents (Elt F) → (⟨S256x8x1x3, .f32⟩ : BufTy).Contents (Elt F)),
    unary main_v242 main_v244 (broadcastInDim S256x1x8x3 ![0, 2, 3] bcast_S256x8x3_S256x1x8x3_0_2_3 : (⟨S256x8x3, .f32⟩ : BufTy).Contents (Elt F) → (⟨S256x1x8x3, .f32⟩ : BufTy).Contents (Elt F)),
    unary main_v243 main_v245 (broadcastInDim S256x8x8x3 ![0, 1, 2, 3] bcast_S256x8x1x3_S256x8x8x3_0_1_2_3 : (⟨S256x8x1x3, .f32⟩ : BufTy).Contents (Elt F) → (⟨S256x8x8x3, .f32⟩ : BufTy).Contents (Elt F)),
    unary main_v244 main_v246 (broadcastInDim S256x8x8x3 ![0, 1, 2, 3] bcast_S256x1x8x3_S256x8x8x3_0_1_2_3 : (⟨S256x1x8x3, .f32⟩ : BufTy).Contents (Elt F) → (⟨S256x8x8x3, .f32⟩ : BufTy).Contents (Elt F)),
    binary main_v245 main_v246 main_v247 (subf : (⟨S256x8x8x3, .f32⟩ : BufTy).Contents (Elt F) → (⟨S256x8x8x3, .f32⟩ : BufTy).Contents (Elt F) → (⟨S256x8x8x3, .f32⟩ : BufTy).Contents (Elt F)),
    binary main_v247 main_v247 main_v248 (mulf : (⟨S256x8x8x3, .f32⟩ : BufTy).Contents (Elt F) → (⟨S256x8x8x3, .f32⟩ : BufTy).Contents (Elt F) → (⟨S256x8x8x3, .f32⟩ : BufTy).Contents (Elt F)),
    nullary main_cst_55 (constant S_ .f32 0x00000000#32),
    binary main_v248 main_cst_55 main_v249 ((fun x v => Host.reduceAdd x v reducesTo_S256x8x8x3_S256x8x8_d3 h_S_) : (⟨S256x8x8x3, .f32⟩ : BufTy).Contents (Elt F) → (⟨S_, .f32⟩ : BufTy).Contents (Elt F) → (⟨S256x8x8, .f32⟩ : BufTy).Contents (Elt F)),
    nullary main_cst_56 (constant S_ .f32 0x40400000#32),
    unary main_cst_56 main_v250 (broadcastInDim S256x8x8 ![] bcast_S_S256x8x8 : (⟨S_, .f32⟩ : BufTy).Contents (Elt F) → (⟨S256x8x8, .f32⟩ : BufTy).Contents (Elt F)),
    binary main_v249 main_v250 main_v251 (Host.divf : (⟨S256x8x8, .f32⟩ : BufTy).Contents (Elt F) → (⟨S256x8x8, .f32⟩ : BufTy).Contents (Elt F) → (⟨S256x8x8, .f32⟩ : BufTy).Contents (Elt F)),
    unary main_v222 main_v252 ((extui 32 · natLt_1_32) : (⟨S256x8x8, .i1⟩ : BufTy).Contents (Elt F) → (⟨S256x8x8, .i32⟩ : BufTy).Contents (Elt F)),
    nullary main_c_57 (constantI S_ 32 0#32),
    binary main_v252 main_c_57 main_v253 ((fun x v => Host.reduce IntOp.addi x v reducesTo_S256x8x8_S_d0_1_2 h_S_) : (⟨S256x8x8, .i32⟩ : BufTy).Contents (Elt F) → (⟨S_, .i32⟩ : BufTy).Contents (Elt F) → (⟨S_, .i32⟩ : BufTy).Contents (Elt F)),
    nullary main_c_58 (constantI S_ 32 0#32),
    binary main_v253 main_c_58 main_v254 (cmpi .sgt : (⟨S_, .i32⟩ : BufTy).Contents (Elt F) → (⟨S_, .i32⟩ : BufTy).Contents (Elt F) → (⟨S_, .i1⟩ : BufTy).Contents (Elt F)),
    unary main_v222 main_v255 (uitofp .f32 : (⟨S256x8x8, .i1⟩ : BufTy).Contents (Elt F) → (⟨S256x8x8, .f32⟩ : BufTy).Contents (Elt F)),
    binary main_v251 main_v255 main_v256 (mulf : (⟨S256x8x8, .f32⟩ : BufTy).Contents (Elt F) → (⟨S256x8x8, .f32⟩ : BufTy).Contents (Elt F) → (⟨S256x8x8, .f32⟩ : BufTy).Contents (Elt F)),
    nullary main_cst_59 (constant S_ .f32 0x00000000#32),
    binary main_v256 main_cst_59 main_v257 ((fun x v => Host.reduceAdd x v reducesTo_S256x8x8_S_d0_1_2 h_S_) : (⟨S256x8x8, .f32⟩ : BufTy).Contents (Elt F) → (⟨S_, .f32⟩ : BufTy).Contents (Elt F) → (⟨S_, .f32⟩ : BufTy).Contents (Elt F)),
    unary main_v253 main_v258 (sitofp .f32 : (⟨S_, .i32⟩ : BufTy).Contents (Elt F) → (⟨S_, .f32⟩ : BufTy).Contents (Elt F)),
    binary main_v257 main_v258 main_v259 (Host.divf : (⟨S_, .f32⟩ : BufTy).Contents (Elt F) → (⟨S_, .f32⟩ : BufTy).Contents (Elt F) → (⟨S_, .f32⟩ : BufTy).Contents (Elt F)),
    nullary main_cst_60 (constant S_ .f32 0x00000000#32),
    TRef.ternary (.of main_v254) (.of main_v259) (.of main_cst_60) main_call1.v0 select,
    unary main_v10 main_v261 (broadcastInDim S1 ![] bcast_S_S1 : (⟨S_, .f32⟩ : BufTy).Contents (Elt F) → (⟨S1, .f32⟩ : BufTy).Contents (Elt F)),
    unary main_v260 main_v262 (broadcastInDim S1 ![] bcast_S_S1 : (⟨S_, .f32⟩ : BufTy).Contents (Elt F) → (⟨S1, .f32⟩ : BufTy).Contents (Elt F)),
    binary main_v261 main_v262 main_v263 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F)) ]

end Cert.ReferenceIdeal.Run

end
-- ==== Proof.RefRun.lean ====
/- The reference program's run. Its 328 statements are 329 host operations (the two calls stand as their callees'
   three and one operations over the calls' own buffers), listed window by window in the table module. Here: each
   printed window is the straight line of its list, so @main is the straight line of the concatenation; the fold of
   the concatenation is the folds of the windows composed in order; every operation touches TensorCore buffers only
   and determines its result; hence every weakly fair execution of @main terminates with each TensorCore buffer at
   the fold of the 329 operations over its contents at launch. -/
import proofs.«400270_j61830349193773_3_alg».proof.Proof.RefOps
import Idealize.ShloMosaic.Lib.StableHlo.Run
import Mathlib.Data.List.Basic

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 329 operations, in order: the six windows' lists concatenated (associated to the right, as @main's
    own sequencing of its windows is). -/
abbrev ops : List (HloOp τ sig (Elt F)) := ops0 ++ (ops1 ++ (ops2 ++ (ops3 ++ (ops4 ++ ops5))))

/-! ## Each window is the straight line of its list

A window is one chain of sequenced operation steps and so is the straight line of its list; the two are the same
term once the line's recursion is unfolded along the literal list (a window that does not end in a return ends in its
last step, which is that step followed by the return). In the two windows that hold a call the callee's definition is
unfolded at the call first and the sequencing reassociated. -/

set_option maxHeartbeats 40000000 in
set_option maxRecDepth 8192 in
theorem part0_eq (c : Dev nD) : main_part0 (F := F) c = seq ops0 := rfl

set_option maxHeartbeats 40000000 in
set_option maxRecDepth 8192 in
theorem part1_eq (c : Dev nD) : main_part1 (F := F) c = seq ops1 := rfl

set_option maxHeartbeats 40000000 in
set_option maxRecDepth 8192 in
theorem part2_eq (c : Dev nD) : main_part2 (F := F) c = seq ops2 := rfl

set_option maxHeartbeats 40000000 in
set_option maxRecDepth 8192 in
theorem part3_eq (c : Dev nD) : main_part3 (F := F) c = seq ops3 := rfl

set_option maxHeartbeats 40000000 in
set_option maxRecDepth 8192 in
theorem part4_eq (c : Dev nD) : main_part4 (F := F) c = seq ops4 := by
  simp only [main_part4, fn_where.body, seq, bind_assoc, pure_bind]
  rfl

set_option maxHeartbeats 40000000 in
set_option maxRecDepth 8192 in
theorem part5_eq (c : Dev nD) : main_part5 (F := F) c = seq ops5 := by
  simp only [main_part5, fn_where_0.body, seq, bind_assoc, pure_bind]

/-- @main runs its windows in order, and a concatenation's line is the lines in order (seq_append). -/
theorem main_eq (c : Dev nD) : main (F := F) c = seq ops := by
  have h : (seq (ops (F := F)) : Prog (TpuEff nD τ sig (Elt F) (Pipeline.Sig Λ₀ (Fin 0) fun p => (pcfgs (F := F) p).Adm) .tc) PUnit)
      = (seq ops0 >>= fun _ => seq ops1 >>= fun _ => seq ops2 >>= fun _ => seq ops3 >>= fun _ => seq ops4 >>= fun _ => seq ops5) := by
    simp only [ops, seq_append]
  rw [h, ← part0_eq c, ← part1_eq c, ← part2_eq c, ← part3_eq c, ← part4_eq c, ← part5_eq c]
  rfl

/-! ## The fold of a concatenation -/

/-- The contents after two lists run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after all 329 operations: the windows' folds composed in order. -/
theorem after_ops (V : Valuation τ sig (Elt F)) :
    after ops V = after ops5 (after ops4 (after ops3 (after ops2 (after ops1 (after ops0 V))))) := by
  unfold ops
  rw [after_append, after_append, after_append, after_append, after_append]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation of a literal list reads and writes TensorCore buffers only: the list's conjunction unfolded,
    each conjunct is its builder's own lemma (a typed-reference builder is the plain builder at the references' buffers). -/
macro "bufs_sub_all" : tactic => `(tactic|
  simp only [List.Forall, ↓nullary_bufs_sub, ↓unary_bufs_sub, ↓binary_bufs_sub, ↓ternary_bufs_sub, ↓quaternary_bufs_sub,
    ↓reshape_bufs_sub, ↓nary_bufs_sub, ↓unaryIndexed_bufs_sub, ↓binaryIndexed_bufs_sub, and_self])

theorem ops0_sub : (ops0 : List (HloOp τ sig (Elt F))).Forall fun op => op.bufs ⊆ tcRefs τ sig := by bufs_sub_all
theorem ops1_sub : (ops1 : List (HloOp τ sig (Elt F))).Forall fun op => op.bufs ⊆ tcRefs τ sig := by bufs_sub_all
theorem ops2_sub : (ops2 : List (HloOp τ sig (Elt F))).Forall fun op => op.bufs ⊆ tcRefs τ sig := by bufs_sub_all
theorem ops3_sub : (ops3 : List (HloOp τ sig (Elt F))).Forall fun op => op.bufs ⊆ tcRefs τ sig := by bufs_sub_all
theorem ops4_sub : (ops4 : List (HloOp τ sig (Elt F))).Forall fun op => op.bufs ⊆ tcRefs τ sig := by bufs_sub_all
theorem ops5_sub : (ops5 : List (HloOp τ sig (Elt F))).Forall fun op => op.bufs ⊆ tcRefs τ sig := by bufs_sub_all

theorem ops_sub : (ops : List (HloOp τ sig (Elt F))).Forall fun op => op.bufs ⊆ tcRefs τ sig := by
  unfold ops
  rw [List.forall_append, List.forall_append, List.forall_append, List.forall_append, List.forall_append]
  exact ⟨ops0_sub, ops1_sub, ops2_sub, ops3_sub, ops4_sub, ops5_sub⟩

/-- Every operation of a literal list determines its results (none allocates): by computation, entry by entry. -/
macro "fresh_all" : tactic => `(tactic|
  (intro _ h; (repeat (cases h with | head => rfl | tail _ h => ?_)); exact nomatch h))

theorem ops0_fresh : ∀ op ∈ (ops0 : List (HloOp τ sig (Elt F))), op.fresh = ∅ := by fresh_all
theorem ops1_fresh : ∀ op ∈ (ops1 : List (HloOp τ sig (Elt F))), op.fresh = ∅ := by fresh_all
theorem ops2_fresh : ∀ op ∈ (ops2 : List (HloOp τ sig (Elt F))), op.fresh = ∅ := by fresh_all
theorem ops3_fresh : ∀ op ∈ (ops3 : List (HloOp τ sig (Elt F))), op.fresh = ∅ := by fresh_all
theorem ops4_fresh : ∀ op ∈ (ops4 : List (HloOp τ sig (Elt F))), op.fresh = ∅ := by fresh_all
theorem ops5_fresh : ∀ op ∈ (ops5 : List (HloOp τ sig (Elt F))), op.fresh = ∅ := by fresh_all

theorem ops_fresh : ∀ op ∈ (ops : List (HloOp τ sig (Elt F))), op.fresh = ∅ := by
  intro op h
  unfold ops at h
  rw [List.mem_append, List.mem_append, List.mem_append, List.mem_append, List.mem_append] at h
  rcases h with h | h | h | h | h | h
  exacts [ops0_fresh op h, ops1_fresh op h, ops2_fresh op h, ops3_fresh op h, ops4_fresh op h, ops5_fresh op h]

/-! ## The run -/

/-- On every device, for any float values, from any memory with zero counters: every weakly fair execution of @main
    terminates, and every final state has each TensorCore buffer at the fold of the 329 operations over the
    device's contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.RefStagesDefs.lean ====
/-
  Names for reading the reference program's stages: the buffer contents after all of its operations, from
  any launch contents, and the array of both screen coordinates of every vertex of a mesh.
-/
import proofs.«400270_j61830349193773_3_alg».proof.Proof.RefOps
import proofs.«400270_j61830349193773_3_alg».proof.Proof.SpecOut

noncomputable section

namespace Cert.ReferenceIdeal.Stages

open Idealize.ShloMosaic Idealize.ShloMosaic.TcCoe Idealize.ShloMosaic.StableHlo Idealize.ShloMosaic.ValueIdx
open Cert.ReferenceIdeal Cert.ReferenceIdeal.Run Cert.Spec

/-- The buffer contents after the program's six windows of operations, in order, from contents V. -/
abbrev fin (V : Valuation τ sig (Elt Ideal)) : Valuation τ sig (Elt Ideal) :=
  after ops5 (after ops4 (after ops3 (after ops2 (after ops1 (after ops0 V)))))

/-- Both screen coordinates of every vertex of a mesh A under each batch entry's camera. -/
def meshScreen {N : Nat} (A : (⟨3, ![256, N, 3]⟩ : Shape).Idx → EReal) (Cam : (⟨3, ![256, 3, 3]⟩ : Shape).Idx → EReal) :
    (⟨3, ![256, N, 2]⟩ : Shape).Idx → EReal :=
  fun j =>
    if (j 2).val = 0 then
      screenU (A (ix3 (j 0) (j 1) 0)) (A (ix3 (j 0) (j 1) 2)) (Cam (ix3 (j 0) 0 0)) (Cam (ix3 (j 0) 0 2))
    else
      screenW (A (ix3 (j 0) (j 1) 1)) (A (ix3 (j 0) (j 1) 2)) (Cam (ix3 (j 0) 1 1)) (Cam (ix3 (j 0) 1 2))

/-- The launch contents of the five arguments, at their literal types. -/
abbrev a0 (V : Valuation τ sig (Elt Ideal)) : (⟨3, ![256, 10475, 3]⟩ : Shape).Idx → EReal := V (Proc.devRef .tc main_arg0)
abbrev a1 (V : Valuation τ sig (Elt Ideal)) : (⟨3, ![256, 65536, 3]⟩ : Shape).Idx → EReal := V (Proc.devRef .tc main_arg1)
abbrev a2 (V : Valuation τ sig (Elt Ideal)) : (⟨3, ![256, 3, 3]⟩ : Shape).Idx → EReal := V (Proc.devRef .tc main_arg2)
abbrev i3 (V : Valuation τ sig (Elt Ideal)) : IVec (⟨2, ![8, 1024]⟩ : Shape) 32 := V (Proc.devRef .tc main_arg3)
abbrev i4 (V : Valuation τ sig (Elt Ideal)) : IVec (⟨2, ![8, 2048]⟩ : Shape) 32 := V (Proc.devRef .tc main_arg4)

/-- Every entry of the first part table is a vertex number of the person mesh. -/
abbrev InRangeS (V : Valuation τ sig (Elt Ideal)) : Prop :=
  ∀ (p : Fin 8) (k : Fin 1024), 0 ≤ (i3 V (ix2 p k)).toInt ∧ (i3 V (ix2 p k)).toInt < 10475
/-- Every entry of the second part table is a vertex number of the object mesh. -/
abbrev InRangeO (V : Valuation τ sig (Elt Ideal)) : Prop :=
  ∀ (p : Fin 8) (k : Fin 2048), 0 ≤ (i4 V (ix2 p k)).toInt ∧ (i4 V (ix2 p k)).toInt < 65536

end Cert.ReferenceIdeal.Stages

end
-- ==== Proof.RefTail.lean ====
/-
  The reference's result is the shared closing function of its own two coordinate sums and ten per-part arrays.
  Each named piece of the closing function (the centroid loss, the two box arrays, the test that boxes meet, the
  depth gap, the pair mask, the pair distances, the masked mean, the pair of losses) is read off the window of
  operations that computes it, over arbitrary contents before that window; a buffer is carried unchanged through
  every later window, since no later operation writes it.
-/
import proofs.«400270_j61830349193773_3_alg».proof.Proof.RefStagesDefs

noncomputable section

namespace Cert.ReferenceIdeal.Stages

open Idealize.ShloMosaic Idealize.ShloMosaic.TcCoe Idealize.ShloMosaic.StableHlo Idealize.ShloMosaic.ValueIdx
open Cert.ReferenceIdeal Cert.ReferenceIdeal.Run Cert.Spec Cert.SpecOut

variable (V : Valuation τ sig (Elt Ideal))
variable (W : Valuation τ sig (Elt Ideal))

/-! ## A buffer keeps its contents through the windows that do not write it -/

theorem keep1_v0 : after ops1 W (Proc.devRef .tc main_v0) = W (Proc.devRef .tc main_v0) := by after_results_simp
theorem keep2_v0 : after ops2 W (Proc.devRef .tc main_v0) = W (Proc.devRef .tc main_v0) := by after_results_simp
theorem keep3_v0 : after ops3 W (Proc.devRef .tc main_v0) = W (Proc.devRef .tc main_v0) := by after_results_simp
theorem keep4_v0 : after ops4 W (Proc.devRef .tc main_v0) = W (Proc.devRef .tc main_v0) := by after_results_simp
theorem keep5_v0 : after ops5 W (Proc.devRef .tc main_v0) = W (Proc.devRef .tc main_v0) := by after_results_simp
theorem keep1_v3 : after ops1 W (Proc.devRef .tc main_v3) = W (Proc.devRef .tc main_v3) := by after_results_simp
theorem keep2_v3 : after ops2 W (Proc.devRef .tc main_v3) = W (Proc.devRef .tc main_v3) := by after_results_simp
theorem keep3_v3 : after ops3 W (Proc.devRef .tc main_v3) = W (Proc.devRef .tc main_v3) := by after_results_simp
theorem keep4_v3 : after ops4 W (Proc.devRef .tc main_v3) = W (Proc.devRef .tc main_v3) := by after_results_simp
theorem keep5_v3 : after ops5 W (Proc.devRef .tc main_v3) = W (Proc.devRef .tc main_v3) := by after_results_simp
theorem keep1_v10 : after ops1 W (Proc.devRef .tc main_v10) = W (Proc.devRef .tc main_v10) := by after_results_simp
theorem keep2_v10 : after ops2 W (Proc.devRef .tc main_v10) = W (Proc.devRef .tc main_v10) := by after_results_simp
theorem keep3_v10 : after ops3 W (Proc.devRef .tc main_v10) = W (Proc.devRef .tc main_v10) := by after_results_simp
theorem keep4_v10 : after ops4 W (Proc.devRef .tc main_v10) = W (Proc.devRef .tc main_v10) := by after_results_simp
theorem keep5_v10 : after ops5 W (Proc.devRef .tc main_v10) = W (Proc.devRef .tc main_v10) := by after_results_simp
theorem keep3_v114 : after ops3 W (Proc.devRef .tc main_v114) = W (Proc.devRef .tc main_v114) := by after_results_simp
theorem keep4_v114 : after ops4 W (Proc.devRef .tc main_v114) = W (Proc.devRef .tc main_v114) := by after_results_simp
theorem keep5_v114 : after ops5 W (Proc.devRef .tc main_v114) = W (Proc.devRef .tc main_v114) := by after_results_simp
theorem keep3_v115 : after ops3 W (Proc.devRef .tc main_v115) = W (Proc.devRef .tc main_v115) := by after_results_simp
theorem keep4_v115 : after ops4 W (Proc.devRef .tc main_v115) = W (Proc.devRef .tc main_v115) := by after_results_simp
theorem keep5_v115 : after ops5 W (Proc.devRef .tc main_v115) = W (Proc.devRef .tc main_v115) := by after_results_simp
theorem keep3_v126 : after ops3 W (Proc.devRef .tc main_v126) = W (Proc.devRef .tc main_v126) := by after_results_simp
theorem keep4_v126 : after ops4 W (Proc.devRef .tc main_v126) = W (Proc.devRef .tc main_v126) := by after_results_simp
theorem keep5_v126 : after ops5 W (Proc.devRef .tc main_v126) = W (Proc.devRef .tc main_v126) := by after_results_simp
theorem keep3_v134 : after ops3 W (Proc.devRef .tc main_v134) = W (Proc.devRef .tc main_v134) := by after_results_simp
theorem keep4_v134 : after ops4 W (Proc.devRef .tc main_v134) = W (Proc.devRef .tc main_v134) := by after_results_simp
theorem keep5_v134 : after ops5 W (Proc.devRef .tc main_v134) = W (Proc.devRef .tc main_v134) := by after_results_simp
theorem keep3_v135 : after ops3 W (Proc.devRef .tc main_v135) = W (Proc.devRef .tc main_v135) := by after_results_simp
theorem keep4_v135 : after ops4 W (Proc.devRef .tc main_v135) = W (Proc.devRef .tc main_v135) := by after_results_simp
theorem keep5_v135 : after ops5 W (Proc.devRef .tc main_v135) = W (Proc.devRef .tc main_v135) := by after_results_simp
theorem keep4_v146 : after ops4 W (Proc.devRef .tc main_v146) = W (Proc.devRef .tc main_v146) := by after_results_simp
theorem keep5_v146 : after ops5 W (Proc.devRef .tc main_v146) = W (Proc.devRef .tc main_v146) := by after_results_simp
theorem keep4_v170 : after ops4 W (Proc.devRef .tc main_v170) = W (Proc.devRef .tc main_v170) := by after_results_simp
theorem keep5_v170 : after ops5 W (Proc.devRef .tc main_v170) = W (Proc.devRef .tc main_v170) := by after_results_simp
theorem keep4_v193 : after ops4 W (Proc.devRef .tc main_v193) = W (Proc.devRef .tc main_v193) := by after_results_simp
theorem keep5_v193 : after ops5 W (Proc.devRef .tc main_v193) = W (Proc.devRef .tc main_v193) := by after_results_simp
theorem keep5_v195 : after ops5 W (Proc.devRef .tc main_v195) = W (Proc.devRef .tc main_v195) := by after_results_simp
theorem keep5_v197 : after ops5 W (Proc.devRef .tc main_v197) = W (Proc.devRef .tc main_v197) := by after_results_simp
theorem keep5_v199 : after ops5 W (Proc.devRef .tc main_v199) = W (Proc.devRef .tc main_v199) := by after_results_simp
theorem keep5_v217 : after ops5 W (Proc.devRef .tc main_v217) = W (Proc.devRef .tc main_v217) := by after_results_simp
theorem keep5_v222 : after ops5 W (Proc.devRef .tc main_v222) = W (Proc.devRef .tc main_v222) := by after_results_simp
theorem keep5_v232 : after ops5 W (Proc.devRef .tc main_v232) = W (Proc.devRef .tc main_v232) := by after_results_simp
theorem keep5_v242 : after ops5 W (Proc.devRef .tc main_v242) = W (Proc.devRef .tc main_v242) := by after_results_simp

theorem fin_v0 : fin V (Proc.devRef .tc main_v0) = after ops0 V (Proc.devRef .tc main_v0) := by
  show after ops5 (after ops4 (after ops3 (after ops2 (after ops1 (after ops0 V))))) (Proc.devRef .tc main_v0) = _
  rw [keep5_v0, keep4_v0, keep3_v0, keep2_v0, keep1_v0]
theorem fin_v3 : fin V (Proc.devRef .tc main_v3) = after ops0 V (Proc.devRef .tc main_v3) := by
  show after ops5 (after ops4 (after ops3 (after ops2 (after ops1 (after ops0 V))))) (Proc.devRef .tc main_v3) = _
  rw [keep5_v3, keep4_v3, keep3_v3, keep2_v3, keep1_v3]
theorem fin_v10 : fin V (Proc.devRef .tc main_v10) = after ops0 V (Proc.devRef .tc main_v10) := by
  show after ops5 (after ops4 (after ops3 (after ops2 (after ops1 (after ops0 V))))) (Proc.devRef .tc main_v10) = _
  rw [keep5_v10, keep4_v10, keep3_v10, keep2_v10, keep1_v10]
theorem fin_v114 : fin V (Proc.devRef .tc main_v114) = after ops2 (after ops1 (after ops0 V)) (Proc.devRef .tc main_v114) := by
  show after ops5 (after ops4 (after ops3 (after ops2 (after ops1 (after ops0 V))))) (Proc.devRef .tc main_v114) = _
  rw [keep5_v114, keep4_v114, keep3_v114]
theorem fin_v115 : fin V (Proc.devRef .tc main_v115) = after ops2 (after ops1 (after ops0 V)) (Proc.devRef .tc main_v115) := by
  show after ops5 (after ops4 (after ops3 (after ops2 (after ops1 (after ops0 V))))) (Proc.devRef .tc main_v115) = _
  rw [keep5_v115, keep4_v115, keep3_v115]
theorem fin_v126 : fin V (Proc.devRef .tc main_v126) = after ops2 (after ops1 (after ops0 V)) (Proc.devRef .tc main_v126) := by
  show after ops5 (after ops4 (after ops3 (after ops2 (after ops1 (after ops0 V))))) (Proc.devRef .tc main_v126) = _
  rw [keep5_v126, keep4_v126, keep3_v126]
theorem fin_v134 : fin V (Proc.devRef .tc main_v134) = after ops2 (after ops1 (after ops0 V)) (Proc.devRef .tc main_v134) := by
  show after ops5 (after ops4 (after ops3 (after ops2 (after ops1 (after ops0 V))))) (Proc.devRef .tc main_v134) = _
  rw [keep5_v134, keep4_v134, keep3_v134]
theorem fin_v135 : fin V (Proc.devRef .tc main_v135) = after ops2 (after ops1 (after ops0 V)) (Proc.devRef .tc main_v135) := by
  show after ops5 (after ops4 (after ops3 (after ops2 (after ops1 (after ops0 V))))) (Proc.devRef .tc main_v135) = _
  rw [keep5_v135, keep4_v135, keep3_v135]
theorem fin_v146 : fin V (Proc.devRef .tc main_v146) = after ops3 (after ops2 (after ops1 (after ops0 V))) (Proc.devRef .tc main_v146) := by
  show after ops5 (after ops4 (after ops3 (after ops2 (after ops1 (after ops0 V))))) (Proc.devRef .tc main_v146) = _
  rw [keep5_v146, keep4_v146]
theorem fin_v170 : fin V (Proc.devRef .tc main_v170) = after ops3 (after ops2 (after ops1 (after ops0 V))) (Proc.devRef .tc main_v170) := by
  show after ops5 (after ops4 (after ops3 (after ops2 (after ops1 (after ops0 V))))) (Proc.devRef .tc main_v170) = _
  rw [keep5_v170, keep4_v170]
theorem fin_v193 : fin V (Proc.devRef .tc main_v193) = after ops3 (after ops2 (after ops1 (after ops0 V))) (Proc.devRef .tc main_v193) := by
  show after ops5 (after ops4 (after ops3 (after ops2 (after ops1 (after ops0 V))))) (Proc.devRef .tc main_v193) = _
  rw [keep5_v193, keep4_v193]
theorem fin_v195 : fin V (Proc.devRef .tc main_v195) = after ops4 (after ops3 (after ops2 (after ops1 (after ops0 V)))) (Proc.devRef .tc main_v195) := by
  show after ops5 (after ops4 (after ops3 (after ops2 (after ops1 (after ops0 V))))) (Proc.devRef .tc main_v195) = _
  rw [keep5_v195]
theorem fin_v197 : fin V (Proc.devRef .tc main_v197) = after ops4 (after ops3 (after ops2 (after ops1 (after ops0 V)))) (Proc.devRef .tc main_v197) := by
  show after ops5 (after ops4 (after ops3 (after ops2 (after ops1 (after ops0 V))))) (Proc.devRef .tc main_v197) = _
  rw [keep5_v197]
theorem fin_v199 : fin V (Proc.devRef .tc main_v199) = after ops4 (after ops3 (after ops2 (after ops1 (after ops0 V)))) (Proc.devRef .tc main_v199) := by
  show after ops5 (after ops4 (after ops3 (after ops2 (after ops1 (after ops0 V))))) (Proc.devRef .tc main_v199) = _
  rw [keep5_v199]
theorem fin_v217 : fin V (Proc.devRef .tc main_v217) = after ops4 (after ops3 (after ops2 (after ops1 (after ops0 V)))) (Proc.devRef .tc main_v217) := by
  show after ops5 (after ops4 (after ops3 (after ops2 (after ops1 (after ops0 V))))) (Proc.devRef .tc main_v217) = _
  rw [keep5_v217]
theorem fin_v222 : fin V (Proc.devRef .tc main_v222) = after ops4 (after ops3 (after ops2 (after ops1 (after ops0 V)))) (Proc.devRef .tc main_v222) := by
  show after ops5 (after ops4 (after ops3 (after ops2 (after ops1 (after ops0 V))))) (Proc.devRef .tc main_v222) = _
  rw [keep5_v222]
theorem fin_v232 : fin V (Proc.devRef .tc main_v232) = after ops4 (after ops3 (after ops2 (after ops1 (after ops0 V)))) (Proc.devRef .tc main_v232) := by
  show after ops5 (after ops4 (after ops3 (after ops2 (after ops1 (after ops0 V))))) (Proc.devRef .tc main_v232) = _
  rw [keep5_v232]
theorem fin_v242 : fin V (Proc.devRef .tc main_v242) = after ops4 (after ops3 (after ops2 (after ops1 (after ops0 V)))) (Proc.devRef .tc main_v242) := by
  show after ops5 (after ops4 (after ops3 (after ops2 (after ops1 (after ops0 V))))) (Proc.devRef .tc main_v242) = _
  rw [keep5_v242]

/-! ## Each piece, over arbitrary contents before its window

Both sides are evaluated over the window: an input computed in the same window becomes the same term on both
sides, and what is left is the piece's definition. A concatenation is opened operand by operand. -/

/-- The centroid loss of the two coordinate sums. -/
theorem cl_w : after ops0 W (Proc.devRef .tc main_v10)
    = Cert.Tail.centroidLoss (F := Ideal) (after ops0 W (Proc.devRef .tc main_v0)) (after ops0 W (Proc.devRef .tc main_v3)) := by
  after_results_simp
  first | done | rfl

/-- The person parts' boxes from their corners. -/
theorem bbP_w : after ops2 W (Proc.devRef .tc main_v126)
    = Cert.Tail.box (F := Ideal) (after ops2 W (Proc.devRef .tc main_v114)) (after ops2 W (Proc.devRef .tc main_v115)) := by
  after_results_simp
  unfold Cert.Tail.box
  refine congrArg₂ (fun a b => concatenate S256x8x4 2 [⟨S256x8x2, a⟩, ⟨S256x8x2, b⟩] Gen.concatenates_S256x8x2_S256x8x2_S256x8x4_d2) ?_ ?_
  · after_results_simp
    first | done | rfl
  · after_results_simp
    first | done | rfl

/-- The object parts' boxes from their corners (the operations span two windows). -/
theorem bbO_w : after ops3 (after ops2 W) (Proc.devRef .tc main_v146)
    = Cert.Tail.box (F := Ideal) (after ops2 W (Proc.devRef .tc main_v134)) (after ops2 W (Proc.devRef .tc main_v135)) := by
  after_results_simp
  unfold Cert.Tail.box
  refine congrArg₂ (fun a b => concatenate S256x8x4 2 [⟨S256x8x2, a⟩, ⟨S256x8x2, b⟩] Gen.concatenates_S256x8x2_S256x8x2_S256x8x4_d2) ?_ ?_
  · after_results_simp
    first | done | rfl
  · after_results_simp
    first | done | rfl

/-- Whether the boxes of the same number meet. -/
theorem meet_w : after ops3 W (Proc.devRef .tc main_v170)
    = Cert.Tail.boxesMeet (F := Ideal) (W (Proc.devRef .tc main_v126)) (after ops3 W (Proc.devRef .tc main_v146)) := by
  after_results_simp
  generalize concatenate S256x8x4 2 _ _ = bbO
  generalize W (Proc.devRef .tc main_v126) = bbP
  rfl

/-- The pair mask from the meeting test and the depth gap. -/
theorem mask_w : after ops4 W (Proc.devRef .tc main_v222)
    = Cert.Tail.pairMask (F := Ideal) (W (Proc.devRef .tc main_v170)) (after ops4 W (Proc.devRef .tc main_v217)) := by
  after_results_simp
  first | done | rfl

/-- The pair distances from the part means. -/
theorem mse_w : after ops5 W (Proc.devRef .tc main_v251)
    = Cert.Tail.pairMse (F := Ideal) (W (Proc.devRef .tc main_v232)) (W (Proc.devRef .tc main_v242)) := by
  after_results_simp
  first | done | rfl

/-- The masked mean of the pair distances (the selecting call's operands are its own buffers' contents, moved
    along an identity of types). -/
theorem parts_w : after ops5 W (Proc.devRef .tc main_v260)
    = Cert.Tail.partsLoss (F := Ideal) (W (Proc.devRef .tc main_v222)) (after ops5 W (Proc.devRef .tc main_v251)) := by
  after_results_simp
  unfold Cert.Tail.partsLoss
  dsimp only [StableHlo.TRef.toBuf, StableHlo.TRef.ofBuf, cast_eq]

/-- The two losses side by side. -/
theorem pair_w : after ops5 W (Proc.devRef .tc main_v263)
    = Cert.Tail.pair (F := Ideal) (W (Proc.devRef .tc main_v10)) (after ops5 W (Proc.devRef .tc main_v260)) := by
  after_results_simp
  unfold Cert.Tail.pair
  refine congrArg₂ (fun a b => concatenate S2 0 [⟨S1, a⟩, ⟨S1, b⟩] Gen.concatenates_S1_S1_S2_d0) ?_ ?_
  · after_results_simp
    first | done | rfl
  · after_results_simp
    first | done | rfl

/-- The person parts' least depth, laid along the pairs' first axis, in the window that computes it. -/
theorem v194_w : after ops3 W (Proc.devRef .tc main_v194)
    = broadcastInDim S256x8x1 ![0, 1] Gen.bcast_S256x8_S256x8x1_0_1 (after ops3 W (Proc.devRef .tc main_v193)) := by
  after_results_simp

/-- The depth gap, in its window, from the four depth bounds: the one computed in the window before enters laid
    along the pairs' first axis, the other three are the window's own; each is named, so that the comparison of
    the two sides never looks inside a bound. -/
theorem gap4_w (a b c d : FVec Ideal S256x8 .f32)
    (h : W (Proc.devRef .tc main_v194) = broadcastInDim S256x8x1 ![0, 1] Gen.bcast_S256x8_S256x8x1_0_1 a)
    (hb : after ops4 W (Proc.devRef .tc main_v195) = b)
    (hc : after ops4 W (Proc.devRef .tc main_v197) = c)
    (hd : after ops4 W (Proc.devRef .tc main_v199) = d) :
    after ops4 W (Proc.devRef .tc main_v217) = Cert.Tail.depthGap (F := Ideal) a b c d := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at hb hc hd ⊢
  rw [h, hb, hc, hd]
  rfl

/-! ## Each piece, after the whole program -/

theorem cl : fin V (Proc.devRef .tc main_v10)
    = Cert.Tail.centroidLoss (F := Ideal) (fin V (Proc.devRef .tc main_v0)) (fin V (Proc.devRef .tc main_v3)) := by
  rw [fin_v10, fin_v0, fin_v3]
  exact cl_w _

theorem bbP : fin V (Proc.devRef .tc main_v126)
    = Cert.Tail.box (F := Ideal) (fin V (Proc.devRef .tc main_v114)) (fin V (Proc.devRef .tc main_v115)) := by
  rw [fin_v126, fin_v114, fin_v115]
  exact bbP_w _

theorem bbO : fin V (Proc.devRef .tc main_v146)
    = Cert.Tail.box (F := Ideal) (fin V (Proc.devRef .tc main_v134)) (fin V (Proc.devRef .tc main_v135)) := by
  rw [fin_v146, fin_v134, fin_v135]
  exact bbO_w _

theorem meet : fin V (Proc.devRef .tc main_v170)
    = Cert.Tail.boxesMeet (F := Ideal) (fin V (Proc.devRef .tc main_v126)) (fin V (Proc.devRef .tc main_v146)) := by
  rw [fin_v170, fin_v126, fin_v146]
  exact meet_w _

theorem mask : fin V (Proc.devRef .tc main_v222)
    = Cert.Tail.pairMask (F := Ideal) (fin V (Proc.devRef .tc main_v170)) (fin V (Proc.devRef .tc main_v217)) := by
  rw [fin_v222, fin_v170, fin_v217]
  exact mask_w _

theorem mse : fin V (Proc.devRef .tc main_v251)
    = Cert.Tail.pairMse (F := Ideal) (fin V (Proc.devRef .tc main_v232)) (fin V (Proc.devRef .tc main_v242)) := by
  rw [fin_v232, fin_v242]
  exact mse_w _

theorem parts : fin V (Proc.devRef .tc main_v260)
    = Cert.Tail.partsLoss (F := Ideal) (fin V (Proc.devRef .tc main_v222)) (fin V (Proc.devRef .tc main_v251)) := by
  rw [fin_v222]
  exact parts_w _

theorem pairS : fin V (Proc.devRef .tc main_v263)
    = Cert.Tail.pair (F := Ideal) (fin V (Proc.devRef .tc main_v10)) (fin V (Proc.devRef .tc main_v260)) := by
  show _ = Cert.Tail.pair (F := Ideal)
    (after ops5 (after ops4 (after ops3 (after ops2 (after ops1 (after ops0 V))))) (Proc.devRef .tc main_v10)) _
  rw [keep5_v10]
  exact pair_w _

theorem gap : fin V (Proc.devRef .tc main_v217)
    = Cert.Tail.depthGap (F := Ideal) (fin V (Proc.devRef .tc main_v193)) (fin V (Proc.devRef .tc main_v195))
        (fin V (Proc.devRef .tc main_v197)) (fin V (Proc.devRef .tc main_v199)) := by
  rw [fin_v217]
  refine gap4_w _ _ _ _ _ ?_ (fin_v195 V).symm (fin_v197 V).symm (fin_v199 V).symm
  rw [fin_v193]
  exact v194_w _

/-! ## The result -/

theorem result_eq :
    (fin V (Proc.devRef .tc main_v263) : Cert.KernelIdeal.S2.Idx → EReal)
      = Cert.Tail.out (F := Ideal) (fin V (Proc.devRef .tc main_v0)) (fin V (Proc.devRef .tc main_v3))
          (fin V (Proc.devRef .tc main_v114)) (fin V (Proc.devRef .tc main_v115))
          (fin V (Proc.devRef .tc main_v193)) (fin V (Proc.devRef .tc main_v195)) (fin V (Proc.devRef .tc main_v232))
          (fin V (Proc.devRef .tc main_v134)) (fin V (Proc.devRef .tc main_v135))
          (fin V (Proc.devRef .tc main_v197)) (fin V (Proc.devRef .tc main_v199)) (fin V (Proc.devRef .tc main_v242)) := by
  unfold Cert.Tail.out
  rw [pairS V, cl V, parts V, mask V, meet V, bbP V, bbO V, gap V, mse V]

end Cert.ReferenceIdeal.Stages

end
-- ==== Proof.RefScreen.lean ====
/-
  The reference's two screen-coordinate arrays: every vertex of each mesh projected under its batch entry's camera.

  Each mesh array is first scaled along its last axis by the row (1, −1, 1); its three columns x, y', z are
  then taken apart, the horizontal coordinate 2 · (fx · x / (z + ε) + cx − 1/2) and the vertical coordinate
  2 · (1 − (fy · y' / (z + ε) + cy) − 1/2) are formed entry by entry, and the two are stacked on a last axis of
  size two. Read at one index (b, n, c) every layout operation names one entry of its operand, so the array
  is, entry by entry, the specification's screenU and screenW of the vertex, up to three laws on the extended
  reals: x · 1 = x, z · 1 = z and y · (−1) = 0 − y.
-/
import proofs.«400270_j61830349193773_3_alg».proof.Proof.RefStagesDefs
import Idealize.ShloMosaic.Lib.Pipeline.Value
import Idealize.ShloMosaic.Lib.ValueIdx
import Idealize.ShloMosaic.PureOps.Ideal.Laws

noncomputable section

namespace Cert.ReferenceIdeal.Stages

open Idealize.ShloMosaic Idealize.ShloMosaic.TcCoe Idealize.ShloMosaic.StableHlo Idealize.ShloMosaic.ValueIdx
open Cert.ReferenceIdeal Cert.ReferenceIdeal.Run Cert.Spec Cert.SpecOut

namespace Screen

/-! ## The intermediate arrays, at their literal types -/

abbrev s58 (W : Valuation τ sig (Elt Ideal)) : (⟨3, ![256, 10475, 2]⟩ : Shape).Idx → EReal := W (Proc.devRef .tc main_v58)
abbrev s41 (W : Valuation τ sig (Elt Ideal)) : (⟨2, ![256, 10475]⟩ : Shape).Idx → EReal := W (Proc.devRef .tc main_v41)
abbrev s47 (W : Valuation τ sig (Elt Ideal)) : (⟨2, ![256, 10475]⟩ : Shape).Idx → EReal := W (Proc.devRef .tc main_v47)
abbrev s106 (W : Valuation τ sig (Elt Ideal)) : (⟨3, ![256, 65536, 2]⟩ : Shape).Idx → EReal := W (Proc.devRef .tc main_v106)
abbrev s98 (W : Valuation τ sig (Elt Ideal)) : (⟨2, ![256, 65536]⟩ : Shape).Idx → EReal := W (Proc.devRef .tc main_v98)
abbrev s97 (W : Valuation τ sig (Elt Ideal)) : (⟨2, ![256, 65536]⟩ : Shape).Idx → EReal := W (Proc.devRef .tc main_v97)
abbrev s95 (W : Valuation τ sig (Elt Ideal)) : (⟨2, ![256, 65536]⟩ : Shape).Idx → EReal := W (Proc.devRef .tc main_v95)
abbrev c0 (W : Valuation τ sig (Elt Ideal)) : (⟨1, ![3]⟩ : Shape).Idx → EReal := W (Proc.devRef .tc main_cst_0)

/-- The three words of the person mesh's sign row. -/
abbrev sg0 (c : Fin 3) : EReal := Ideal.ofBits .f32 (lit0 c)

/-! ## Layout chains read at an index, for a mesh of any vertex count -/

section LayoutChains
variable {N : Nat}

/-- A column of a mesh array: the slice at position c of the last axis, its unit axis dropped, read at (b, n). -/
theorem col_apply (off : Fin 3 → Nat) (c : Fin 3) (X : (⟨3, ![256, N, 3]⟩ : Shape).Idx → EReal)
    (hs : (⟨3, ![256, N, 3]⟩ : Shape).Slices off ⟨3, ![256, N, 1]⟩)
    (hc : (⟨3, ![256, N, 1]⟩ : Shape).ShapeCasts ⟨2, ![256, N]⟩)
    (h0 : off 0 = 0) (h1 : off 1 = 0) (h2 : off 2 = c.val) (b : Fin 256) (n : Fin N) :
    shapeCast ⟨2, ![256, N]⟩ (extractStridedSlice ⟨3, ![256, N, 1]⟩ off X hs) hc (ix2 b n) = X (ix3 b n c) := by
  refine (shapeCast_apply _ hc (ix2 b n) (ix3 b n 0) ?_).trans
    (extractStridedSlice_apply off X hs (ix3 b n 0) (ix3 b n c) ?_)
  · rw [Shape.rowMajor_val_three, Shape.rowMajor_val_two]
    show (b.val * N + n.val) * 1 + 0 = b.val * N + n.val
    omega
  · intro a
    match a with
    | ⟨0, _⟩ => show b.val = off 0 + b.val; omega
    | ⟨1, _⟩ => show n.val = off 1 + n.val; omega
    | ⟨2, _⟩ => show c.val = off 2 + 0; omega

/-- One entry (r, c) of each batch entry's camera matrix, spread over the vertex axis, read at (b, n). -/
theorem cam_apply (off : Fin 3 → Nat) (r c : Fin 3) (C : (⟨3, ![256, 3, 3]⟩ : Shape).Idx → EReal)
    (hs : (⟨3, ![256, 3, 3]⟩ : Shape).Slices off ⟨3, ![256, 1, 1]⟩)
    (hc : (⟨3, ![256, 1, 1]⟩ : Shape).ShapeCasts ⟨1, ![256]⟩)
    (hb1 : (⟨1, ![256]⟩ : Shape).BroadcastsInDim ⟨2, ![256, 1]⟩ ![0])
    (hb2 : (⟨2, ![256, 1]⟩ : Shape).BroadcastsInDim ⟨2, ![256, N]⟩ ![0, 1])
    (h0 : off 0 = 0) (h1 : off 1 = r.val) (h2 : off 2 = c.val) (b : Fin 256) (n : Fin N) :
    broadcastInDim ⟨2, ![256, N]⟩ ![0, 1] hb2 (broadcastInDim ⟨2, ![256, 1]⟩ ![0] hb1
      (fun i => shapeCast ⟨1, ![256]⟩ (extractStridedSlice ⟨3, ![256, 1, 1]⟩ off C hs) hc i)) (ix2 b n)
      = C (ix3 b r c) := by
  refine (broadcastInDim_apply _ hb2 _ (ix2 b n) (ix2 b 0) ?_).trans ?_
  · intro a; match a with | ⟨0, _⟩ => rfl | ⟨1, _⟩ => rfl
  refine (broadcastInDim_apply _ hb1 _ (ix2 b 0) (ix1 b) ?_).trans ?_
  · intro a; match a with | ⟨0, _⟩ => rfl
  refine (shapeCast_apply _ hc (ix1 b) (ix3 b 0 0) ?_).trans
    (extractStridedSlice_apply off C hs (ix3 b 0 0) (ix3 b r c) ?_)
  · rw [Shape.rowMajor_val_three, Shape.rowMajor_val_one]
    show (b.val * 1 + 0) * 1 + 0 = b.val
    omega
  · intro a
    match a with
    | ⟨0, _⟩ => show b.val = off 0 + b.val; omega
    | ⟨1, _⟩ => show r.val = off 1 + 0; omega
    | ⟨2, _⟩ => show c.val = off 2 + 0; omega

/-- A three-entry row spread over batch entries and vertices, read at (b, n, c). -/
theorem row_apply (T : (⟨1, ![3]⟩ : Shape).Idx → EReal)
    (hb1 : (⟨1, ![3]⟩ : Shape).BroadcastsInDim ⟨3, ![1, 1, 3]⟩ ![2])
    (hb2 : (⟨3, ![1, 1, 3]⟩ : Shape).BroadcastsInDim ⟨3, ![256, N, 3]⟩ ![0, 1, 2])
    (b : Fin 256) (n : Fin N) (c : Fin 3) :
    broadcastInDim ⟨3, ![256, N, 3]⟩ ![0, 1, 2] hb2 (broadcastInDim ⟨3, ![1, 1, 3]⟩ ![2] hb1 T) (ix3 b n c)
      = T (ix1 c) := by
  refine (broadcastInDim_apply _ hb2 _ (ix3 b n c) (ix3 0 0 c) ?_).trans ?_
  · intro a; match a with | ⟨0, _⟩ => rfl | ⟨1, _⟩ => rfl | ⟨2, _⟩ => rfl
  refine (broadcastInDim_apply _ hb1 _ (ix3 0 0 c) (ix1 c) ?_)
  · intro a; match a with | ⟨0, _⟩ => rfl

end LayoutChains

/-! ## The laws on the extended reals -/

/-- The float words 1 and −1 as extended reals. -/
theorem one_word : Ideal.ofBits .f32 0x3F800000#32 = 1 := IdealRules.sign_bit.ideal_onePat .f32
theorem negOne_word : Ideal.ofBits .f32 0xBF800000#32 = -1 := IdealRules.sign_bit.ideal_negOnePat .f32

/-- Scaling x and z by 1 changes nothing: the horizontal screen coordinate. -/
theorem screenU_of (x z fx cx : EReal) :
    cTwo * ((fx * Ideal.div (x * Ideal.ofBits .f32 0x3F800000#32) (z * Ideal.ofBits .f32 0x3F800000#32 + cEps) + cx) - cHalf)
      = screenU x z fx cx := by
  rw [one_word, mul_one, mul_one]; rfl

/-- Scaling y by −1 is the negation the specification spells 0 − y: the vertical screen coordinate. -/
theorem screenW_of (y z fy cy : EReal) :
    cTwo * ((cOne - (fy * Ideal.div (y * Ideal.ofBits .f32 0xBF800000#32) (z * Ideal.ofBits .f32 0x3F800000#32 + cEps) + cy)) - cHalf)
      = screenW y z fy cy := by
  unfold screenW
  rw [one_word, negOne_word, mul_one, mul_neg, mul_one, show cZero = 0 from Ideal.ofBits_zero_f32, zero_sub]

/-! ## The person mesh: the stacked array is written in the second window from two arrays of the first -/

section Person
variable (V W : Valuation τ sig (Elt Ideal))

theorem keep5_58 : after ops5 W (Proc.devRef .tc main_v58) = W (Proc.devRef .tc main_v58) := by after_results_simp
theorem keep4_58 : after ops4 W (Proc.devRef .tc main_v58) = W (Proc.devRef .tc main_v58) := by after_results_simp
theorem keep3_58 : after ops3 W (Proc.devRef .tc main_v58) = W (Proc.devRef .tc main_v58) := by after_results_simp
theorem keep2_58 : after ops2 W (Proc.devRef .tc main_v58) = W (Proc.devRef .tc main_v58) := by after_results_simp

/-- The stacked array's first entry of the last axis: twice (the horizontal term less a half). -/
theorem w1_58_u (b : Fin 256) (n : Fin 10475) :
    s58 (after ops1 W) (ix3 b n 0) = cTwo * (s41 W (ix2 b n) - cHalf) := by
  show after ops1 W (Proc.devRef .tc main_v58) _ = _
  after_results_simp
  refine (concatenate_pair_apply_left (t := S256x10475x2) (s₁ := S256x10475x1) (s₂ := S256x10475x1) (2 : Fin 3) _ _ _
    (ix3 b n (0 : Fin 2)) rfl (ix3 b n (0 : Fin 1)) ?_).trans ?_
  · intro a; match a with | ⟨0, _⟩ => rfl | ⟨1, _⟩ => rfl | ⟨2, _⟩ => rfl
  try after_results_simp
  refine (broadcastInDim_apply _ _ _ (ix3 b n (0 : Fin 1)) (ix2 b n) ?_).trans ?_
  · intro a; match a with | ⟨0, _⟩ => rfl | ⟨1, _⟩ => rfl
  rfl

/-- The stacked array's second entry of the last axis: twice (the vertical term less a half). -/
theorem w1_58_w (b : Fin 256) (n : Fin 10475) :
    s58 (after ops1 W) (ix3 b n 1) = cTwo * (s47 W (ix2 b n) - cHalf) := by
  show after ops1 W (Proc.devRef .tc main_v58) _ = _
  after_results_simp
  refine (concatenate_pair_apply_right (t := S256x10475x2) (s₁ := S256x10475x1) (s₂ := S256x10475x1) (2 : Fin 3) _ _ _
    (ix3 b n (1 : Fin 2)) rfl rfl (ix3 b n (0 : Fin 1)) ?_ ?_).trans ?_
  · intro a ha; match a with | ⟨0, _⟩ => rfl | ⟨1, _⟩ => rfl | ⟨2, _⟩ => exact absurd rfl ha
  · rfl
  try after_results_simp
  refine (broadcastInDim_apply _ _ _ (ix3 b n (0 : Fin 1)) (ix2 b n) ?_).trans ?_
  · intro a; match a with | ⟨0, _⟩ => rfl | ⟨1, _⟩ => rfl
  rfl

set_option maxHeartbeats 4000000 in
/-- The horizontal term fx · x' / (z' + ε) + cx at a vertex, x' and z' the sign-scaled coordinates. -/
theorem w0_41 (b : Fin 256) (n : Fin 10475) :
    s41 (after ops0 V) (ix2 b n)
      = a2 V (ix3 b 0 0) * Ideal.div (a0 V (ix3 b n 0) * sg0 0) (a0 V (ix3 b n 2) * sg0 2 + cEps) + a2 V (ix3 b 0 2) := by
  show after ops0 V (Proc.devRef .tc main_v41) (ix2 b n) = _
  after_results_simp
  refine congrArg₂ (· + ·) (congrArg₂ (· * ·) ?_ (congrArg₂ Ideal.div ?_ (congrArg₂ (· + ·) ?_ rfl))) ?_
  · exact cam_apply (N := 10475) ![0, 0, 0] 0 0 _ _ _ _ _ rfl rfl rfl b n
  · exact (col_apply (N := 10475) ![0, 0, 0] 0 _ _ _ rfl rfl rfl b n).trans
      (congrArg (a0 V (ix3 b n 0) * ·) (row_apply (N := 10475) _ _ _ b n 0))
  · exact (col_apply (N := 10475) ![0, 0, 2] 2 _ _ _ rfl rfl rfl b n).trans
      (congrArg (a0 V (ix3 b n 2) * ·) (row_apply (N := 10475) _ _ _ b n 2))
  · exact cam_apply (N := 10475) ![0, 0, 2] 0 2 _ _ _ _ _ rfl rfl rfl b n

set_option maxHeartbeats 4000000 in
/-- The vertical term 1 − (fy · y' / (z' + ε) + cy) at a vertex. -/
theorem w0_47 (b : Fin 256) (n : Fin 10475) :
    s47 (after ops0 V) (ix2 b n)
      = cOne - (a2 V (ix3 b 1 1) * Ideal.div (a0 V (ix3 b n 1) * sg0 1) (a0 V (ix3 b n 2) * sg0 2 + cEps) + a2 V (ix3 b 1 2)) := by
  show after ops0 V (Proc.devRef .tc main_v47) (ix2 b n) = _
  after_results_simp
  refine congrArg₂ (· - ·) rfl
    (congrArg₂ (· + ·) (congrArg₂ (· * ·) ?_ (congrArg₂ Ideal.div ?_ (congrArg₂ (· + ·) ?_ rfl))) ?_)
  · exact cam_apply (N := 10475) ![0, 1, 1] 1 1 _ _ _ _ _ rfl rfl rfl b n
  · exact (col_apply (N := 10475) ![0, 0, 1] 1 _ _ _ rfl rfl rfl b n).trans
      (congrArg (a0 V (ix3 b n 1) * ·) (row_apply (N := 10475) _ _ _ b n 1))
  · exact (col_apply (N := 10475) ![0, 0, 2] 2 _ _ _ rfl rfl rfl b n).trans
      (congrArg (a0 V (ix3 b n 2) * ·) (row_apply (N := 10475) _ _ _ b n 2))
  · exact cam_apply (N := 10475) ![0, 1, 2] 1 2 _ _ _ _ _ rfl rfl rfl b n

end Person

/-! ## The object mesh: the same operations one window later, the sign row read from the first window -/

section Object
variable (V W : Valuation τ sig (Elt Ideal))

theorem keep5_106 : after ops5 W (Proc.devRef .tc main_v106) = W (Proc.devRef .tc main_v106) := by after_results_simp
theorem keep4_106 : after ops4 W (Proc.devRef .tc main_v106) = W (Proc.devRef .tc main_v106) := by after_results_simp
theorem keep3_106 : after ops3 W (Proc.devRef .tc main_v106) = W (Proc.devRef .tc main_v106) := by after_results_simp

/-- The stacked array's first entry of the last axis: the product of the two arrays the earlier window left. -/
theorem w2_106_u (b : Fin 256) (n : Fin 65536) :
    s106 (after ops2 W) (ix3 b n 0) = s98 W (ix2 b n) * s97 W (ix2 b n) := by
  show after ops2 W (Proc.devRef .tc main_v106) _ = _
  after_results_simp
  refine (concatenate_pair_apply_left (t := S256x65536x2) (s₁ := S256x65536x1) (s₂ := S256x65536x1) (2 : Fin 3) _ _ _
    (ix3 b n (0 : Fin 2)) rfl (ix3 b n (0 : Fin 1)) ?_).trans ?_
  · intro a; match a with | ⟨0, _⟩ => rfl | ⟨1, _⟩ => rfl | ⟨2, _⟩ => rfl
  try after_results_simp
  refine (broadcastInDim_apply _ _ _ (ix3 b n (0 : Fin 1)) (ix2 b n) ?_).trans ?_
  · intro a; match a with | ⟨0, _⟩ => rfl | ⟨1, _⟩ => rfl
  rfl

/-- The stacked array's second entry of the last axis: twice (the vertical term less a half). -/
theorem w2_106_w (b : Fin 256) (n : Fin 65536) :
    s106 (after ops2 W) (ix3 b n 1) = cTwo * (s95 W (ix2 b n) - cHalf) := by
  show after ops2 W (Proc.devRef .tc main_v106) _ = _
  after_results_simp
  refine (concatenate_pair_apply_right (t := S256x65536x2) (s₁ := S256x65536x1) (s₂ := S256x65536x1) (2 : Fin 3) _ _ _
    (ix3 b n (1 : Fin 2)) rfl rfl (ix3 b n (0 : Fin 1)) ?_ ?_).trans ?_
  · intro a ha; match a with | ⟨0, _⟩ => rfl | ⟨1, _⟩ => rfl | ⟨2, _⟩ => exact absurd rfl ha
  · rfl
  try after_results_simp
  refine (broadcastInDim_apply _ _ _ (ix3 b n (0 : Fin 1)) (ix2 b n) ?_).trans ?_
  · intro a; match a with | ⟨0, _⟩ => rfl | ⟨1, _⟩ => rfl
  rfl

/-- The factor two, spread over the array. -/
theorem w1_98 (b : Fin 256) (n : Fin 65536) : s98 (after ops1 W) (ix2 b n) = cTwo := by
  show after ops1 W (Proc.devRef .tc main_v98) (ix2 b n) = _
  after_results_simp
  rfl

set_option maxHeartbeats 4000000 in
/-- The horizontal term less a half, at a vertex, over the sign row the earlier window left. -/
theorem w1_97 (b : Fin 256) (n : Fin 65536) :
    s97 (after ops1 W) (ix2 b n)
      = (a2 W (ix3 b 0 0) * Ideal.div (a1 W (ix3 b n 0) * c0 W (ix1 0)) (a1 W (ix3 b n 2) * c0 W (ix1 2) + cEps)
          + a2 W (ix3 b 0 2)) - cHalf := by
  show after ops1 W (Proc.devRef .tc main_v97) (ix2 b n) = _
  after_results_simp
  refine congrArg₂ (· - ·)
    (congrArg₂ (· + ·) (congrArg₂ (· * ·) ?_ (congrArg₂ Ideal.div ?_ (congrArg₂ (· + ·) ?_ rfl))) ?_) rfl
  · exact cam_apply (N := 65536) ![0, 0, 0] 0 0 _ _ _ _ _ rfl rfl rfl b n
  · exact (col_apply (N := 65536) ![0, 0, 0] 0 _ _ _ rfl rfl rfl b n).trans
      (congrArg (a1 W (ix3 b n 0) * ·) (row_apply (N := 65536) _ _ _ b n 0))
  · exact (col_apply (N := 65536) ![0, 0, 2] 2 _ _ _ rfl rfl rfl b n).trans
      (congrArg (a1 W (ix3 b n 2) * ·) (row_apply (N := 65536) _ _ _ b n 2))
  · exact cam_apply (N := 65536) ![0, 0, 2] 0 2 _ _ _ _ _ rfl rfl rfl b n

set_option maxHeartbeats 4000000 in
/-- The vertical term 1 − (fy · y' / (z' + ε) + cy) at a vertex. -/
theorem w1_95 (b : Fin 256) (n : Fin 65536) :
    s95 (after ops1 W) (ix2 b n)
      = cOne - (a2 W (ix3 b 1 1) * Ideal.div (a1 W (ix3 b n 1) * c0 W (ix1 1)) (a1 W (ix3 b n 2) * c0 W (ix1 2) + cEps)
          + a2 W (ix3 b 1 2)) := by
  show after ops1 W (Proc.devRef .tc main_v95) (ix2 b n) = _
  after_results_simp
  refine congrArg₂ (· - ·) rfl
    (congrArg₂ (· + ·) (congrArg₂ (· * ·) ?_ (congrArg₂ Ideal.div ?_ (congrArg₂ (· + ·) ?_ rfl))) ?_)
  · exact cam_apply (N := 65536) ![0, 1, 1] 1 1 _ _ _ _ _ rfl rfl rfl b n
  · exact (col_apply (N := 65536) ![0, 0, 1] 1 _ _ _ rfl rfl rfl b n).trans
      (congrArg (a1 W (ix3 b n 1) * ·) (row_apply (N := 65536) _ _ _ b n 1))
  · exact (col_apply (N := 65536) ![0, 0, 2] 2 _ _ _ rfl rfl rfl b n).trans
      (congrArg (a1 W (ix3 b n 2) * ·) (row_apply (N := 65536) _ _ _ b n 2))
  · exact cam_apply (N := 65536) ![0, 1, 2] 1 2 _ _ _ _ _ rfl rfl rfl b n

/-- The first window leaves the two arguments as launched and writes the object mesh's sign row. -/
theorem k0_a1 : a1 (after ops0 V) = a1 V := by
  show after ops0 V (Proc.devRef .tc main_arg1) = _
  after_results_simp
theorem k0_a2 : a2 (after ops0 V) = a2 V := by
  show after ops0 V (Proc.devRef .tc main_arg2) = _
  after_results_simp
theorem k0_c0 : c0 (after ops0 V) = fun i => Ideal.ofBits .f32 (lit1 ((⟨1, ![3]⟩ : Shape).rowMajor i)) := by
  show after ops0 V (Proc.devRef .tc main_cst_0) = _
  after_results_simp
  rfl

end Object

end Screen

open Screen

variable (V : Valuation τ sig (Elt Ideal))

/-- The person mesh's screen array. -/
theorem screen_smpl : (fin V (Proc.devRef .tc main_v58) : (⟨3, ![256, 10475, 2]⟩ : Shape).Idx → EReal) = meshScreen (a0 V) (a2 V) := by
  funext j
  obtain ⟨b, n, c, rfl⟩ : ∃ b n c, j = ix3 b n c := ⟨j 0, j 1, j 2, eq_ix3 j⟩
  show after ops5 (after ops4 (after ops3 (after ops2 (after ops1 (after ops0 V))))) (Proc.devRef .tc main_v58) _ = _
  rw [keep5_58, keep4_58, keep3_58, keep2_58]
  have hc : c = 0 ∨ c = 1 := by
    match c with
    | ⟨0, _⟩ => exact Or.inl rfl
    | ⟨1, _⟩ => exact Or.inr rfl
  rcases hc with rfl | rfl
  · refine (w1_58_u (after ops0 V) b n).trans ?_
    rw [w0_41]
    exact screenU_of _ _ _ _
  · refine (w1_58_w (after ops0 V) b n).trans ?_
    rw [w0_47]
    exact screenW_of _ _ _ _

/-- The object mesh's screen array. -/
theorem screen_object : (fin V (Proc.devRef .tc main_v106) : (⟨3, ![256, 65536, 2]⟩ : Shape).Idx → EReal) = meshScreen (a1 V) (a2 V) := by
  funext j
  obtain ⟨b, n, c, rfl⟩ : ∃ b n c, j = ix3 b n c := ⟨j 0, j 1, j 2, eq_ix3 j⟩
  show after ops5 (after ops4 (after ops3 (after ops2 (after ops1 (after ops0 V))))) (Proc.devRef .tc main_v106) _ = _
  rw [keep5_106, keep4_106, keep3_106]
  have hc : c = 0 ∨ c = 1 := by
    match c with
    | ⟨0, _⟩ => exact Or.inl rfl
    | ⟨1, _⟩ => exact Or.inr rfl
  rcases hc with rfl | rfl
  · refine (w2_106_u (after ops1 (after ops0 V)) b n).trans ?_
    rw [w1_98, w1_97, k0_a1, k0_a2, k0_c0]
    exact screenU_of _ _ _ _
  · refine (w2_106_w (after ops1 (after ops0 V)) b n).trans ?_
    rw [w1_95, k0_a1, k0_a2, k0_c0]
    exact screenW_of _ _ _ _

end Cert.ReferenceIdeal.Stages

end
-- ==== Proof.RefBoxes.lean ====
/-
  The reference's box corners of every part: the least and greatest screen coordinates over the part's vertices, the vertices picked out of the mesh's screen array by the part table.

  Per mesh: a table entry that is not negative passes the wrap (select (entry < 0) (entry + count) entry) unchanged; the
  gather then reads the screen array at the entry clamped into the vertex axis, which is the vertex the specification
  names; the screen array at that vertex is the part's screen coordinate; and a minimum (maximum) over the vertex axis
  from +∞ (−∞) is the fold of min (max) over the part's vertices.
-/
import proofs.«400270_j61830349193773_3_alg».proof.Proof.RefStagesDefs
import proofs.«400270_j61830349193773_3_alg».proof.Proof.RefScreen
import proofs.«400270_j61830349193773_3_alg».proof.Proof.LibGatherRows
import Idealize.ShloMosaic.PureOps.Ideal.Laws
import Idealize.ShloMosaic.Lib.Pipeline.Value
import Idealize.ShloMosaic.Lib.ValueLayout

noncomputable section

namespace Cert.ReferenceIdeal.Stages

open Idealize.ShloMosaic Idealize.ShloMosaic.TcCoe Idealize.ShloMosaic.StableHlo Idealize.ShloMosaic.ValueIdx
open Cert.ReferenceIdeal Cert.ReferenceIdeal.Run Cert.Spec Cert.SpecOut

/-! ## The person mesh: the part table's wrap, the gathered rows, the two reductions -/

/-- The part table with negative entries wrapped by the vertex count and a unit axis added, read at an entry:
    an entry that is not negative is kept. -/
theorem wrap_apply_smpl (I : IVec S8x1024 32) (p : Fin 8) (k : Fin 1024) (h0 : 0 ≤ (I (ix2 p k)).toInt) :
    broadcastInDim S8x1024x1 ![0, 1] Gen.bcast_S8x1024_S8x1024x1_0_1
      (select (cmpi CmpIPredicate.slt I (broadcastInDim S8x1024 ![] Gen.bcast_S_S8x1024 (constantI S_ 32 0#32)))
        (addi I (broadcastInDim S8x1024 ![] Gen.bcast_S_S8x1024 (constantI S_ 32 10475#32))) I) (ix3 p k (0 : Fin 1))
      = I (ix2 p k) := by
  rw [broadcastInDim_apply _ _ _ _ (ix2 p k) (by intro a; fin_cases a <;> rfl)]
  rw [select_apply]
  have hs : (I (ix2 p k)).slt 0#32 = false := by
    unfold BitVec.slt
    rw [BitVec.toInt_zero]
    exact decide_eq_false (not_lt.mpr h0)
  have hc : cmpi CmpIPredicate.slt I (broadcastInDim S8x1024 ![] Gen.bcast_S_S8x1024 (constantI S_ 32 0#32)) (ix2 p k) = 0#1 := by
    show BitVec.ofBool ((I (ix2 p k)).slt 0#32) = 0#1
    rw [hs]; rfl
  rw [hc, select_zero]

/-- Rows of a screen array gathered by the wrapped part table: entry (b, p, k, c) is the array at the vertex the
    table names at (p, k). -/
theorem gathered_smpl (X : FVec Ideal S256x10475x2 .f32) (I : IVec S8x1024 32) (hI : ∀ p k, 0 ≤ (I (ix2 p k)).toInt)
    (b : Fin 256) (p : Fin 8) (k : Fin 1024) (c : Fin 2) :
    Host.gather gather_S256x10475x2_S8x1024x1_S256x8x1024x2_03_1_n_n_1_2_25612 X
      (broadcastInDim S8x1024x1 ![0, 1] Gen.bcast_S8x1024_S8x1024x1_0_1
        (select (cmpi CmpIPredicate.slt I (broadcastInDim S8x1024 ![] Gen.bcast_S_S8x1024 (constantI S_ 32 0#32)))
          (addi I (broadcastInDim S8x1024 ![] Gen.bcast_S_S8x1024 (constantI S_ 32 10475#32))) I)) (ix4 b p k c)
      = X (ix3 b (vertexOf pos_smpl I p k) c) := by
  rw [Cert.LibGatherRows.gather_rows_apply pos_smpl _ rfl rfl rfl rfl rfl rfl]
  refine congrArg (fun n => X (ix3 b n c)) (Fin.ext ?_)
  show min (_ : BitVec 32).toInt.toNat (10475 - 1) = min (I (ix2 p k)).toInt.toNat (10475 - 1)
  rw [wrap_apply_smpl I p k (hI p k)]

/-- The minimum over the vertex axis from +∞, read at (b, p, c). -/
theorem lo_apply_smpl (X : FVec Ideal S256x8x1024x2 .f32) (b : Fin 256) (p : Fin 8) (c : Fin 2) :
    Host.reduce FloatOps.minimumf X (constant S_ FTy.f32 0x7F800000#32) Gen.reducesTo_S256x8x1024x2_S256x8x2_d2 Gen.h_S_ (ix3 b p c)
      = (Finset.univ : Finset (Fin 1024)).fold min (⊤ : EReal) (fun k => X (ix4 b p k c)) := by
  have hR : S256x8x1024x2.Reduces [2] S256x8x2 := by decide
  rw [Host.reduce_eq_fold_single FloatOps.minimumf X _ Gen.reducesTo_S256x8x1024x2_S256x8x2_d2 hR Gen.h_S_ (ix3 b p c)]
  have h0 : constant (F := Ideal) S_ FTy.f32 (0x7F800000#32) (Shape.Idx.first Gen.h_S_) = (⊤ : EReal) := by
    show Ideal.ofBits .f32 0x7F800000#32 = ⊤
    simp [Ideal.ofBits, Ideal.ieee]
  rw [h0]
  exact Finset.fold_congr fun k _ => congrArg X (funext fun a => by fin_cases a <;> rfl)

/-- The maximum over the vertex axis from −∞, read at (b, p, c). -/
theorem hi_apply_smpl (X : FVec Ideal S256x8x1024x2 .f32) (b : Fin 256) (p : Fin 8) (c : Fin 2) :
    Host.reduce FloatOps.maximumf X (constant S_ FTy.f32 0xFF800000#32) Gen.reducesTo_S256x8x1024x2_S256x8x2_d2 Gen.h_S_ (ix3 b p c)
      = (Finset.univ : Finset (Fin 1024)).fold max (⊥ : EReal) (fun k => X (ix4 b p k c)) := by
  have hR : S256x8x1024x2.Reduces [2] S256x8x2 := by decide
  rw [Host.reduce_eq_fold_single FloatOps.maximumf X _ Gen.reducesTo_S256x8x1024x2_S256x8x2_d2 hR Gen.h_S_ (ix3 b p c)]
  have h0 : constant (F := Ideal) S_ FTy.f32 (0xFF800000#32) (Shape.Idx.first Gen.h_S_) = (⊥ : EReal) := by
    show Ideal.ofBits .f32 0xFF800000#32 = ⊥
    simp [Ideal.ofBits, Ideal.ieee]
  rw [h0]
  exact Finset.fold_congr fun k _ => congrArg X (funext fun a => by fin_cases a <;> rfl)

/-- A mesh's screen array at the vertex the part table names is the part's screen coordinate. -/
theorem meshScreen_vertexOf_smpl (A : (⟨3, ![256, 10475, 3]⟩ : Shape).Idx → EReal) (Cam : (⟨3, ![256, 3, 3]⟩ : Shape).Idx → EReal)
    (I : IVec (⟨2, ![8, 1024]⟩ : Shape) 32) (b : Fin 256) (p : Fin 8) (k : Fin 1024) (c : Fin 2) :
    meshScreen A Cam (ix3 b (vertexOf pos_smpl I p k) c) = partScreen pos_smpl A Cam I b p k c := by
  unfold meshScreen partScreen partVertex
  rfl

/-! ## The person mesh: the windows of operations

The two box corners are written in the third window; the later windows leave them alone, and the windows from the
third on leave the screen array alone, as the first two leave the part table. -/

section WindowsSmpl
variable (W : Valuation τ sig (Elt Ideal))

theorem keep5_v114 : after ops5 W (Proc.devRef .tc main_v114) = W (Proc.devRef .tc main_v114) := by after_results_simp
theorem keep4_v114 : after ops4 W (Proc.devRef .tc main_v114) = W (Proc.devRef .tc main_v114) := by after_results_simp
theorem keep3_v114 : after ops3 W (Proc.devRef .tc main_v114) = W (Proc.devRef .tc main_v114) := by after_results_simp
theorem keep5_v115 : after ops5 W (Proc.devRef .tc main_v115) = W (Proc.devRef .tc main_v115) := by after_results_simp
theorem keep4_v115 : after ops4 W (Proc.devRef .tc main_v115) = W (Proc.devRef .tc main_v115) := by after_results_simp
theorem keep3_v115 : after ops3 W (Proc.devRef .tc main_v115) = W (Proc.devRef .tc main_v115) := by after_results_simp
theorem keep5_v58 : after ops5 W (Proc.devRef .tc main_v58) = W (Proc.devRef .tc main_v58) := by after_results_simp
theorem keep4_v58 : after ops4 W (Proc.devRef .tc main_v58) = W (Proc.devRef .tc main_v58) := by after_results_simp
theorem keep3_v58 : after ops3 W (Proc.devRef .tc main_v58) = W (Proc.devRef .tc main_v58) := by after_results_simp
theorem keep2_v58 : after ops2 W (Proc.devRef .tc main_v58) = W (Proc.devRef .tc main_v58) := by after_results_simp
theorem keep1_arg3 : after ops1 W (Proc.devRef .tc main_arg3) = W (Proc.devRef .tc main_arg3) := by after_results_simp
theorem keep0_arg3 : after ops0 W (Proc.devRef .tc main_arg3) = W (Proc.devRef .tc main_arg3) := by after_results_simp

/-- The lower corners as the third window computes them from the screen array and the part table it finds. -/
theorem win_v114 : after ops2 W (Proc.devRef .tc main_v114)
    = Host.reduce (FloatOps.minimumf (F := Ideal) (φ := .f32))
        (Host.gather gather_S256x10475x2_S8x1024x1_S256x8x1024x2_03_1_n_n_1_2_25612 (W (Proc.devRef .tc main_v58))
        (broadcastInDim S8x1024x1 ![0, 1] Gen.bcast_S8x1024_S8x1024x1_0_1
          (select (cmpi CmpIPredicate.slt (W (Proc.devRef .tc main_arg3)) (broadcastInDim S8x1024 ![] Gen.bcast_S_S8x1024 (constantI S_ 32 0#32)))
            (addi (W (Proc.devRef .tc main_arg3)) (broadcastInDim S8x1024 ![] Gen.bcast_S_S8x1024 (constantI S_ 32 10475#32)))
            (W (Proc.devRef .tc main_arg3)))))
        (constant S_ FTy.f32 0x7F800000#32) Gen.reducesTo_S256x8x1024x2_S256x8x2_d2 Gen.h_S_ := by
  after_results_simp

/-- The upper corners likewise. -/
theorem win_v115 : after ops2 W (Proc.devRef .tc main_v115)
    = Host.reduce (FloatOps.maximumf (F := Ideal) (φ := .f32))
        (Host.gather gather_S256x10475x2_S8x1024x1_S256x8x1024x2_03_1_n_n_1_2_25612 (W (Proc.devRef .tc main_v58))
        (broadcastInDim S8x1024x1 ![0, 1] Gen.bcast_S8x1024_S8x1024x1_0_1
          (select (cmpi CmpIPredicate.slt (W (Proc.devRef .tc main_arg3)) (broadcastInDim S8x1024 ![] Gen.bcast_S_S8x1024 (constantI S_ 32 0#32)))
            (addi (W (Proc.devRef .tc main_arg3)) (broadcastInDim S8x1024 ![] Gen.bcast_S_S8x1024 (constantI S_ 32 10475#32)))
            (W (Proc.devRef .tc main_arg3)))))
        (constant S_ FTy.f32 0xFF800000#32) Gen.reducesTo_S256x8x1024x2_S256x8x2_d2 Gen.h_S_ := by
  after_results_simp

end WindowsSmpl

variable (V : Valuation τ sig (Elt Ideal))

/-- The screen array the third window finds is the finished one. -/
theorem screen_in_smpl : (after ops1 (after ops0 V) (Proc.devRef .tc main_v58) : FVec Ideal S256x10475x2 .f32) = meshScreen (a0 V) (a2 V) := by
  rw [← screen_smpl V]
  show _ = after ops5 (after ops4 (after ops3 (after ops2 (after ops1 (after ops0 V))))) (Proc.devRef .tc main_v58)
  rw [keep5_v58, keep4_v58, keep3_v58, keep2_v58]

/-- The part table the third window finds is the one at launch. -/
theorem table_in_smpl : after ops1 (after ops0 V) (Proc.devRef .tc main_arg3) = i3 V := by
  rw [keep1_arg3, keep0_arg3]

theorem lo_smpl (hS : InRangeS V) : (fin V (Proc.devRef .tc main_v114) : (⟨3, ![256, 8, 2]⟩ : Shape).Idx → EReal) = boxLo pos_smpl (a0 V) (a2 V) (i3 V) := by
  show after ops5 (after ops4 (after ops3 (after ops2 (after ops1 (after ops0 V))))) (Proc.devRef .tc main_v114) = _
  rw [keep5_v114, keep4_v114, keep3_v114, win_v114, screen_in_smpl, table_in_smpl]
  funext j
  obtain ⟨b, p, c, rfl⟩ : ∃ (b : Fin 256) (p : Fin 8) (c : Fin 2), j = ix3 b p c := ⟨j 0, j 1, j 2, eq_ix3 j⟩
  rw [lo_apply_smpl]
  show _ = (Finset.univ : Finset (Fin 1024)).fold min ⊤ fun k => partScreen pos_smpl (a0 V) (a2 V) (i3 V) b p k c
  refine Finset.fold_congr fun k _ => ?_
  rw [gathered_smpl _ _ (fun p k => (hS p k).1), meshScreen_vertexOf_smpl]

theorem hi_smpl (hS : InRangeS V) : (fin V (Proc.devRef .tc main_v115) : (⟨3, ![256, 8, 2]⟩ : Shape).Idx → EReal) = boxHi pos_smpl (a0 V) (a2 V) (i3 V) := by
  show after ops5 (after ops4 (after ops3 (after ops2 (after ops1 (after ops0 V))))) (Proc.devRef .tc main_v115) = _
  rw [keep5_v115, keep4_v115, keep3_v115, win_v115, screen_in_smpl, table_in_smpl]
  funext j
  obtain ⟨b, p, c, rfl⟩ : ∃ (b : Fin 256) (p : Fin 8) (c : Fin 2), j = ix3 b p c := ⟨j 0, j 1, j 2, eq_ix3 j⟩
  rw [hi_apply_smpl]
  show _ = (Finset.univ : Finset (Fin 1024)).fold max ⊥ fun k => partScreen pos_smpl (a0 V) (a2 V) (i3 V) b p k c
  refine Finset.fold_congr fun k _ => ?_
  rw [gathered_smpl _ _ (fun p k => (hS p k).1), meshScreen_vertexOf_smpl]

/-! ## The object mesh: the same over its own vertex count and part table -/

/-- The part table with negative entries wrapped by the vertex count and a unit axis added, read at an entry:
    an entry that is not negative is kept. -/
theorem wrap_apply_object (I : IVec S8x2048 32) (p : Fin 8) (k : Fin 2048) (h0 : 0 ≤ (I (ix2 p k)).toInt) :
    broadcastInDim S8x2048x1 ![0, 1] Gen.bcast_S8x2048_S8x2048x1_0_1
      (select (cmpi CmpIPredicate.slt I (broadcastInDim S8x2048 ![] Gen.bcast_S_S8x2048 (constantI S_ 32 0#32)))
        (addi I (broadcastInDim S8x2048 ![] Gen.bcast_S_S8x2048 (constantI S_ 32 65536#32))) I) (ix3 p k (0 : Fin 1))
      = I (ix2 p k) := by
  rw [broadcastInDim_apply _ _ _ _ (ix2 p k) (by intro a; fin_cases a <;> rfl)]
  rw [select_apply]
  have hs : (I (ix2 p k)).slt 0#32 = false := by
    unfold BitVec.slt
    rw [BitVec.toInt_zero]
    exact decide_eq_false (not_lt.mpr h0)
  have hc : cmpi CmpIPredicate.slt I (broadcastInDim S8x2048 ![] Gen.bcast_S_S8x2048 (constantI S_ 32 0#32)) (ix2 p k) = 0#1 := by
    show BitVec.ofBool ((I (ix2 p k)).slt 0#32) = 0#1
    rw [hs]; rfl
  rw [hc, select_zero]

/-- Rows of a screen array gathered by the wrapped part table: entry (b, p, k, c) is the array at the vertex the
    table names at (p, k). -/
theorem gathered_object (X : FVec Ideal S256x65536x2 .f32) (I : IVec S8x2048 32) (hI : ∀ p k, 0 ≤ (I (ix2 p k)).toInt)
    (b : Fin 256) (p : Fin 8) (k : Fin 2048) (c : Fin 2) :
    Host.gather gather_S256x65536x2_S8x2048x1_S256x8x2048x2_03_1_n_n_1_2_25612 X
      (broadcastInDim S8x2048x1 ![0, 1] Gen.bcast_S8x2048_S8x2048x1_0_1
        (select (cmpi CmpIPredicate.slt I (broadcastInDim S8x2048 ![] Gen.bcast_S_S8x2048 (constantI S_ 32 0#32)))
          (addi I (broadcastInDim S8x2048 ![] Gen.bcast_S_S8x2048 (constantI S_ 32 65536#32))) I)) (ix4 b p k c)
      = X (ix3 b (vertexOf pos_object I p k) c) := by
  rw [Cert.LibGatherRows.gather_rows_apply pos_object _ rfl rfl rfl rfl rfl rfl]
  refine congrArg (fun n => X (ix3 b n c)) (Fin.ext ?_)
  show min (_ : BitVec 32).toInt.toNat (65536 - 1) = min (I (ix2 p k)).toInt.toNat (65536 - 1)
  rw [wrap_apply_object I p k (hI p k)]

/-- The minimum over the vertex axis from +∞, read at (b, p, c). -/
theorem lo_apply_object (X : FVec Ideal S256x8x2048x2 .f32) (b : Fin 256) (p : Fin 8) (c : Fin 2) :
    Host.reduce FloatOps.minimumf X (constant S_ FTy.f32 0x7F800000#32) Gen.reducesTo_S256x8x2048x2_S256x8x2_d2 Gen.h_S_ (ix3 b p c)
      = (Finset.univ : Finset (Fin 2048)).fold min (⊤ : EReal) (fun k => X (ix4 b p k c)) := by
  have hR : S256x8x2048x2.Reduces [2] S256x8x2 := by decide
  rw [Host.reduce_eq_fold_single FloatOps.minimumf X _ Gen.reducesTo_S256x8x2048x2_S256x8x2_d2 hR Gen.h_S_ (ix3 b p c)]
  have h0 : constant (F := Ideal) S_ FTy.f32 (0x7F800000#32) (Shape.Idx.first Gen.h_S_) = (⊤ : EReal) := by
    show Ideal.ofBits .f32 0x7F800000#32 = ⊤
    simp [Ideal.ofBits, Ideal.ieee]
  rw [h0]
  exact Finset.fold_congr fun k _ => congrArg X (funext fun a => by fin_cases a <;> rfl)

/-- The maximum over the vertex axis from −∞, read at (b, p, c). -/
theorem hi_apply_object (X : FVec Ideal S256x8x2048x2 .f32) (b : Fin 256) (p : Fin 8) (c : Fin 2) :
    Host.reduce FloatOps.maximumf X (constant S_ FTy.f32 0xFF800000#32) Gen.reducesTo_S256x8x2048x2_S256x8x2_d2 Gen.h_S_ (ix3 b p c)
      = (Finset.univ : Finset (Fin 2048)).fold max (⊥ : EReal) (fun k => X (ix4 b p k c)) := by
  have hR : S256x8x2048x2.Reduces [2] S256x8x2 := by decide
  rw [Host.reduce_eq_fold_single FloatOps.maximumf X _ Gen.reducesTo_S256x8x2048x2_S256x8x2_d2 hR Gen.h_S_ (ix3 b p c)]
  have h0 : constant (F := Ideal) S_ FTy.f32 (0xFF800000#32) (Shape.Idx.first Gen.h_S_) = (⊥ : EReal) := by
    show Ideal.ofBits .f32 0xFF800000#32 = ⊥
    simp [Ideal.ofBits, Ideal.ieee]
  rw [h0]
  exact Finset.fold_congr fun k _ => congrArg X (funext fun a => by fin_cases a <;> rfl)

/-- A mesh's screen array at the vertex the part table names is the part's screen coordinate. -/
theorem meshScreen_vertexOf_object (A : (⟨3, ![256, 65536, 3]⟩ : Shape).Idx → EReal) (Cam : (⟨3, ![256, 3, 3]⟩ : Shape).Idx → EReal)
    (I : IVec (⟨2, ![8, 2048]⟩ : Shape) 32) (b : Fin 256) (p : Fin 8) (k : Fin 2048) (c : Fin 2) :
    meshScreen A Cam (ix3 b (vertexOf pos_object I p k) c) = partScreen pos_object A Cam I b p k c := by
  unfold meshScreen partScreen partVertex
  rfl

/-! ## The object mesh: the windows of operations

Here the screen array is itself written in the third window, before the gather that reads it: the corners are stated
over the array as that window leaves it, which the later windows keep. -/

section WindowsObject
variable (W : Valuation τ sig (Elt Ideal))

theorem keep5_v134 : after ops5 W (Proc.devRef .tc main_v134) = W (Proc.devRef .tc main_v134) := by after_results_simp
theorem keep4_v134 : after ops4 W (Proc.devRef .tc main_v134) = W (Proc.devRef .tc main_v134) := by after_results_simp
theorem keep3_v134 : after ops3 W (Proc.devRef .tc main_v134) = W (Proc.devRef .tc main_v134) := by after_results_simp
theorem keep5_v135 : after ops5 W (Proc.devRef .tc main_v135) = W (Proc.devRef .tc main_v135) := by after_results_simp
theorem keep4_v135 : after ops4 W (Proc.devRef .tc main_v135) = W (Proc.devRef .tc main_v135) := by after_results_simp
theorem keep3_v135 : after ops3 W (Proc.devRef .tc main_v135) = W (Proc.devRef .tc main_v135) := by after_results_simp
theorem keep5_v106 : after ops5 W (Proc.devRef .tc main_v106) = W (Proc.devRef .tc main_v106) := by after_results_simp
theorem keep4_v106 : after ops4 W (Proc.devRef .tc main_v106) = W (Proc.devRef .tc main_v106) := by after_results_simp
theorem keep3_v106 : after ops3 W (Proc.devRef .tc main_v106) = W (Proc.devRef .tc main_v106) := by after_results_simp
theorem keep1_arg4 : after ops1 W (Proc.devRef .tc main_arg4) = W (Proc.devRef .tc main_arg4) := by after_results_simp
theorem keep0_arg4 : after ops0 W (Proc.devRef .tc main_arg4) = W (Proc.devRef .tc main_arg4) := by after_results_simp

/-- The lower corners as the third window computes them from its own screen array and the part table it finds. -/
theorem win_v134 : after ops2 W (Proc.devRef .tc main_v134)
    = Host.reduce (FloatOps.minimumf (F := Ideal) (φ := .f32))
        (Host.gather gather_S256x65536x2_S8x2048x1_S256x8x2048x2_03_1_n_n_1_2_25612 (after ops2 W (Proc.devRef .tc main_v106))
        (broadcastInDim S8x2048x1 ![0, 1] Gen.bcast_S8x2048_S8x2048x1_0_1
          (select (cmpi CmpIPredicate.slt (W (Proc.devRef .tc main_arg4)) (broadcastInDim S8x2048 ![] Gen.bcast_S_S8x2048 (constantI S_ 32 0#32)))
            (addi (W (Proc.devRef .tc main_arg4)) (broadcastInDim S8x2048 ![] Gen.bcast_S_S8x2048 (constantI S_ 32 65536#32)))
            (W (Proc.devRef .tc main_arg4)))))
        (constant S_ FTy.f32 0x7F800000#32) Gen.reducesTo_S256x8x2048x2_S256x8x2_d2 Gen.h_S_ := by
  after_results_simp

/-- The upper corners likewise. -/
theorem win_v135 : after ops2 W (Proc.devRef .tc main_v135)
    = Host.reduce (FloatOps.maximumf (F := Ideal) (φ := .f32))
        (Host.gather gather_S256x65536x2_S8x2048x1_S256x8x2048x2_03_1_n_n_1_2_25612 (after ops2 W (Proc.devRef .tc main_v106))
        (broadcastInDim S8x2048x1 ![0, 1] Gen.bcast_S8x2048_S8x2048x1_0_1
          (select (cmpi CmpIPredicate.slt (W (Proc.devRef .tc main_arg4)) (broadcastInDim S8x2048 ![] Gen.bcast_S_S8x2048 (constantI S_ 32 0#32)))
            (addi (W (Proc.devRef .tc main_arg4)) (broadcastInDim S8x2048 ![] Gen.bcast_S_S8x2048 (constantI S_ 32 65536#32)))
            (W (Proc.devRef .tc main_arg4)))))
        (constant S_ FTy.f32 0xFF800000#32) Gen.reducesTo_S256x8x2048x2_S256x8x2_d2 Gen.h_S_ := by
  after_results_simp

end WindowsObject

/-- The screen array the third window leaves is the finished one. -/
theorem screen_in_object : (after ops2 (after ops1 (after ops0 V)) (Proc.devRef .tc main_v106) : FVec Ideal S256x65536x2 .f32) = meshScreen (a1 V) (a2 V) := by
  rw [← screen_object V]
  show _ = after ops5 (after ops4 (after ops3 (after ops2 (after ops1 (after ops0 V))))) (Proc.devRef .tc main_v106)
  rw [keep5_v106, keep4_v106, keep3_v106]

/-- The part table the third window finds is the one at launch. -/
theorem table_in_object : after ops1 (after ops0 V) (Proc.devRef .tc main_arg4) = i4 V := by
  rw [keep1_arg4, keep0_arg4]

theorem lo_object (hO : InRangeO V) : (fin V (Proc.devRef .tc main_v134) : (⟨3, ![256, 8, 2]⟩ : Shape).Idx → EReal) = boxLo pos_object (a1 V) (a2 V) (i4 V) := by
  show after ops5 (after ops4 (after ops3 (after ops2 (after ops1 (after ops0 V))))) (Proc.devRef .tc main_v134) = _
  rw [keep5_v134, keep4_v134, keep3_v134, win_v134, screen_in_object, table_in_object]
  funext j
  obtain ⟨b, p, c, rfl⟩ : ∃ (b : Fin 256) (p : Fin 8) (c : Fin 2), j = ix3 b p c := ⟨j 0, j 1, j 2, eq_ix3 j⟩
  rw [lo_apply_object]
  show _ = (Finset.univ : Finset (Fin 2048)).fold min ⊤ fun k => partScreen pos_object (a1 V) (a2 V) (i4 V) b p k c
  refine Finset.fold_congr fun k _ => ?_
  rw [gathered_object _ _ (fun p k => (hO p k).1), meshScreen_vertexOf_object]

theorem hi_object (hO : InRangeO V) : (fin V (Proc.devRef .tc main_v135) : (⟨3, ![256, 8, 2]⟩ : Shape).Idx → EReal) = boxHi pos_object (a1 V) (a2 V) (i4 V) := by
  show after ops5 (after ops4 (after ops3 (after ops2 (after ops1 (after ops0 V))))) (Proc.devRef .tc main_v135) = _
  rw [keep5_v135, keep4_v135, keep3_v135, win_v135, screen_in_object, table_in_object]
  funext j
  obtain ⟨b, p, c, rfl⟩ : ∃ (b : Fin 256) (p : Fin 8) (c : Fin 2), j = ix3 b p c := ⟨j 0, j 1, j 2, eq_ix3 j⟩
  rw [hi_apply_object]
  show _ = (Finset.univ : Finset (Fin 2048)).fold max ⊥ fun k => partScreen pos_object (a1 V) (a2 V) (i4 V) b p k c
  refine Finset.fold_congr fun k _ => ?_
  rw [gathered_object _ _ (fun p k => (hO p k).1), meshScreen_vertexOf_object]

end Cert.ReferenceIdeal.Stages

end
-- ==== Proof.RefDepthMeans.lean ====
/-
  The reference's depth ranges and mean vertices of every part, and the coordinate sums of the two meshes.

  Each result buffer is read in three steps. The windows after the one that writes it leave it alone. In the
  window that writes it, it is the composition of that window's operations over the two arguments it starts
  from, a mesh and its part table. That composition is then read index by index: a table entry that is not
  negative is unchanged by the wrap-around (entry + N if entry < 0); an element gather through the pair
  (entry, 2) reads the depth of the vertex the entry names, clamped into the vertex axis; a minimum from +∞
  or a maximum from −∞ over a part's vertices is the fold of min or max over them; a row gather summed over
  a part's vertices from 0 and divided by the count word is the part's mean vertex; and a sum over the whole
  vertex axis from 0 is the mesh's coordinate sum. The index lemmas are stated for any vertex count N and
  part size K, so the person mesh and the object mesh share them.
-/
import proofs.«400270_j61830349193773_3_alg».proof.Proof.RefStagesDefs
import proofs.«400270_j61830349193773_3_alg».proof.Proof.LibGatherRows
import Idealize.ShloMosaic.PureOps.Ideal.Laws
import Idealize.ShloMosaic.Lib.Pipeline.Value

noncomputable section

namespace Cert.ReferenceIdeal.Stages

open Idealize.ShloMosaic Idealize.ShloMosaic.TcCoe Idealize.ShloMosaic.StableHlo Idealize.ShloMosaic.ValueIdx
open Cert.ReferenceIdeal Cert.ReferenceIdeal.Run Cert.Spec Cert.SpecOut

/-! The auxiliary lemmas live in a namespace of their own; the eight stage theorems at the end do not. -/
namespace DepthMeans

/-- Reads each operation's result at a buffer, one operation at a time: at its own result buffer the
    operation's value, at any other buffer what was there before it. -/
local macro "results_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## Reading the operations index by index, for any vertex count N and part size K -/

/-- A sum over the vertex axis from the zero word, read at an index. -/
theorem reduceAdd_mid_apply {N : Nat} (x : (⟨3, ![256, N, 3]⟩ : Shape).Idx → EReal)
    (h' : (⟨3, ![256, N, 3]⟩ : Shape).ReducesTo [1] ⟨2, ![256, 3]⟩)
    (h : (⟨3, ![256, N, 3]⟩ : Shape).Reduces [1] ⟨2, ![256, 3]⟩) (hu : 0 < (⟨0, ![]⟩ : Shape).numel)
    (b : Fin 256) (c : Fin 3) :
    Host.reduceAdd (F := Ideal) (φ := .f32) x (constant ⟨0, ![]⟩ .f32 0x00000000#32) h' hu (ix2 b c)
      = ∑ n : Fin N, x (ix3 b n c) := by
  show Ideal.hostReduceAdd h' x (Ideal.ofBits .f32 0x00000000#32) (ix2 b c) = _
  rw [Ideal.hostReduceAdd_single h' h, Ideal.ofBits_zero_f32, zero_add]
  refine Finset.sum_congr rfl fun n _ => congrArg x ?_
  funext a
  refine Fin.ext ?_
  match a with
  | ⟨0, _⟩ => rfl
  | ⟨1, _⟩ => rfl
  | ⟨2, _⟩ => rfl

section Generic
variable {N K : Nat}

/-- A table entry wrapped around when negative (entry + n if entry < 0) is the entry itself when it is not negative. -/
theorem wrap_of_nonneg (x n : BitVec 32) (h : 0 ≤ x.toInt) :
    Scalar.select (IntOp.cmpi .slt x 0#32) (IntOp.addi x n) x = x := by
  have h0 : x.slt 0#32 = false := by
    simp only [BitVec.slt, BitVec.toInt_zero, decide_eq_false_iff_not, not_lt]
    exact h
  show (if BitVec.ofBool (x.slt 0#32) = 1 then IntOp.addi x n else x) = x
  rw [h0]
  rfl

/-- The wrapped table, as the program spells it, read at an entry. -/
theorem wrapped_apply (I : IVec (⟨2, ![8, K]⟩ : Shape) 32) (n : BitVec 32) (dims0 : Fin 0 → Fin 2)
    (hb0 : (⟨0, ![]⟩ : Shape).BroadcastsInDim ⟨2, ![8, K]⟩ dims0) (p : Fin 8) (k : Fin K)
    (h : 0 ≤ (I (ix2 p k)).toInt) :
    select (cmpi .slt I (broadcastInDim ⟨2, ![8, K]⟩ dims0 hb0 (constantI ⟨0, ![]⟩ 32 0#32)))
        (addi I (broadcastInDim ⟨2, ![8, K]⟩ dims0 hb0 (constantI ⟨0, ![]⟩ 32 n))) I (ix2 p k)
      = I (ix2 p k) :=
  wrap_of_nonneg (I (ix2 p k)) n h

/-- A table given a trailing unit axis, read at an entry. -/
theorem addUnit_apply {α : Type} (a : (⟨2, ![8, K]⟩ : Shape).Idx → α)
    (hb1 : (⟨2, ![8, K]⟩ : Shape).BroadcastsInDim ⟨3, ![8, K, 1]⟩ ![0, 1]) (p : Fin 8) (k : Fin K) (z : Fin 1) :
    broadcastInDim ⟨3, ![8, K, 1]⟩ ![0, 1] hb1 a (ix3 p k z) = a (ix2 p k) := by
  refine broadcastInDim_apply _ hb1 a (ix3 p k z) (ix2 p k) fun c => ?_
  match c with
  | ⟨0, _⟩ => rfl
  | ⟨1, _⟩ =>
    show k.val = if K = 1 then 0 else k.val
    have := k.isLt
    split <;> omega

/-- Two tables paired on a last axis of size two: component 0 reads the first. -/
theorem pair_apply0 {α : Type} (a c : (⟨2, ![8, K]⟩ : Shape).Idx → α)
    (hb1 : (⟨2, ![8, K]⟩ : Shape).BroadcastsInDim ⟨3, ![8, K, 1]⟩ ![0, 1])
    (hcat : Shape.Concatenates [(⟨3, ![8, K, 1]⟩ : Shape), ⟨3, ![8, K, 1]⟩] ⟨3, ![8, K, 2]⟩ 2) (p : Fin 8) (k : Fin K) :
    concatenate ⟨3, ![8, K, 2]⟩ 2 [⟨⟨3, ![8, K, 1]⟩, broadcastInDim ⟨3, ![8, K, 1]⟩ ![0, 1] hb1 a⟩,
        ⟨⟨3, ![8, K, 1]⟩, broadcastInDim ⟨3, ![8, K, 1]⟩ ![0, 1] hb1 c⟩] hcat (ix3 p k 0) = a (ix2 p k) := by
  refine (concatenate_pair_apply_left (t := ⟨3, ![8, K, 2]⟩) (s₁ := ⟨3, ![8, K, 1]⟩) (s₂ := ⟨3, ![8, K, 1]⟩)
    (2 : Fin 3) _ _ hcat (ix3 p k (0 : Fin 2)) rfl (ix3 p k (0 : Fin 1)) (fun e => by
    match e with
    | ⟨0, _⟩ => rfl
    | ⟨1, _⟩ => rfl
    | ⟨2, _⟩ => rfl)).trans ?_
  exact addUnit_apply a hb1 p k 0

/-- Two tables paired on a last axis of size two: component 1 reads the second. -/
theorem pair_apply1 {α : Type} (a c : (⟨2, ![8, K]⟩ : Shape).Idx → α)
    (hb1 : (⟨2, ![8, K]⟩ : Shape).BroadcastsInDim ⟨3, ![8, K, 1]⟩ ![0, 1])
    (hcat : Shape.Concatenates [(⟨3, ![8, K, 1]⟩ : Shape), ⟨3, ![8, K, 1]⟩] ⟨3, ![8, K, 2]⟩ 2) (p : Fin 8) (k : Fin K) :
    concatenate ⟨3, ![8, K, 2]⟩ 2 [⟨⟨3, ![8, K, 1]⟩, broadcastInDim ⟨3, ![8, K, 1]⟩ ![0, 1] hb1 a⟩,
        ⟨⟨3, ![8, K, 1]⟩, broadcastInDim ⟨3, ![8, K, 1]⟩ ![0, 1] hb1 c⟩] hcat (ix3 p k 1) = c (ix2 p k) := by
  refine (concatenate_pair_apply_right (t := ⟨3, ![8, K, 2]⟩) (s₁ := ⟨3, ![8, K, 1]⟩) (s₂ := ⟨3, ![8, K, 1]⟩)
    (2 : Fin 3) _ _ hcat (ix3 p k (1 : Fin 2)) rfl rfl (ix3 p k (0 : Fin 1)) (fun e he => by
    match e, he with
    | ⟨0, _⟩, _ => rfl
    | ⟨1, _⟩, _ => rfl
    | ⟨2, _⟩, he => exact absurd rfl he) rfl).trans ?_
  exact addUnit_apply c hb1 p k 0

end Generic

section Generic2
variable {N K : Nat}

/-- The element gather through the paired table (wrapped entry, constant 2) reads the depth of the part's vertex. -/
theorem elems_apply (hN : 0 < N) (A : (⟨3, ![256, N, 3]⟩ : Shape).Idx → EReal) (I : IVec (⟨2, ![8, K]⟩ : Shape) 32)
    (hI : ∀ (p : Fin 8) (k : Fin K), 0 ≤ (I (ix2 p k)).toInt) (n : BitVec 32)
    (d : GatherDims ⟨3, ![256, N, 3]⟩ ⟨3, ![8, K, 2]⟩ ⟨3, ![256, 8, K]⟩)
    (hod : d.offsetDims = [0]) (hcd : d.collapsedSliceDims = [1, 2]) (hob : d.operandBatchingDims = [])
    (hsb : d.startIndicesBatchingDims = []) (hsm : d.startIndexMap = [1, 2]) (hiv : d.indexVectorDim = 2)
    (dims0 : Fin 0 → Fin 2) (hb0 : (⟨0, ![]⟩ : Shape).BroadcastsInDim ⟨2, ![8, K]⟩ dims0)
    (hb1 : (⟨2, ![8, K]⟩ : Shape).BroadcastsInDim ⟨3, ![8, K, 1]⟩ ![0, 1])
    (hcat : Shape.Concatenates [(⟨3, ![8, K, 1]⟩ : Shape), ⟨3, ![8, K, 1]⟩] ⟨3, ![8, K, 2]⟩ 2)
    (b : Fin 256) (p : Fin 8) (k : Fin K) :
    Host.gather d A (concatenate ⟨3, ![8, K, 2]⟩ 2
        [⟨⟨3, ![8, K, 1]⟩, broadcastInDim ⟨3, ![8, K, 1]⟩ ![0, 1] hb1
            (select (cmpi .slt I (broadcastInDim ⟨2, ![8, K]⟩ dims0 hb0 (constantI ⟨0, ![]⟩ 32 0#32)))
              (addi I (broadcastInDim ⟨2, ![8, K]⟩ dims0 hb0 (constantI ⟨0, ![]⟩ 32 n))) I)⟩,
         ⟨⟨3, ![8, K, 1]⟩, broadcastInDim ⟨3, ![8, K, 1]⟩ ![0, 1] hb1
            (id (broadcastInDim ⟨2, ![8, K]⟩ dims0 hb0 (constantI ⟨0, ![]⟩ 32 2#32)))⟩] hcat) (ix3 b p k)
      = partVertex hN A I b p k 2 := by
  refine (Cert.LibGatherRows.gather_elems_apply hN (by decide : 0 < 3) d hod hcd hob hsb hsm hiv A _ b p k).trans ?_
  unfold partVertex vertexOf
  refine congrArg A ?_
  funext a
  refine Fin.ext ?_
  match a with
  | ⟨0, _⟩ => rfl
  | ⟨1, _⟩ =>
    show min _ (N - 1) = min _ (N - 1)
    rw [pair_apply0, wrapped_apply I n dims0 hb0 p k (hI p k)]
  | ⟨2, _⟩ =>
    show min _ (3 - 1) = 2
    rw [pair_apply1]
    show min (2#32 : BitVec 32).toInt.toNat (3 - 1) = 2
    decide

/-- The inserted index of a reduction over the last axis of a rank-3 array. -/
theorem lift_last3 {n0 n1 n2 : Nat} (h : (⟨3, ![n0, n1, n2]⟩ : Shape).Reduces [2] ⟨2, ![n0, n1]⟩) (b : Fin n0) (p : Fin n1)
    (k : Fin n2) : h.lift (ix2 b p) k = ix3 b p k := by
  funext a
  refine Fin.ext ?_
  match a with
  | ⟨0, _⟩ => rfl
  | ⟨1, _⟩ => rfl
  | ⟨2, _⟩ => rfl

theorem ofBits_pinf : Ideal.ofBits .f32 0x7F800000#32 = ⊤ := by simp [Ideal.ofBits, Ideal.ieee]
theorem ofBits_ninf : Ideal.ofBits .f32 0xFF800000#32 = ⊥ := by simp [Ideal.ofBits, Ideal.ieee]

/-- The least depth: a minimum over the last axis from +∞ of an array that holds the part vertices' depths. -/
theorem depthMin_of_reduce (hN : 0 < N) (A : (⟨3, ![256, N, 3]⟩ : Shape).Idx → EReal) (I : IVec (⟨2, ![8, K]⟩ : Shape) 32)
    (G : (⟨3, ![256, 8, K]⟩ : Shape).Idx → EReal) (hG : ∀ b p k, G (ix3 b p k) = partVertex hN A I b p k 2)
    (h' : (⟨3, ![256, 8, K]⟩ : Shape).ReducesTo [2] ⟨2, ![256, 8]⟩) (h : (⟨3, ![256, 8, K]⟩ : Shape).Reduces [2] ⟨2, ![256, 8]⟩)
    (hu : 0 < (⟨0, ![]⟩ : Shape).numel) :
    Host.reduce (FloatOps.minimumf (F := Ideal) (φ := .f32)) G (constant (F := Ideal) ⟨0, ![]⟩ .f32 0x7F800000#32) h' hu
      = depthMin hN A I := by
  funext j
  obtain ⟨b, p, rfl⟩ : ∃ b p, j = ix2 b p := ⟨j 0, j 1, eq_ix2 j⟩
  rw [Host.reduce_eq_fold_single _ G _ h' h hu]
  show (Finset.univ : Finset (Fin K)).fold min (Ideal.ofBits .f32 0x7F800000#32) (G ∘ h.lift (ix2 b p))
    = (Finset.univ : Finset (Fin K)).fold min ⊤ fun k => partVertex hN A I b p k 2
  rw [ofBits_pinf]
  exact Finset.fold_congr fun k _ => (congrArg G (lift_last3 h b p k)).trans (hG b p k)

/-- The greatest depth: a maximum over the last axis from −∞. -/
theorem depthMax_of_reduce (hN : 0 < N) (A : (⟨3, ![256, N, 3]⟩ : Shape).Idx → EReal) (I : IVec (⟨2, ![8, K]⟩ : Shape) 32)
    (G : (⟨3, ![256, 8, K]⟩ : Shape).Idx → EReal) (hG : ∀ b p k, G (ix3 b p k) = partVertex hN A I b p k 2)
    (h' : (⟨3, ![256, 8, K]⟩ : Shape).ReducesTo [2] ⟨2, ![256, 8]⟩) (h : (⟨3, ![256, 8, K]⟩ : Shape).Reduces [2] ⟨2, ![256, 8]⟩)
    (hu : 0 < (⟨0, ![]⟩ : Shape).numel) :
    Host.reduce (FloatOps.maximumf (F := Ideal) (φ := .f32)) G (constant (F := Ideal) ⟨0, ![]⟩ .f32 0xFF800000#32) h' hu
      = depthMax hN A I := by
  funext j
  obtain ⟨b, p, rfl⟩ : ∃ b p, j = ix2 b p := ⟨j 0, j 1, eq_ix2 j⟩
  rw [Host.reduce_eq_fold_single _ G _ h' h hu]
  show (Finset.univ : Finset (Fin K)).fold max (Ideal.ofBits .f32 0xFF800000#32) (G ∘ h.lift (ix2 b p))
    = (Finset.univ : Finset (Fin K)).fold max ⊥ fun k => partVertex hN A I b p k 2
  rw [ofBits_ninf]
  exact Finset.fold_congr fun k _ => (congrArg G (lift_last3 h b p k)).trans (hG b p k)

/-- The mean vertex: rows gathered through the wrapped table, summed over the part's vertices from 0, over the count word. -/
theorem partMean_of_ops (hN : 0 < N) (A : (⟨3, ![256, N, 3]⟩ : Shape).Idx → EReal) (I : IVec (⟨2, ![8, K]⟩ : Shape) 32)
    (hI : ∀ (p : Fin 8) (k : Fin K), 0 ≤ (I (ix2 p k)).toInt) (n w : BitVec 32)
    (d : GatherDims ⟨3, ![256, N, 3]⟩ ⟨3, ![8, K, 1]⟩ ⟨4, ![256, 8, K, 3]⟩)
    (hod : d.offsetDims = [0, 3]) (hcd : d.collapsedSliceDims = [1]) (hob : d.operandBatchingDims = [])
    (hsb : d.startIndicesBatchingDims = []) (hsm : d.startIndexMap = [1]) (hiv : d.indexVectorDim = 2)
    (dims0 : Fin 0 → Fin 2) (hb0 : (⟨0, ![]⟩ : Shape).BroadcastsInDim ⟨2, ![8, K]⟩ dims0)
    (hb1 : (⟨2, ![8, K]⟩ : Shape).BroadcastsInDim ⟨3, ![8, K, 1]⟩ ![0, 1])
    (dims3 : Fin 0 → Fin 3) (hb3 : (⟨0, ![]⟩ : Shape).BroadcastsInDim ⟨3, ![256, 8, 3]⟩ dims3)
    (h' : (⟨4, ![256, 8, K, 3]⟩ : Shape).ReducesTo [2] ⟨3, ![256, 8, 3]⟩)
    (h : (⟨4, ![256, 8, K, 3]⟩ : Shape).Reduces [2] ⟨3, ![256, 8, 3]⟩) (hu : 0 < (⟨0, ![]⟩ : Shape).numel) :
    Host.divf (F := Ideal) (φ := .f32)
        (Host.reduceAdd (F := Ideal) (φ := .f32)
          (Host.gather d A (broadcastInDim ⟨3, ![8, K, 1]⟩ ![0, 1] hb1
            (select (cmpi .slt I (broadcastInDim ⟨2, ![8, K]⟩ dims0 hb0 (constantI ⟨0, ![]⟩ 32 0#32)))
              (addi I (broadcastInDim ⟨2, ![8, K]⟩ dims0 hb0 (constantI ⟨0, ![]⟩ 32 n))) I)))
          (constant ⟨0, ![]⟩ .f32 0x00000000#32) h' hu)
        (broadcastInDim ⟨3, ![256, 8, 3]⟩ dims3 hb3 (constant ⟨0, ![]⟩ .f32 w))
      = partMean hN A I w := by
  funext j
  obtain ⟨b, p, c, rfl⟩ : ∃ b p c, j = ix3 b p c := ⟨j 0, j 1, j 2, eq_ix3 j⟩
  show Ideal.div (Ideal.hostReduceAdd h' _ (Ideal.ofBits .f32 0x00000000#32) (ix3 b p c)) (Ideal.ofBits .f32 w)
    = Ideal.div (∑ k : Fin K, partVertex hN A I b p k c) (Ideal.ofBits .f32 w)
  rw [Ideal.hostReduceAdd_single h' h, Ideal.ofBits_zero_f32, zero_add]
  congr 1
  refine Finset.sum_congr rfl fun (k : Fin K) _ => ?_
  have hl : h.lift (ix3 b p c) k = ix4 b p k c := by
    funext a
    refine Fin.ext ?_
    match a with
    | ⟨0, _⟩ => rfl
    | ⟨1, _⟩ => rfl
    | ⟨2, _⟩ => rfl
    | ⟨3, _⟩ => rfl
  rw [hl]
  refine (Cert.LibGatherRows.gather_rows_apply hN d hod hcd hob hsb hsm hiv A _ b p k c).trans ?_
  unfold partVertex vertexOf
  refine congrArg A ?_
  funext a
  refine Fin.ext ?_
  match a with
  | ⟨0, _⟩ => rfl
  | ⟨1, _⟩ =>
    show min _ (N - 1) = min _ (N - 1)
    rw [addUnit_apply, wrapped_apply I n dims0 hb0 p k (hI p k)]
  | ⟨2, _⟩ => rfl

end Generic2

/-! ## The windows: which operations write a buffer, and what they write -/

section Windows
variable (W : Valuation τ sig (Elt Ideal))

/-! No window before the gathers and the means writes an argument. -/
theorem keep0_arg0 : after ops0 W (Proc.devRef .tc main_arg0) = W (Proc.devRef .tc main_arg0) := by after_results_simp
theorem keep1_arg0 : after ops1 W (Proc.devRef .tc main_arg0) = W (Proc.devRef .tc main_arg0) := by after_results_simp
theorem keep2_arg0 : after ops2 W (Proc.devRef .tc main_arg0) = W (Proc.devRef .tc main_arg0) := by after_results_simp
theorem keep3_arg0 : after ops3 W (Proc.devRef .tc main_arg0) = W (Proc.devRef .tc main_arg0) := by after_results_simp
theorem keep0_arg1 : after ops0 W (Proc.devRef .tc main_arg1) = W (Proc.devRef .tc main_arg1) := by after_results_simp
theorem keep1_arg1 : after ops1 W (Proc.devRef .tc main_arg1) = W (Proc.devRef .tc main_arg1) := by after_results_simp
theorem keep2_arg1 : after ops2 W (Proc.devRef .tc main_arg1) = W (Proc.devRef .tc main_arg1) := by after_results_simp
theorem keep3_arg1 : after ops3 W (Proc.devRef .tc main_arg1) = W (Proc.devRef .tc main_arg1) := by after_results_simp
theorem keep0_arg3 : after ops0 W (Proc.devRef .tc main_arg3) = W (Proc.devRef .tc main_arg3) := by after_results_simp
theorem keep1_arg3 : after ops1 W (Proc.devRef .tc main_arg3) = W (Proc.devRef .tc main_arg3) := by after_results_simp
theorem keep2_arg3 : after ops2 W (Proc.devRef .tc main_arg3) = W (Proc.devRef .tc main_arg3) := by after_results_simp
theorem keep3_arg3 : after ops3 W (Proc.devRef .tc main_arg3) = W (Proc.devRef .tc main_arg3) := by after_results_simp
theorem keep0_arg4 : after ops0 W (Proc.devRef .tc main_arg4) = W (Proc.devRef .tc main_arg4) := by after_results_simp
theorem keep1_arg4 : after ops1 W (Proc.devRef .tc main_arg4) = W (Proc.devRef .tc main_arg4) := by after_results_simp
theorem keep2_arg4 : after ops2 W (Proc.devRef .tc main_arg4) = W (Proc.devRef .tc main_arg4) := by after_results_simp
theorem keep3_arg4 : after ops3 W (Proc.devRef .tc main_arg4) = W (Proc.devRef .tc main_arg4) := by after_results_simp

/-! The windows after the one that writes a result leave it alone. -/
theorem keep1_v0 : after ops1 W (Proc.devRef .tc main_v0) = W (Proc.devRef .tc main_v0) := by after_results_simp
theorem keep2_v0 : after ops2 W (Proc.devRef .tc main_v0) = W (Proc.devRef .tc main_v0) := by after_results_simp
theorem keep3_v0 : after ops3 W (Proc.devRef .tc main_v0) = W (Proc.devRef .tc main_v0) := by after_results_simp
theorem keep4_v0 : after ops4 W (Proc.devRef .tc main_v0) = W (Proc.devRef .tc main_v0) := by after_results_simp
theorem keep5_v0 : after ops5 W (Proc.devRef .tc main_v0) = W (Proc.devRef .tc main_v0) := by after_results_simp
theorem keep1_v3 : after ops1 W (Proc.devRef .tc main_v3) = W (Proc.devRef .tc main_v3) := by after_results_simp
theorem keep2_v3 : after ops2 W (Proc.devRef .tc main_v3) = W (Proc.devRef .tc main_v3) := by after_results_simp
theorem keep3_v3 : after ops3 W (Proc.devRef .tc main_v3) = W (Proc.devRef .tc main_v3) := by after_results_simp
theorem keep4_v3 : after ops4 W (Proc.devRef .tc main_v3) = W (Proc.devRef .tc main_v3) := by after_results_simp
theorem keep5_v3 : after ops5 W (Proc.devRef .tc main_v3) = W (Proc.devRef .tc main_v3) := by after_results_simp
theorem keep4_v193 : after ops4 W (Proc.devRef .tc main_v193) = W (Proc.devRef .tc main_v193) := by after_results_simp
theorem keep5_v193 : after ops5 W (Proc.devRef .tc main_v193) = W (Proc.devRef .tc main_v193) := by after_results_simp
theorem keep5_v195 : after ops5 W (Proc.devRef .tc main_v195) = W (Proc.devRef .tc main_v195) := by after_results_simp
theorem keep5_v197 : after ops5 W (Proc.devRef .tc main_v197) = W (Proc.devRef .tc main_v197) := by after_results_simp
theorem keep5_v199 : after ops5 W (Proc.devRef .tc main_v199) = W (Proc.devRef .tc main_v199) := by after_results_simp
theorem keep5_v232 : after ops5 W (Proc.devRef .tc main_v232) = W (Proc.devRef .tc main_v232) := by after_results_simp
theorem keep5_v242 : after ops5 W (Proc.devRef .tc main_v242) = W (Proc.devRef .tc main_v242) := by after_results_simp

/-- The person mesh's coordinate sums: a sum over the vertex axis from the zero word. -/
theorem w0_v0 : @Eq ((⟨2, ![256, 3]⟩ : Shape).Idx → EReal) (after ops0 W (Proc.devRef .tc main_v0))
    (Host.reduceAdd (F := Ideal) (φ := .f32) (s := ⟨3, ![256, 10475, 3]⟩) (a0 W)
      (constant S_ .f32 0x00000000#32) Gen.reducesTo_S256x10475x3_S256x3_d1 Gen.h_S_) := by
  after_results_simp

/-- The object mesh's coordinate sums: a sum over the vertex axis from the zero word. -/
theorem w0_v3 : @Eq ((⟨2, ![256, 3]⟩ : Shape).Idx → EReal) (after ops0 W (Proc.devRef .tc main_v3))
    (Host.reduceAdd (F := Ideal) (φ := .f32) (s := ⟨3, ![256, 65536, 3]⟩) (a1 W)
      (constant S_ .f32 0x00000000#32) Gen.reducesTo_S256x65536x3_S256x3_d1 Gen.h_S_) := by
  after_results_simp

set_option maxHeartbeats 4000000 in
/-- The person mesh's element gather: the mesh at the table entries (wrapped when negative) paired with the constant 2. -/
theorem w3_v181 : @Eq (S256x8x1024.Idx → EReal) (after ops3 W (Proc.devRef .tc main_v181))
    (Host.gather (α := EReal) gather_S256x10475x3_S8x1024x2_S256x8x1024_0_12_n_n_12_2_25611 (a0 W)
      (concatenate S8x1024x2 2
        [⟨S8x1024x1, broadcastInDim S8x1024x1 ![0, 1] Gen.bcast_S8x1024_S8x1024x1_0_1
          (select (cmpi .slt (i3 W) (broadcastInDim S8x1024 ![] Gen.bcast_S_S8x1024 (constantI S_ 32 0#32)))
            (addi (i3 W) (broadcastInDim S8x1024 ![] Gen.bcast_S_S8x1024 (constantI S_ 32 10475#32))) (i3 W))⟩,
         ⟨S8x1024x1, broadcastInDim S8x1024x1 ![0, 1] Gen.bcast_S8x1024_S8x1024x1_0_1
          (id (broadcastInDim S8x1024 ![] Gen.bcast_S_S8x1024 (constantI S_ 32 2#32)))⟩]
        Gen.concatenates_S8x1024x1_S8x1024x1_S8x1024x2_d2)) := by
  after_results_simp
  results_rw

set_option maxHeartbeats 4000000 in
/-- The object mesh's element gather: the mesh at the table entries (wrapped when negative) paired with the constant 2. -/
theorem w3_v192 : @Eq (S256x8x2048.Idx → EReal) (after ops3 W (Proc.devRef .tc main_v192))
    (Host.gather (α := EReal) gather_S256x65536x3_S8x2048x2_S256x8x2048_0_12_n_n_12_2_25611 (a1 W)
      (concatenate S8x2048x2 2
        [⟨S8x2048x1, broadcastInDim S8x2048x1 ![0, 1] Gen.bcast_S8x2048_S8x2048x1_0_1
          (select (cmpi .slt (i4 W) (broadcastInDim S8x2048 ![] Gen.bcast_S_S8x2048 (constantI S_ 32 0#32)))
            (addi (i4 W) (broadcastInDim S8x2048 ![] Gen.bcast_S_S8x2048 (constantI S_ 32 65536#32))) (i4 W))⟩,
         ⟨S8x2048x1, broadcastInDim S8x2048x1 ![0, 1] Gen.bcast_S8x2048_S8x2048x1_0_1
          (id (broadcastInDim S8x2048 ![] Gen.bcast_S_S8x2048 (constantI S_ 32 2#32)))⟩]
        Gen.concatenates_S8x2048x1_S8x2048x1_S8x2048x2_d2)) := by
  after_results_simp
  results_rw

/-- The person mesh's least depths: the minimum over a part's vertices, from +∞, of the gathered depths. -/
theorem w3_v193 : @Eq (S256x8.Idx → EReal) (after ops3 W (Proc.devRef .tc main_v193))
    (Host.reduce (s := S256x8x1024) (α := EReal) (FloatOps.minimumf (F := Ideal) (φ := .f32))
      (after ops3 W (Proc.devRef .tc main_v181)) (constant (F := Ideal) S_ .f32 0x7F800000#32)
      Gen.reducesTo_S256x8x1024_S256x8_d2 Gen.h_S_) := by
  after_results_simp

/-- The −∞ word the person mesh's greatest depths start from is written at the end of the gathers' window. -/
theorem w3_cst42 : @Eq (S_.Idx → EReal) (after ops3 W (Proc.devRef .tc main_cst_42))
    (constant (F := Ideal) S_ .f32 0xFF800000#32) := by
  after_results_simp

/-- The person mesh's greatest depths. -/
theorem w4_v195 : @Eq (S256x8.Idx → EReal) (after ops4 W (Proc.devRef .tc main_v195))
    (Host.reduce (s := S256x8x1024) (u := S_) (α := EReal) (FloatOps.maximumf (F := Ideal) (φ := .f32))
      (W (Proc.devRef .tc main_v181)) (W (Proc.devRef .tc main_cst_42))
      Gen.reducesTo_S256x8x1024_S256x8_d2 Gen.h_S_) := by
  after_results_simp

/-- The object mesh's least depths. -/
theorem w4_v197 : @Eq (S256x8.Idx → EReal) (after ops4 W (Proc.devRef .tc main_v197))
    (Host.reduce (s := S256x8x2048) (α := EReal) (FloatOps.minimumf (F := Ideal) (φ := .f32))
      (W (Proc.devRef .tc main_v192)) (constant (F := Ideal) S_ .f32 0x7F800000#32)
      Gen.reducesTo_S256x8x2048_S256x8_d2 Gen.h_S_) := by
  after_results_simp

/-- The object mesh's greatest depths. -/
theorem w4_v199 : @Eq (S256x8.Idx → EReal) (after ops4 W (Proc.devRef .tc main_v199))
    (Host.reduce (s := S256x8x2048) (α := EReal) (FloatOps.maximumf (F := Ideal) (φ := .f32))
      (W (Proc.devRef .tc main_v192)) (constant (F := Ideal) S_ .f32 0xFF800000#32)
      Gen.reducesTo_S256x8x2048_S256x8_d2 Gen.h_S_) := by
  after_results_simp

/-- The person mesh's part means: gathered rows summed over a part's vertices from 0, over the count word. -/
theorem w4_v232 : @Eq (S256x8x3.Idx → EReal) (after ops4 W (Proc.devRef .tc main_v232))
    (Host.divf (F := Ideal) (φ := .f32)
      (Host.reduceAdd (F := Ideal) (φ := .f32) (s := S256x8x1024x3)
        (Host.gather (α := EReal) gather_S256x10475x3_S8x1024x1_S256x8x1024x3_03_1_n_n_1_2_25613 (a0 W)
          (broadcastInDim S8x1024x1 ![0, 1] Gen.bcast_S8x1024_S8x1024x1_0_1
            (select (cmpi .slt (i3 W) (broadcastInDim S8x1024 ![] Gen.bcast_S_S8x1024 (constantI S_ 32 0#32)))
            (addi (i3 W) (broadcastInDim S8x1024 ![] Gen.bcast_S_S8x1024 (constantI S_ 32 10475#32))) (i3 W))))
        (constant S_ .f32 0x00000000#32) Gen.reducesTo_S256x8x1024x3_S256x8x3_d2 Gen.h_S_)
      (broadcastInDim S256x8x3 ![] Gen.bcast_S_S256x8x3 (constant S_ .f32 0x44800000#32))) := by
  after_results_simp

/-- The object mesh's part means: gathered rows summed over a part's vertices from 0, over the count word. -/
theorem w4_v242 : @Eq (S256x8x3.Idx → EReal) (after ops4 W (Proc.devRef .tc main_v242))
    (Host.divf (F := Ideal) (φ := .f32)
      (Host.reduceAdd (F := Ideal) (φ := .f32) (s := S256x8x2048x3)
        (Host.gather (α := EReal) gather_S256x65536x3_S8x2048x1_S256x8x2048x3_03_1_n_n_1_2_25613 (a1 W)
          (broadcastInDim S8x2048x1 ![0, 1] Gen.bcast_S8x2048_S8x2048x1_0_1
            (select (cmpi .slt (i4 W) (broadcastInDim S8x2048 ![] Gen.bcast_S_S8x2048 (constantI S_ 32 0#32)))
            (addi (i4 W) (broadcastInDim S8x2048 ![] Gen.bcast_S_S8x2048 (constantI S_ 32 65536#32))) (i4 W))))
        (constant S_ .f32 0x00000000#32) Gen.reducesTo_S256x8x2048x3_S256x8x3_d2 Gen.h_S_)
      (broadcastInDim S256x8x3 ![] Gen.bcast_S_S256x8x3 (constant S_ .f32 0x45000000#32))) := by
  after_results_simp

end Windows

/-! ## The stages -/

/-- What the person mesh's element gather holds, entry by entry: the depth of the part's vertex. -/
theorem v181_apply (W : Valuation τ sig (Elt Ideal)) (hI : ∀ (p : Fin 8) (k : Fin 1024), 0 ≤ (i3 W (ix2 p k)).toInt)
    (b : Fin 256) (p : Fin 8) (k : Fin 1024) :
    (after ops3 W (Proc.devRef .tc main_v181) : (⟨3, ![256, 8, 1024]⟩ : Shape).Idx → EReal) (ix3 b p k)
      = partVertex pos_smpl (a0 W) (i3 W) b p k 2 := by
  rw [w3_v181]
  exact elems_apply pos_smpl (a0 W) (i3 W) hI 10475#32 _ rfl rfl rfl rfl rfl rfl _ _ _ _ b p k

/-- The windows before the gathers leave the person mesh and its part table as launched. -/
theorem pre_a0 (V : Valuation τ sig (Elt Ideal)) : a0 (after ops2 (after ops1 (after ops0 V))) = a0 V :=
  (keep2_arg0 _).trans ((keep1_arg0 _).trans (keep0_arg0 _))
theorem pre_i3 (V : Valuation τ sig (Elt Ideal)) : i3 (after ops2 (after ops1 (after ops0 V))) = i3 V :=
  (keep2_arg3 _).trans ((keep1_arg3 _).trans (keep0_arg3 _))

/-- What the object mesh's element gather holds, entry by entry: the depth of the part's vertex. -/
theorem v192_apply (W : Valuation τ sig (Elt Ideal)) (hI : ∀ (p : Fin 8) (k : Fin 2048), 0 ≤ (i4 W (ix2 p k)).toInt)
    (b : Fin 256) (p : Fin 8) (k : Fin 2048) :
    (after ops3 W (Proc.devRef .tc main_v192) : (⟨3, ![256, 8, 2048]⟩ : Shape).Idx → EReal) (ix3 b p k)
      = partVertex pos_object (a1 W) (i4 W) b p k 2 := by
  rw [w3_v192]
  exact elems_apply pos_object (a1 W) (i4 W) hI 65536#32 _ rfl rfl rfl rfl rfl rfl _ _ _ _ b p k

/-- The windows before the gathers leave the object mesh and its part table as launched. -/
theorem pre_a1 (V : Valuation τ sig (Elt Ideal)) : a1 (after ops2 (after ops1 (after ops0 V))) = a1 V :=
  (keep2_arg1 _).trans ((keep1_arg1 _).trans (keep0_arg1 _))
theorem pre_i4 (V : Valuation τ sig (Elt Ideal)) : i4 (after ops2 (after ops1 (after ops0 V))) = i4 V :=
  (keep2_arg4 _).trans ((keep1_arg4 _).trans (keep0_arg4 _))

end DepthMeans

open DepthMeans

variable (V : Valuation τ sig (Elt Ideal))

theorem zmin_smpl (hS : InRangeS V) : (fin V (Proc.devRef .tc main_v193) : (⟨2, ![256, 8]⟩ : Shape).Idx → EReal) = depthMin pos_smpl (a0 V) (i3 V) := by
  show after ops5 (after ops4 (after ops3 (after ops2 (after ops1 (after ops0 V))))) (Proc.devRef .tc main_v193) = _
  rw [keep5_v193, keep4_v193, w3_v193]
  have hI : ∀ (p : Fin 8) (k : Fin 1024), 0 ≤ (i3 (after ops2 (after ops1 (after ops0 V))) (ix2 p k)).toInt := by
    rw [pre_i3]; exact fun p k => (hS p k).1
  rw [depthMin_of_reduce pos_smpl _ _ _ (v181_apply _ hI) _ (by decide) _, pre_a0, pre_i3]
theorem zmax_smpl (hS : InRangeS V) : (fin V (Proc.devRef .tc main_v195) : (⟨2, ![256, 8]⟩ : Shape).Idx → EReal) = depthMax pos_smpl (a0 V) (i3 V) := by
  show after ops5 (after ops4 (after ops3 (after ops2 (after ops1 (after ops0 V))))) (Proc.devRef .tc main_v195) = _
  rw [keep5_v195, w4_v195, w3_cst42]
  have hI : ∀ (p : Fin 8) (k : Fin 1024), 0 ≤ (i3 (after ops2 (after ops1 (after ops0 V))) (ix2 p k)).toInt := by
    rw [pre_i3]; exact fun p k => (hS p k).1
  rw [depthMax_of_reduce pos_smpl _ _ _ (v181_apply _ hI) _ (by decide) _, pre_a0, pre_i3]
theorem zmin_object (hO : InRangeO V) : (fin V (Proc.devRef .tc main_v197) : (⟨2, ![256, 8]⟩ : Shape).Idx → EReal) = depthMin pos_object (a1 V) (i4 V) := by
  show after ops5 (after ops4 (after ops3 (after ops2 (after ops1 (after ops0 V))))) (Proc.devRef .tc main_v197) = _
  rw [keep5_v197, w4_v197]
  have hI : ∀ (p : Fin 8) (k : Fin 2048), 0 ≤ (i4 (after ops2 (after ops1 (after ops0 V))) (ix2 p k)).toInt := by
    rw [pre_i4]; exact fun p k => (hO p k).1
  rw [depthMin_of_reduce pos_object _ _ _ (v192_apply _ hI) _ (by decide) _, pre_a1, pre_i4]
theorem zmax_object (hO : InRangeO V) : (fin V (Proc.devRef .tc main_v199) : (⟨2, ![256, 8]⟩ : Shape).Idx → EReal) = depthMax pos_object (a1 V) (i4 V) := by
  show after ops5 (after ops4 (after ops3 (after ops2 (after ops1 (after ops0 V))))) (Proc.devRef .tc main_v199) = _
  rw [keep5_v199, w4_v199]
  have hI : ∀ (p : Fin 8) (k : Fin 2048), 0 ≤ (i4 (after ops2 (after ops1 (after ops0 V))) (ix2 p k)).toInt := by
    rw [pre_i4]; exact fun p k => (hO p k).1
  rw [depthMax_of_reduce pos_object _ _ _ (v192_apply _ hI) _ (by decide) _, pre_a1, pre_i4]
theorem mean_smpl (hS : InRangeS V) : (fin V (Proc.devRef .tc main_v232) : (⟨3, ![256, 8, 3]⟩ : Shape).Idx → EReal) = partMean pos_smpl (a0 V) (i3 V) 0x44800000#32 := by
  show after ops5 (after ops4 (after ops3 (after ops2 (after ops1 (after ops0 V))))) (Proc.devRef .tc main_v232) = _
  rw [keep5_v232, w4_v232]
  have ha : a0 (after ops3 (after ops2 (after ops1 (after ops0 V)))) = a0 V := (keep3_arg0 _).trans (pre_a0 V)
  have hi : i3 (after ops3 (after ops2 (after ops1 (after ops0 V)))) = i3 V := (keep3_arg3 _).trans (pre_i3 V)
  rw [ha, hi]
  exact partMean_of_ops pos_smpl (a0 V) (i3 V) (fun p k => (hS p k).1) 10475#32 0x44800000#32 _ rfl rfl rfl rfl rfl rfl
    _ _ _ _ _ _ (by decide) _
theorem mean_object (hO : InRangeO V) : (fin V (Proc.devRef .tc main_v242) : (⟨3, ![256, 8, 3]⟩ : Shape).Idx → EReal) = partMean pos_object (a1 V) (i4 V) 0x45000000#32 := by
  show after ops5 (after ops4 (after ops3 (after ops2 (after ops1 (after ops0 V))))) (Proc.devRef .tc main_v242) = _
  rw [keep5_v242, w4_v242]
  have ha : a1 (after ops3 (after ops2 (after ops1 (after ops0 V)))) = a1 V := (keep3_arg1 _).trans (pre_a1 V)
  have hi : i4 (after ops3 (after ops2 (after ops1 (after ops0 V)))) = i4 V := (keep3_arg4 _).trans (pre_i4 V)
  rw [ha, hi]
  exact partMean_of_ops pos_object (a1 V) (i4 V) (fun p k => (hO p k).1) 65536#32 0x45000000#32 _ rfl rfl rfl rfl rfl rfl
    _ _ _ _ _ _ (by decide) _
theorem sums_smpl : (fin V (Proc.devRef .tc main_v0) : (⟨2, ![256, 3]⟩ : Shape).Idx → EReal) = coordSum (a0 V) := by
  show after ops5 (after ops4 (after ops3 (after ops2 (after ops1 (after ops0 V))))) (Proc.devRef .tc main_v0) = _
  rw [keep5_v0, keep4_v0, keep3_v0, keep2_v0, keep1_v0, w0_v0]
  funext j
  obtain ⟨b, c, rfl⟩ : ∃ b c, j = ix2 b c := ⟨j 0, j 1, eq_ix2 j⟩
  exact reduceAdd_mid_apply (N := 10475) _ _ (by decide) _ b c
theorem sums_object : (fin V (Proc.devRef .tc main_v3) : (⟨2, ![256, 3]⟩ : Shape).Idx → EReal) = coordSum (a1 V) := by
  show after ops5 (after ops4 (after ops3 (after ops2 (after ops1 (after ops0 V))))) (Proc.devRef .tc main_v3) = _
  rw [keep5_v3, keep4_v3, keep3_v3, keep2_v3, keep1_v3, w0_v3]
  funext j
  obtain ⟨b, c, rfl⟩ : ∃ b c, j = ix2 b c := ⟨j 0, j 1, eq_ix2 j⟩
  exact reduceAdd_mid_apply (N := 65536) _ _ (by decide) _ b c

end Cert.ReferenceIdeal.Stages

end
-- ==== Proof.RefValue.lean ====
/-
  The reference program's result as a function of its five arguments, and its arguments left as
  launched: the shared closing function of its coordinate sums and per-part arrays, each of which is the
  specification's array of the arguments.
-/
import proofs.«400270_j61830349193773_3_alg».proof.Proof.RefRun
import proofs.«400270_j61830349193773_3_alg».proof.Proof.RefTail
import proofs.«400270_j61830349193773_3_alg».proof.Proof.RefBoxes
import proofs.«400270_j61830349193773_3_alg».proof.Proof.RefDepthMeans

set_option maxRecDepth 16384

noncomputable section

namespace Cert.ReferenceIdeal.Stages

open Idealize.ShloMosaic Idealize.ShloMosaic.TcCoe Idealize.ShloMosaic.StableHlo Idealize.ShloMosaic.ValueIdx
open Cert.ReferenceIdeal Cert.ReferenceIdeal.Run Cert.Spec Cert.SpecOut

variable (V : Valuation τ sig (Elt Ideal))

/-- Where every entry of the two part tables is a vertex number of its mesh, the program leaves in its
    result buffer the two losses of the arguments. -/
theorem value (hS : InRangeS V) (hO : InRangeO V) :
    (after (ops (F := Ideal)) V (Proc.devRef .tc main_v263) : Cert.KernelIdeal.S2.Idx → EReal)
      = Cert.SpecOut.out (a0 V) (a1 V) (a2 V) (i3 V) (i4 V) := by
  rw [after_ops]
  show fin V (Proc.devRef .tc main_v263) = _
  rw [result_eq, sums_smpl, sums_object, lo_smpl V hS, hi_smpl V hS, zmin_smpl V hS, zmax_smpl V hS, mean_smpl V hS,
    lo_object V hO, hi_object V hO, zmin_object V hO, zmax_object V hO, mean_object V hO]
  rfl

/-- No operation writes an argument. -/
theorem arg0_kept : after (ops (F := Ideal)) V (Proc.devRef .tc main_arg0) = V (Proc.devRef .tc main_arg0) := by
  rw [after_ops]; after_results_simp
theorem arg1_kept : after (ops (F := Ideal)) V (Proc.devRef .tc main_arg1) = V (Proc.devRef .tc main_arg1) := by
  rw [after_ops]; after_results_simp
theorem arg2_kept : after (ops (F := Ideal)) V (Proc.devRef .tc main_arg2) = V (Proc.devRef .tc main_arg2) := by
  rw [after_ops]; after_results_simp
theorem arg3_kept : after (ops (F := Ideal)) V (Proc.devRef .tc main_arg3) = V (Proc.devRef .tc main_arg3) := by
  rw [after_ops]; after_results_simp
theorem arg4_kept : after (ops (F := Ideal)) V (Proc.devRef .tc main_arg4) = V (Proc.devRef .tc main_arg4) := by
  rw [after_ops]; after_results_simp

end Cert.ReferenceIdeal.Stages

end
-- ==== Proof.IndexRange.lean ====
/-
  What the precondition says of the two part tables: every entry, read signed, is a vertex number of
  its mesh, 0 ≤ entry < 10475 for the first table and 0 ≤ entry < 65536 for the second.
-/
import proofs.«400270_j61830349193773_3_alg».proof.Pre_finite_inputs
import Idealize.ShloMosaic.Lib.ValueIdx
import Idealize.ShloMosaic.Lib.ReduceAll
import Idealize.ShloMosaic.Lib.StableHlo.Predicate

noncomputable section

namespace Cert.IndexRange

open Idealize.ShloMosaic Idealize.ShloMosaic.ValueIdx Cert.Pre_finite_inputs

variable [Cert.Pre_finite_inputs.Facts] {F : FTy → Type} [FloatOps F]

/-- Every entry of the first part table is in [0, 10475). -/
theorem smpl_range (A0 : FVec F S256x10475x3 .f32) (A1 : FVec F S256x65536x3 .f32) (A2 : FVec F S256x3x3 .f32)
    (I3 : IVec S8x1024 32) (I4 : IVec S8x2048 32)
    (h : Cert.Pre_finite_inputs.fn (F := F) A0 A1 A2 I3 I4 = fun _ => 1#1) (p : Fin 8) (k : Fin 1024) :
    0 ≤ (I3 (ix2 p k)).toInt ∧ (I3 (ix2 p k)).toInt < 10475 := by
  -- the predicate at its one index, as the conjunction of five reductions by and
  have h0 := congrFun h ix0
  dsimp only [fn, fn_part1] at h0
  -- the fourth conjunct is the reduction over the first table
  obtain ⟨h1, -⟩ := IntOp.andi_eq_one.1 h0
  obtain ⟨-, h3⟩ := IntOp.andi_eq_one.1 h1
  -- a rank-0 shape has one index, so a reduction by and over every axis that came out 1 met a 1 at every entry
  haveI : Subsingleton S_.Idx := ⟨fun a b => funext fun d => d.elim0⟩
  have e := Host.reduce_andi_all _ _ _ _ _ h3 (ix2 p k)
  -- at the entry: (entry ≥ 0 signed) and (entry < 10475 signed)
  obtain ⟨e1, e2⟩ := IntOp.andi_eq_one.1 e
  have g1 : (0#32 : BitVec 32).toInt ≤ (I3 (ix2 p k)).toInt := IntOp.cmpi_sge.1 e1
  have g2 : (I3 (ix2 p k)).toInt < (10475#32 : BitVec 32).toInt := IntOp.cmpi_slt.1 e2
  have z0 : (0#32 : BitVec 32).toInt = 0 := by decide
  have z1 : (10475#32 : BitVec 32).toInt = 10475 := by decide
  rw [z0] at g1
  rw [z1] at g2
  exact ⟨g1, g2⟩

/-- Every entry of the second part table is in [0, 65536). -/
theorem object_range (A0 : FVec F S256x10475x3 .f32) (A1 : FVec F S256x65536x3 .f32) (A2 : FVec F S256x3x3 .f32)
    (I3 : IVec S8x1024 32) (I4 : IVec S8x2048 32)
    (h : Cert.Pre_finite_inputs.fn (F := F) A0 A1 A2 I3 I4 = fun _ => 1#1) (p : Fin 8) (k : Fin 2048) :
    0 ≤ (I4 (ix2 p k)).toInt ∧ (I4 (ix2 p k)).toInt < 65536 := by
  -- the predicate at its one index; the last conjunct is the reduction over the second table
  have h0 := congrFun h ix0
  dsimp only [fn, fn_part1] at h0
  obtain ⟨-, h4⟩ := IntOp.andi_eq_one.1 h0
  -- a rank-0 shape has one index, so the reduction that came out 1 met a 1 at every entry
  haveI : Subsingleton S_.Idx := ⟨fun a b => funext fun d => d.elim0⟩
  have e := Host.reduce_andi_all _ _ _ _ _ h4 (ix2 p k)
  -- at the entry: (entry ≥ 0 signed) and (entry < 65536 signed)
  obtain ⟨e1, e2⟩ := IntOp.andi_eq_one.1 e
  have g1 : (0#32 : BitVec 32).toInt ≤ (I4 (ix2 p k)).toInt := IntOp.cmpi_sge.1 e1
  have g2 : (I4 (ix2 p k)).toInt < (65536#32 : BitVec 32).toInt := IntOp.cmpi_slt.1 e2
  have z0 : (0#32 : BitVec 32).toInt = 0 := by decide
  have z1 : (65536#32 : BitVec 32).toInt = 65536 := by decide
  rw [z0] at g1
  rw [z1] at g2
  exact ⟨g1, g2⟩

end Cert.IndexRange

end
-- ==== Proof.lean ====
/-
  Two programs compute a pair of losses from a person mesh, an object mesh, a camera matrix per batch
  entry and, for each mesh, a table naming the vertices of eight parts: the squared distance of the two
  meshes' centroids, and the mean, over the pairs of a person part and an object part whose projected
  boxes meet and whose depth ranges are close, of the squared distance of the two parts' mean vertices.
  One program sums the meshes in lane-dense groups on the chip (zero padding the person mesh's vertex
  axis up to a whole number of groups), gathers the part vertices on the host and projects and reduces
  them per part on the chip; the other projects every vertex, gathers and reduces on the host. On the
  extended reals both results are ONE function of the arguments wherever every table entry is a vertex
  number of its mesh: sums regroup freely, zero is neutral, multiplying by 1 or −1 is the identity or the
  negation, and projecting commutes with picking rows. Outside that range the first program's gather
  fills with a value that is no number where the second's clamps, which is why the precondition carries
  the range. Finiteness of the float arguments is not used.
-/
import proofs.«400270_j61830349193773_3_alg».proof.Defs
import proofs.«400270_j61830349193773_3_alg».proof.Proof.Gen.Kernel
import proofs.«400270_j61830349193773_3_alg».proof.Proof.Gen.Kernel.Skeleton
import proofs.«400270_j61830349193773_3_alg».proof.Proof.Gen.Kernel.Launch
import proofs.«400270_j61830349193773_3_alg».proof.Proof.Gen.Kernel.Points
import proofs.«400270_j61830349193773_3_alg».proof.Proof.Gen.Kernel.Frame
import proofs.«400270_j61830349193773_3_alg».proof.Proof.Gen.KernelIdeal
import proofs.«400270_j61830349193773_3_alg».proof.Proof.Gen.KernelIdeal.Skeleton
import proofs.«400270_j61830349193773_3_alg».proof.Proof.Gen.KernelIdeal.Launch
import proofs.«400270_j61830349193773_3_alg».proof.Proof.Gen.KernelIdeal.Points
import proofs.«400270_j61830349193773_3_alg».proof.Proof.Gen.KernelIdeal.Frame
import proofs.«400270_j61830349193773_3_alg».proof.Proof.Gen.ReferenceIdeal
import proofs.«400270_j61830349193773_3_alg».proof.Proof.Gen.Pre_finite_inputs
import proofs.«400270_j61830349193773_3_alg».proof.Proof.KernelValue
import proofs.«400270_j61830349193773_3_alg».proof.Proof.RefValue
import proofs.«400270_j61830349193773_3_alg».proof.Proof.IndexRange
import Idealize.ShloMosaic.Adequacy
import Idealize.ShloMosaic.Init

noncomputable section

namespace Cert.Proof

open Idealize.ShloMosaic Idealize.ShloMosaic.StableHlo Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: no operation of its straight line writes one. -/
theorem frame_ri : Cert.frame_ReferenceIdeal := fun m ρ _ =>
  (θ_run Cert.ReferenceIdeal.defs _ _).mono
    (fun _ h c =>
      ⟨(h c Cert.ReferenceIdeal.main_arg0).trans (Cert.ReferenceIdeal.Stages.arg0_kept _),
       (h c Cert.ReferenceIdeal.main_arg1).trans (Cert.ReferenceIdeal.Stages.arg1_kept _),
       (h c Cert.ReferenceIdeal.main_arg2).trans (Cert.ReferenceIdeal.Stages.arg2_kept _),
       (h c Cert.ReferenceIdeal.main_arg3).trans (Cert.ReferenceIdeal.Stages.arg3_kept _),
       (h c Cert.ReferenceIdeal.main_arg4).trans (Cert.ReferenceIdeal.Stages.arg4_kept _)⟩)
    (Cert.ReferenceIdeal.Run.run_main (F := Ideal) m ρ)

/-- From memories agreeing on the arguments both idealized programs end with the two losses of the
    arguments in their result buffers: the precondition gives the range of the two part tables, under
    which each program's result is the specification's function of its own arguments. -/
theorem algebraic : Cert.algebraic_KernelIdeal_ReferenceIdeal := by
  intro m ρ m' ρ' hpre hagree
  have hS : ∀ c, Cert.KernelIdeal.Stages.InRangeS m c := fun c p k =>
    Cert.IndexRange.smpl_range (F := Ideal) _ _ _ _ _ (hpre c) p k
  have hO : ∀ c, Cert.KernelIdeal.Stages.InRangeO m c := fun c p k =>
    Cert.IndexRange.object_range (F := Ideal) _ _ _ _ _ (hpre c) p k
  refine ⟨fun c => Cert.SpecOut.out (Cert.KernelIdeal.Stages.a0 m c) (Cert.KernelIdeal.Stages.a1 m c)
    (Cert.KernelIdeal.Stages.a2 m c) (Cert.KernelIdeal.Stages.i3 m c) (Cert.KernelIdeal.Stages.i4 m c), ?_, ?_⟩
  · exact (θ_run Cert.KernelIdeal.defs _ _).mono
      (fun _ h c => ⟨(h c).1.trans (Cert.KernelIdeal.Stages.value m ρ c (hS c) (hO c)), (h c).2⟩)
      (Cert.KernelIdeal.Gen.run_result (F := Ideal) m ρ)
  · refine (θ_run Cert.ReferenceIdeal.defs _ _).mono (fun _ h c => ?_) (Cert.ReferenceIdeal.Run.run_main (F := Ideal) m' ρ')
    have e0 := (hagree c).1
    have e1 := (hagree c).2.1
    have e2 := (hagree c).2.2.1
    have e3 := (hagree c).2.2.2.1
    have e4 := (hagree c).2.2.2.2
    have t3 : Cert.ReferenceIdeal.Stages.i3 (launchContents m' c) = Cert.KernelIdeal.Stages.i3 m c := e3
    have t4 : Cert.ReferenceIdeal.Stages.i4 (launchContents m' c) = Cert.KernelIdeal.Stages.i4 m c := e4
    have hS' : Cert.ReferenceIdeal.Stages.InRangeS (launchContents m' c) := fun p k => by
      have := hS c p k
      rw [← t3] at this; exact this
    have hO' : Cert.ReferenceIdeal.Stages.InRangeO (launchContents m' c) := fun p k => by
      have := hO c p k
      rw [← t4] at this; exact this
    refine ⟨(h c Cert.ReferenceIdeal.main_v263).trans ?_,
      (h c Cert.ReferenceIdeal.main_arg0).trans (Cert.ReferenceIdeal.Stages.arg0_kept _),
      (h c Cert.ReferenceIdeal.main_arg1).trans (Cert.ReferenceIdeal.Stages.arg1_kept _),
      (h c Cert.ReferenceIdeal.main_arg2).trans (Cert.ReferenceIdeal.Stages.arg2_kept _),
      (h c Cert.ReferenceIdeal.main_arg3).trans (Cert.ReferenceIdeal.Stages.arg3_kept _),
      (h c Cert.ReferenceIdeal.main_arg4).trans (Cert.ReferenceIdeal.Stages.arg4_kept _)⟩
    refine (Cert.ReferenceIdeal.Stages.value (launchContents m' c) hS' hO').trans ?_
    show Cert.SpecOut.out (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
    rw [e0, e1, e2, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
